-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x516 : Shape := ⟨2, ![16384, 516]⟩
abbrev S65536x516 : Shape := ⟨2, ![65536, 516]⟩
abbrev S_ : Shape := ⟨0, ![]⟩
abbrev S16384x4 : Shape := ⟨2, ![16384, 4]⟩
abbrev S16384 : Shape := ⟨1, ![16384]⟩

class Facts : Prop where
  bcast_S_S16384x516 : S_.BroadcastsInDim S16384x516 (![] : Fin 0 → Fin S16384x516.rank)
  reducesTo_S16384x516_S_d0_1 : S16384x516.ReducesTo [0, 1] S_
  h_S_ : 0 < S_.numel
  bcast_S_S65536x516 : S_.BroadcastsInDim S65536x516 (![] : Fin 0 → Fin S65536x516.rank)
  reducesTo_S65536x516_S_d0_1 : S65536x516.ReducesTo [0, 1] S_
  slices_S16384x516_S16384x4_0_512 : S16384x516.Slices ![0, 512] S16384x4
  bcast_S_S16384x4 : S_.BroadcastsInDim S16384x4 (![] : Fin 0 → Fin S16384x4.rank)
  natLt_1_32 : 1 < 32
  reducesTo_S16384x4_S16384_d1 : S16384x4.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v8 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v8 main_v16
  main_v17

def fn {F : FTy → Type} [FloatOps F] (main_arg0 : FVec F S16384x516 .f32) (main_arg1 : FVec F S65536x516 .f32) : IVec S_ 1 :=
  let main_v0 : FVec F S16384x516 .f32 := Host.absf main_arg0
  let main_cst : FVec F S_ .f32 := constant S_ .f32 0x7F800000#32
  let main_v1 : FVec F S16384x516 .f32 := broadcastInDim S16384x516 ![] bcast_S_S16384x516 main_cst
  let main_v2 : IVec S16384x516 1 := cmpf .olt main_v0 main_v1
  let main_c : IVec S_ 1 := constantI S_ 1 1#1
  let main_v3 : IVec S_ 1 := (fun x v => Host.reduce IntOp.andi x v reducesTo_S16384x516_S_d0_1 h_S_) main_v2 main_c
  let main_v4 : FVec F S65536x516 .f32 := Host.absf main_arg1
  let main_cst_0 : FVec F S_ .f32 := constant S_ .f32 0x7F800000#32
  let main_v5 : FVec F S65536x516 .f32 := broadcastInDim S65536x516 ![] bcast_S_S65536x516 main_cst_0
  let main_v6 : IVec S65536x516 1 := cmpf .olt main_v4 main_v5
  let main_c_1 : IVec S_ 1 := constantI S_ 1 1#1
  let main_v7 : IVec S_ 1 := (fun x v => Host.reduce IntOp.andi x v reducesTo_S65536x516_S_d0_1 h_S_) main_v6 main_c_1
  let main_v8 : IVec S_ 1 := andi main_v3 main_v7
  let main_v9 : FVec F S16384x4 .f32 := (extractStridedSlice S16384x4 ![0, 512] · slices_S16384x516_S16384x4_0_512) main_arg0
  let main_cst_2 : FVec F S_ .f32 := constant S_ .f32 0x00000000#32
  let main_v10 : FVec F S16384x4 .f32 := broadcastInDim S16384x4 ![] bcast_S_S16384x4 main_cst_2
  let main_v11 : IVec S16384x4 1 := cmpf .oge main_v9 main_v10
  let main_v12 : IVec S16384x4 32 := (extui 32 · natLt_1_32) main_v11
  let main_c_3 : IVec S_ 32 := constantI S_ 32 0#32
  let main_v13 : IVec S16384 32 := (fun x v => Host.reduce IntOp.addi x v reducesTo_S16384x4_S16384_d1 h_S_) main_v12 main_c_3
  let main_c_4 : IVec S_ 32 := constantI S_ 32 0#32
  let main_v14 : IVec S16384 32 := broadcastInDim S16384 ![] bcast_S_S16384 main_c_4
  let main_v15 : IVec S16384 1 := cmpi .sgt main_v13 main_v14
  let main_c_5 : IVec S_ 1 := constantI S_ 1 1#1
  fn_part1 (F := F) main_v8 main_v15 main_c_5
-- ==== Kernel.lean ====
abbrev S16384x516 : Shape := ⟨2, ![16384, 516]⟩
abbrev S65536x516 : Shape := ⟨2, ![65536, 516]⟩
abbrev S516x16384 : Shape := ⟨2, ![516, 16384]⟩
abbrev S516x65536 : Shape := ⟨2, ![516, 65536]⟩
abbrev S8x2048 : Shape := ⟨2, ![8, 2048]⟩
abbrev S_ : Shape := ⟨0, ![]⟩
abbrev S4x2048 : Shape := ⟨2, ![4, 2048]⟩

abbrev nBuf : Table → Nat
  | .hbm => 6
  | .local .scVector .vmem => 7
  | _ => 0

abbrev bufTy : (tb : Table) → Fin (nBuf tb) → BufTy
  | .hbm, ⟨0, _⟩ => ⟨S16384x516, .f32⟩
  | .hbm, ⟨1, _⟩ => ⟨S65536x516, .f32⟩
  | .hbm, ⟨2, _⟩ => ⟨S516x16384, .f32⟩
  | .hbm, ⟨3, _⟩ => ⟨S516x65536, .f32⟩
  | .hbm, ⟨4, _⟩ => ⟨S516x65536, .f32⟩
  | .hbm, ⟨5, _⟩ => ⟨S65536x516, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S8x2048, .f32⟩
  | .local .scVector .vmem, ⟨5, _⟩ => ⟨S8x2048, .f32⟩
  | .local .scVector .vmem, ⟨6, _⟩ => ⟨S8x2048, .f32⟩
  | _, _ => ⟨S16384x516, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_0 : BitVec 32 := 0#32
  ![v3.toNat, 0]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v6 : BitVec 32 := Scalar.addi v2 c0_i32_2
  let c2048_i32 : BitVec 32 := 2048#32
  ![v6.toNat, 2048]
def k0_off3 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v9 : BitVec 32 := Scalar.addi v2 c0_i32_4
  let c4096_i32 : BitVec 32 := 4096#32
  ![v9.toNat, 4096]
def k0_off4 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v14 : BitVec 32 := Scalar.addi v2 c0_i32_8
  let c0_i32_9 : BitVec 32 := 0#32
  ![v14.toNat, 0]
def k0_off5 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v17 : BitVec 32 := Scalar.addi v2 c0_i32_11
  let c6144_i32 : BitVec 32 := 6144#32
  ![v17.toNat, 6144]
def k0_off6 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v22 : BitVec 32 := Scalar.addi v2 c0_i32_15
  let c2048_i32_16 : BitVec 32 := 2048#32
  ![v22.toNat, 2048]
def k0_off7 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v25 : BitVec 32 := Scalar.addi v2 c0_i32_18
  let c8192_i32 : BitVec 32 := 8192#32
  ![v25.toNat, 8192]
def k0_off8 (i : grid0.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v30 : BitVec 32 := Scalar.addi v2 c0_i32_22
  let c4096_i32_23 : BitVec 32 := 4096#32
  ![v30.toNat, 4096]
def k0_off9 (i : grid0.Coords) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v33 : BitVec 32 := Scalar.addi v2 c0_i32_25
  let c10240_i32 : BitVec 32 := 10240#32
  ![v33.toNat, 10240]
def k0_off10 (i : grid0.Coords) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v38 : BitVec 32 := Scalar.addi v2 c0_i32_29
  let c6144_i32_30 : BitVec 32 := 6144#32
  ![v38.toNat, 6144]
def k0_off11 (i : grid0.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v41 : BitVec 32 := Scalar.addi v2 c0_i32_32
  let c12288_i32 : BitVec 32 := 12288#32
  ![v41.toNat, 12288]
def k0_off12 (i : grid0.Coords) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v46 : BitVec 32 := Scalar.addi v2 c0_i32_36
  let c8192_i32_37 : BitVec 32 := 8192#32
  ![v46.toNat, 8192]
def k0_off13 (i : grid0.Coords) (c0_i32_41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v51 : BitVec 32 := Scalar.addi v2 c0_i32_41
  let c14336_i32 : BitVec 32 := 14336#32
  ![v51.toNat, 14336]
def k0_off14 (i : grid0.Coords) (c0_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v56 : BitVec 32 := Scalar.addi v2 c0_i32_45
  let c10240_i32_46 : BitVec 32 := 10240#32
  ![v56.toNat, 10240]
def k0_off15 (i : grid0.Coords) (c0_i32_55 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v66 : BitVec 32 := Scalar.addi v2 c0_i32_55
  let c12288_i32_56 : BitVec 32 := 12288#32
  ![v66.toNat, 12288]
def k0_off16 (i : grid0.Coords) (c0_i32_65 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v76 : BitVec 32 := Scalar.addi v2 c0_i32_65
  let c14336_i32_66 : BitVec 32 := 14336#32
  ![v76.toNat, 14336]
def k0_off17 (i : grid0.Coords) (c0_i32_75 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v86 : BitVec 32 := Scalar.addi v2 c0_i32_75
  let c16384_i32 : BitVec 32 := 16384#32
  ![v86.toNat, 16384]
def k0_off18 (i : grid0.Coords) (c0_i32_84 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v96 : BitVec 32 := Scalar.addi v2 c0_i32_84
  let c18432_i32 : BitVec 32 := 18432#32
  ![v96.toNat, 18432]
def k0_off19 (i : grid0.Coords) (c0_i32_93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v106 : BitVec 32 := Scalar.addi v2 c0_i32_93
  let c20480_i32 : BitVec 32 := 20480#32
  ![v106.toNat, 20480]
def k0_off20 (i : grid0.Coords) (c0_i32_102 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v116 : BitVec 32 := Scalar.addi v2 c0_i32_102
  let c22528_i32 : BitVec 32 := 22528#32
  ![v116.toNat, 22528]
def k0_off21 (i : grid0.Coords) (c0_i32_111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v126 : BitVec 32 := Scalar.addi v2 c0_i32_111
  let c24576_i32 : BitVec 32 := 24576#32
  ![v126.toNat, 24576]
def k0_off22 (i : grid0.Coords) (c0_i32_120 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v136 : BitVec 32 := Scalar.addi v2 c0_i32_120
  let c26624_i32 : BitVec 32 := 26624#32
  ![v136.toNat, 26624]
def k0_off23 (i : grid0.Coords) (c0_i32_129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v146 : BitVec 32 := Scalar.addi v2 c0_i32_129
  let c28672_i32 : BitVec 32 := 28672#32
  ![v146.toNat, 28672]
def k0_off24 (i : grid0.Coords) (c0_i32_138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v156 : BitVec 32 := Scalar.addi v2 c0_i32_138
  let c30720_i32 : BitVec 32 := 30720#32
  ![v156.toNat, 30720]
def k0_off25 (i : grid0.Coords) (c0_i32_147 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v166 : BitVec 32 := Scalar.addi v2 c0_i32_147
  let c32768_i32 : BitVec 32 := 32768#32
  ![v166.toNat, 32768]
def k0_off26 (i : grid0.Coords) (c0_i32_156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v176 : BitVec 32 := Scalar.addi v2 c0_i32_156
  let c34816_i32 : BitVec 32 := 34816#32
  ![v176.toNat, 34816]
def k0_off27 (i : grid0.Coords) (c0_i32_165 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v186 : BitVec 32 := Scalar.addi v2 c0_i32_165
  let c36864_i32 : BitVec 32 := 36864#32
  ![v186.toNat, 36864]
def k0_off28 (i : grid0.Coords) (c0_i32_174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v196 : BitVec 32 := Scalar.addi v2 c0_i32_174
  let c38912_i32 : BitVec 32 := 38912#32
  ![v196.toNat, 38912]
def k0_off29 (i : grid0.Coords) (c0_i32_183 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v206 : BitVec 32 := Scalar.addi v2 c0_i32_183
  let c40960_i32 : BitVec 32 := 40960#32
  ![v206.toNat, 40960]
def k0_off30 (i : grid0.Coords) (c0_i32_192 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v216 : BitVec 32 := Scalar.addi v2 c0_i32_192
  let c43008_i32 : BitVec 32 := 43008#32
  ![v216.toNat, 43008]
def k0_off31 (i : grid0.Coords) (c0_i32_201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v226 : BitVec 32 := Scalar.addi v2 c0_i32_201
  let c45056_i32 : BitVec 32 := 45056#32
  ![v226.toNat, 45056]
def k0_off32 (i : grid0.Coords) (c0_i32_210 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v236 : BitVec 32 := Scalar.addi v2 c0_i32_210
  let c47104_i32 : BitVec 32 := 47104#32
  ![v236.toNat, 47104]
def k0_off33 (i : grid0.Coords) (c0_i32_219 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v246 : BitVec 32 := Scalar.addi v2 c0_i32_219
  let c49152_i32 : BitVec 32 := 49152#32
  ![v246.toNat, 49152]
def k0_off34 (i : grid0.Coords) (c0_i32_228 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v256 : BitVec 32 := Scalar.addi v2 c0_i32_228
  let c51200_i32 : BitVec 32 := 51200#32
  ![v256.toNat, 51200]
def k0_off35 (i : grid0.Coords) (c0_i32_237 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v266 : BitVec 32 := Scalar.addi v2 c0_i32_237
  let c53248_i32 : BitVec 32 := 53248#32
  ![v266.toNat, 53248]
def k0_off36 (i : grid0.Coords) (c0_i32_246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v276 : BitVec 32 := Scalar.addi v2 c0_i32_246
  let c55296_i32 : BitVec 32 := 55296#32
  ![v276.toNat, 55296]
def k0_off37 (i : grid0.Coords) (c0_i32_255 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v286 : BitVec 32 := Scalar.addi v2 c0_i32_255
  let c57344_i32 : BitVec 32 := 57344#32
  ![v286.toNat, 57344]
def k0_off38 (i : grid0.Coords) (c0_i32_264 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v296 : BitVec 32 := Scalar.addi v2 c0_i32_264
  let c59392_i32 : BitVec 32 := 59392#32
  ![v296.toNat, 59392]
def k0_off39 (i : grid0.Coords) (c0_i32_272 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v306 : BitVec 32 := Scalar.addi v2 c0_i32_272
  let c61440_i32 : BitVec 32 := 61440#32
  ![v306.toNat, 61440]
def k0_off40 (i : grid0.Coords) (c0_i32_281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v316 : BitVec 32 := Scalar.addi v2 c0_i32_281
  let c63488_i32 : BitVec 32 := 63488#32
  ![v316.toNat, 63488]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_608 : BitVec 32 := 8#32
  let v644 : BitVec 1 := Scalar.cmpi .slt v1 c8_i32_608
  let v645 : BitVec 32 := Scalar.extui v644
  let c0_i32_609 : BitVec 32 := 0#32
  let v646 : BitVec 1 := Scalar.cmpi .ne v645 c0_i32_609
  v646

def k0_off41 (i : grid0.Coords) : Fin 2 → Nat :=
  let c512_i32_r0 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32_607 : BitVec 32 := 2048#32
  let v643 : BitVec 32 := Scalar.muli v1 c2048_i32_607
  ![512, v643.toNat]
def k0_off42 (i : grid0.Coords) : Fin 2 → Nat :=
  let c512_i32_r1 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32_607 : BitVec 32 := 2048#32
  let v643 : BitVec 32 := Scalar.muli v1 c2048_i32_607
  ![512, v643.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_610 : BitVec 32 := 8#32
  let v647 : BitVec 1 := Scalar.cmpi .sge v1 c8_i32_610
  let v648 : BitVec 32 := Scalar.extui v647
  let c0_i32_611 : BitVec 32 := 0#32
  let v649 : BitVec 1 := Scalar.cmpi .ne v648 c0_i32_611
  v649

def k0_off43 (i : grid0.Coords) : Fin 2 → Nat :=
  let c512_i32_r2 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32_607 : BitVec 32 := 2048#32
  let v643 : BitVec 32 := Scalar.muli v1 c2048_i32_607
  let c16384_i32_612 : BitVec 32 := 16384#32
  let v650 : BitVec 32 := Scalar.subi v643 c16384_i32_612
  ![512, v650.toNat]
def k0_off44 (i : grid0.Coords) : Fin 2 → Nat :=
  let c512_i32_r3 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32_607 : BitVec 32 := 2048#32
  let v643 : BitVec 32 := Scalar.muli v1 c2048_i32_607
  ![512, v643.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x516_S516x16384_1_0 : S16384x516.Transposes [1, 0] S516x16384
  transposes_S65536x516_S516x65536_1_0 : S65536x516.Transposes [1, 0] S516x65536
  inb_S8x2048_S4x2048_0_0 : ∀ a, (![0, 0] : Fin 2 → Nat) a + S4x2048.size a ≤ S8x2048.size a
  transposes_S516x65536_S65536x516_1_0 : S516x65536.Transposes [1, 0] S65536x516
  hcc0_scratch7 : 0 + S_.numel ≤ 18
  hcc0_scratch8 : 1 + S_.numel ≤ 18
  hcc0_scratch9 : 2 + S_.numel ≤ 18
  hcc0_scratch10 : 3 + S_.numel ≤ 18
  hcc0_scratch11 : 4 + S_.numel ≤ 18
  hcc0_scratch12 : 5 + S_.numel ≤ 18
  hcc0_scratch13 : 6 + S_.numel ≤ 18
  hcc0_scratch14 : 7 + S_.numel ≤ 18
  hcc0_scratch15 : 8 + S_.numel ≤ 18
  hcc0_scratch16 : 9 + S_.numel ≤ 18
  hcc0_scratch17 : 10 + S_.numel ≤ 18
  hcc0_scratch18 : 11 + S_.numel ≤ 18
  hcc0_scratch19 : 12 + S_.numel ≤ 18
  hcc0_scratch20 : 13 + S_.numel ≤ 18
  hcc0_scoped0 : 14 + S_.numel ≤ 18
  hcc0_scoped1 : 15 + S_.numel ≤ 18
  hcc0_scoped2 : 16 + S_.numel ≤ 18
  hcc0_scoped3 : 17 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (256 * r.val))) a + S8x2048.size a ≤ S516x16384.size a
  k0_off2_inb : ∀ i : grid0.Coords, ∀ (r : Fin 2), ∀ a, (k0_off2 i (BitVec.ofNat 32 (256 * r.val))) a + S8x2048.size a ≤ S516x16384.size a
  k0_off3_inb : ∀ i : grid0.Coords, ∀ (r : Fin 2), ∀ a, (k0_off3 i (BitVec.ofNat 32 (256 * r.val))) a + S8x2048.size a ≤ S516x16384.size a
  k0_off4_inb : ∀ i : grid0.Coords, ∀ (r : Fin 2), ∀ a, (k0_off4 i (BitVec.ofNat 32 (256 * r.val))) a + S8x2048.size a ≤ S516x65536.size a
  k0_off5_inb : ∀ i : grid0.Coords, ∀ (r : Fin 2), ∀ a, (k0_off5 i (BitVec.ofNat 32 (256 * r.val))) a + S8x2048.size a ≤ S516x16384.size a
  k0_off6_inb : ∀ i : grid0.Coords, ∀ (r : Fin 2), ∀ a, (k0_off6 i (BitVec.ofNat 32 (256 * r.val))) a + S8x2048.size a ≤ S516x65536.size a
  k0_off7_inb : ∀ i : grid0.Coords, ∀ (r : Fin 2), ∀ a, (k0_off7 i (BitVec.ofNat 32 (256 * r.val))) a + S8x2048.size a ≤ S516x16384.size a
  k0_off8_inb : ∀ i : grid0.Coords, ∀ (r : Fin 2), ∀ a, (k0_off8 i (BitVec.ofNat 32 (256 * r.val))) a + S8x2048.size a ≤ S516x65536.size a
  k0_off9_inb : ∀ i : grid0.Coords, ∀ (r : Fin 2), ∀ a, (k0_off9 i (BitVec.ofNat 32 (256 * r.val))) a + S8x2048.size a ≤ S516x16384.size a
  k0_off10_inb : ∀ i : grid0.Coords, ∀ (r : Fin 2), ∀ a, (k0_off10 i (BitVec.ofNat 32 (256 * r.val))) a + S8x2048.size a ≤ S516x65536.size a
  k0_off11_inb : ∀ i : grid0.Coords, ∀ (r : Fin 2), ∀ a, (k0_off11 i (BitVec.ofNat 32 (256 * r.val))) a + S8x2048.size a ≤ S516x16384.size a
  k0_off12_inb : ∀ i : grid0.Coords, ∀ (r : Fin 2), ∀ a, (k0_off12 i (BitVec.ofNat 32 (256 * r.val))) a + S8x2048.size a ≤ S516x65536.size a
  k0_off13_inb : ∀ i : grid0.Coords, ∀ (r : Fin 2), ∀ a, (k0_off13 i (BitVec.ofNat 32 (256 * r.val))) a + S8x2048.size a ≤ S516x16384.size a
  k0_off14_inb : ∀ i : grid0.Coords, ∀ (r : Fin 2), ∀ a, (k0_off14 i (BitVec.ofNat 32 (256 * r.val))) a + S8x2048.size a ≤ S516x65536.size a
  k0_off15_inb : ∀ i : grid0.Coords, ∀ (r : Fin 2), ∀ a, (k0_off15 i (BitVec.ofNat 32 (256 * r.val))) a + S8x2048.size a ≤ S516x65536.size a
  k0_off16_inb : ∀ i : grid0.Coords, ∀ (r : Fin 2), ∀ a, (k0_off16 i (BitVec.ofNat 32 (256 * r.val))) a + S8x2048.size a ≤ S516x65536.size a
  k0_off17_inb : ∀ i : grid0.Coords, ∀ (r : Fin 2), ∀ a, (k0_off17 i (BitVec.ofNat 32 (256 * r.val))) a + S8x2048.size a ≤ S516x65536.size a
  k0_off18_inb : ∀ i : grid0.Coords, ∀ (r : Fin 2), ∀ a, (k0_off18 i (BitVec.ofNat 32 (256 * r.val))) a + S8x2048.size a ≤ S516x65536.size a
  k0_off19_inb : ∀ i : grid0.Coords, ∀ (r : Fin 2), ∀ a, (k0_off19 i (BitVec.ofNat 32 (256 * r.val))) a + S8x2048.size a ≤ S516x65536.size a
  k0_off20_inb : ∀ i : grid0.Coords, ∀ (r : Fin 2), ∀ a, (k0_off20 i (BitVec.ofNat 32 (256 * r.val))) a + S8x2048.size a ≤ S516x65536.size a
  k0_off21_inb : ∀ i : grid0.Coords, ∀ (r : Fin 2), ∀ a, (k0_off21 i (BitVec.ofNat 32 (256 * r.val))) a + S8x2048.size a ≤ S516x65536.size a
  k0_off22_inb : ∀ i : grid0.Coords, ∀ (r : Fin 2), ∀ a, (k0_off22 i (BitVec.ofNat 32 (256 * r.val))) a + S8x2048.size a ≤ S516x65536.size a
  k0_off23_inb : ∀ i : grid0.Coords, ∀ (r : Fin 2), ∀ a, (k0_off23 i (BitVec.ofNat 32 (256 * r.val))) a + S8x2048.size a ≤ S516x65536.size a
  k0_off24_inb : ∀ i : grid0.Coords, ∀ (r : Fin 2), ∀ a, (k0_off24 i (BitVec.ofNat 32 (256 * r.val))) a + S8x2048.size a ≤ S516x65536.size a
  k0_off25_inb : ∀ i : grid0.Coords, ∀ (r : Fin 2), ∀ a, (k0_off25 i (BitVec.ofNat 32 (256 * r.val))) a + S8x2048.size a ≤ S516x65536.size a
  k0_off26_inb : ∀ i : grid0.Coords, ∀ (r : Fin 2), ∀ a, (k0_off26 i (BitVec.ofNat 32 (256 * r.val))) a + S8x2048.size a ≤ S516x65536.size a
  k0_off27_inb : ∀ i : grid0.Coords, ∀ (r : Fin 2), ∀ a, (k0_off27 i (BitVec.ofNat 32 (256 * r.val))) a + S8x2048.size a ≤ S516x65536.size a
  k0_off28_inb : ∀ i : grid0.Coords, ∀ (r : Fin 2), ∀ a, (k0_off28 i (BitVec.ofNat 32 (256 * r.val))) a + S8x2048.size a ≤ S516x65536.size a
  k0_off29_inb : ∀ i : grid0.Coords, ∀ (r : Fin 2), ∀ a, (k0_off29 i (BitVec.ofNat 32 (256 * r.val))) a + S8x2048.size a ≤ S516x65536.size a
  k0_off30_inb : ∀ i : grid0.Coords, ∀ (r : Fin 2), ∀ a, (k0_off30 i (BitVec.ofNat 32 (256 * r.val))) a + S8x2048.size a ≤ S516x65536.size a
  k0_off31_inb : ∀ i : grid0.Coords, ∀ (r : Fin 2), ∀ a, (k0_off31 i (BitVec.ofNat 32 (256 * r.val))) a + S8x2048.size a ≤ S516x65536.size a
  k0_off32_inb : ∀ i : grid0.Coords, ∀ (r : Fin 2), ∀ a, (k0_off32 i (BitVec.ofNat 32 (256 * r.val))) a + S8x2048.size a ≤ S516x65536.size a
  k0_off33_inb : ∀ i : grid0.Coords, ∀ (r : Fin 2), ∀ a, (k0_off33 i (BitVec.ofNat 32 (256 * r.val))) a + S8x2048.size a ≤ S516x65536.size a
  k0_off34_inb : ∀ i : grid0.Coords, ∀ (r : Fin 2), ∀ a, (k0_off34 i (BitVec.ofNat 32 (256 * r.val))) a + S8x2048.size a ≤ S516x65536.size a
  k0_off35_inb : ∀ i : grid0.Coords, ∀ (r : Fin 2), ∀ a, (k0_off35 i (BitVec.ofNat 32 (256 * r.val))) a + S8x2048.size a ≤ S516x65536.size a
  k0_off36_inb : ∀ i : grid0.Coords, ∀ (r : Fin 2), ∀ a, (k0_off36 i (BitVec.ofNat 32 (256 * r.val))) a + S8x2048.size a ≤ S516x65536.size a
  k0_off37_inb : ∀ i : grid0.Coords, ∀ (r : Fin 2), ∀ a, (k0_off37 i (BitVec.ofNat 32 (256 * r.val))) a + S8x2048.size a ≤ S516x65536.size a
  k0_off38_inb : ∀ i : grid0.Coords, ∀ (r : Fin 2), ∀ a, (k0_off38 i (BitVec.ofNat 32 (256 * r.val))) a + S8x2048.size a ≤ S516x65536.size a
  k0_off39_inb : ∀ i : grid0.Coords, ∀ (r : Fin 2), ∀ a, (k0_off39 i (BitVec.ofNat 32 (256 * r.val))) a + S8x2048.size a ≤ S516x65536.size a
  k0_off40_inb : ∀ i : grid0.Coords, ∀ (r : Fin 2), ∀ a, (k0_off40 i (BitVec.ofNat 32 (256 * r.val))) a + S8x2048.size a ≤ S516x65536.size a
  k0_off41_inb : ∀ i : grid0.Coords, ∀ (k0_h1 : k0_cond1 i = 1#1), ∀ a, (k0_off41 i) a + S4x2048.size a ≤ S516x16384.size a
  k0_off42_inb : ∀ i : grid0.Coords, ∀ (k0_h1 : k0_cond1 i = 1#1), ∀ a, (k0_off42 i) a + S4x2048.size a ≤ S516x65536.size a
  k0_off43_inb : ∀ i : grid0.Coords, ∀ (k0_h2 : k0_cond2 i = 1#1), ∀ a, (k0_off43 i) a + S4x2048.size a ≤ S516x65536.size a
  k0_off44_inb : ∀ i : grid0.Coords, ∀ (k0_h2 : k0_cond2 i = 1#1), ∀ a, (k0_off44 i) a + S4x2048.size a ≤ S516x65536.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scratch17 : DmaSems sig S_ := SemArray.consecutive 10 S_ hcc0_scratch17
abbrev cc0_scratch18 : DmaSems sig S_ := SemArray.consecutive 11 S_ hcc0_scratch18
abbrev cc0_scratch19 : DmaSems sig S_ := SemArray.consecutive 12 S_ hcc0_scratch19
abbrev cc0_scratch20 : DmaSems sig S_ := SemArray.consecutive 13 S_ hcc0_scratch20
abbrev cc0_scoped0 : DmaSems sig S_ := SemArray.consecutive 14 S_ hcc0_scoped0
abbrev cc0_scoped1 : DmaSems sig S_ := SemArray.consecutive 15 S_ hcc0_scoped1
abbrev cc0_scoped2 : DmaSems sig S_ := SemArray.consecutive 16 S_ hcc0_scoped2
abbrev cc0_scoped3 : DmaSems sig S_ := SemArray.consecutive 17 S_ hcc0_scoped3

class Facts : Prop extends Facts₀ where

variable [Facts]
-- ==== ReferenceIdeal.lean ====
abbrev S16384x516 : Shape := ⟨2, ![16384, 516]⟩
abbrev S65536x516 : Shape := ⟨2, ![65536, 516]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S49152x516 : Shape := ⟨2, ![49152, 516]⟩

abbrev nBuf : Space → Nat
  | .hbm => 42
  | .vmem => 0
  | .smem => 0
  | _ => 0

abbrev bufTy : (tb : Table) → Fin (tcTables nBuf tb) → BufTy
  | .hbm, ⟨0, _⟩ => ⟨S16384x516, .f32⟩
  | .hbm, ⟨1, _⟩ => ⟨S65536x516, .f32⟩
  | .hbm, ⟨2, _⟩ => ⟨S16384x4, .f32⟩
  | .hbm, ⟨3, _⟩ => ⟨S_, .f32⟩
  | .hbm, ⟨4, _⟩ => ⟨S16384x4, .f32⟩
  | .hbm, ⟨5, _⟩ => ⟨S16384x4, .i1⟩
  | .hbm, ⟨6, _⟩ => ⟨S16384x4, .i32⟩
  | .hbm, ⟨7, _⟩ => ⟨S_, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i1⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S1, .i32⟩
  | .hbm, ⟨26, _⟩ => ⟨S_, .i32⟩
  | .hbm, ⟨27, _⟩ => ⟨S16384x1, .i32⟩
  | .hbm, ⟨28, _⟩ => ⟨S16384x1, .i1⟩
  | .hbm, ⟨29, _⟩ => ⟨S1x1, .i32⟩
  | .hbm, ⟨30, _⟩ => ⟨S16384x1, .i32⟩
  | .hbm, ⟨31, _⟩ => ⟨S16384x1, .i1⟩
  | .hbm, ⟨32, _⟩ => ⟨S16384x1, .i1⟩
  | .hbm, ⟨33, _⟩ => ⟨S_, .i1⟩
  | .hbm, ⟨34, _⟩ => ⟨S16384, .i1⟩
  | .hbm, ⟨35, _⟩ => ⟨S16384x516, .f32⟩
  | .hbm, ⟨36, _⟩ => ⟨S16384x516, .i1⟩
  | .hbm, ⟨37, _⟩ => ⟨S_, .f32⟩
  | .hbm, ⟨38, _⟩ => ⟨S16384x516, .f32⟩
  | .hbm, ⟨39, _⟩ => ⟨S16384x516, .f32⟩
  | .hbm, ⟨40, _⟩ => ⟨S49152x516, .f32⟩
  | .hbm, ⟨41, _⟩ => ⟨S65536x516, .f32⟩
  | _, _ => ⟨S16384x516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]

class Facts₀ : Prop where
  slices_S16384x516_S16384x4_0_512 : S16384x516.Slices ![0, 512] S16384x4
  bcast_S_S16384x4 : S_.BroadcastsInDim S16384x4 (![] : Fin 0 → Fin S16384x4.rank)
  natLt_1_32 : 1 < 32
  reducesTo_S16384x4_S16384_d1 : S16384x4.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x516_0 : S16384.BroadcastsInDim S16384x516 (![0] : Fin 1 → Fin S16384x516.rank)
  bcast_S_S16384x516 : S_.BroadcastsInDim S16384x516 (![] : Fin 0 → Fin S16384x516.rank)
  slices_S65536x516_S49152x516_0_0 : S65536x516.Slices ![0, 0] S49152x516
  concatenates_S16384x516_S49152x516_S65536x516_d0 : Shape.Concatenates [S16384x516, S49152x516] S65536x516 0
  gather_S16384x516_S16384x1_S16384x516_1_0_n_n_0_1_1516_wf : GatherDims.WF S16384x516 S16384x1 S16384x516 [1] [0] [] [0] [] 1 ![1, 516]

variable [Facts₀]

def comparator_i32_i32_d0 : BitVec 32 × BitVec 32 → BitVec 32 × BitVec 32 → BitVec 1 :=
  fun l r =>
    let v2 := IntOp.cmpi .slt l.1 r.1
    v2
def gather_S16384x516_S16384x1_S16384x516_1_0_n_n_0_1_1516 : GatherDims S16384x516 S16384x1 S16384x516 where
  offsetDims := [1]
  collapsedSliceDims := [0]
  operandBatchingDims := []
  startIndicesBatchingDims := []
  startIndexMap := [0]
  indexVectorDim := 1
  sliceSizes := ![1, 516]
  wf := gather_S16384x516_S16384x1_S16384x516_1_0_n_n_0_1_1516_wf

class Facts : Prop extends Facts₀ where

variable [Facts]
-- ==== Proof.Spec.lean ====
/-
  The function both programs compute: the updated queue. Its first 16384 rows are the incoming rows in their
  own order, and below them stand the first 49152 rows of the old queue. It is pure data movement: every
  entry of the result is one entry of an argument, so the element type is arbitrary.
-/
import Idealize.ShloMosaic.Lib.ValueIdx

namespace Cert.Spec

open Idealize.ShloMosaic Idealize.ShloMosaic.ValueIdx

/-- The incoming rows: 16384 rows of 516 columns. -/
abbrev SF : Shape := ⟨2, ![16384, 516]⟩
/-- The queue, old and new: 65536 rows of 516 columns. -/
abbrev SQ : Shape := ⟨2, ![65536, 516]⟩

/-- Row `r` of the new queue is row `r` of the incoming rows when `r < 16384`, and row `r - 16384` of the
    old queue otherwise. -/
def G {α : Type} (x : SF.Idx → α) (q : SQ.Idx → α) : SQ.Idx → α := fun i =>
  if h : (i 0).val < 16384 then x (ix2 ⟨(i 0).val, h⟩ (i 1))
  else q (ix2 ⟨(i 0).val - 16384, by have := idx2_lt0 i; omega⟩ (i 1))

theorem G_lt {α : Type} (x : SF.Idx → α) (q : SQ.Idx → α) (i : SQ.Idx) (h : (i 0).val < 16384) :
    G x q i = x (ix2 ⟨(i 0).val, h⟩ (i 1)) := dif_pos h

theorem G_ge {α : Type} (x : SF.Idx → α) (q : SQ.Idx → α) (i : SQ.Idx) (h : ¬ (i 0).val < 16384) :
    G x q i = q (ix2 ⟨(i 0).val - 16384, by have := idx2_lt0 i; omega⟩ (i 1)) := dif_neg h

end Cert.Spec
-- ==== Proof.LibStableSortConst.lean ====
/-
  Two general facts about the host operations, independent of any program.

  1. A stable sort whose comparator never answers "before" moves nothing. StableHLO's stable sort is the insertion
     sort of the positions under the comparator (`stableSort`, `sortedFrom`, `Host.sort2`); when no element sorts
     strictly before another (for instance when all keys are equal and the comparator is a strict `<` on keys) every
     insertion is at the head, the sorted list of positions is the list itself, and both operands come back unchanged.
     This is what an `argsort` of a constant key vector returns: the positions in their own order.

  2. A reduction by `and` over one-bit words that are all 1, started at 1, is 1: the converse of
     `Host.reduce_andi_all` (which reads a 1 result back to its operands).
-/
import Idealize.ShloMosaic.Lib.SortFacts
import Idealize.ShloMosaic.Lib.ReduceAll

namespace Cert.LibStableSortConst

open Idealize.ShloMosaic

/-! ## A stable sort whose comparator never says "before" moves nothing -/

/-- Under a relation that never puts anything before anything, insertion is at the head. -/
theorem insertBefore_never {ι : Type} (before : ι → ι → Bool) (hb : ∀ a b, before a b = false) (a : ι) (l : List ι) :
    insertBefore before a l = a :: l := by
  cases l with
  | nil => rfl
  | cons b l => unfold insertBefore; rw [hb b a]; rfl

/-- … so the stable insertion sort under it returns its list. -/
theorem stableSort_never {ι : Type} (before : ι → ι → Bool) (hb : ∀ a b, before a b = false) (l : List ι) :
    stableSort before l = l := by
  induction l with
  | nil => rfl
  | cons a l ih => unfold stableSort; rw [ih, insertBefore_never before hb]

/-- … and the element that lands at position `k` is the one that stood there. -/
theorem sortedFrom_never {n : Nat} (before : Fin n → Fin n → Bool) (hb : ∀ a b, before a b = false) (k : Fin n) :
    sortedFrom before k = k := by
  unfold sortedFrom
  have key : ∀ (l : List (Fin n)) (hl : l.length = n), l = List.finRange n → l.get (k.cast hl.symm) = k := by
    intro l hl e; subst e; simp
  exact key _ (length_sortPositions n before) (by unfold sortPositions; exact stableSort_never before hb _)

/-- A stable one-operand sort whose comparator is `0` on every two elements of the operand returns the operand. -/
theorem sort_never (s : Shape) (d : Nat) {α : Type} (cmp : α → α → BitVec 1) (x : s.Idx → α)
    (hc : ∀ i i' : s.Idx, cmp (x i) (x i') = 0#1) : Host.sort s d cmp x = x := by
  funext j
  unfold Host.sort
  split
  · show x (j.along _ (sortedFrom _ _)) = x j
    rw [sortedFrom_never _ (fun a b => by rw [hc]; rfl)]
    unfold Shape.Idx.along
    rw [Function.update_eq_self]
  · rfl

/-- A stable two-operand sort whose comparator is `0` on every two pairs of the operands' elements returns its first
    operand … -/
theorem sort2_fst_never (s : Shape) (d : Nat) {α β : Type} (cmp : α × β → α × β → BitVec 1) (x : s.Idx → α) (y : s.Idx → β)
    (hc : ∀ i i' : s.Idx, cmp (x i, y i) (x i', y i') = 0#1) : (Host.sort2 s d cmp x y).1 = x := by
  unfold Host.sort2
  split
  · funext j
    show x (j.along _ (sortedFrom _ _)) = x j
    rw [sortedFrom_never _ (fun a b => by rw [hc]; rfl)]
    unfold Shape.Idx.along
    rw [Function.update_eq_self]
  · rfl

/-- … and its second: an `argsort` (the second operand the positions) of keys none of which is below another is the
    positions in their own order. -/
theorem sort2_snd_never (s : Shape) (d : Nat) {α β : Type} (cmp : α × β → α × β → BitVec 1) (x : s.Idx → α) (y : s.Idx → β)
    (hc : ∀ i i' : s.Idx, cmp (x i, y i) (x i', y i') = 0#1) : (Host.sort2 s d cmp x y).2 = y := by
  unfold Host.sort2
  split
  · funext j
    show y (j.along _ (sortedFrom _ _)) = y j
    rw [sortedFrom_never _ (fun a b => by rw [hc]; rfl)]
    unfold Shape.Idx.along
    rw [Function.update_eq_self]
  · rfl

/-! ## A reduction by `and` of ones is one -/

/-- A left fold by `and` from 1 over one-bit words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self), show IntOp.andi 1#1 1#1 = 1#1 from rfl]
    exact ih fun n hn => hf n (List.mem_cons_of_mem _ hn)

/-- A `stablehlo.reduce` by `and`, over any axes, of an operand that is 1 everywhere from an initial value that is 1
    is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

end Cert.LibStableSortConst
-- ==== Proof.RefTerm.lean ====
/-
  The reference's result as one pure term of its two arguments, and its value under the precondition.
  The reference marks a row valid when some identifier column (columns 512 to 515) is non-negative, sorts
  the positions stably by the negated validity flag, gathers the rows in that order, and stacks them above
  the first 49152 rows of the old queue. Under the precondition every row is valid, so every sort key is
  zero, the stable sort leaves the positions in their own order, the gather reads row i at position i, and
  the result is the incoming rows above the old queue's first 49152 rows.
-/
import proofs.«214288_g455266533575_cont_8to1_b_1966_18_alg».proof.ReferenceIdeal
import proofs.«214288_g455266533575_cont_8to1_b_1966_18_alg».proof.Pre_finite_inputs
import proofs.«214288_g455266533575_cont_8to1_b_1966_18_alg».proof.Proof.Spec
import proofs.«214288_g455266533575_cont_8to1_b_1966_18_alg».proof.Proof.Gen.ReferenceIdeal
import proofs.«214288_g455266533575_cont_8to1_b_1966_18_alg».proof.Proof.Gen.Pre_finite_inputs
import proofs.«214288_g455266533575_cont_8to1_b_1966_18_alg».proof.Proof.LibStableSortConst
import Idealize.ShloMosaic.Lib.ReduceAll
import Idealize.ShloMosaic.Lib.ValueIdx
import Idealize.ShloMosaic.Lib.WordArith
import Idealize.ShloMosaic.Lib.Pipeline.Value

noncomputable section

namespace Cert.RefTerm

open Idealize.ShloMosaic
open Cert.ReferenceIdeal Cert.ReferenceIdeal.Facts₀

/-- The reference's result: @main operation by operation, the three calls inlined. -/
def refOut (x : FVec Ideal Cert.ReferenceIdeal.S16384x516 .f32) (q : FVec Ideal Cert.ReferenceIdeal.S65536x516 .f32) :
    FVec Ideal Cert.ReferenceIdeal.S65536x516 .f32 :=
  let main_v0 : FVec Ideal S16384x4 .f32 := (extractStridedSlice S16384x4 ![0, 512] · slices_S16384x516_S16384x4_0_512) x
  let main_cst : FVec Ideal S_ .f32 := constant S_ .f32 0x00000000#32
  let main_v1 : FVec Ideal S16384x4 .f32 := broadcastInDim S16384x4 ![] bcast_S_S16384x4 main_cst
  let main_v2 : IVec S16384x4 1 := cmpf .oge main_v0 main_v1
  let main_v3 : IVec S16384x4 32 := (extui 32 · natLt_1_32) main_v2
  let main_c : IVec S_ 32 := constantI S_ 32 0#32
  let main_v4 : IVec S16384 32 := (fun x v => Host.reduce IntOp.addi x v reducesTo_S16384x4_S16384_d1 h_S_) main_v3 main_c
  let main_c_0 : IVec S_ 32 := constantI S_ 32 0#32
  let main_v5 : IVec S16384 32 := broadcastInDim S16384 ![] bcast_S_S16384 main_c_0
  let main_v6 : IVec S16384 1 := cmpi .sgt main_v4 main_v5
  let main_v7 : IVec S16384 1 := noti main_v6
  let main_v8 : IVec S16384 32 := (extui 32 · natLt_1_32) main_v7
  -- @argsort
  let main_call0_v0 : IVec S16384 32 := iotaInDim S16384 32 0
  let main_call0_v1_0 : IVec S16384 32 := (fun x y => (Host.sort2 S16384 0 comparator_i32_i32_d0 x y).1) main_v8 main_call0_v0
  let main_v9 : IVec S16384 32 := (fun x y => (Host.sort2 S16384 0 comparator_i32_i32_d0 x y).2) main_v8 main_call0_v0
  -- @_take
  let main_call1_c : IVec S_ 32 := constantI S_ 32 0#32
  let main_call1_v0 : IVec S16384 32 := broadcastInDim S16384 ![] bcast_S_S16384 main_call1_c
  let main_call1_v1 : IVec S16384 1 := cmpi .slt main_v9 main_call1_v0
  let main_call1_c_0 : IVec S_ 32 := constantI S_ 32 16384#32
  let main_call1_v2 : IVec S16384 32 := broadcastInDim S16384 ![] bcast_S_S16384 main_call1_c_0
  let main_call1_v3 : IVec S16384 32 := addi main_v9 main_call1_v2
  -- @_where
  let main_call1_v4 : IVec S16384 32 := select main_call1_v1 main_call1_v3 main_v9
  let main_call1_v5 : IVec S16384x1 32 := broadcastInDim S16384x1 ![0] bcast_S16384_S16384x1_0 main_call1_v4
  let main_call1_c_1 : IVec S1 32 := constantI S1 32 16383#32
  let main_call1_c_2 : IVec S_ 32 := constantI S_ 32 0#32
  let main_call1_v6 : IVec S16384x1 32 := broadcastInDim S16384x1 ![] bcast_S_S16384x1 main_call1_c_2
  let main_call1_v7 : IVec S16384x1 1 := cmpi .sge main_call1_v5 main_call1_v6
  let main_call1_v8 : IVec S1x1 32 := broadcastInDim S1x1 ![1] bcast_S1_S1x1_1 main_call1_c_1
  let main_call1_v9 : IVec S16384x1 32 := broadcastInDim S16384x1 ![0, 1] bcast_S1x1_S16384x1_0_1 main_call1_v8
  let main_call1_v10 : IVec S16384x1 1 := cmpi .sle main_call1_v5 main_call1_v9
  let main_call1_v11 : IVec S16384x1 1 := andi main_call1_v7 main_call1_v10
  let main_call1_c_3 : IVec S_ 1 := constantI S_ 1 1#1
  let main_call1_v12 : IVec S16384 1 := (fun x v => Host.reduce IntOp.andi x v reducesTo_S16384x1_S16384_d1 h_S_) main_call1_v11 main_call1_c_3
  let main_call1_v13 : FVec Ideal S16384x516 .f32 := (fun x i => Host.gather gather_S16384x516_S16384x1_S16384x516_1_0_n_n_0_1_1516 x i) x main_call1_v5
  let main_call1_v14 : IVec S16384x516 1 := broadcastInDim S16384x516 ![0] bcast_S16384_S16384x516_0 main_call1_v12
  let main_call1_cst : FVec Ideal S_ .f32 := constant S_ .f32 0x7FC00000#32
  let main_call1_v15 : FVec Ideal S16384x516 .f32 := broadcastInDim S16384x516 ![] bcast_S_S16384x516 main_call1_cst
  let main_v10 : FVec Ideal S16384x516 .f32 := select main_call1_v14 main_call1_v13 main_call1_v15
  let main_v11 : FVec Ideal S49152x516 .f32 := (extractStridedSlice S49152x516 ![0, 0] · slices_S65536x516_S49152x516_0_0) q
  let main_v12 : FVec Ideal S65536x516 .f32 := (fun a b => concatenate S65536x516 0 [⟨S16384x516, a⟩, ⟨S49152x516, b⟩] concatenates_S16384x516_S49152x516_S65536x516_d0) main_v10 main_v11
  main_v12

/-! ## The row gather at an index -/

open Idealize.ShloMosaic.ValueIdx Cert.LibStableSortConst

/-- The row gather read at (r, c): the table's row `idx[r, 0]` (read signed and clamped into the table) at column c. -/
theorem gather_rows {α : Type} (x : S16384x516.Idx → α) (idx : IVec S16384x1 32) (r : Fin 16384) (c : Fin 516) :
    Host.gather gather_S16384x516_S16384x1_S16384x516_1_0_n_n_0_1_1516 x idx (ix2 r c)
      = x (ix2 ⟨min (idx (ix2 r (0 : Fin 1))).toInt.toNat 16383, by omega⟩ c) := by
  unfold Host.gather
  congr 1
  funext a
  apply Fin.ext
  have hm0 : (0 : Fin 2) ∈ gather_S16384x516_S16384x1_S16384x516_1_0_n_n_0_1_1516.startIndexMap := List.mem_singleton.mpr rfl
  have hm1 : (1 : Fin 2) ∉ gather_S16384x516_S16384x1_S16384x516_1_0_n_n_0_1_1516.startIndexMap := by
    intro h; exact absurd (List.mem_singleton.mp h) (by decide)
  match a with
  | ⟨0, _⟩ =>
    -- the collapsed axis: the clamped start index, no batching or offset coordinate
    show GatherDims.start _ (ix2 r c) idx 0 + GatherDims.batchCoord _ (ix2 r c) 0 + GatherDims.offCoord _ (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm0]
    have hsi : gather_S16384x516_S16384x1_S16384x516_1_0_n_n_0_1_1516.siIdx (ix2 r c)
        ⟨List.idxOf (0 : Fin 2) gather_S16384x516_S16384x1_S16384x516_1_0_n_n_0_1_1516.startIndexMap,
          List.idxOf_lt_length_iff.2 hm0⟩ = ix2 r (0 : Fin 1) := by
      funext b; refine Fin.ext ?_
      match b with
      | ⟨0, _⟩ => rfl
      | ⟨1, _⟩ => rfl
    rw [hsi]
    rfl
  | ⟨1, _⟩ =>
    -- the offset axis: start 0, the result's own column
    show GatherDims.start _ (ix2 r c) idx 1 + GatherDims.batchCoord _ (ix2 r c) 1 + GatherDims.offCoord _ (ix2 r c) 1 = _
    rw [GatherDims.batchCoord_eq_zero _ _ _ List.not_mem_nil]
    unfold GatherDims.start
    rw [dif_neg hm1]
    simp only [Nat.add_zero, Nat.zero_add]
    rfl

/-! ## The reference's stages -/

/-- The validity flags (`%6`): row r is valid when the count of its non-negative identifier columns is positive. -/
def valid (x : FVec Ideal S16384x516 .f32) : IVec S16384 1 :=
  cmpi .sgt
    ((fun x v => Host.reduce IntOp.addi x v reducesTo_S16384x4_S16384_d1 h_S_)
      ((extui 32 · natLt_1_32)
        (cmpf .oge ((extractStridedSlice S16384x4 ![0, 512] · slices_S16384x516_S16384x4_0_512) x)
          (broadcastInDim S16384x4 ![] bcast_S_S16384x4 (constant S_ .f32 0x00000000#32))))
      (constantI S_ 32 0#32))
    (broadcastInDim S16384 ![] bcast_S_S16384 (constantI S_ 32 0#32))

/-- The sort keys (`%8`): the negated validity flag, widened. -/
def keys (x : FVec Ideal S16384x516 .f32) : IVec S16384 32 := (extui 32 · natLt_1_32) (noti (valid x))

/-- The sorted positions (`%9`): the positions carried through the stable sort of the keys. -/
def order (x : FVec Ideal S16384x516 .f32) : IVec S16384 32 :=
  (fun x y => (Host.sort2 S16384 0 comparator_i32_i32_d0 x y).2) (keys x) (iotaInDim S16384 32 0)

/-- The gather's start indices (@_take's `%5`): a negative position moved up by 16384, as a column. -/
def startIdx (ord : IVec S16384 32) : IVec S16384x1 32 :=
  broadcastInDim S16384x1 ![0] bcast_S16384_S16384x1_0
    (select (cmpi .slt ord (broadcastInDim S16384 ![] bcast_S_S16384 (constantI S_ 32 0#32)))
      (addi ord (broadcastInDim S16384 ![] bcast_S_S16384 (constantI S_ 32 16384#32))) ord)

/-- The bounds mask (@_take's `%12`): the start index is in [0, 16383]. -/
def inBounds (idx : IVec S16384x1 32) : IVec S16384 1 :=
  (fun x v => Host.reduce IntOp.andi x v reducesTo_S16384x1_S16384_d1 h_S_)
    (andi (cmpi .sge idx (broadcastInDim S16384x1 ![] bcast_S_S16384x1 (constantI S_ 32 0#32)))
      (cmpi .sle idx (broadcastInDim S16384x1 ![0, 1] bcast_S1x1_S16384x1_0_1
        (broadcastInDim S1x1 ![1] bcast_S1_S1x1_1 (constantI S1 32 16383#32)))))
    (constantI S_ 1 1#1)

/-- @_take's result (`%10`): the rows gathered at the positions, NaN where the position is out of bounds. -/
def taken (x : FVec Ideal S16384x516 .f32) (ord : IVec S16384 32) : FVec Ideal S16384x516 .f32 :=
  select (broadcastInDim S16384x516 ![0] bcast_S16384_S16384x516_0 (inBounds (startIdx ord)))
    ((fun x i => Host.gather gather_S16384x516_S16384x1_S16384x516_1_0_n_n_0_1_1516 x i) x (startIdx ord))
    (broadcastInDim S16384x516 ![] bcast_S_S16384x516 (constant S_ .f32 0x7FC00000#32))

/-- The reference's result in these stages. -/
theorem refOut_stages (x : FVec Ideal S16384x516 .f32) (q : FVec Ideal S65536x516 .f32) :
    refOut x q = concatenate S65536x516 0
      [⟨S16384x516, taken x (order x)⟩,
       ⟨S49152x516, (extractStridedSlice S49152x516 ![0, 0] · slices_S65536x516_S49152x516_0_0) q⟩]
      concatenates_S16384x516_S49152x516_S65536x516_d0 := rfl

/-! ## Under the precondition -/

/-- The scalar shape has one index. -/
instance : Subsingleton S_.Idx := ⟨fun a b => funext fun d => d.elim0⟩

/-- The precondition's last conjunct is `jnp.all` of the validity flags — the same operations on the same slice —
    so every row is valid. -/
theorem valid_all (x : FVec Ideal S16384x516 .f32) (q : FVec Ideal S65536x516 .f32)
    (h : Cert.Pre_finite_inputs.fn (F := Ideal) x q = (fun _ => 1#1)) (i : S16384.Idx) : valid x i = 1#1 := by
  have h0 : Cert.Pre_finite_inputs.fn (F := Ideal) x q ix0 = 1#1 := congrFun h ix0
  have h1 : IntOp.andi _ (Host.reduce IntOp.andi (valid x) (constantI S_ 1 1#1)
      Cert.Pre_finite_inputs.Facts.reducesTo_S16384_S_d0 Cert.Pre_finite_inputs.Facts.h_S_ ix0) = 1#1 := h0
  exact Host.reduce_andi_all _ _ _ _ _ (IntOp.andi_eq_one.1 h1).2 i

/-- So every sort key is zero … -/
theorem keys_zero (x : FVec Ideal S16384x516 .f32) (q : FVec Ideal S65536x516 .f32)
    (h : Cert.Pre_finite_inputs.fn (F := Ideal) x q = (fun _ => 1#1)) : keys x = fun _ => 0#32 := by
  funext i
  show ((~~~ (valid x i)).setWidth 32) = 0#32
  rw [valid_all x q h i]
  rfl

/-- … no key is below another, and the stable sort carries the positions through in their own order. -/
theorem order_eq (x : FVec Ideal S16384x516 .f32) (q : FVec Ideal S65536x516 .f32)
    (h : Cert.Pre_finite_inputs.fn (F := Ideal) x q = (fun _ => 1#1)) : order x = iotaInDim S16384 32 0 := by
  show (Host.sort2 S16384 0 comparator_i32_i32_d0 (keys x) (iotaInDim S16384 32 0)).2 = _
  rw [keys_zero x q h]
  exact sort2_snd_never _ _ _ _ _ fun i i' => rfl

/-- At the positions in their own order the start index of row r is r: a position is not negative. -/
theorem startIdx_iota (r : Fin 16384) (z : Fin 1) : startIdx (iotaInDim S16384 32 0) (ix2 r z) = BitVec.ofNat 32 r.val := by
  unfold startIdx
  rw [broadcastInDim_apply ![0] _ _ (ix2 r z) (ix1 r) (fun a => by match a with | ⟨0, _⟩ => rfl)]
  rw [select_apply]
  have hc : cmpi .slt (iotaInDim S16384 32 0) (broadcastInDim S16384 ![] bcast_S_S16384 (constantI S_ 32 0#32)) (ix1 r) = 0#1 := by
    apply eq_zero_of_ne_one
    show ¬ IntOp.cmpi .slt (BitVec.ofNat 32 r.val) 0#32 = 1#1
    rw [IntOp.cmpi_slt, WordArith.toInt_ofNat_small _ (by omega), BitVec.toInt_zero]
    omega
  rw [hc, select_zero]
  rfl

/-- … which is inside the table, so the bounds mask is on everywhere. -/
theorem inBounds_iota (i : S16384.Idx) : inBounds (startIdx (iotaInDim S16384 32 0)) i = 1#1 := by
  unfold inBounds
  refine reduce_andi_ones _ _ _ _ (fun k => ?_) (fun _ => rfl) i
  obtain ⟨r, z, rfl⟩ : ∃ (r : Fin 16384) (z : Fin 1), k = ix2 r z := ⟨k 0, k 1, eq_ix2 k⟩
  show IntOp.andi (IntOp.cmpi .sge (startIdx (iotaInDim S16384 32 0) (ix2 r z)) 0#32)
    (IntOp.cmpi .sle (startIdx (iotaInDim S16384 32 0) (ix2 r z)) 16383#32) = 1#1
  rw [startIdx_iota]
  have hr : (BitVec.ofNat 32 r.val).toInt = r.val := WordArith.toInt_ofNat_small _ (by omega)
  refine IntOp.andi_eq_one.2 ⟨IntOp.cmpi_sge.2 ?_, IntOp.cmpi_sle.2 ?_⟩
  · rw [hr, BitVec.toInt_zero]; omega
  · rw [hr, show (16383#32 : BitVec 32).toInt = 16383 from by decide]; omega

/-- So the take of the rows at the positions in their own order is the rows. -/
theorem taken_iota (x : FVec Ideal S16384x516 .f32) : taken x (iotaInDim S16384 32 0) = x := by
  funext j
  obtain ⟨r, c, rfl⟩ : ∃ (r : Fin 16384) (c : Fin 516), j = ix2 r c := ⟨j 0, j 1, eq_ix2 j⟩
  unfold taken
  rw [select_apply,
    broadcastInDim_apply ![0] _ _ (ix2 r c) (ix1 r) (fun a => by match a with | ⟨0, _⟩ => rfl),
    inBounds_iota, select_one]
  show Host.gather gather_S16384x516_S16384x1_S16384x516_1_0_n_n_0_1_1516 x _ (ix2 r c) = _
  rw [gather_rows]
  congr 1
  funext a
  match a with
  | ⟨0, _⟩ =>
    apply Fin.ext
    show min (startIdx (iotaInDim S16384 32 0) (ix2 r 0)).toInt.toNat 16383 = r.val
    rw [startIdx_iota, WordArith.toInt_ofNat_small _ (by omega), Int.toNat_natCast]
    omega
  | ⟨1, _⟩ => rfl

/-! ## The reference's value -/

/-- The slice of the old queue read at (r, c) is the old queue at (r, c). -/
theorem slice_q_apply (q : FVec Ideal S65536x516 .f32) (r : Fin 49152) (c : Fin 516) :
    (extractStridedSlice S49152x516 ![0, 0] · slices_S65536x516_S49152x516_0_0) q (ix2 r c) = q (ix2 ⟨r.val, by omega⟩ c) :=
  extractStridedSlice_apply _ q _ _ _ (Fin.forall_fin_two.2 ⟨(Nat.zero_add _).symm, (Nat.zero_add _).symm⟩)

/-- Under the precondition the reference returns the incoming rows above the old queue's first 49152 rows. -/
theorem refOut_eq_G (x : FVec Ideal Cert.ReferenceIdeal.S16384x516 .f32) (q : FVec Ideal Cert.ReferenceIdeal.S65536x516 .f32)
    (h : Cert.Pre_finite_inputs.fn (F := Ideal) x q = (fun _ => 1#1)) : refOut x q = Cert.Spec.G x q := by
  rw [refOut_stages, order_eq x q h, taken_iota]
  funext i
  obtain ⟨r, c, rfl⟩ : ∃ (r : Fin 65536) (c : Fin 516), i = ix2 r c := ⟨i 0, i 1, eq_ix2 i⟩
  by_cases hi : r.val < 16384
  · -- a row of the first piece
    rw [Cert.Spec.G_lt x q (ix2 r c) hi]
    exact concatenate_pair_apply_left (s₁ := S16384x516) (s₂ := S49152x516) (0 : Fin 2) x _ _ (ix2 r c) rfl
      (ix2 (n0 := 16384) (n1 := 516) ⟨r.val, hi⟩ c) (Fin.forall_fin_two.2 ⟨rfl, rfl⟩)
  · -- a row of the second piece, 16384 rows down
    rw [Cert.Spec.G_ge x q (ix2 r c) hi]
    have hlt : r.val - 16384 < 49152 := by omega
    rw [concatenate_pair_apply_right (s₁ := S16384x516) (s₂ := S49152x516) (0 : Fin 2) x _ _ (ix2 r c) rfl rfl
      (ix2 (n0 := 49152) (n1 := 516) ⟨r.val - 16384, hlt⟩ c)
      (Fin.forall_fin_two.2 ⟨fun hb => absurd rfl hb, fun _ => rfl⟩)
      (by show r.val - 16384 + 16384 = r.val; omega)]
    exact slice_q_apply q ⟨r.val - 16384, hlt⟩ c

end Cert.RefTerm

end
-- ==== Proof.RefRun.lean ====
/-
  The reference's run. @main is a straight line of forty host operations once its three calls are unfolded:
  twelve of its own (the identifier columns sliced off, compared with zero and counted per row, the count
  compared with zero, negated and widened to the sort key), the three of the argsort (the positions, then the
  two results of the stable sort of keys and positions), the twenty-three of the row gather (the index's
  wrap-around through a select, its range test, the gather itself and the select against the fill value), and
  two more of its own (the old queue's first 49152 rows, and the concatenation). Every weakly fair execution
  terminates with each buffer at the fold of the operations over the launch contents; read at the result
  buffer that fold is the reference's term of its two arguments, and the arguments are left as they were.
-/
import proofs.«214288_g455266533575_cont_8to1_b_1966_18_alg».proof.Proof.Gen.ReferenceIdeal
import proofs.«214288_g455266533575_cont_8to1_b_1966_18_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty operations in order, the calls unfolded: each callee's operations stand at the call site, over
    the buffers that call names and with its arguments the caller's buffers. -/
abbrev ops : List (HloOp τ sig (Elt F)) :=
  [
    unary main_arg0 main_v0 ((extractStridedSlice S16384x4 ![0, 512] · slices_S16384x516_S16384x4_0_512) : (⟨S16384x516, .f32⟩ : BufTy).Contents (Elt F) → (⟨S16384x4, .f32⟩ : BufTy).Contents (Elt F)),
    nullary main_cst (constant S_ .f32 0x00000000#32),
    unary main_cst main_v1 (broadcastInDim S16384x4 ![] bcast_S_S16384x4 : (⟨S_, .f32⟩ : BufTy).Contents (Elt F) → (⟨S16384x4, .f32⟩ : BufTy).Contents (Elt F)),
    binary main_v0 main_v1 main_v2 (cmpf .oge : (⟨S16384x4, .f32⟩ : BufTy).Contents (Elt F) → (⟨S16384x4, .f32⟩ : BufTy).Contents (Elt F) → (⟨S16384x4, .i1⟩ : BufTy).Contents (Elt F)),
    unary main_v2 main_v3 ((extui 32 · natLt_1_32) : (⟨S16384x4, .i1⟩ : BufTy).Contents (Elt F) → (⟨S16384x4, .i32⟩ : BufTy).Contents (Elt F)),
    nullary main_c (constantI S_ 32 0#32),
    binary main_v3 main_c main_v4 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    nullary main_c_0 (constantI S_ 32 0#32),
    unary main_c_0 main_v5 (broadcastInDim S16384 ![] bcast_S_S16384 : (⟨S_, .i32⟩ : BufTy).Contents (Elt F) → (⟨S16384, .i32⟩ : BufTy).Contents (Elt F)),
    binary main_v4 main_v5 main_v6 (cmpi .sgt : (⟨S16384, .i32⟩ : BufTy).Contents (Elt F) → (⟨S16384, .i32⟩ : BufTy).Contents (Elt F) → (⟨S16384, .i1⟩ : BufTy).Contents (Elt F)),
    unary main_v6 main_v7 (noti : (⟨S16384, .i1⟩ : BufTy).Contents (Elt F) → (⟨S16384, .i1⟩ : BufTy).Contents (Elt F)),
    unary main_v7 main_v8 ((extui 32 · natLt_1_32) : (⟨S16384, .i1⟩ : BufTy).Contents (Elt F) → (⟨S16384, .i32⟩ : BufTy).Contents (Elt F)),
    nullary main_call0_v0 (iotaInDim S16384 32 0),
    binary main_v8 main_call0_v0 main_call0_v1_0 ((fun x y => (Host.sort2 S16384 0 comparator_i32_i32_d0 x y).1) : (⟨S16384, .i32⟩ : BufTy).Contents (Elt F) → (⟨S16384, .i32⟩ : BufTy).Contents (Elt F) → (⟨S16384, .i32⟩ : BufTy).Contents (Elt F)),
    binary main_v8 main_call0_v0 main_v9 ((fun x y => (Host.sort2 S16384 0 comparator_i32_i32_d0 x y).2) : (⟨S16384, .i32⟩ : BufTy).Contents (Elt F) → (⟨S16384, .i32⟩ : BufTy).Contents (Elt F) → (⟨S16384, .i32⟩ : BufTy).Contents (Elt F)),
    nullary main_call1_c (constantI S_ 32 0#32),
    unary main_call1_c main_call1_v0 (broadcastInDim S16384 ![] bcast_S_S16384 : (⟨S_, .i32⟩ : BufTy).Contents (Elt F) → (⟨S16384, .i32⟩ : BufTy).Contents (Elt F)),
    binary main_v9 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 16384#32),
    unary main_call1_c_0 main_call1_v2 (broadcastInDim S16384 ![] bcast_S_S16384 : (⟨S_, .i32⟩ : BufTy).Contents (Elt F) → (⟨S16384, .i32⟩ : BufTy).Contents (Elt F)),
    binary main_v9 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_v9 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 16383#32),
    nullary main_call1_c_2 (constantI S_ 32 0#32),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1),
    binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg0 main_call1_v5 main_call1_v13 ((fun x i => Host.gather gather_S16384x516_S16384x1_S16384x516_1_0_n_n_0_1_1516 x i) : (⟨S16384x516, .f32⟩ : BufTy).Contents (Elt F) → (⟨S16384x1, .i32⟩ : BufTy).Contents (Elt F) → (⟨S16384x516, .f32⟩ : BufTy).Contents (Elt F)),
    unary main_call1_v12 main_call1_v14 (broadcastInDim S16384x516 ![0] bcast_S16384_S16384x516_0 : (⟨S16384, .i1⟩ : BufTy).Contents (Elt F) → (⟨S16384x516, .i1⟩ : BufTy).Contents (Elt F)),
    nullary main_call1_cst (constant S_ .f32 0x7FC00000#32),
    unary main_call1_cst main_call1_v15 (broadcastInDim S16384x516 ![] bcast_S_S16384x516 : (⟨S_, .f32⟩ : BufTy).Contents (Elt F) → (⟨S16384x516, .f32⟩ : BufTy).Contents (Elt F)),
    ternary main_call1_v14 main_call1_v13 main_call1_v15 main_v10 (select : (⟨S16384x516, .i1⟩ : BufTy).Contents (Elt F) → (⟨S16384x516, .f32⟩ : BufTy).Contents (Elt F) → (⟨S16384x516, .f32⟩ : BufTy).Contents (Elt F) → (⟨S16384x516, .f32⟩ : BufTy).Contents (Elt F)),
    unary main_arg1 main_v11 ((extractStridedSlice S49152x516 ![0, 0] · slices_S65536x516_S49152x516_0_0) : (⟨S65536x516, .f32⟩ : BufTy).Contents (Elt F) → (⟨S49152x516, .f32⟩ : BufTy).Contents (Elt F)),
    binary main_v10 main_v11 main_v12 ((fun a b => concatenate S65536x516 0 [⟨S16384x516, a⟩, ⟨S49152x516, b⟩] concatenates_S16384x516_S49152x516_S65536x516_d0) : (⟨S16384x516, .f32⟩ : BufTy).Contents (Elt F) → (⟨S49152x516, .f32⟩ : BufTy).Contents (Elt F) → (⟨S65536x516, .f32⟩ : BufTy).Contents (Elt F)) ]

attribute [local irreducible] Host.reduce Host.sort2 Host.gather in
set_option maxRecDepth 8192 in
/-- @main is that straight line: the callees' definitions unfolded at their calls, both sides are one chain of
    host steps once the sequencing is re-associated. A callee's operation moves its operands and its result
    between the buffer's own type and the tensor value's along an equation that is `rfl` at these literal
    buffers, so it is the plain operation by computation; the reductions, the sort and the gather are kept
    folded meanwhile, the equation never looks inside them. -/
theorem main_eq (c : Dev nD) : main (F := F) c = seq ops := by
  simp only [main, fn_argsort.body, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    unary_bufs_sub .., nullary_bufs_sub .., unary_bufs_sub .., binary_bufs_sub .., unary_bufs_sub .., nullary_bufs_sub ..,
    binary_bufs_sub .., nullary_bufs_sub .., unary_bufs_sub .., binary_bufs_sub .., unary_bufs_sub .., unary_bufs_sub ..,
    nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub ..⟩

/-- From any memory with zero counters every weakly fair execution of @main terminates, and every buffer ends at
    the fold of the forty operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold read at the result buffer is the reference's term of the two arguments. The last operation writes the
    concatenation of what the two operand buffers then hold; each of the two is read off the fold on its own (every
    operation's result at its own buffer is its function's value, at any other buffer what was there), and the
    two terms put back are, operation for operation, the reference's chain of definitions. -/
theorem out_eq (V : Valuation τ sig (Elt Ideal)) :
    after (ops (F := Ideal)) V (main_v12 : DevRef τ sig)
      = Cert.RefTerm.refOut (V (main_arg0 : DevRef τ sig)) (V (main_arg1 : DevRef τ sig)) := by
  simp only [after_cons, after_nil]
  rw [binary_result]
  generalize h10 : HloOp.result _ _ (Proc.devRef .tc main_v10) = t10
  generalize h11 : HloOp.result _ _ (Proc.devRef .tc main_v11) = t11
  simp (disch := decide) only [after_cons, after_nil,
      nullary_result', unary_result', binary_result', ternary_result',
      nullary_result_ne', unary_result_ne', binary_result_ne', ternary_result_ne'] at h10 h11
  subst h10 h11
  rfl

/-- No operation writes the first argument's buffer. -/
theorem arg0_eq (V : Valuation τ sig (Elt F)) :
    after (ops (F := F)) V (main_arg0 : DevRef τ sig) = V (main_arg0 : DevRef τ sig) := by
  after_results_simp

/-- No operation writes the second argument's buffer. -/
theorem arg1_eq (V : Valuation τ sig (Elt F)) :
    after (ops (F := F)) V (main_arg1 : DevRef τ sig) = V (main_arg1 : DevRef τ sig) := by
  after_results_simp

/-- On every device, from any memory with zero counters: every weakly fair execution of the reference terminates
    with its result buffer at the reference's term of the two arguments' launch contents, and the arguments
    unchanged. -/
theorem run_refOut (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v12) = Cert.RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v12).trans (out_eq _),
      (h c main_arg0).trans (arg0_eq _),
      (h c main_arg1).trans (arg1_eq _)⟩)
    (run_main m g)

end Cert.RefRun

end
-- ==== Proof.RefValue.lean ====
/-
  The reference's side, assembled. Under the precondition every incoming row is valid (some identifier column is
  non-negative), so the sort keys are all zero, the stable sort leaves the positions in their own order, the
  row gather is the identity, and the reference's result is the incoming rows above the old queue's first
  49152 rows: the run ends at the reference's own term, and that term is the specification's function.
-/
import proofs.«214288_g455266533575_cont_8to1_b_1966_18_alg».proof.Defs
import proofs.«214288_g455266533575_cont_8to1_b_1966_18_alg».proof.Proof.Spec
import proofs.«214288_g455266533575_cont_8to1_b_1966_18_alg».proof.Proof.RefTerm
import proofs.«214288_g455266533575_cont_8to1_b_1966_18_alg».proof.Proof.RefRun

noncomputable section

namespace Cert.RefValue

open Idealize.ShloMosaic Idealize.SL.Sem

/-- Every weakly fair execution of the reference ends with its result at `Spec.G` of its arguments and the
    arguments unchanged. -/
theorem run_G (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v12)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (Cert.RefTerm.refOut_eq_G _ _ (hpre c)), (h c).2⟩)
    (Cert.RefRun.run_refOut m g)

end Cert.RefValue

end
-- ==== Proof.KISetup.lean ====
/-
  The kernel's side, common definitions. The program transposes both arguments, lets the 32 vector subcores
  copy blocks of the transposed arrays into a 516 x 65536 result, and transposes that back. Vector subcore
  number w = 2 s + c (subcore s of SparseCore c) owns rows 8 w .. 8 w + 7 and 256 + 8 w .. 256 + 8 w + 7 of the
  result, in 32 column blocks of 2048 each, and columns 2048 w .. 2048 w + 2047 of the last four rows 512 .. 515.
  Column j of the result is column j of the transposed incoming rows when j < 16384 and column j - 16384 of the
  transposed old queue otherwise.
-/
import proofs.«214288_g455266533575_cont_8to1_b_1966_18_alg».proof.Defs
import proofs.«214288_g455266533575_cont_8to1_b_1966_18_alg».proof.Proof.Spec
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.ValueIdx
import Idealize.ShloMosaic.Lib.Tactic
import proofs.«214288_g455266533575_cont_8to1_b_1966_18_alg».proof.Proof.Gen.KernelIdeal
import proofs.«214288_g455266533575_cont_8to1_b_1966_18_alg».proof.Proof.Gen.KernelIdeal.Skeleton

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The incoming rows and the old queue (the arguments), their transposes, the kernel's result and its transpose
    (the program's result), as locations of device `d`. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev qLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

variable [FloatOps F]

/-- The transposed incoming rows: what the first host operation leaves in `main_v0`. -/
def xT (d : Dev nD) : Buf (Elt F) (xLoc d) :=
  transpose S516x16384 [1, 0] (m (aLoc d)) Facts₀.transposes_S16384x516_S516x16384_1_0
/-- The transposed old queue: what the second host operation leaves in `main_v1`. -/
def qT (d : Dev nD) : Buf (Elt F) (qLoc d) :=
  transpose S516x65536 [1, 0] (m (bLoc d)) Facts₀.transposes_S65536x516_S516x65536_1_0

/-- What the vector subcores leave in `main_v2`: column `j` is column `j` of the transposed incoming rows when
    `j < 16384`, and column `j - 16384` of the transposed old queue otherwise. -/
def Gt (d : Dev nD) : Buf (Elt F) (oLoc d) := fun i =>
  if h : (i 1).val < 16384 then xT m d (ix2 (i 0) ⟨(i 1).val, h⟩)
  else qT m d (ix2 (i 0) ⟨(i 1).val - 16384, by have := idx2_lt1 i; omega⟩)

/-- What the last host operation leaves in `main_v3`. -/
def rT (d : Dev nD) : Buf (Elt F) (rLoc d) :=
  transpose S65536x516 [1, 0] (Gt m d) Facts₀.transposes_S516x65536_S65536x516_1_0

/-! ## Vector subcores, their number, their share of the sources -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread of the vector subcore at grid point `L`. -/
abbrev thr (d : Dev nD) (L : grid0.Coords) : Thread nD τ := V d (cV L) (jV L)

/-- The vector subcore's number, as the kernel computes it: `2 s + c`. -/
def wid (L : grid0.Coords) : ℕ := 2 * (L 1).val + (L 0).val

/-- Vector subcore `w`'s read share of a source array: the `w`-th of 32 read tokens of the full share. -/
abbrev tq (w : ℕ) : PosShare TreeShare := Transfers.shareTokN fullShare w

/-! ## The pieces of the result, in closed form -/

local notation "oW" => (Memref.whole Cert.KernelIdeal.main_v2_scv : Memref Cert.KernelIdeal.sig Kind.scVector Space.hbm Cert.KernelIdeal.S516x65536 EltTy.f32)

theorem pieceM_inb (w p : ℕ) : ∀ a, (![8 * (w % 32) + 256 * ((p / 32) % 2), 2048 * (p % 32)] : Fin 2 → ℕ) a + S8x2048.size a ≤ S516x65536.size a := by
  intro a
  have h1 : w % 32 < 32 := Nat.mod_lt _ (by decide)
  have h2 : (p / 32) % 2 < 2 := Nat.mod_lt _ (by decide)
  have h3 : p % 32 < 32 := Nat.mod_lt _ (by decide)
  match a with
  | ⟨0, _⟩ => show 8 * (w % 32) + 256 * ((p / 32) % 2) + 8 ≤ 516; omega
  | ⟨1, _⟩ => show 2048 * (p % 32) + 2048 ≤ 65536; omega

/-- Piece `p` (of 64) of vector subcore `w`: rows `8 w + 256 (p / 32)` .. + 7, columns `2048 (p % 32)` .. + 2047. -/
def pieceM (w p : ℕ) : Memref sig .scVector .hbm S8x2048 .f32 :=
  (oW).slice (Rect.unit (s := S516x65536) ![8 * (w % 32) + 256 * ((p / 32) % 2), 2048 * (p % 32)] S8x2048.size (pieceM_inb w p)) (fun _ => rfl)

theorem tailM_inb (w : ℕ) : ∀ a, (![512, 2048 * (w % 32)] : Fin 2 → ℕ) a + S4x2048.size a ≤ S516x65536.size a := by
  intro a
  have h1 : w % 32 < 32 := Nat.mod_lt _ (by decide)
  match a with
  | ⟨0, _⟩ => show 512 + 4 ≤ 516; omega
  | ⟨1, _⟩ => show 2048 * (w % 32) + 2048 ≤ 65536; omega

/-- The last piece of vector subcore `w`: rows 512 .. 515, columns `2048 w` .. + 2047. -/
def tailM (w : ℕ) : Memref sig .scVector .hbm S4x2048 .f32 :=
  (oW).slice (Rect.unit (s := S516x65536) ![512, 2048 * (w % 32)] S4x2048.size (tailM_inb w)) (fun _ => rfl)

/-! ## What a vector subcore is handed, and what it hands back -/

/-- Vector subcore `w`'s part of the result array, at contents `f`: its 64 pieces and its last piece. -/
def outRes (d : Dev nD) (w : ℕ) (f : Buf (Elt F) (oLoc d)) : sProp 𝕄 :=
  iprop((bigSep (Finset.range 64) fun p => oLoc d ↦[(pieceM w p).view.set]{fullShare} f) ∗ oLoc d ↦[(tailM w).view.set]{fullShare} f)

/-- What vector subcore `w` is handed: a read share of each transposed source, and its part of the result array
    as the launch memory has it. -/
def goRes (d : Dev nD) (w : ℕ) : sProp 𝕄 :=
  iprop((xLoc d ↦{tq w} xT m d) ∗ (qLoc d ↦{tq w} qT m d) ∗ outRes d w (m (oLoc d)))

/-- What it hands back: the same shares, and its part of the result array at `Gt`. -/
def tdRes (d : Dev nD) (w : ℕ) : sProp 𝕄 :=
  iprop((xLoc d ↦{tq w} xT m d) ∗ (qLoc d ↦{tq w} qT m d) ∗ outRes d w (Gt m d))

end Cert.KIProof

end
-- ==== Proof.KIValue.lean ====
/-
  The kernel's side, the values. Two facts, neither of which runs a program.

  1. The program's result is the specification: the transpose of the array whose column j is column j of the
     transposed incoming rows (j < 16384) or column j - 16384 of the transposed old queue is the incoming rows
     above the old queue's first 49152 rows.

  2. What one copy job leaves in its block of the 516 x 65536 array is the target array there. A job reads a
     block of a transposed source into a staging buffer and writes the buffer to a block of the same rows of the
     result, at the same columns (from the incoming rows) or 16384 columns to the right (from the old queue). An
     element of the destination block is the block's offsets plus a coordinate inside the block; the write puts
     there what the staging buffer holds at that coordinate, which is what the source holds at its block's offsets
     plus the same coordinate, whatever the buffer held before.
-/
import proofs.«214288_g455266533575_cont_8to1_b_1966_18_alg».proof.Proof.KISetup
import Idealize.ShloMosaic.Lib.ValueLayout
import Idealize.ShloMosaic.Lib.Writes

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S516x16384 EltTy.f32)
local notation "qW" => (Memref.whole Cert.KernelIdeal.main_v1_scv : Memref Cert.KernelIdeal.sig Kind.scVector Space.hbm Cert.KernelIdeal.S516x65536 EltTy.f32)
local notation "oW" => (Memref.whole Cert.KernelIdeal.main_v2_scv : Memref Cert.KernelIdeal.sig Kind.scVector Space.hbm Cert.KernelIdeal.S516x65536 EltTy.f32)

variable (m : (ℓ : Loc nD τ sig) → Buf (Elt F) ℓ)

variable [FloatOps F]

/-! ## The program's result is the specification -/

/-- The transposed incoming rows at (c, r) are the incoming rows at (r, c). -/
theorem xT_apply (d : Dev nD) (c : Fin 516) (r : Fin 16384) : xT m d (ix2 c r) = m (aLoc d) (ix2 r c) :=
  transpose_ix2_apply (m (aLoc d)) Facts₀.transposes_S16384x516_S516x16384_1_0 c r

/-- The transposed old queue at (c, r) is the old queue at (r, c). -/
theorem qT_apply (d : Dev nD) (c : Fin 516) (r : Fin 65536) : qT m d (ix2 c r) = m (bLoc d) (ix2 r c) :=
  transpose_ix2_apply (m (bLoc d)) Facts₀.transposes_S65536x516_S516x65536_1_0 c r

/-- The target array at (c, r), r below 16384: the transposed incoming rows there. -/
theorem Gt_lt (d : Dev nD) (c : Fin 516) (r : Fin 65536) (h : r.val < 16384) :
    Gt m d (ix2 c r) = xT m d (ix2 c ⟨r.val, h⟩) := dif_pos h

/-- The target array at (c, r), r from 16384 on: the transposed old queue 16384 columns to the left. -/
theorem Gt_ge (d : Dev nD) (c : Fin 516) (r : Fin 65536) (h : ¬ r.val < 16384) :
    Gt m d (ix2 c r) = qT m d (ix2 c ⟨r.val - 16384, by omega⟩) := dif_neg h

theorem rT_eq (d : Dev nD) : rT m d = Cert.Spec.G (m (aLoc d)) (m (bLoc d)) := by
  funext i
  obtain ⟨r, c, rfl⟩ : ∃ (r : Fin 65536) (c : Fin 516), i = ix2 r c := ⟨i 0, i 1, eq_ix2 i⟩
  have hT : rT m d (ix2 r c) = Gt m d (ix2 c r) :=
    transpose_ix2_apply (Gt m d) Facts₀.transposes_S516x65536_S65536x516_1_0 r c
  rw [hT]
  by_cases h : r.val < 16384
  · rw [Gt_lt m d c r h, xT_apply, Cert.Spec.G_lt _ _ (ix2 r c) h]
  · rw [Gt_ge m d c r h, qT_apply, Cert.Spec.G_ge _ _ (ix2 r c) h]

/-! ## What a copy job leaves in its destination block -/

/-- Read through a view after one write through its whole shape: the payload. -/
theorem read_writes_whole {sg : RefSig} {κ : Kind} {sp : Space} {s : Shape} {e : EltTy} {Val : EltTy → Type}
    (v : View sg κ sp s e) (f : v.ty.Contents Val) (w : (Rect.whole s).shape.Idx → Val e) (y : (Rect.whole s).shape.Idx) :
    v.read Val (v.writes Val f [⟨Rect.whole s, w⟩]) y = w y := by
  have h := View.read_writes_cons_emb v f (Rect.whole s) w [] y
  rwa [Rect.emb_whole_apply] at h

/-- Two contents a view reads alike agree on the view's elements. -/
theorem eq_on_set_of_read_eq {sg : RefSig} {κ : Kind} {sp : Space} {s : Shape} {e : EltTy} {Val : EltTy → Type}
    (v : View sg κ sp s e) (f g : v.ty.Contents Val) (h : ∀ y, v.read Val f y = v.read Val g y) :
    ∀ i ∈ v.set, f i = g i := by
  intro i hi
  obtain ⟨y, -, rfl⟩ := Finset.mem_map.mp hi
  have := h y
  rw [View.read_apply, View.read_apply] at this
  exact (cast_bijective _).injective this

/-- A block of the transposed incoming rows and the block of the target array at the same rows and columns read
    alike: element y of either is the array's at the block's offsets plus y, and the columns stay below 16384. -/
theorem block_x (d : Dev nD) (sz : Fin 2 → ℕ) {offS offD : Fin 2 → ℕ}
    {hS : ∀ a, offS a + sz a ≤ S516x16384.size a} {hD : ∀ a, offD a + sz a ≤ S516x65536.size a}
    (hrow : offS 0 = offD 0) (hcol : offS 1 = offD 1) (y : (Rect.unit (s := S516x65536) offD sz hD).shape.Idx) :
    View.read (Elt F) ((xW).slice (Rect.unit (s := S516x16384) offS sz hS) (fun _ => rfl)).view (xT m d) y
      = View.read (Elt F) ((oW).slice (Rect.unit (s := S516x65536) offD sz hD) (fun _ => rfl)).view (Gt m d) y := by
  rw [View.read_apply, View.read_apply]
  have hy1 : (y 1).val < sz 1 := (y 1).isLt
  have hS1 : offS 1 + sz 1 ≤ 16384 := hS 1
  have hlt : offD 1 + 1 * (y 1).val < 16384 := by omega
  have hG : Gt m d (((oW).slice (Rect.unit (s := S516x65536) offD sz hD) (fun _ => rfl)).view.emb y)
      = xT m d (((xW).slice (Rect.unit (s := S516x16384) offS sz hS) (fun _ => rfl)).view.emb y) := by
    refine (dif_pos hlt).trans (congrArg (xT m d) (funext (Fin.forall_fin_two.2 ⟨Fin.ext ?_, Fin.ext ?_⟩)))
    · show offD 0 + 1 * (y 0).val = offS 0 + 1 * (y 0).val
      omega
    · show offD 1 + 1 * (y 1).val = offS 1 + 1 * (y 1).val
      omega
  rw [hG]

/-- A block of the transposed old queue and the block of the target array at the same rows, 16384 columns to the
    right, read alike: the target's columns are from 16384 on, and 16384 less is the source's column. -/
theorem block_q (d : Dev nD) (sz : Fin 2 → ℕ) {offS offD : Fin 2 → ℕ}
    {hS : ∀ a, offS a + sz a ≤ S516x65536.size a} {hD : ∀ a, offD a + sz a ≤ S516x65536.size a}
    (hrow : offS 0 = offD 0) (hcol : offD 1 = offS 1 + 16384) (y : (Rect.unit (s := S516x65536) offD sz hD).shape.Idx) :
    View.read (Elt F) ((qW).slice (Rect.unit (s := S516x65536) offS sz hS) (fun _ => rfl)).view (qT m d) y
      = View.read (Elt F) ((oW).slice (Rect.unit (s := S516x65536) offD sz hD) (fun _ => rfl)).view (Gt m d) y := by
  rw [View.read_apply, View.read_apply]
  have hge : ¬ offD 1 + 1 * (y 1).val < 16384 := by omega
  have hG : Gt m d (((oW).slice (Rect.unit (s := S516x65536) offD sz hD) (fun _ => rfl)).view.emb y)
      = qT m d (((qW).slice (Rect.unit (s := S516x65536) offS sz hS) (fun _ => rfl)).view.emb y) := by
    refine (dif_neg hge).trans (congrArg (qT m d) (funext (Fin.forall_fin_two.2 ⟨Fin.ext ?_, Fin.ext ?_⟩)))
    · show offD 0 + 1 * (y 0).val = offS 0 + 1 * (y 0).val
      omega
    · show offD 1 + 1 * (y 1).val - 16384 = offS 1 + 1 * (y 1).val
      omega
  rw [hG]

/-- A full block from the transposed incoming rows: source block at `offS`, destination block at `offD`, the same
    rows and the same columns. (The source block lies inside the 16384 columns, so the destination's columns are
    below 16384.) -/
theorem copy_x (d : Dev nD) {offS offD : Fin 2 → ℕ}
    {hS : ∀ a, offS a + S8x2048.size a ≤ S516x16384.size a} {hD : ∀ a, offD a + S8x2048.size a ≤ S516x65536.size a}
    (hrow : offS 0 = offD 0) (hcol : offS 1 = offD 1)
    {B : Memref sig .scVector .vmem S8x2048 .f32} {prev : B.view.ty.Contents (Elt F)}
    {fx : Buf (Elt F) (xLoc d)} (hfx : fx = xT m d) {fo : Buf (Elt F) (oLoc d)} :
    ∀ i ∈ ((oW).slice (Rect.unit (s := S516x65536) offD S8x2048.size hD) (fun _ => rfl)).view.set,
      (((oW).slice (Rect.unit (s := S516x65536) offD S8x2048.size hD) (fun _ => rfl)).view.writes (Elt F) fo
        [⟨Rect.whole _, ReadAs.same.apply (View.read (Elt F) B.view (View.write (Elt F) B.view prev
          (ReadAs.same.apply (View.read (Elt F) ((xW).slice (Rect.unit (s := S516x16384) offS S8x2048.size hS) (fun _ => rfl)).view fx))
          Finset.univ))⟩]) i = Gt m d i := by
  subst hfx
  refine eq_on_set_of_read_eq _ _ _ fun y => ?_
  rw [read_writes_whole]
  show View.read (Elt F) B.view (View.write (Elt F) B.view prev
      (View.read (Elt F) ((xW).slice (Rect.unit (s := S516x16384) offS S8x2048.size hS) (fun _ => rfl)).view (xT m d)) Finset.univ) y = _
  rw [View.read_write_univ]
  exact block_x m d S8x2048.size hrow hcol y

/-- A full block from the transposed old queue: the same rows, the destination 16384 columns to the right. -/
theorem copy_q (d : Dev nD) {offS offD : Fin 2 → ℕ}
    {hS : ∀ a, offS a + S8x2048.size a ≤ S516x65536.size a} {hD : ∀ a, offD a + S8x2048.size a ≤ S516x65536.size a}
    (hrow : offS 0 = offD 0) (hcol : offD 1 = offS 1 + 16384)
    {B : Memref sig .scVector .vmem S8x2048 .f32} {prev : B.view.ty.Contents (Elt F)}
    {fq : Buf (Elt F) (qLoc d)} (hfq : fq = qT m d) {fo : Buf (Elt F) (oLoc d)} :
    ∀ i ∈ ((oW).slice (Rect.unit (s := S516x65536) offD S8x2048.size hD) (fun _ => rfl)).view.set,
      (((oW).slice (Rect.unit (s := S516x65536) offD S8x2048.size hD) (fun _ => rfl)).view.writes (Elt F) fo
        [⟨Rect.whole _, ReadAs.same.apply (View.read (Elt F) B.view (View.write (Elt F) B.view prev
          (ReadAs.same.apply (View.read (Elt F) ((qW).slice (Rect.unit (s := S516x65536) offS S8x2048.size hS) (fun _ => rfl)).view fq))
          Finset.univ))⟩]) i = Gt m d i := by
  subst hfq
  refine eq_on_set_of_read_eq _ _ _ fun y => ?_
  rw [read_writes_whole]
  show View.read (Elt F) B.view (View.write (Elt F) B.view prev
      (View.read (Elt F) ((qW).slice (Rect.unit (s := S516x65536) offS S8x2048.size hS) (fun _ => rfl)).view (qT m d)) Finset.univ) y = _
  rw [View.read_write_univ]
  exact block_q m d S8x2048.size hrow hcol y

/-- The last four rows from the transposed incoming rows, staged through the first four rows of a buffer: the
    buffer's four rows were written and are read back through the same rectangle. -/
theorem copy_tail_x (d : Dev nD) {offS offD : Fin 2 → ℕ}
    {hS : ∀ a, offS a + S4x2048.size a ≤ S516x16384.size a} {hD : ∀ a, offD a + S4x2048.size a ≤ S516x65536.size a}
    (hrow : offS 0 = offD 0) (hcol : offS 1 = offD 1)
    {B : Memref sig .scVector .vmem S8x2048 .f32} {prev : B.view.ty.Contents (Elt F)}
    {hB : ∀ a, (![0, 0] : Fin 2 → ℕ) a + S4x2048.size a ≤ S8x2048.size a}
    {pf : ∀ a, (Rect.unit (s := S8x2048) ![0, 0] S4x2048.size hB).stride a = 1}
    {fx : Buf (Elt F) (xLoc d)} (hfx : fx = xT m d) {fo : Buf (Elt F) (oLoc d)} :
    ∀ i ∈ ((oW).slice (Rect.unit (s := S516x65536) offD S4x2048.size hD) (fun _ => rfl)).view.set,
      (((oW).slice (Rect.unit (s := S516x65536) offD S4x2048.size hD) (fun _ => rfl)).view.writes (Elt F) fo
        [⟨Rect.whole _, ReadAs.same.apply (View.read (Elt F) (B.slice (Rect.unit (s := S8x2048) ![0, 0] S4x2048.size hB) pf).view
          (B.view.writes (Elt F) prev [⟨Rect.unit (s := S8x2048) ![0, 0] S4x2048.size hB,
            ReadAs.same.apply (View.read (Elt F) ((xW).slice (Rect.unit (s := S516x16384) offS S4x2048.size hS) (fun _ => rfl)).view fx)⟩]))⟩]) i
        = Gt m d i := by
  subst hfx
  refine eq_on_set_of_read_eq _ _ _ fun y => ?_
  rw [read_writes_whole]
  show View.read (Elt F) (B.view.slice (Rect.unit (s := S8x2048) ![0, 0] S4x2048.size hB))
      (View.write (Elt F) (B.view.slice (Rect.unit (s := S8x2048) ![0, 0] S4x2048.size hB)) prev
        (View.read (Elt F) ((xW).slice (Rect.unit (s := S516x16384) offS S4x2048.size hS) (fun _ => rfl)).view (xT m d)) Finset.univ) y = _
  rw [View.read_write_univ]
  exact block_x m d S4x2048.size hrow hcol y

/-- On the vector subcores that take the last four rows from the old queue (number 8 and up) the source column, a
    word difference, is the destination column less 16384: checked at each of the 32 grid points. -/
theorem tail_q_col : ∀ L : grid0.Coords, k0_cond2 L = 1#1 → k0_off44 L 1 = k0_off43 L 1 + 16384 := by decide +kernel

/-- The last four rows from the transposed old queue: the destination 16384 columns to the right. -/
theorem copy_tail_q (d : Dev nD) {offS offD : Fin 2 → ℕ}
    {hS : ∀ a, offS a + S4x2048.size a ≤ S516x65536.size a} {hD : ∀ a, offD a + S4x2048.size a ≤ S516x65536.size a}
    (hrow : offS 0 = offD 0) (hcol : offD 1 = offS 1 + 16384)
    {B : Memref sig .scVector .vmem S8x2048 .f32} {prev : B.view.ty.Contents (Elt F)}
    {hB : ∀ a, (![0, 0] : Fin 2 → ℕ) a + S4x2048.size a ≤ S8x2048.size a}
    {pf : ∀ a, (Rect.unit (s := S8x2048) ![0, 0] S4x2048.size hB).stride a = 1}
    {fq : Buf (Elt F) (qLoc d)} (hfq : fq = qT m d) {fo : Buf (Elt F) (oLoc d)} :
    ∀ i ∈ ((oW).slice (Rect.unit (s := S516x65536) offD S4x2048.size hD) (fun _ => rfl)).view.set,
      (((oW).slice (Rect.unit (s := S516x65536) offD S4x2048.size hD) (fun _ => rfl)).view.writes (Elt F) fo
        [⟨Rect.whole _, ReadAs.same.apply (View.read (Elt F) (B.slice (Rect.unit (s := S8x2048) ![0, 0] S4x2048.size hB) pf).view
          (B.view.writes (Elt F) prev [⟨Rect.unit (s := S8x2048) ![0, 0] S4x2048.size hB,
            ReadAs.same.apply (View.read (Elt F) ((qW).slice (Rect.unit (s := S516x65536) offS S4x2048.size hS) (fun _ => rfl)).view fq)⟩]))⟩]) i
        = Gt m d i := by
  subst hfq
  refine eq_on_set_of_read_eq _ _ _ fun y => ?_
  rw [read_writes_whole]
  show View.read (Elt F) (B.view.slice (Rect.unit (s := S8x2048) ![0, 0] S4x2048.size hB))
      (View.write (Elt F) (B.view.slice (Rect.unit (s := S8x2048) ![0, 0] S4x2048.size hB)) prev
        (View.read (Elt F) ((qW).slice (Rect.unit (s := S516x65536) offS S4x2048.size hS) (fun _ => rfl)).view (qT m d)) Finset.univ) y = _
  rw [View.read_write_univ]
  exact block_q m d S4x2048.size hrow hcol y

end Cert.KIProof

end
-- ==== Proof.KIPartition.lean ====
/-
  The geometry of the result array: the 32 x 64 blocks of 8 rows x 2048 columns and the 32 blocks of the last four
  rows are pairwise disjoint and cover the 516 x 65536 index set, so the whole array at the full share is the
  separating conjunction of the 32 vector subcores' parts; the 32 vector subcores are the 16 subcores of each of
  the 2 SparseCores; and a source array splits into 32 read shares and a remainder.
-/
import proofs.«214288_g455266533575_cont_8to1_b_1966_18_alg».proof.Proof.KISetup

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The index sets of the pieces, over explicit coordinates -/

/-- The index set of piece `p` of vector subcore `w`: rows `8 (w % 32) + 256 ((p / 32) % 2)` .. + 7, columns
    `2048 (p % 32)` .. + 2047 of the 516 x 65536 array. -/
def pset (w p : ℕ) : Finset S516x65536.Idx :=
  (Rect.unit (s := S516x65536) ![8 * (w % 32) + 256 * ((p / 32) % 2), 2048 * (p % 32)] S8x2048.size (pieceM_inb w p)).set

/-- The index set of the last piece of vector subcore `w`: rows 512 .. 515, columns `2048 (w % 32)` .. + 2047. -/
def tset (w : ℕ) : Finset S516x65536.Idx :=
  (Rect.unit (s := S516x65536) ![512, 2048 * (w % 32)] S4x2048.size (tailM_inb w)).set

/-- A slice of the whole array covers exactly its rectangle. -/
theorem pieceM_set (w p : ℕ) : (pieceM w p).view.set = pset w p := View.set_slice_whole _ _
theorem tailM_set (w : ℕ) : (tailM w).view.set = tset w := View.set_slice_whole _ _

theorem mem_pset (w p : ℕ) (i : S516x65536.Idx) :
    i ∈ pset w p ↔
      (8 * (w % 32) + 256 * ((p / 32) % 2) ≤ (i 0).val ∧ (i 0).val < 8 * (w % 32) + 256 * ((p / 32) % 2) + 8) ∧
      (2048 * (p % 32) ≤ (i 1).val ∧ (i 1).val < 2048 * (p % 32) + 2048) := by
  unfold pset
  rw [Rect.mem_set_unit]
  exact Fin.forall_fin_two

theorem mem_tset (w : ℕ) (i : S516x65536.Idx) :
    i ∈ tset w ↔
      (512 ≤ (i 0).val ∧ (i 0).val < 512 + 4) ∧
      (2048 * (w % 32) ≤ (i 1).val ∧ (i 1).val < 2048 * (w % 32) + 2048) := by
  unfold tset
  rw [Rect.mem_set_unit]
  exact Fin.forall_fin_two

/-- All the indices of vector subcore `w`: its 64 pieces and its last piece. -/
def kset (w : ℕ) : Finset S516x65536.Idx := (Finset.range 64).biUnion (pset w) ∪ tset w

theorem mem_kset (w : ℕ) (i : S516x65536.Idx) :
    i ∈ kset w ↔ (∃ p, p < 64 ∧ i ∈ pset w p) ∨ i ∈ tset w := by
  unfold kset
  rw [Finset.mem_union, Finset.mem_biUnion]
  simp only [Finset.mem_range]

/-! ## The pieces are pairwise disjoint -/

/-- Two different pieces of one vector subcore differ in their row block (`p / 32`) or their column block (`p % 32`). -/
theorem pset_disjoint (w p p' : ℕ) (hp : p < 64) (hp' : p' < 64) (h : p ≠ p') : Disjoint (pset w p) (pset w p') := by
  rw [Finset.disjoint_left]
  intro i h1 h2
  rw [mem_pset] at h1 h2
  omega

/-- The pieces lie in rows below 512, the last pieces in rows 512 and above. -/
theorem pset_tset_disjoint (w p w' : ℕ) : Disjoint (pset w p) (tset w') := by
  rw [Finset.disjoint_left]
  intro i h1 h2
  rw [mem_pset] at h1
  rw [mem_tset] at h2
  omega

/-- Pieces of different vector subcores lie in different rows: row `r` of a piece of `w` has `(r / 8) % 32 = w`. -/
theorem pset_disjoint_tiles (w w' p p' : ℕ) (hw : w < 32) (hw' : w' < 32) (h : w ≠ w') : Disjoint (pset w p) (pset w' p') := by
  rw [Finset.disjoint_left]
  intro i h1 h2
  rw [mem_pset] at h1 h2
  omega

/-- Last pieces of different vector subcores lie in different column blocks. -/
theorem tset_disjoint (w w' : ℕ) (hw : w < 32) (hw' : w' < 32) (h : w ≠ w') : Disjoint (tset w) (tset w') := by
  rw [Finset.disjoint_left]
  intro i h1 h2
  rw [mem_tset] at h1 h2
  omega

theorem kset_disjoint (w w' : ℕ) (hw : w < 32) (hw' : w' < 32) (h : w ≠ w') : Disjoint (kset w) (kset w') := by
  rw [Finset.disjoint_left]
  intro i h1 h2
  rw [mem_kset] at h1 h2
  rcases h1 with ⟨p, _, h1⟩ | h1 <;> rcases h2 with ⟨p', _, h2⟩ | h2
  · exact Finset.disjoint_left.mp (pset_disjoint_tiles w w' p p' hw hw' h) h1 h2
  · exact Finset.disjoint_left.mp (pset_tset_disjoint w p w') h1 h2
  · exact Finset.disjoint_left.mp (pset_tset_disjoint w' p' w) h2 h1
  · exact Finset.disjoint_left.mp (tset_disjoint w w' hw hw' h) h1 h2

/-! ## The pieces cover the array -/

/-- Index `(r, c)` with `r < 512` lies in piece `32 (r / 256) + c / 2048` of vector subcore `(r / 8) % 32`; with `r ≥ 512` it
    lies in the last piece of vector subcore `c / 2048`. -/
theorem kset_cover : (Finset.range 32).biUnion kset = Finset.univ := by
  rw [Finset.eq_univ_iff_forall]
  intro i
  rw [Finset.mem_biUnion]
  have h0 : (i 0).val < 516 := idx2_lt0 i
  have h1 : (i 1).val < 65536 := idx2_lt1 i
  by_cases hr : (i 0).val < 512
  · refine ⟨((i 0).val / 8) % 32, Finset.mem_range.mpr (Nat.mod_lt _ (by decide)), ?_⟩
    rw [mem_kset]
    refine Or.inl ⟨32 * ((i 0).val / 256) + (i 1).val / 2048, by omega, ?_⟩
    rw [mem_pset]
    omega
  · refine ⟨(i 1).val / 2048, Finset.mem_range.mpr (by omega), ?_⟩
    rw [mem_kset]
    refine Or.inr ?_
    rw [mem_tset]
    omega

/-! ## The result array as the 32 vector subcores' parts -/

/-- A vector subcore's indices, held at the full share, are its 64 pieces and its last piece. -/
theorem kset_split (d : Dev nD) (w : ℕ) (f : Buf (Elt F) (oLoc d)) :
    (oLoc d ↦[kset w]{fullShare} f : sProp 𝕄) = outRes d w f := by
  have hd : Disjoint ((Finset.range 64).biUnion (pset w)) (tset w) :=
    (Finset.disjoint_biUnion_left _ _ _).mpr fun p _ => pset_tset_disjoint w p w
  have hu : (oLoc d ↦[(Finset.range 64).biUnion (pset w) ∪ tset w]{fullShare} f : sProp 𝕄)
      ⊣⊢ iprop((oLoc d ↦[(Finset.range 64).biUnion (pset w)]{fullShare} f) ∗ oLoc d ↦[tset w]{fullShare} f) :=
    pointsTo_union hd
  unfold outRes kset
  rw [BI.equiv_iff.mp ⟨hu.1, hu.2⟩,
    pointsTo_biUnion (Finset.range 64) (ℓ := oLoc d) (pset w)
      (fun p hp p' hp' h => pset_disjoint w p p' (Finset.mem_range.mp hp) (Finset.mem_range.mp hp') h)]
  simp only [pieceM_set, tailM_set]

/-- The whole result array, held at the full share, is the separating conjunction of the 32 vector subcores' parts. -/
theorem out_split (d : Dev nD) (f : Buf (Elt F) (oLoc d)) :
    (oLoc d ↦{fullShare} f : sProp 𝕄) = bigSep (Finset.range 32) (fun w => outRes d w f) := by
  rw [← kset_cover,
    pointsTo_biUnion (Finset.range 32) (ℓ := oLoc d) kset
      (fun w hw w' hw' h => kset_disjoint w w' (Finset.mem_range.mp hw) (Finset.mem_range.mp hw') h)]
  exact bigSep_congr fun w _ => kset_split d w f

/-! ## The 32 vector subcores as 2 SparseCores of 16 -/

/-- The map `(c, i) ↦ 2 i + c` from `Fin 2 × Fin 16` into the numbers. -/
def tileEmb : Fin 2 × Fin 16 ↪ ℕ :=
  ⟨fun x => 2 * x.2.val + x.1.val, fun x y h => by
    have hx1 := x.1.isLt; have hy1 := y.1.isLt
    have e : 2 * x.2.val + x.1.val = 2 * y.2.val + y.1.val := h
    exact Prod.ext (Fin.ext (by omega)) (Fin.ext (by omega))⟩

/-- Its image is the numbers below 32. -/
theorem tileEmb_univ : (Finset.univ : Finset (Fin 2 × Fin 16)).map tileEmb = Finset.range 32 := by
  ext n
  rw [Finset.mem_map, Finset.mem_range]
  constructor
  · rintro ⟨x, _, rfl⟩
    have hx1 := x.1.isLt; have hx2 := x.2.isLt
    show 2 * x.2.val + x.1.val < 32
    omega
  · intro hn
    exact ⟨(⟨n % 2, Nat.mod_lt _ (by decide)⟩, ⟨n / 2, by omega⟩), Finset.mem_univ _, by show 2 * (n / 2) + n % 2 = n; omega⟩

theorem tiles_reindex (Φ : ℕ → sProp 𝕄) :
    bigSep (Finset.range 32) Φ
      = bigSep (Finset.univ : Finset (Fin 2)) (fun c => bigSep (Finset.univ : Finset (Fin 16)) (fun i => Φ (2 * i.val + c.val))) := by
  rw [← tileEmb_univ, bigSep_map, bigSep_univ_prod]
  rfl

/-! ## A source array's 32 read shares -/

theorem src_split {ℓ : Loc nD τ sig} (f : Buf (Elt F) ℓ) :
    (ℓ ↦{fullShare} f : sProp 𝕄) ⊣⊢ iprop((ℓ ↦{Transfers.shareDrop fullShare 32} f) ∗ bigSep (Finset.range 32) (fun w => ℓ ↦{tq w} f)) :=
  Transfers.pointsTo_toks_range fullShare 32

end Cert.KIProof

end
-- ==== Proof.KIPiecesTable.lean ====
/- (the script is scratch/tables.py of this unit; it reads proof/Proof/Gen/KernelIdeal/Skeleton.lean).
   For each of the 64 copies out of a staging buffer, in program order, the slice of the result array it
   writes, spelt as the printed program spells it. Data only: no proof is made here. -/
import proofs.«214288_g455266533575_cont_8to1_b_1966_18_alg».proof.Proof.KISetup

noncomputable section

namespace Cert.KIProof

open Cert.KernelIdeal Cert.KernelIdeal.Gen
open Idealize.ShloMosaic

/-- The slice of the result array the program's `p`-th copy out of a staging buffer writes. -/
def progOut (L : grid0.Coords) : ℕ → Memref sig .scVector .hbm S8x2048 .f32
  | 0 => (Memref.whole main_v2_scv).slice (Rect.unit (s := S516x65536) (k0_off4 L 0#32) S8x2048.size (Facts₀.k0_off4_inb L 0)) (fun _ => rfl)
  | 1 => (Memref.whole main_v2_scv).slice (Rect.unit (s := S516x65536) (k0_off6 L 0#32) S8x2048.size (Facts₀.k0_off6_inb L 0)) (fun _ => rfl)
  | 2 => (Memref.whole main_v2_scv).slice (Rect.unit (s := S516x65536) (k0_off8 L 0#32) S8x2048.size (Facts₀.k0_off8_inb L 0)) (fun _ => rfl)
  | 3 => (Memref.whole main_v2_scv).slice (Rect.unit (s := S516x65536) (k0_off10 L 0#32) S8x2048.size (Facts₀.k0_off10_inb L 0)) (fun _ => rfl)
  | 4 => (Memref.whole main_v2_scv).slice (Rect.unit (s := S516x65536) (k0_off12 L 0#32) S8x2048.size (Facts₀.k0_off12_inb L 0)) (fun _ => rfl)
  | 5 => (Memref.whole main_v2_scv).slice (Rect.unit (s := S516x65536) (k0_off14 L 0#32) S8x2048.size (Facts₀.k0_off14_inb L 0)) (fun _ => rfl)
  | 6 => (Memref.whole main_v2_scv).slice (Rect.unit (s := S516x65536) (k0_off15 L 0#32) S8x2048.size (Facts₀.k0_off15_inb L 0)) (fun _ => rfl)
  | 7 => (Memref.whole main_v2_scv).slice (Rect.unit (s := S516x65536) (k0_off16 L 0#32) S8x2048.size (Facts₀.k0_off16_inb L 0)) (fun _ => rfl)
  | 8 => (Memref.whole main_v2_scv).slice (Rect.unit (s := S516x65536) (k0_off17 L 0#32) S8x2048.size (Facts₀.k0_off17_inb L 0)) (fun _ => rfl)
  | 9 => (Memref.whole main_v2_scv).slice (Rect.unit (s := S516x65536) (k0_off18 L 0#32) S8x2048.size (Facts₀.k0_off18_inb L 0)) (fun _ => rfl)
  | 10 => (Memref.whole main_v2_scv).slice (Rect.unit (s := S516x65536) (k0_off19 L 0#32) S8x2048.size (Facts₀.k0_off19_inb L 0)) (fun _ => rfl)
  | 11 => (Memref.whole main_v2_scv).slice (Rect.unit (s := S516x65536) (k0_off20 L 0#32) S8x2048.size (Facts₀.k0_off20_inb L 0)) (fun _ => rfl)
  | 12 => (Memref.whole main_v2_scv).slice (Rect.unit (s := S516x65536) (k0_off21 L 0#32) S8x2048.size (Facts₀.k0_off21_inb L 0)) (fun _ => rfl)
  | 13 => (Memref.whole main_v2_scv).slice (Rect.unit (s := S516x65536) (k0_off22 L 0#32) S8x2048.size (Facts₀.k0_off22_inb L 0)) (fun _ => rfl)
  | 14 => (Memref.whole main_v2_scv).slice (Rect.unit (s := S516x65536) (k0_off23 L 0#32) S8x2048.size (Facts₀.k0_off23_inb L 0)) (fun _ => rfl)
  | 15 => (Memref.whole main_v2_scv).slice (Rect.unit (s := S516x65536) (k0_off24 L 0#32) S8x2048.size (Facts₀.k0_off24_inb L 0)) (fun _ => rfl)
  | 16 => (Memref.whole main_v2_scv).slice (Rect.unit (s := S516x65536) (k0_off25 L 0#32) S8x2048.size (Facts₀.k0_off25_inb L 0)) (fun _ => rfl)
  | 17 => (Memref.whole main_v2_scv).slice (Rect.unit (s := S516x65536) (k0_off26 L 0#32) S8x2048.size (Facts₀.k0_off26_inb L 0)) (fun _ => rfl)
  | 18 => (Memref.whole main_v2_scv).slice (Rect.unit (s := S516x65536) (k0_off27 L 0#32) S8x2048.size (Facts₀.k0_off27_inb L 0)) (fun _ => rfl)
  | 19 => (Memref.whole main_v2_scv).slice (Rect.unit (s := S516x65536) (k0_off28 L 0#32) S8x2048.size (Facts₀.k0_off28_inb L 0)) (fun _ => rfl)
  | 20 => (Memref.whole main_v2_scv).slice (Rect.unit (s := S516x65536) (k0_off29 L 0#32) S8x2048.size (Facts₀.k0_off29_inb L 0)) (fun _ => rfl)
  | 21 => (Memref.whole main_v2_scv).slice (Rect.unit (s := S516x65536) (k0_off30 L 0#32) S8x2048.size (Facts₀.k0_off30_inb L 0)) (fun _ => rfl)
  | 22 => (Memref.whole main_v2_scv).slice (Rect.unit (s := S516x65536) (k0_off31 L 0#32) S8x2048.size (Facts₀.k0_off31_inb L 0)) (fun _ => rfl)
  | 23 => (Memref.whole main_v2_scv).slice (Rect.unit (s := S516x65536) (k0_off32 L 0#32) S8x2048.size (Facts₀.k0_off32_inb L 0)) (fun _ => rfl)
  | 24 => (Memref.whole main_v2_scv).slice (Rect.unit (s := S516x65536) (k0_off33 L 0#32) S8x2048.size (Facts₀.k0_off33_inb L 0)) (fun _ => rfl)
  | 25 => (Memref.whole main_v2_scv).slice (Rect.unit (s := S516x65536) (k0_off34 L 0#32) S8x2048.size (Facts₀.k0_off34_inb L 0)) (fun _ => rfl)
  | 26 => (Memref.whole main_v2_scv).slice (Rect.unit (s := S516x65536) (k0_off35 L 0#32) S8x2048.size (Facts₀.k0_off35_inb L 0)) (fun _ => rfl)
  | 27 => (Memref.whole main_v2_scv).slice (Rect.unit (s := S516x65536) (k0_off36 L 0#32) S8x2048.size (Facts₀.k0_off36_inb L 0)) (fun _ => rfl)
  | 28 => (Memref.whole main_v2_scv).slice (Rect.unit (s := S516x65536) (k0_off37 L 0#32) S8x2048.size (Facts₀.k0_off37_inb L 0)) (fun _ => rfl)
  | 29 => (Memref.whole main_v2_scv).slice (Rect.unit (s := S516x65536) (k0_off38 L 0#32) S8x2048.size (Facts₀.k0_off38_inb L 0)) (fun _ => rfl)
  | 30 => (Memref.whole main_v2_scv).slice (Rect.unit (s := S516x65536) (k0_off39 L 0#32) S8x2048.size (Facts₀.k0_off39_inb L 0)) (fun _ => rfl)
  | 31 => (Memref.whole main_v2_scv).slice (Rect.unit (s := S516x65536) (k0_off40 L 0#32) S8x2048.size (Facts₀.k0_off40_inb L 0)) (fun _ => rfl)
  | 32 => (Memref.whole main_v2_scv).slice (Rect.unit (s := S516x65536) (k0_off4 L 256#32) S8x2048.size (Facts₀.k0_off4_inb L 1)) (fun _ => rfl)
  | 33 => (Memref.whole main_v2_scv).slice (Rect.unit (s := S516x65536) (k0_off6 L 256#32) S8x2048.size (Facts₀.k0_off6_inb L 1)) (fun _ => rfl)
  | 34 => (Memref.whole main_v2_scv).slice (Rect.unit (s := S516x65536) (k0_off8 L 256#32) S8x2048.size (Facts₀.k0_off8_inb L 1)) (fun _ => rfl)
  | 35 => (Memref.whole main_v2_scv).slice (Rect.unit (s := S516x65536) (k0_off10 L 256#32) S8x2048.size (Facts₀.k0_off10_inb L 1)) (fun _ => rfl)
  | 36 => (Memref.whole main_v2_scv).slice (Rect.unit (s := S516x65536) (k0_off12 L 256#32) S8x2048.size (Facts₀.k0_off12_inb L 1)) (fun _ => rfl)
  | 37 => (Memref.whole main_v2_scv).slice (Rect.unit (s := S516x65536) (k0_off14 L 256#32) S8x2048.size (Facts₀.k0_off14_inb L 1)) (fun _ => rfl)
  | 38 => (Memref.whole main_v2_scv).slice (Rect.unit (s := S516x65536) (k0_off15 L 256#32) S8x2048.size (Facts₀.k0_off15_inb L 1)) (fun _ => rfl)
  | 39 => (Memref.whole main_v2_scv).slice (Rect.unit (s := S516x65536) (k0_off16 L 256#32) S8x2048.size (Facts₀.k0_off16_inb L 1)) (fun _ => rfl)
  | 40 => (Memref.whole main_v2_scv).slice (Rect.unit (s := S516x65536) (k0_off17 L 256#32) S8x2048.size (Facts₀.k0_off17_inb L 1)) (fun _ => rfl)
  | 41 => (Memref.whole main_v2_scv).slice (Rect.unit (s := S516x65536) (k0_off18 L 256#32) S8x2048.size (Facts₀.k0_off18_inb L 1)) (fun _ => rfl)
  | 42 => (Memref.whole main_v2_scv).slice (Rect.unit (s := S516x65536) (k0_off19 L 256#32) S8x2048.size (Facts₀.k0_off19_inb L 1)) (fun _ => rfl)
  | 43 => (Memref.whole main_v2_scv).slice (Rect.unit (s := S516x65536) (k0_off20 L 256#32) S8x2048.size (Facts₀.k0_off20_inb L 1)) (fun _ => rfl)
  | 44 => (Memref.whole main_v2_scv).slice (Rect.unit (s := S516x65536) (k0_off21 L 256#32) S8x2048.size (Facts₀.k0_off21_inb L 1)) (fun _ => rfl)
  | 45 => (Memref.whole main_v2_scv).slice (Rect.unit (s := S516x65536) (k0_off22 L 256#32) S8x2048.size (Facts₀.k0_off22_inb L 1)) (fun _ => rfl)
  | 46 => (Memref.whole main_v2_scv).slice (Rect.unit (s := S516x65536) (k0_off23 L 256#32) S8x2048.size (Facts₀.k0_off23_inb L 1)) (fun _ => rfl)
  | 47 => (Memref.whole main_v2_scv).slice (Rect.unit (s := S516x65536) (k0_off24 L 256#32) S8x2048.size (Facts₀.k0_off24_inb L 1)) (fun _ => rfl)
  | 48 => (Memref.whole main_v2_scv).slice (Rect.unit (s := S516x65536) (k0_off25 L 256#32) S8x2048.size (Facts₀.k0_off25_inb L 1)) (fun _ => rfl)
  | 49 => (Memref.whole main_v2_scv).slice (Rect.unit (s := S516x65536) (k0_off26 L 256#32) S8x2048.size (Facts₀.k0_off26_inb L 1)) (fun _ => rfl)
  | 50 => (Memref.whole main_v2_scv).slice (Rect.unit (s := S516x65536) (k0_off27 L 256#32) S8x2048.size (Facts₀.k0_off27_inb L 1)) (fun _ => rfl)
  | 51 => (Memref.whole main_v2_scv).slice (Rect.unit (s := S516x65536) (k0_off28 L 256#32) S8x2048.size (Facts₀.k0_off28_inb L 1)) (fun _ => rfl)
  | 52 => (Memref.whole main_v2_scv).slice (Rect.unit (s := S516x65536) (k0_off29 L 256#32) S8x2048.size (Facts₀.k0_off29_inb L 1)) (fun _ => rfl)
  | 53 => (Memref.whole main_v2_scv).slice (Rect.unit (s := S516x65536) (k0_off30 L 256#32) S8x2048.size (Facts₀.k0_off30_inb L 1)) (fun _ => rfl)
  | 54 => (Memref.whole main_v2_scv).slice (Rect.unit (s := S516x65536) (k0_off31 L 256#32) S8x2048.size (Facts₀.k0_off31_inb L 1)) (fun _ => rfl)
  | 55 => (Memref.whole main_v2_scv).slice (Rect.unit (s := S516x65536) (k0_off32 L 256#32) S8x2048.size (Facts₀.k0_off32_inb L 1)) (fun _ => rfl)
  | 56 => (Memref.whole main_v2_scv).slice (Rect.unit (s := S516x65536) (k0_off33 L 256#32) S8x2048.size (Facts₀.k0_off33_inb L 1)) (fun _ => rfl)
  | 57 => (Memref.whole main_v2_scv).slice (Rect.unit (s := S516x65536) (k0_off34 L 256#32) S8x2048.size (Facts₀.k0_off34_inb L 1)) (fun _ => rfl)
  | 58 => (Memref.whole main_v2_scv).slice (Rect.unit (s := S516x65536) (k0_off35 L 256#32) S8x2048.size (Facts₀.k0_off35_inb L 1)) (fun _ => rfl)
  | 59 => (Memref.whole main_v2_scv).slice (Rect.unit (s := S516x65536) (k0_off36 L 256#32) S8x2048.size (Facts₀.k0_off36_inb L 1)) (fun _ => rfl)
  | 60 => (Memref.whole main_v2_scv).slice (Rect.unit (s := S516x65536) (k0_off37 L 256#32) S8x2048.size (Facts₀.k0_off37_inb L 1)) (fun _ => rfl)
  | 61 => (Memref.whole main_v2_scv).slice (Rect.unit (s := S516x65536) (k0_off38 L 256#32) S8x2048.size (Facts₀.k0_off38_inb L 1)) (fun _ => rfl)
  | 62 => (Memref.whole main_v2_scv).slice (Rect.unit (s := S516x65536) (k0_off39 L 256#32) S8x2048.size (Facts₀.k0_off39_inb L 1)) (fun _ => rfl)
  | 63 => (Memref.whole main_v2_scv).slice (Rect.unit (s := S516x65536) (k0_off40 L 256#32) S8x2048.size (Facts₀.k0_off40_inb L 1)) (fun _ => rfl)
  | _ => pieceM (wid L) 0

end Cert.KIProof

end
-- ==== Proof.KIPieces.lean ====
/-
  The pieces of the result array as the program spells them, against their closed forms. Vector subcore
  w = 2 s + c writes 64 blocks of 8 rows by 2048 columns (rows 8 w + 256 r .. + 7 for r = 0, 1, columns
  2048 q .. + 2047 for q = 0 .. 31) and one block of the last four rows 512 .. 515 at columns 2048 w .. + 2047.
  Two slices of one array by unit rectangles of the same sizes are equal as soon as their offsets are equal, so
  each identity below is an identity of two offset vectors: the program's word arithmetic on the grid coordinates
  on one side, the closed form in w on the other.
-/
import proofs.«214288_g455266533575_cont_8to1_b_1966_18_alg».proof.Proof.KIPiecesTable
import Mathlib.Tactic.IntervalCases

set_option synthInstance.maxSize 4096
set_option Elab.async false

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Equal offsets, equal slices -/

/-- Two slices of one array by unit rectangles of the same sizes are equal when their offsets are equal, whatever
    the in-bounds evidence of each. -/
theorem slice_off_congr {κ : Kind} {sp : Space} {s : Shape} {e : EltTy} (mr : Memref sig κ sp s e)
    {off off' size : Fin s.rank → ℕ} (h : off = off')
    (p : ∀ a, off a + size a ≤ s.size a) (p' : ∀ a, off' a + size a ≤ s.size a) :
    (mr.slice (Rect.unit off size p) (fun _ => rfl) : Memref sig κ sp ⟨s.rank, size⟩ e)
      = mr.slice (Rect.unit off' size p') (fun _ => rfl) := by
  subst h; rfl

/-- Two vectors of two naturals are equal when their entries are. -/
theorem vec2_congr {a b c d : ℕ} (h₁ : a = c) (h₂ : b = d) : (![a, b] : Fin 2 → ℕ) = ![c, d] := by
  subst h₁ h₂; rfl

/-! ## The vector subcore's number -/

theorem wid_lt (L : grid0.Coords) : wid L < 32 := by
  have h0 : (L 0).val < 2 := (L 0).isLt
  have h1 : (L 1).val < 16 := (L 1).isLt
  unfold wid; omega

/-- Exactly one of the two guards of the last piece holds: the first below subcore number 8, the second from 8 on. -/
theorem cond_cases (L : grid0.Coords) :
    (k0_cond1 L = 1#1 ∧ ¬ k0_cond2 L = 1#1 ∧ wid L < 8) ∨ (¬ k0_cond1 L = 1#1 ∧ k0_cond2 L = 1#1 ∧ 8 ≤ wid L) := by
  revert L; decide +kernel

/-! ## The last piece's offsets -/

theorem off42_inb : ∀ L : grid0.Coords, ∀ a, (k0_off42 L) a + S4x2048.size a ≤ S516x65536.size a := by decide +kernel
theorem off44_inb : ∀ L : grid0.Coords, ∀ a, (k0_off44 L) a + S4x2048.size a ≤ S516x65536.size a := by decide +kernel

theorem off41_form (L : grid0.Coords) (h : k0_cond1 L = 1#1) : k0_off41 L = ![512, 2048 * wid L] := by
  revert L; decide +kernel
theorem off42_form (L : grid0.Coords) : k0_off42 L = ![512, 2048 * wid L] := by
  revert L; decide +kernel
theorem off43_form (L : grid0.Coords) (h : k0_cond2 L = 1#1) : k0_off43 L = ![512, 2048 * wid L - 16384] := by
  revert L; decide +kernel
theorem off44_form (L : grid0.Coords) : k0_off44 L = ![512, 2048 * wid L] := by
  revert L; decide +kernel

/-- The last piece as the first guarded branch spells it. -/
def progTail1 (L : grid0.Coords) : Memref sig .scVector .hbm S4x2048 .f32 :=
  (Memref.whole main_v2_scv).slice (Rect.unit (s := S516x65536) (k0_off42 L) S4x2048.size (off42_inb L)) (fun _ => rfl)
/-- The last piece as the second guarded branch spells it. -/
def progTail2 (L : grid0.Coords) : Memref sig .scVector .hbm S4x2048 .f32 :=
  (Memref.whole main_v2_scv).slice (Rect.unit (s := S516x65536) (k0_off44 L) S4x2048.size (off44_inb L)) (fun _ => rfl)

theorem progTail1_eq (L : grid0.Coords) : progTail1 L = tailM (wid L) := by
  have hw := wid_lt L
  unfold progTail1 tailM
  exact slice_off_congr _ ((off42_form L).trans (vec2_congr rfl (by rw [Nat.mod_eq_of_lt hw]))) _ _

theorem progTail2_eq (L : grid0.Coords) : progTail2 L = tailM (wid L) := by
  have hw := wid_lt L
  unfold progTail2 tailM
  exact slice_off_congr _ ((off44_form L).trans (vec2_congr rfl (by rw [Nat.mod_eq_of_lt hw]))) _ _

/-! ## The 64 pieces -/

theorem progOut_eq (L : grid0.Coords) (p : ℕ) (hp : p < 64) : progOut L p = pieceM (wid L) p := by
  have h0 : (L 0).val < 2 := (L 0).isLt
  have h1 : (L 1).val < 16 := (L 1).isLt
  have hw : wid L = 2 * (L 1).val + (L 0).val := rfl
  interval_cases p <;>
    exact slice_off_congr _ (ClosedOff.eq.trans (vec2_congr (by omega) (by norm_num))) _ _

end Cert.KIProof

end
-- ==== Proof.KITilePieces.lean ====
/- (the script is scratch/kbpieces.py of this unit; it reads proof/Proof/KIPiecesTable.lean).
   The 64 pieces of the result array one vector subcore writes, in program order: for each, the points-to of
   the slice's own elements, the slice spelt as the printed program spells it. Data only: no proof is made here. -/
import proofs.«214288_g455266533575_cont_8to1_b_1966_18_alg».proof.Proof.KIPiecesTable

noncomputable section

namespace Cert.KIProof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The 64 pieces of the result array the vector subcore at grid point `L` writes, each its own elements at the
    contents `f`, in program order. -/
def progPieces (d : Dev nD) (L : grid0.Coords) (f : Buf (Elt F) (oLoc d)) : sProp 𝕄 :=
  iprop((((Memref.whole main_v2_scv).slice (Rect.unit (s := S516x65536) (k0_off4 L 0#32) S8x2048.size (Facts₀.k0_off4_inb L 0)) (fun _ => rfl)).view.loc (thr d L) ↦[((Memref.whole main_v2_scv).slice (Rect.unit (s := S516x65536) (k0_off4 L 0#32) S8x2048.size (Facts₀.k0_off4_inb L 0)) (fun _ => rfl)).view.set]{fullShare} f)
    ∗ (((Memref.whole main_v2_scv).slice (Rect.unit (s := S516x65536) (k0_off6 L 0#32) S8x2048.size (Facts₀.k0_off6_inb L 0)) (fun _ => rfl)).view.loc (thr d L) ↦[((Memref.whole main_v2_scv).slice (Rect.unit (s := S516x65536) (k0_off6 L 0#32) S8x2048.size (Facts₀.k0_off6_inb L 0)) (fun _ => rfl)).view.set]{fullShare} f)
    ∗ (((Memref.whole main_v2_scv).slice (Rect.unit (s := S516x65536) (k0_off8 L 0#32) S8x2048.size (Facts₀.k0_off8_inb L 0)) (fun _ => rfl)).view.loc (thr d L) ↦[((Memref.whole main_v2_scv).slice (Rect.unit (s := S516x65536) (k0_off8 L 0#32) S8x2048.size (Facts₀.k0_off8_inb L 0)) (fun _ => rfl)).view.set]{fullShare} f)
    ∗ (((Memref.whole main_v2_scv).slice (Rect.unit (s := S516x65536) (k0_off10 L 0#32) S8x2048.size (Facts₀.k0_off10_inb L 0)) (fun _ => rfl)).view.loc (thr d L) ↦[((Memref.whole main_v2_scv).slice (Rect.unit (s := S516x65536) (k0_off10 L 0#32) S8x2048.size (Facts₀.k0_off10_inb L 0)) (fun _ => rfl)).view.set]{fullShare} f)
    ∗ (((Memref.whole main_v2_scv).slice (Rect.unit (s := S516x65536) (k0_off12 L 0#32) S8x2048.size (Facts₀.k0_off12_inb L 0)) (fun _ => rfl)).view.loc (thr d L) ↦[((Memref.whole main_v2_scv).slice (Rect.unit (s := S516x65536) (k0_off12 L 0#32) S8x2048.size (Facts₀.k0_off12_inb L 0)) (fun _ => rfl)).view.set]{fullShare} f)
    ∗ (((Memref.whole main_v2_scv).slice (Rect.unit (s := S516x65536) (k0_off14 L 0#32) S8x2048.size (Facts₀.k0_off14_inb L 0)) (fun _ => rfl)).view.loc (thr d L) ↦[((Memref.whole main_v2_scv).slice (Rect.unit (s := S516x65536) (k0_off14 L 0#32) S8x2048.size (Facts₀.k0_off14_inb L 0)) (fun _ => rfl)).view.set]{fullShare} f)
    ∗ (((Memref.whole main_v2_scv).slice (Rect.unit (s := S516x65536) (k0_off15 L 0#32) S8x2048.size (Facts₀.k0_off15_inb L 0)) (fun _ => rfl)).view.loc (thr d L) ↦[((Memref.whole main_v2_scv).slice (Rect.unit (s := S516x65536) (k0_off15 L 0#32) S8x2048.size (Facts₀.k0_off15_inb L 0)) (fun _ => rfl)).view.set]{fullShare} f)
    ∗ (((Memref.whole main_v2_scv).slice (Rect.unit (s := S516x65536) (k0_off16 L 0#32) S8x2048.size (Facts₀.k0_off16_inb L 0)) (fun _ => rfl)).view.loc (thr d L) ↦[((Memref.whole main_v2_scv).slice (Rect.unit (s := S516x65536) (k0_off16 L 0#32) S8x2048.size (Facts₀.k0_off16_inb L 0)) (fun _ => rfl)).view.set]{fullShare} f)
    ∗ (((Memref.whole main_v2_scv).slice (Rect.unit (s := S516x65536) (k0_off17 L 0#32) S8x2048.size (Facts₀.k0_off17_inb L 0)) (fun _ => rfl)).view.loc (thr d L) ↦[((Memref.whole main_v2_scv).slice (Rect.unit (s := S516x65536) (k0_off17 L 0#32) S8x2048.size (Facts₀.k0_off17_inb L 0)) (fun _ => rfl)).view.set]{fullShare} f)
    ∗ (((Memref.whole main_v2_scv).slice (Rect.unit (s := S516x65536) (k0_off18 L 0#32) S8x2048.size (Facts₀.k0_off18_inb L 0)) (fun _ => rfl)).view.loc (thr d L) ↦[((Memref.whole main_v2_scv).slice (Rect.unit (s := S516x65536) (k0_off18 L 0#32) S8x2048.size (Facts₀.k0_off18_inb L 0)) (fun _ => rfl)).view.set]{fullShare} f)
    ∗ (((Memref.whole main_v2_scv).slice (Rect.unit (s := S516x65536) (k0_off19 L 0#32) S8x2048.size (Facts₀.k0_off19_inb L 0)) (fun _ => rfl)).view.loc (thr d L) ↦[((Memref.whole main_v2_scv).slice (Rect.unit (s := S516x65536) (k0_off19 L 0#32) S8x2048.size (Facts₀.k0_off19_inb L 0)) (fun _ => rfl)).view.set]{fullShare} f)
    ∗ (((Memref.whole main_v2_scv).slice (Rect.unit (s := S516x65536) (k0_off20 L 0#32) S8x2048.size (Facts₀.k0_off20_inb L 0)) (fun _ => rfl)).view.loc (thr d L) ↦[((Memref.whole main_v2_scv).slice (Rect.unit (s := S516x65536) (k0_off20 L 0#32) S8x2048.size (Facts₀.k0_off20_inb L 0)) (fun _ => rfl)).view.set]{fullShare} f)
    ∗ (((Memref.whole main_v2_scv).slice (Rect.unit (s := S516x65536) (k0_off21 L 0#32) S8x2048.size (Facts₀.k0_off21_inb L 0)) (fun _ => rfl)).view.loc (thr d L) ↦[((Memref.whole main_v2_scv).slice (Rect.unit (s := S516x65536) (k0_off21 L 0#32) S8x2048.size (Facts₀.k0_off21_inb L 0)) (fun _ => rfl)).view.set]{fullShare} f)
    ∗ (((Memref.whole main_v2_scv).slice (Rect.unit (s := S516x65536) (k0_off22 L 0#32) S8x2048.size (Facts₀.k0_off22_inb L 0)) (fun _ => rfl)).view.loc (thr d L) ↦[((Memref.whole main_v2_scv).slice (Rect.unit (s := S516x65536) (k0_off22 L 0#32) S8x2048.size (Facts₀.k0_off22_inb L 0)) (fun _ => rfl)).view.set]{fullShare} f)
    ∗ (((Memref.whole main_v2_scv).slice (Rect.unit (s := S516x65536) (k0_off23 L 0#32) S8x2048.size (Facts₀.k0_off23_inb L 0)) (fun _ => rfl)).view.loc (thr d L) ↦[((Memref.whole main_v2_scv).slice (Rect.unit (s := S516x65536) (k0_off23 L 0#32) S8x2048.size (Facts₀.k0_off23_inb L 0)) (fun _ => rfl)).view.set]{fullShare} f)
    ∗ (((Memref.whole main_v2_scv).slice (Rect.unit (s := S516x65536) (k0_off24 L 0#32) S8x2048.size (Facts₀.k0_off24_inb L 0)) (fun _ => rfl)).view.loc (thr d L) ↦[((Memref.whole main_v2_scv).slice (Rect.unit (s := S516x65536) (k0_off24 L 0#32) S8x2048.size (Facts₀.k0_off24_inb L 0)) (fun _ => rfl)).view.set]{fullShare} f)
    ∗ (((Memref.whole main_v2_scv).slice (Rect.unit (s := S516x65536) (k0_off25 L 0#32) S8x2048.size (Facts₀.k0_off25_inb L 0)) (fun _ => rfl)).view.loc (thr d L) ↦[((Memref.whole main_v2_scv).slice (Rect.unit (s := S516x65536) (k0_off25 L 0#32) S8x2048.size (Facts₀.k0_off25_inb L 0)) (fun _ => rfl)).view.set]{fullShare} f)
    ∗ (((Memref.whole main_v2_scv).slice (Rect.unit (s := S516x65536) (k0_off26 L 0#32) S8x2048.size (Facts₀.k0_off26_inb L 0)) (fun _ => rfl)).view.loc (thr d L) ↦[((Memref.whole main_v2_scv).slice (Rect.unit (s := S516x65536) (k0_off26 L 0#32) S8x2048.size (Facts₀.k0_off26_inb L 0)) (fun _ => rfl)).view.set]{fullShare} f)
    ∗ (((Memref.whole main_v2_scv).slice (Rect.unit (s := S516x65536) (k0_off27 L 0#32) S8x2048.size (Facts₀.k0_off27_inb L 0)) (fun _ => rfl)).view.loc (thr d L) ↦[((Memref.whole main_v2_scv).slice (Rect.unit (s := S516x65536) (k0_off27 L 0#32) S8x2048.size (Facts₀.k0_off27_inb L 0)) (fun _ => rfl)).view.set]{fullShare} f)
    ∗ (((Memref.whole main_v2_scv).slice (Rect.unit (s := S516x65536) (k0_off28 L 0#32) S8x2048.size (Facts₀.k0_off28_inb L 0)) (fun _ => rfl)).view.loc (thr d L) ↦[((Memref.whole main_v2_scv).slice (Rect.unit (s := S516x65536) (k0_off28 L 0#32) S8x2048.size (Facts₀.k0_off28_inb L 0)) (fun _ => rfl)).view.set]{fullShare} f)
    ∗ (((Memref.whole main_v2_scv).slice (Rect.unit (s := S516x65536) (k0_off29 L 0#32) S8x2048.size (Facts₀.k0_off29_inb L 0)) (fun _ => rfl)).view.loc (thr d L) ↦[((Memref.whole main_v2_scv).slice (Rect.unit (s := S516x65536) (k0_off29 L 0#32) S8x2048.size (Facts₀.k0_off29_inb L 0)) (fun _ => rfl)).view.set]{fullShare} f)
    ∗ (((Memref.whole main_v2_scv).slice (Rect.unit (s := S516x65536) (k0_off30 L 0#32) S8x2048.size (Facts₀.k0_off30_inb L 0)) (fun _ => rfl)).view.loc (thr d L) ↦[((Memref.whole main_v2_scv).slice (Rect.unit (s := S516x65536) (k0_off30 L 0#32) S8x2048.size (Facts₀.k0_off30_inb L 0)) (fun _ => rfl)).view.set]{fullShare} f)
    ∗ (((Memref.whole main_v2_scv).slice (Rect.unit (s := S516x65536) (k0_off31 L 0#32) S8x2048.size (Facts₀.k0_off31_inb L 0)) (fun _ => rfl)).view.loc (thr d L) ↦[((Memref.whole main_v2_scv).slice (Rect.unit (s := S516x65536) (k0_off31 L 0#32) S8x2048.size (Facts₀.k0_off31_inb L 0)) (fun _ => rfl)).view.set]{fullShare} f)
    ∗ (((Memref.whole main_v2_scv).slice (Rect.unit (s := S516x65536) (k0_off32 L 0#32) S8x2048.size (Facts₀.k0_off32_inb L 0)) (fun _ => rfl)).view.loc (thr d L) ↦[((Memref.whole main_v2_scv).slice (Rect.unit (s := S516x65536) (k0_off32 L 0#32) S8x2048.size (Facts₀.k0_off32_inb L 0)) (fun _ => rfl)).view.set]{fullShare} f)
    ∗ (((Memref.whole main_v2_scv).slice (Rect.unit (s := S516x65536) (k0_off33 L 0#32) S8x2048.size (Facts₀.k0_off33_inb L 0)) (fun _ => rfl)).view.loc (thr d L) ↦[((Memref.whole main_v2_scv).slice (Rect.unit (s := S516x65536) (k0_off33 L 0#32) S8x2048.size (Facts₀.k0_off33_inb L 0)) (fun _ => rfl)).view.set]{fullShare} f)
    ∗ (((Memref.whole main_v2_scv).slice (Rect.unit (s := S516x65536) (k0_off34 L 0#32) S8x2048.size (Facts₀.k0_off34_inb L 0)) (fun _ => rfl)).view.loc (thr d L) ↦[((Memref.whole main_v2_scv).slice (Rect.unit (s := S516x65536) (k0_off34 L 0#32) S8x2048.size (Facts₀.k0_off34_inb L 0)) (fun _ => rfl)).view.set]{fullShare} f)
    ∗ (((Memref.whole main_v2_scv).slice (Rect.unit (s := S516x65536) (k0_off35 L 0#32) S8x2048.size (Facts₀.k0_off35_inb L 0)) (fun _ => rfl)).view.loc (thr d L) ↦[((Memref.whole main_v2_scv).slice (Rect.unit (s := S516x65536) (k0_off35 L 0#32) S8x2048.size (Facts₀.k0_off35_inb L 0)) (fun _ => rfl)).view.set]{fullShare} f)
    ∗ (((Memref.whole main_v2_scv).slice (Rect.unit (s := S516x65536) (k0_off36 L 0#32) S8x2048.size (Facts₀.k0_off36_inb L 0)) (fun _ => rfl)).view.loc (thr d L) ↦[((Memref.whole main_v2_scv).slice (Rect.unit (s := S516x65536) (k0_off36 L 0#32) S8x2048.size (Facts₀.k0_off36_inb L 0)) (fun _ => rfl)).view.set]{fullShare} f)
    ∗ (((Memref.whole main_v2_scv).slice (Rect.unit (s := S516x65536) (k0_off37 L 0#32) S8x2048.size (Facts₀.k0_off37_inb L 0)) (fun _ => rfl)).view.loc (thr d L) ↦[((Memref.whole main_v2_scv).slice (Rect.unit (s := S516x65536) (k0_off37 L 0#32) S8x2048.size (Facts₀.k0_off37_inb L 0)) (fun _ => rfl)).view.set]{fullShare} f)
    ∗ (((Memref.whole main_v2_scv).slice (Rect.unit (s := S516x65536) (k0_off38 L 0#32) S8x2048.size (Facts₀.k0_off38_inb L 0)) (fun _ => rfl)).view.loc (thr d L) ↦[((Memref.whole main_v2_scv).slice (Rect.unit (s := S516x65536) (k0_off38 L 0#32) S8x2048.size (Facts₀.k0_off38_inb L 0)) (fun _ => rfl)).view.set]{fullShare} f)
    ∗ (((Memref.whole main_v2_scv).slice (Rect.unit (s := S516x65536) (k0_off39 L 0#32) S8x2048.size (Facts₀.k0_off39_inb L 0)) (fun _ => rfl)).view.loc (thr d L) ↦[((Memref.whole main_v2_scv).slice (Rect.unit (s := S516x65536) (k0_off39 L 0#32) S8x2048.size (Facts₀.k0_off39_inb L 0)) (fun _ => rfl)).view.set]{fullShare} f)
    ∗ (((Memref.whole main_v2_scv).slice (Rect.unit (s := S516x65536) (k0_off40 L 0#32) S8x2048.size (Facts₀.k0_off40_inb L 0)) (fun _ => rfl)).view.loc (thr d L) ↦[((Memref.whole main_v2_scv).slice (Rect.unit (s := S516x65536) (k0_off40 L 0#32) S8x2048.size (Facts₀.k0_off40_inb L 0)) (fun _ => rfl)).view.set]{fullShare} f)
    ∗ (((Memref.whole main_v2_scv).slice (Rect.unit (s := S516x65536) (k0_off4 L 256#32) S8x2048.size (Facts₀.k0_off4_inb L 1)) (fun _ => rfl)).view.loc (thr d L) ↦[((Memref.whole main_v2_scv).slice (Rect.unit (s := S516x65536) (k0_off4 L 256#32) S8x2048.size (Facts₀.k0_off4_inb L 1)) (fun _ => rfl)).view.set]{fullShare} f)
    ∗ (((Memref.whole main_v2_scv).slice (Rect.unit (s := S516x65536) (k0_off6 L 256#32) S8x2048.size (Facts₀.k0_off6_inb L 1)) (fun _ => rfl)).view.loc (thr d L) ↦[((Memref.whole main_v2_scv).slice (Rect.unit (s := S516x65536) (k0_off6 L 256#32) S8x2048.size (Facts₀.k0_off6_inb L 1)) (fun _ => rfl)).view.set]{fullShare} f)
    ∗ (((Memref.whole main_v2_scv).slice (Rect.unit (s := S516x65536) (k0_off8 L 256#32) S8x2048.size (Facts₀.k0_off8_inb L 1)) (fun _ => rfl)).view.loc (thr d L) ↦[((Memref.whole main_v2_scv).slice (Rect.unit (s := S516x65536) (k0_off8 L 256#32) S8x2048.size (Facts₀.k0_off8_inb L 1)) (fun _ => rfl)).view.set]{fullShare} f)
    ∗ (((Memref.whole main_v2_scv).slice (Rect.unit (s := S516x65536) (k0_off10 L 256#32) S8x2048.size (Facts₀.k0_off10_inb L 1)) (fun _ => rfl)).view.loc (thr d L) ↦[((Memref.whole main_v2_scv).slice (Rect.unit (s := S516x65536) (k0_off10 L 256#32) S8x2048.size (Facts₀.k0_off10_inb L 1)) (fun _ => rfl)).view.set]{fullShare} f)
    ∗ (((Memref.whole main_v2_scv).slice (Rect.unit (s := S516x65536) (k0_off12 L 256#32) S8x2048.size (Facts₀.k0_off12_inb L 1)) (fun _ => rfl)).view.loc (thr d L) ↦[((Memref.whole main_v2_scv).slice (Rect.unit (s := S516x65536) (k0_off12 L 256#32) S8x2048.size (Facts₀.k0_off12_inb L 1)) (fun _ => rfl)).view.set]{fullShare} f)
    ∗ (((Memref.whole main_v2_scv).slice (Rect.unit (s := S516x65536) (k0_off14 L 256#32) S8x2048.size (Facts₀.k0_off14_inb L 1)) (fun _ => rfl)).view.loc (thr d L) ↦[((Memref.whole main_v2_scv).slice (Rect.unit (s := S516x65536) (k0_off14 L 256#32) S8x2048.size (Facts₀.k0_off14_inb L 1)) (fun _ => rfl)).view.set]{fullShare} f)
    ∗ (((Memref.whole main_v2_scv).slice (Rect.unit (s := S516x65536) (k0_off15 L 256#32) S8x2048.size (Facts₀.k0_off15_inb L 1)) (fun _ => rfl)).view.loc (thr d L) ↦[((Memref.whole main_v2_scv).slice (Rect.unit (s := S516x65536) (k0_off15 L 256#32) S8x2048.size (Facts₀.k0_off15_inb L 1)) (fun _ => rfl)).view.set]{fullShare} f)
    ∗ (((Memref.whole main_v2_scv).slice (Rect.unit (s := S516x65536) (k0_off16 L 256#32) S8x2048.size (Facts₀.k0_off16_inb L 1)) (fun _ => rfl)).view.loc (thr d L) ↦[((Memref.whole main_v2_scv).slice (Rect.unit (s := S516x65536) (k0_off16 L 256#32) S8x2048.size (Facts₀.k0_off16_inb L 1)) (fun _ => rfl)).view.set]{fullShare} f)
    ∗ (((Memref.whole main_v2_scv).slice (Rect.unit (s := S516x65536) (k0_off17 L 256#32) S8x2048.size (Facts₀.k0_off17_inb L 1)) (fun _ => rfl)).view.loc (thr d L) ↦[((Memref.whole main_v2_scv).slice (Rect.unit (s := S516x65536) (k0_off17 L 256#32) S8x2048.size (Facts₀.k0_off17_inb L 1)) (fun _ => rfl)).view.set]{fullShare} f)
    ∗ (((Memref.whole main_v2_scv).slice (Rect.unit (s := S516x65536) (k0_off18 L 256#32) S8x2048.size (Facts₀.k0_off18_inb L 1)) (fun _ => rfl)).view.loc (thr d L) ↦[((Memref.whole main_v2_scv).slice (Rect.unit (s := S516x65536) (k0_off18 L 256#32) S8x2048.size (Facts₀.k0_off18_inb L 1)) (fun _ => rfl)).view.set]{fullShare} f)
    ∗ (((Memref.whole main_v2_scv).slice (Rect.unit (s := S516x65536) (k0_off19 L 256#32) S8x2048.size (Facts₀.k0_off19_inb L 1)) (fun _ => rfl)).view.loc (thr d L) ↦[((Memref.whole main_v2_scv).slice (Rect.unit (s := S516x65536) (k0_off19 L 256#32) S8x2048.size (Facts₀.k0_off19_inb L 1)) (fun _ => rfl)).view.set]{fullShare} f)
    ∗ (((Memref.whole main_v2_scv).slice (Rect.unit (s := S516x65536) (k0_off20 L 256#32) S8x2048.size (Facts₀.k0_off20_inb L 1)) (fun _ => rfl)).view.loc (thr d L) ↦[((Memref.whole main_v2_scv).slice (Rect.unit (s := S516x65536) (k0_off20 L 256#32) S8x2048.size (Facts₀.k0_off20_inb L 1)) (fun _ => rfl)).view.set]{fullShare} f)
    ∗ (((Memref.whole main_v2_scv).slice (Rect.unit (s := S516x65536) (k0_off21 L 256#32) S8x2048.size (Facts₀.k0_off21_inb L 1)) (fun _ => rfl)).view.loc (thr d L) ↦[((Memref.whole main_v2_scv).slice (Rect.unit (s := S516x65536) (k0_off21 L 256#32) S8x2048.size (Facts₀.k0_off21_inb L 1)) (fun _ => rfl)).view.set]{fullShare} f)
    ∗ (((Memref.whole main_v2_scv).slice (Rect.unit (s := S516x65536) (k0_off22 L 256#32) S8x2048.size (Facts₀.k0_off22_inb L 1)) (fun _ => rfl)).view.loc (thr d L) ↦[((Memref.whole main_v2_scv).slice (Rect.unit (s := S516x65536) (k0_off22 L 256#32) S8x2048.size (Facts₀.k0_off22_inb L 1)) (fun _ => rfl)).view.set]{fullShare} f)
    ∗ (((Memref.whole main_v2_scv).slice (Rect.unit (s := S516x65536) (k0_off23 L 256#32) S8x2048.size (Facts₀.k0_off23_inb L 1)) (fun _ => rfl)).view.loc (thr d L) ↦[((Memref.whole main_v2_scv).slice (Rect.unit (s := S516x65536) (k0_off23 L 256#32) S8x2048.size (Facts₀.k0_off23_inb L 1)) (fun _ => rfl)).view.set]{fullShare} f)
    ∗ (((Memref.whole main_v2_scv).slice (Rect.unit (s := S516x65536) (k0_off24 L 256#32) S8x2048.size (Facts₀.k0_off24_inb L 1)) (fun _ => rfl)).view.loc (thr d L) ↦[((Memref.whole main_v2_scv).slice (Rect.unit (s := S516x65536) (k0_off24 L 256#32) S8x2048.size (Facts₀.k0_off24_inb L 1)) (fun _ => rfl)).view.set]{fullShare} f)
    ∗ (((Memref.whole main_v2_scv).slice (Rect.unit (s := S516x65536) (k0_off25 L 256#32) S8x2048.size (Facts₀.k0_off25_inb L 1)) (fun _ => rfl)).view.loc (thr d L) ↦[((Memref.whole main_v2_scv).slice (Rect.unit (s := S516x65536) (k0_off25 L 256#32) S8x2048.size (Facts₀.k0_off25_inb L 1)) (fun _ => rfl)).view.set]{fullShare} f)
    ∗ (((Memref.whole main_v2_scv).slice (Rect.unit (s := S516x65536) (k0_off26 L 256#32) S8x2048.size (Facts₀.k0_off26_inb L 1)) (fun _ => rfl)).view.loc (thr d L) ↦[((Memref.whole main_v2_scv).slice (Rect.unit (s := S516x65536) (k0_off26 L 256#32) S8x2048.size (Facts₀.k0_off26_inb L 1)) (fun _ => rfl)).view.set]{fullShare} f)
    ∗ (((Memref.whole main_v2_scv).slice (Rect.unit (s := S516x65536) (k0_off27 L 256#32) S8x2048.size (Facts₀.k0_off27_inb L 1)) (fun _ => rfl)).view.loc (thr d L) ↦[((Memref.whole main_v2_scv).slice (Rect.unit (s := S516x65536) (k0_off27 L 256#32) S8x2048.size (Facts₀.k0_off27_inb L 1)) (fun _ => rfl)).view.set]{fullShare} f)
    ∗ (((Memref.whole main_v2_scv).slice (Rect.unit (s := S516x65536) (k0_off28 L 256#32) S8x2048.size (Facts₀.k0_off28_inb L 1)) (fun _ => rfl)).view.loc (thr d L) ↦[((Memref.whole main_v2_scv).slice (Rect.unit (s := S516x65536) (k0_off28 L 256#32) S8x2048.size (Facts₀.k0_off28_inb L 1)) (fun _ => rfl)).view.set]{fullShare} f)
    ∗ (((Memref.whole main_v2_scv).slice (Rect.unit (s := S516x65536) (k0_off29 L 256#32) S8x2048.size (Facts₀.k0_off29_inb L 1)) (fun _ => rfl)).view.loc (thr d L) ↦[((Memref.whole main_v2_scv).slice (Rect.unit (s := S516x65536) (k0_off29 L 256#32) S8x2048.size (Facts₀.k0_off29_inb L 1)) (fun _ => rfl)).view.set]{fullShare} f)
    ∗ (((Memref.whole main_v2_scv).slice (Rect.unit (s := S516x65536) (k0_off30 L 256#32) S8x2048.size (Facts₀.k0_off30_inb L 1)) (fun _ => rfl)).view.loc (thr d L) ↦[((Memref.whole main_v2_scv).slice (Rect.unit (s := S516x65536) (k0_off30 L 256#32) S8x2048.size (Facts₀.k0_off30_inb L 1)) (fun _ => rfl)).view.set]{fullShare} f)
    ∗ (((Memref.whole main_v2_scv).slice (Rect.unit (s := S516x65536) (k0_off31 L 256#32) S8x2048.size (Facts₀.k0_off31_inb L 1)) (fun _ => rfl)).view.loc (thr d L) ↦[((Memref.whole main_v2_scv).slice (Rect.unit (s := S516x65536) (k0_off31 L 256#32) S8x2048.size (Facts₀.k0_off31_inb L 1)) (fun _ => rfl)).view.set]{fullShare} f)
    ∗ (((Memref.whole main_v2_scv).slice (Rect.unit (s := S516x65536) (k0_off32 L 256#32) S8x2048.size (Facts₀.k0_off32_inb L 1)) (fun _ => rfl)).view.loc (thr d L) ↦[((Memref.whole main_v2_scv).slice (Rect.unit (s := S516x65536) (k0_off32 L 256#32) S8x2048.size (Facts₀.k0_off32_inb L 1)) (fun _ => rfl)).view.set]{fullShare} f)
    ∗ (((Memref.whole main_v2_scv).slice (Rect.unit (s := S516x65536) (k0_off33 L 256#32) S8x2048.size (Facts₀.k0_off33_inb L 1)) (fun _ => rfl)).view.loc (thr d L) ↦[((Memref.whole main_v2_scv).slice (Rect.unit (s := S516x65536) (k0_off33 L 256#32) S8x2048.size (Facts₀.k0_off33_inb L 1)) (fun _ => rfl)).view.set]{fullShare} f)
    ∗ (((Memref.whole main_v2_scv).slice (Rect.unit (s := S516x65536) (k0_off34 L 256#32) S8x2048.size (Facts₀.k0_off34_inb L 1)) (fun _ => rfl)).view.loc (thr d L) ↦[((Memref.whole main_v2_scv).slice (Rect.unit (s := S516x65536) (k0_off34 L 256#32) S8x2048.size (Facts₀.k0_off34_inb L 1)) (fun _ => rfl)).view.set]{fullShare} f)
    ∗ (((Memref.whole main_v2_scv).slice (Rect.unit (s := S516x65536) (k0_off35 L 256#32) S8x2048.size (Facts₀.k0_off35_inb L 1)) (fun _ => rfl)).view.loc (thr d L) ↦[((Memref.whole main_v2_scv).slice (Rect.unit (s := S516x65536) (k0_off35 L 256#32) S8x2048.size (Facts₀.k0_off35_inb L 1)) (fun _ => rfl)).view.set]{fullShare} f)
    ∗ (((Memref.whole main_v2_scv).slice (Rect.unit (s := S516x65536) (k0_off36 L 256#32) S8x2048.size (Facts₀.k0_off36_inb L 1)) (fun _ => rfl)).view.loc (thr d L) ↦[((Memref.whole main_v2_scv).slice (Rect.unit (s := S516x65536) (k0_off36 L 256#32) S8x2048.size (Facts₀.k0_off36_inb L 1)) (fun _ => rfl)).view.set]{fullShare} f)
    ∗ (((Memref.whole main_v2_scv).slice (Rect.unit (s := S516x65536) (k0_off37 L 256#32) S8x2048.size (Facts₀.k0_off37_inb L 1)) (fun _ => rfl)).view.loc (thr d L) ↦[((Memref.whole main_v2_scv).slice (Rect.unit (s := S516x65536) (k0_off37 L 256#32) S8x2048.size (Facts₀.k0_off37_inb L 1)) (fun _ => rfl)).view.set]{fullShare} f)
    ∗ (((Memref.whole main_v2_scv).slice (Rect.unit (s := S516x65536) (k0_off38 L 256#32) S8x2048.size (Facts₀.k0_off38_inb L 1)) (fun _ => rfl)).view.loc (thr d L) ↦[((Memref.whole main_v2_scv).slice (Rect.unit (s := S516x65536) (k0_off38 L 256#32) S8x2048.size (Facts₀.k0_off38_inb L 1)) (fun _ => rfl)).view.set]{fullShare} f)
    ∗ (((Memref.whole main_v2_scv).slice (Rect.unit (s := S516x65536) (k0_off39 L 256#32) S8x2048.size (Facts₀.k0_off39_inb L 1)) (fun _ => rfl)).view.loc (thr d L) ↦[((Memref.whole main_v2_scv).slice (Rect.unit (s := S516x65536) (k0_off39 L 256#32) S8x2048.size (Facts₀.k0_off39_inb L 1)) (fun _ => rfl)).view.set]{fullShare} f)
    ∗ (((Memref.whole main_v2_scv).slice (Rect.unit (s := S516x65536) (k0_off40 L 256#32) S8x2048.size (Facts₀.k0_off40_inb L 1)) (fun _ => rfl)).view.loc (thr d L) ↦[((Memref.whole main_v2_scv).slice (Rect.unit (s := S516x65536) (k0_off40 L 256#32) S8x2048.size (Facts₀.k0_off40_inb L 1)) (fun _ => rfl)).view.set]{fullShare} f))

end Cert.KIProof

end
-- ==== Proof.KITileRes.lean ====
/-
  One vector subcore's resources in the two forms the body obligation passes between. The launch hands the
  subcore a read share of each transposed source, its part of the result array (64 pieces of 8 x 2048 and a
  last piece of 4 x 2048), its scoped buffers and its scoped semaphores. The run of the body reads them as
  seventeen read tokens of each source (one per DMA semaphore a copy out of the source may complete on), the
  pieces as the program spells their slices, the seven staging buffers whole, and the eighteen DMA semaphores'
  counters at zero. This module states both forms and passes from one to the other and back.
-/
import proofs.«214288_g455266533575_cont_8to1_b_1966_18_alg».proof.Proof.KIPieces
import proofs.«214288_g455266533575_cont_8to1_b_1966_18_alg».proof.Proof.KITilePieces
import Idealize.ShloMosaic.Lib.Transfers

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S516x16384 EltTy.f32)
local notation "qW" => (Memref.whole Cert.KernelIdeal.main_v1_scv : Memref Cert.KernelIdeal.sig Kind.scVector Space.hbm Cert.KernelIdeal.S516x65536 EltTy.f32)
local notation "oW" => (Memref.whole Cert.KernelIdeal.main_v2_scv : Memref Cert.KernelIdeal.sig Kind.scVector Space.hbm Cert.KernelIdeal.S516x65536 EltTy.f32)
local notation "b0W" => (Memref.whole Cert.KernelIdeal.cc0_scratch0 : Memref Cert.KernelIdeal.sig Kind.scVector Space.vmem Cert.KernelIdeal.S8x2048 EltTy.f32)
local notation "b1W" => (Memref.whole Cert.KernelIdeal.cc0_scratch1 : Memref Cert.KernelIdeal.sig Kind.scVector Space.vmem Cert.KernelIdeal.S8x2048 EltTy.f32)
local notation "b2W" => (Memref.whole Cert.KernelIdeal.cc0_scratch2 : Memref Cert.KernelIdeal.sig Kind.scVector Space.vmem Cert.KernelIdeal.S8x2048 EltTy.f32)
local notation "b3W" => (Memref.whole Cert.KernelIdeal.cc0_scratch3 : Memref Cert.KernelIdeal.sig Kind.scVector Space.vmem Cert.KernelIdeal.S8x2048 EltTy.f32)
local notation "b4W" => (Memref.whole Cert.KernelIdeal.cc0_scratch4 : Memref Cert.KernelIdeal.sig Kind.scVector Space.vmem Cert.KernelIdeal.S8x2048 EltTy.f32)
local notation "b5W" => (Memref.whole Cert.KernelIdeal.cc0_scratch5 : Memref Cert.KernelIdeal.sig Kind.scVector Space.vmem Cert.KernelIdeal.S8x2048 EltTy.f32)
local notation "b6W" => (Memref.whole Cert.KernelIdeal.cc0_scratch6 : Memref Cert.KernelIdeal.sig Kind.scVector Space.vmem Cert.KernelIdeal.S8x2048 EltTy.f32)

/-! ## A listed part of a `bigSep` -/

/-- Out of a `bigSep` over a finite set, a duplicate-free list of its members: the list's chain, and the rest. -/
theorem bigSep_take_list {M : Type} [URA M] {I : Type} [DecidableEq I] (s : Finset I) (l : List I) (hl : l.Nodup)
    (hs : ∀ i ∈ l, i ∈ s) (Φ : I → sProp M) :
    bigSep s Φ = iprop(bigSepL l Φ ∗ bigSep (s \ l.toFinset) Φ) := by
  rw [SparseCore.bigSep_sdiff_split' (s := s) (t := l.toFinset) (fun i hi => hs i (List.mem_toFinset.mp hi)),
    bigSep_eq_bigSepL l hl]

/-! ## Read tokens of a source -/

/-- Seventeen read tokens of the share `q` of the array at `ℓ`, numbered as the DMA semaphores are. -/
def toks17 (ℓ : Loc nD τ sig) (q : PosShare TreeShare) (f : Buf (Elt F) ℓ) : sProp 𝕄 :=
  iprop((ℓ ↦{Transfers.shareTokN q 0} f)
    ∗ (ℓ ↦{Transfers.shareTokN q 1} f)
    ∗ (ℓ ↦{Transfers.shareTokN q 2} f)
    ∗ (ℓ ↦{Transfers.shareTokN q 3} f)
    ∗ (ℓ ↦{Transfers.shareTokN q 4} f)
    ∗ (ℓ ↦{Transfers.shareTokN q 5} f)
    ∗ (ℓ ↦{Transfers.shareTokN q 6} f)
    ∗ (ℓ ↦{Transfers.shareTokN q 7} f)
    ∗ (ℓ ↦{Transfers.shareTokN q 8} f)
    ∗ (ℓ ↦{Transfers.shareTokN q 9} f)
    ∗ (ℓ ↦{Transfers.shareTokN q 10} f)
    ∗ (ℓ ↦{Transfers.shareTokN q 11} f)
    ∗ (ℓ ↦{Transfers.shareTokN q 12} f)
    ∗ (ℓ ↦{Transfers.shareTokN q 13} f)
    ∗ (ℓ ↦{Transfers.shareTokN q 14} f)
    ∗ (ℓ ↦{Transfers.shareTokN q 15} f)
    ∗ (ℓ ↦{Transfers.shareTokN q 16} f))

/-- A share of an array is seventeen read tokens of it and what remains. -/
theorem toks17_split (ℓ : Loc nD τ sig) (q : PosShare TreeShare) (f : Buf (Elt F) ℓ) :
    (ℓ ↦{q} f : sProp 𝕄) ⊣⊢ iprop((ℓ ↦{Transfers.shareDrop q 17} f) ∗ toks17 ℓ q f) := by
  have e : BI.bigSep (Finset.range 17) (fun i => (ℓ ↦{Transfers.shareTokN q i} f : sProp 𝕄)) = toks17 ℓ q f :=
    (bigSep_eq_bigSepL_of_eq (M := 𝕄) [0, 1, 2, 3, 4, 5, 6, 7, 8, 9, 10, 11, 12, 13, 14, 15, 16] (by decide) (by decide) _).trans rfl
  have h : (ℓ ↦{q} f : sProp 𝕄)
      ⊣⊢ iprop((ℓ ↦{Transfers.shareDrop q 17} f) ∗ BI.bigSep (Finset.range 17) (fun i => ℓ ↦{Transfers.shareTokN q i} f)) :=
    Transfers.pointsTo_toks_range q 17
  rw [e] at h
  exact h

/-! ## The staging buffers and the DMA semaphores among the subcore's own -/

/-- The processor of the vector subcore at grid point `L`. -/
abbrev pV (L : grid0.Coords) : Proc τ := .scVector (cV L) (jV L)

/-- The seven staging buffers. -/
def stagingRefs : List (Ref sig .scVector) :=
  [cc0_scratch0, cc0_scratch1, cc0_scratch2, cc0_scratch3, cc0_scratch4, cc0_scratch5, cc0_scratch6]

/-- The eighteen DMA semaphores: seven for the copies in, seven for the copies out, four of the last piece's. -/
def dmaSems : List (DmaSem sig) :=
  [cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scoped0.sem, cc0_scoped1.sem, cc0_scoped2.sem, cc0_scoped3.sem]

/-- The subcore's own buffers other than the staging buffers, each whole at some contents. -/
def bufsRest (d : Dev nD) (L : grid0.Coords) : sProp 𝕄 :=
  bigSep (ownRefs (pV L) \ (stagingRefs.map (Proc.devRef (pV L))).toFinset)
    fun b => iprop(∃ f, ((d, b) : Loc nD τ sig) ↦{fullShare} f)

/-- The subcore's own scoped semaphore cells other than the eighteen, each at zero. -/
def semsRest (d : Dev nD) (L : grid0.Coords) : sProp 𝕄 :=
  bigSep (ownCells (thr d L) \ (dmaSems.map fun k => ((thr d L, SemLoc.dma k) : GSem nD τ sig)).toFinset)
    fun g => semVal g 0

/-- The seven staging buffers, each whole at some contents. -/
def bufs7 (d : Dev nD) (L : grid0.Coords) : sProp 𝕄 :=
  iprop((∃ f, (b0W).view.loc (thr d L) ↦{fullShare} f)
    ∗ (∃ f, (b1W).view.loc (thr d L) ↦{fullShare} f)
    ∗ (∃ f, (b2W).view.loc (thr d L) ↦{fullShare} f)
    ∗ (∃ f, (b3W).view.loc (thr d L) ↦{fullShare} f)
    ∗ (∃ f, (b4W).view.loc (thr d L) ↦{fullShare} f)
    ∗ (∃ f, (b5W).view.loc (thr d L) ↦{fullShare} f)
    ∗ (∃ f, (b6W).view.loc (thr d L) ↦{fullShare} f))

/-- The eighteen DMA semaphores' counters at zero. -/
def sems18 (d : Dev nD) (L : grid0.Coords) : sProp 𝕄 :=
  iprop(semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scratch13.sem) 0
    ∗ semVal (thr d L, SemLoc.dma cc0_scratch14.sem) 0
    ∗ semVal (thr d L, SemLoc.dma cc0_scratch15.sem) 0
    ∗ semVal (thr d L, SemLoc.dma cc0_scratch16.sem) 0
    ∗ semVal (thr d L, SemLoc.dma cc0_scratch17.sem) 0
    ∗ semVal (thr d L, SemLoc.dma cc0_scratch18.sem) 0
    ∗ semVal (thr d L, SemLoc.dma cc0_scratch19.sem) 0
    ∗ semVal (thr d L, SemLoc.dma cc0_scratch20.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0)

theorem ownBufs_V (d : Dev nD) (L : grid0.Coords) :
    (ownBufs (thr d L) : sProp 𝕄) = iprop(bufs7 d L ∗ bufsRest d L) := by
  unfold SparseCore.Cfg.ownBufs bufsRest bufs7
  refine (bigSep_take_list _ (stagingRefs.map (Proc.devRef (pV L)))
    ((by decide : stagingRefs.Nodup).map (Proc.devRef_injective _)) ?_ _).trans rfl
  intro b hb
  simp only [stagingRefs, List.map_cons, List.map_nil, List.mem_cons, List.not_mem_nil, or_false] at hb
  rcases hb with rfl | rfl | rfl | rfl | rfl | rfl | rfl <;> exact SparseCore.Cfg.mem_ownRefs_of_owner rfl

theorem ownSems0_V (d : Dev nD) (L : grid0.Coords) :
    (ownSems0 (thr d L) : sProp 𝕄) = iprop(sems18 d L ∗ semsRest d L) := by
  unfold SparseCore.Cfg.ownSems0 semsRest sems18
  refine (bigSep_take_list _ (dmaSems.map fun k => ((thr d L, SemLoc.dma k) : GSem nD τ sig))
    ((by decide : dmaSems.Nodup).map fun a b e => SemLoc.dma.inj (Prod.mk.inj e).2) ?_ _).trans rfl
  have hsc : ∀ k : DmaSem sig, (SemLoc.dma k : SemLoc sig).isScoped .scVector = true := by decide
  intro g hg
  obtain ⟨k, -, rfl⟩ := List.mem_map.mp hg
  exact mem_ownCells.mpr ⟨rfl, hsc k⟩

/-! ## The result array's pieces as the program spells them -/

/-- Equal memrefs have the same points-to of their own elements (the contents at either one's location). -/
theorem pts_memref_eq (d : Dev nD) (c : Fin τ.nSC) (i : Fin τ.nSub) {s : Shape} {P Q : Memref sig .scVector .hbm s .f32} (h : P = Q)
    {f : Buf (Elt F) (P.view.loc (V d c i))} {g : Buf (Elt F) (Q.view.loc (V d c i))} (hf : HEq f g) :
    (P.view.loc (V d c i) ↦[P.view.set]{fullShare} f : sProp 𝕄) = (Q.view.loc (V d c i) ↦[Q.view.set]{fullShare} g) := by
  subst h; cases hf; rfl

theorem sep_eq_step {A A' B B' : sProp 𝕄} (hA : A = A') (hB : B = B') : iprop(A ∗ B) = iprop(A' ∗ B') := by
  rw [hA, hB]

set_option maxHeartbeats 2000000 in
/-- The subcore's 64 pieces in closed form are the pieces the program names, in program order. -/
theorem pieces_spell (d : Dev nD) (L : grid0.Coords) (f : Buf (Elt F) (oLoc d)) :
    (bigSep (Finset.range 64) fun p => (oLoc d ↦[(pieceM (wid L) p).view.set]{fullShare} f : sProp 𝕄)) = progPieces d L f := by
  rw [bigSep_eq_bigSepL_of_eq (M := 𝕄) [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]
  unfold progPieces
  refine sep_eq_step (pts_memref_eq d (cV L) (jV L) (progOut_eq L 0 (by decide)) HEq.rfl).symm ?_
  refine sep_eq_step (pts_memref_eq d (cV L) (jV L) (progOut_eq L 1 (by decide)) HEq.rfl).symm ?_
  refine sep_eq_step (pts_memref_eq d (cV L) (jV L) (progOut_eq L 2 (by decide)) HEq.rfl).symm ?_
  refine sep_eq_step (pts_memref_eq d (cV L) (jV L) (progOut_eq L 3 (by decide)) HEq.rfl).symm ?_
  refine sep_eq_step (pts_memref_eq d (cV L) (jV L) (progOut_eq L 4 (by decide)) HEq.rfl).symm ?_
  refine sep_eq_step (pts_memref_eq d (cV L) (jV L) (progOut_eq L 5 (by decide)) HEq.rfl).symm ?_
  refine sep_eq_step (pts_memref_eq d (cV L) (jV L) (progOut_eq L 6 (by decide)) HEq.rfl).symm ?_
  refine sep_eq_step (pts_memref_eq d (cV L) (jV L) (progOut_eq L 7 (by decide)) HEq.rfl).symm ?_
  refine sep_eq_step (pts_memref_eq d (cV L) (jV L) (progOut_eq L 8 (by decide)) HEq.rfl).symm ?_
  refine sep_eq_step (pts_memref_eq d (cV L) (jV L) (progOut_eq L 9 (by decide)) HEq.rfl).symm ?_
  refine sep_eq_step (pts_memref_eq d (cV L) (jV L) (progOut_eq L 10 (by decide)) HEq.rfl).symm ?_
  refine sep_eq_step (pts_memref_eq d (cV L) (jV L) (progOut_eq L 11 (by decide)) HEq.rfl).symm ?_
  refine sep_eq_step (pts_memref_eq d (cV L) (jV L) (progOut_eq L 12 (by decide)) HEq.rfl).symm ?_
  refine sep_eq_step (pts_memref_eq d (cV L) (jV L) (progOut_eq L 13 (by decide)) HEq.rfl).symm ?_
  refine sep_eq_step (pts_memref_eq d (cV L) (jV L) (progOut_eq L 14 (by decide)) HEq.rfl).symm ?_
  refine sep_eq_step (pts_memref_eq d (cV L) (jV L) (progOut_eq L 15 (by decide)) HEq.rfl).symm ?_
  refine sep_eq_step (pts_memref_eq d (cV L) (jV L) (progOut_eq L 16 (by decide)) HEq.rfl).symm ?_
  refine sep_eq_step (pts_memref_eq d (cV L) (jV L) (progOut_eq L 17 (by decide)) HEq.rfl).symm ?_
  refine sep_eq_step (pts_memref_eq d (cV L) (jV L) (progOut_eq L 18 (by decide)) HEq.rfl).symm ?_
  refine sep_eq_step (pts_memref_eq d (cV L) (jV L) (progOut_eq L 19 (by decide)) HEq.rfl).symm ?_
  refine sep_eq_step (pts_memref_eq d (cV L) (jV L) (progOut_eq L 20 (by decide)) HEq.rfl).symm ?_
  refine sep_eq_step (pts_memref_eq d (cV L) (jV L) (progOut_eq L 21 (by decide)) HEq.rfl).symm ?_
  refine sep_eq_step (pts_memref_eq d (cV L) (jV L) (progOut_eq L 22 (by decide)) HEq.rfl).symm ?_
  refine sep_eq_step (pts_memref_eq d (cV L) (jV L) (progOut_eq L 23 (by decide)) HEq.rfl).symm ?_
  refine sep_eq_step (pts_memref_eq d (cV L) (jV L) (progOut_eq L 24 (by decide)) HEq.rfl).symm ?_
  refine sep_eq_step (pts_memref_eq d (cV L) (jV L) (progOut_eq L 25 (by decide)) HEq.rfl).symm ?_
  refine sep_eq_step (pts_memref_eq d (cV L) (jV L) (progOut_eq L 26 (by decide)) HEq.rfl).symm ?_
  refine sep_eq_step (pts_memref_eq d (cV L) (jV L) (progOut_eq L 27 (by decide)) HEq.rfl).symm ?_
  refine sep_eq_step (pts_memref_eq d (cV L) (jV L) (progOut_eq L 28 (by decide)) HEq.rfl).symm ?_
  refine sep_eq_step (pts_memref_eq d (cV L) (jV L) (progOut_eq L 29 (by decide)) HEq.rfl).symm ?_
  refine sep_eq_step (pts_memref_eq d (cV L) (jV L) (progOut_eq L 30 (by decide)) HEq.rfl).symm ?_
  refine sep_eq_step (pts_memref_eq d (cV L) (jV L) (progOut_eq L 31 (by decide)) HEq.rfl).symm ?_
  refine sep_eq_step (pts_memref_eq d (cV L) (jV L) (progOut_eq L 32 (by decide)) HEq.rfl).symm ?_
  refine sep_eq_step (pts_memref_eq d (cV L) (jV L) (progOut_eq L 33 (by decide)) HEq.rfl).symm ?_
  refine sep_eq_step (pts_memref_eq d (cV L) (jV L) (progOut_eq L 34 (by decide)) HEq.rfl).symm ?_
  refine sep_eq_step (pts_memref_eq d (cV L) (jV L) (progOut_eq L 35 (by decide)) HEq.rfl).symm ?_
  refine sep_eq_step (pts_memref_eq d (cV L) (jV L) (progOut_eq L 36 (by decide)) HEq.rfl).symm ?_
  refine sep_eq_step (pts_memref_eq d (cV L) (jV L) (progOut_eq L 37 (by decide)) HEq.rfl).symm ?_
  refine sep_eq_step (pts_memref_eq d (cV L) (jV L) (progOut_eq L 38 (by decide)) HEq.rfl).symm ?_
  refine sep_eq_step (pts_memref_eq d (cV L) (jV L) (progOut_eq L 39 (by decide)) HEq.rfl).symm ?_
  refine sep_eq_step (pts_memref_eq d (cV L) (jV L) (progOut_eq L 40 (by decide)) HEq.rfl).symm ?_
  refine sep_eq_step (pts_memref_eq d (cV L) (jV L) (progOut_eq L 41 (by decide)) HEq.rfl).symm ?_
  refine sep_eq_step (pts_memref_eq d (cV L) (jV L) (progOut_eq L 42 (by decide)) HEq.rfl).symm ?_
  refine sep_eq_step (pts_memref_eq d (cV L) (jV L) (progOut_eq L 43 (by decide)) HEq.rfl).symm ?_
  refine sep_eq_step (pts_memref_eq d (cV L) (jV L) (progOut_eq L 44 (by decide)) HEq.rfl).symm ?_
  refine sep_eq_step (pts_memref_eq d (cV L) (jV L) (progOut_eq L 45 (by decide)) HEq.rfl).symm ?_
  refine sep_eq_step (pts_memref_eq d (cV L) (jV L) (progOut_eq L 46 (by decide)) HEq.rfl).symm ?_
  refine sep_eq_step (pts_memref_eq d (cV L) (jV L) (progOut_eq L 47 (by decide)) HEq.rfl).symm ?_
  refine sep_eq_step (pts_memref_eq d (cV L) (jV L) (progOut_eq L 48 (by decide)) HEq.rfl).symm ?_
  refine sep_eq_step (pts_memref_eq d (cV L) (jV L) (progOut_eq L 49 (by decide)) HEq.rfl).symm ?_
  refine sep_eq_step (pts_memref_eq d (cV L) (jV L) (progOut_eq L 50 (by decide)) HEq.rfl).symm ?_
  refine sep_eq_step (pts_memref_eq d (cV L) (jV L) (progOut_eq L 51 (by decide)) HEq.rfl).symm ?_
  refine sep_eq_step (pts_memref_eq d (cV L) (jV L) (progOut_eq L 52 (by decide)) HEq.rfl).symm ?_
  refine sep_eq_step (pts_memref_eq d (cV L) (jV L) (progOut_eq L 53 (by decide)) HEq.rfl).symm ?_
  refine sep_eq_step (pts_memref_eq d (cV L) (jV L) (progOut_eq L 54 (by decide)) HEq.rfl).symm ?_
  refine sep_eq_step (pts_memref_eq d (cV L) (jV L) (progOut_eq L 55 (by decide)) HEq.rfl).symm ?_
  refine sep_eq_step (pts_memref_eq d (cV L) (jV L) (progOut_eq L 56 (by decide)) HEq.rfl).symm ?_
  refine sep_eq_step (pts_memref_eq d (cV L) (jV L) (progOut_eq L 57 (by decide)) HEq.rfl).symm ?_
  refine sep_eq_step (pts_memref_eq d (cV L) (jV L) (progOut_eq L 58 (by decide)) HEq.rfl).symm ?_
  refine sep_eq_step (pts_memref_eq d (cV L) (jV L) (progOut_eq L 59 (by decide)) HEq.rfl).symm ?_
  refine sep_eq_step (pts_memref_eq d (cV L) (jV L) (progOut_eq L 60 (by decide)) HEq.rfl).symm ?_
  refine sep_eq_step (pts_memref_eq d (cV L) (jV L) (progOut_eq L 61 (by decide)) HEq.rfl).symm ?_
  refine sep_eq_step (pts_memref_eq d (cV L) (jV L) (progOut_eq L 62 (by decide)) HEq.rfl).symm ?_
  exact (pts_memref_eq d (cV L) (jV L) (progOut_eq L 63 (by decide)) HEq.rfl).symm

/-! ## What the run of the body starts from and ends at -/

variable (m : (ℓ : Loc nD τ sig) → Buf (Elt F) ℓ)
variable [FloatOps F]

/-- What stays aside during the run: what remains of each source's share once the tokens are taken, and the
    subcore's other buffers and semaphore cells. -/
def tileAside (d : Dev nD) (L : grid0.Coords) : sProp 𝕄 :=
  iprop((xLoc d ↦{Transfers.shareDrop (tq (wid L)) 17} xT m d) ∗ (qLoc d ↦{Transfers.shareDrop (tq (wid L)) 17} qT m d)
    ∗ bufsRest d L ∗ semsRest d L)

/-- What the run of the body starts from. `lastP` is the last piece (rows 512 .. 515) at the launch contents, through
    the slice the branch taken names it by. -/
def tilePre (lastP : sProp 𝕄) (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L))) : sProp 𝕄 :=
  iprop(Transfers.MayWaits (thr d L) (none : HIx 1) O
    ∗ toks17 ((xW).view.loc (thr d L)) (tq (wid L)) (xT m d)
    ∗ toks17 ((qW).view.loc (thr d L)) (tq (wid L)) (qT m d)
    ∗ progPieces d L (m (oLoc d))
    ∗ lastP
    ∗ ((b0W).view.loc (thr d L) ↦{fullShare} fb0)
    ∗ ((b1W).view.loc (thr d L) ↦{fullShare} fb1)
    ∗ ((b2W).view.loc (thr d L) ↦{fullShare} fb2)
    ∗ ((b3W).view.loc (thr d L) ↦{fullShare} fb3)
    ∗ ((b4W).view.loc (thr d L) ↦{fullShare} fb4)
    ∗ ((b5W).view.loc (thr d L) ↦{fullShare} fb5)
    ∗ ((b6W).view.loc (thr d L) ↦{fullShare} fb6)
    ∗ sems18 d L
    ∗ owes (thr d L) O W
    ∗ tileAside m d L)

/-- What the run of the body ends at: the tokens back, every piece at the target contents, the staging buffers at
    some contents, the counters back at zero, waits at index `none` recorded. -/
def tilePost (lastP : sProp 𝕄) (d : Dev nD) (L : grid0.Coords) (O : CellTallies nD τ sig (HIx 1)) (W : Waits sig (HIx 1)) : sProp 𝕄 :=
  iprop(toks17 ((xW).view.loc (thr d L)) (tq (wid L)) (xT m d)
    ∗ toks17 ((qW).view.loc (thr d L)) (tq (wid L)) (qT m d)
    ∗ progPieces d L (Gt m d)
    ∗ lastP
    ∗ bufs7 d L
    ∗ sems18 d L
    ∗ (∃ W', ⌜∀ p ∈ W', p ∈ W ∨ p.2 = none⌝ ∗ owes (thr d L) O W')
    ∗ tileAside m d L)

/-- From what the launch hands the subcore to what the run starts from. -/
theorem tile_pre (hF : (K (F := F)).Facts) (d : Dev nD) (L : grid0.Coords) (O : CellTallies nD τ sig (HIx 1)) (W : Waits sig (HIx 1))
    (hO : ∀ g, O g none = 0) (lastP : sProp 𝕄)
    (hlast : (oLoc d ↦[(tailM (wid L)).view.set]{fullShare} m (oLoc d) : sProp 𝕄) ⊢ lastP) :
    iprop(levAts (K (F := F)).L (K (F := F)).lev ∗ emp ∗ goRes m d (wid L) ∗ scopedBufs (thr d L) ∗ scopedSems0 (thr d L) ∗ owes (thr d L) O W)
      ⊢ ∃ fb0 fb1 fb2 fb3 fb4 fb5 fb6, tilePre m lastP d L O W fb0 fb1 fb2 fb3 fb4 fb5 fb6 := by
  rw [(K (F := F)).scopedBufs_V hF d (cV L) (jV L), SparseCore.Cfg.scopedSems0_V (Val := Elt F) d (cV L) (jV L), ownSems0_V, ownBufs_V]
  unfold goRes outRes tilePre tileAside bufs7
  rw [pieces_spell]
  iintro ⟨#Hlv, -, ⟨Hx, Hq, Hps, Ht⟩, ⟨⟨⟨%fb0, Hb0⟩, ⟨%fb1, Hb1⟩, ⟨%fb2, Hb2⟩, ⟨%fb3, Hb3⟩, ⟨%fb4, Hb4⟩, ⟨%fb5, Hb5⟩, ⟨%fb6, Hb6⟩⟩, Hbr⟩, ⟨Hs, Hsr⟩, HO⟩
  ihave Hmw := ((K (F := F)).mayWaits_none (thr := thr d L) hO) $$ Hlv
  ihave Hx' := (toks17_split _ _ _).1 $$ Hx
  icases Hx' with ⟨Hxd, Hxt⟩
  ihave Hq' := (toks17_split _ _ _).1 $$ Hq
  icases Hq' with ⟨Hqd, Hqt⟩
  ihave Ht' := hlast $$ Ht
  iexists fb0, fb1, fb2, fb3, fb4, fb5, fb6
  isplitl [Hmw]; · iexact Hmw
  isplitl [Hxt]; · iexact Hxt
  isplitl [Hqt]; · iexact Hqt
  isplitl [Hps]; · iexact Hps
  isplitl [Ht']; · iexact Ht'
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hs]; · iexact Hs
  isplitl [HO]; · iexact HO
  isplitl [Hxd]; · iexact Hxd
  isplitl [Hqd]; · iexact Hqd
  isplitl [Hbr]; · iexact Hbr
  iexact Hsr

/-- From what the run ends at to what the subcore hands back. -/
theorem tile_post (hF : (K (F := F)).Facts) (d : Dev nD) (L : grid0.Coords) (O : CellTallies nD τ sig (HIx 1)) (W : Waits sig (HIx 1))
    (lastP : sProp 𝕄) (hlast : lastP ⊢ (oLoc d ↦[(tailM (wid L)).view.set]{fullShare} Gt m d : sProp 𝕄)) :
    tilePost m lastP d L O W
      ⊢ iprop(tdRes m d (wid L) ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tdRes outRes tilePost tileAside
  rw [pieces_spell]
  iintro ⟨Hxt, Hqt, Hps, Ht, Hb, Hs, HW, Hxd, Hqd, Hbr, Hsr⟩
  ihave Hx := (toks17_split _ _ _).2 $$ [Hxd Hxt]
  · isplitl [Hxd]; · iexact Hxd
    iexact Hxt
  ihave Hq := (toks17_split _ _ _).2 $$ [Hqd Hqt]
  · isplitl [Hqd]; · iexact Hqd
    iexact Hqt
  ihave Ht' := hlast $$ Ht
  isplitl [Hx Hq Hps Ht']
  · isplitl [Hx]; · iexact Hx
    isplitl [Hq]; · iexact Hq
    isplitl [Hps]; · iexact Hps
    iexact Ht'
  isplitl [Hb Hbr]
  · isplitl [Hb]; · iexact Hb
    iexact Hbr
  isplitl [Hs Hsr]
  · isplitl [Hs]; · iexact Hs
    iexact Hsr
  iexact HW

/-- One more wait at index `none` keeps the recorded waits within the launch's or at `none`. -/
theorem waits_insert {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

end Cert.KIProof

end
-- ==== Proof.KITile.lean ====
/-
  One vector subcore's run of the kernel body. The subcore copies 64 blocks of 8 x 2048 from the two transposed
  sources into its rows of the result array through seven staging buffers, three copies in ahead of the copies
  out, and then, under a guard on its number, one block of 4 x 2048 into the last four rows. Every copy is a
  transfer and its wait: a copy in lends one read token of its source and the staging buffer whole, a copy out
  lends the staging buffer and its piece of the result array, and each wait brings back what was lent. What a
  copy out leaves in its piece is the target contents there, because what the staging buffer held when the copy
  out was issued is the block of the source that the copy in before it had fetched. At the end the tokens, the
  buffers and the counters are as they were, and every wait recorded is at index `none`.
-/
import proofs.«214288_g455266533575_cont_8to1_b_1966_18_alg».proof.Proof.KITileRes
import proofs.«214288_g455266533575_cont_8to1_b_1966_18_alg».proof.Proof.KIValue
import Idealize.ShloMosaic.Lib.Tactic

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S516x16384 EltTy.f32)
local notation "qW" => (Memref.whole Cert.KernelIdeal.main_v1_scv : Memref Cert.KernelIdeal.sig Kind.scVector Space.hbm Cert.KernelIdeal.S516x65536 EltTy.f32)
local notation "oW" => (Memref.whole Cert.KernelIdeal.main_v2_scv : Memref Cert.KernelIdeal.sig Kind.scVector Space.hbm Cert.KernelIdeal.S516x65536 EltTy.f32)
local notation "b0W" => (Memref.whole Cert.KernelIdeal.cc0_scratch0 : Memref Cert.KernelIdeal.sig Kind.scVector Space.vmem Cert.KernelIdeal.S8x2048 EltTy.f32)
local notation "b1W" => (Memref.whole Cert.KernelIdeal.cc0_scratch1 : Memref Cert.KernelIdeal.sig Kind.scVector Space.vmem Cert.KernelIdeal.S8x2048 EltTy.f32)
local notation "b2W" => (Memref.whole Cert.KernelIdeal.cc0_scratch2 : Memref Cert.KernelIdeal.sig Kind.scVector Space.vmem Cert.KernelIdeal.S8x2048 EltTy.f32)
local notation "b3W" => (Memref.whole Cert.KernelIdeal.cc0_scratch3 : Memref Cert.KernelIdeal.sig Kind.scVector Space.vmem Cert.KernelIdeal.S8x2048 EltTy.f32)
local notation "b4W" => (Memref.whole Cert.KernelIdeal.cc0_scratch4 : Memref Cert.KernelIdeal.sig Kind.scVector Space.vmem Cert.KernelIdeal.S8x2048 EltTy.f32)
local notation "b5W" => (Memref.whole Cert.KernelIdeal.cc0_scratch5 : Memref Cert.KernelIdeal.sig Kind.scVector Space.vmem Cert.KernelIdeal.S8x2048 EltTy.f32)
local notation "b6W" => (Memref.whole Cert.KernelIdeal.cc0_scratch6 : Memref Cert.KernelIdeal.sig Kind.scVector Space.vmem Cert.KernelIdeal.S8x2048 EltTy.f32)

variable (m : (ℓ : Loc nD τ sig) → Buf (Elt F) ℓ)
variable [FloatOps F]

/-- Close a goal that is a chain `P₁ ∗ … ∗ Pₙ` from hypotheses stating its members, in order. -/
syntax "ichain " "[" ident,+ "]" : tactic
macro_rules
  | `(tactic| ichain [$h]) => `(tactic| iexact $h)
  | `(tactic| ichain [$h, $hs,*]) => `(tactic| (isplitl [$h]; (· iexact $h); ichain [$hs,*]))

set_option maxHeartbeats 8000000 in
/-- The run on a subcore numbered below 8: the last block comes from the transposed incoming rows. -/
theorem run_low (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L)))
    (k0_h1 : k0_cond1 L = 1#1) (k0_h2 : ¬ k0_cond2 L = 1#1) :
    tilePre m (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} m (oLoc d)) d L O W fb0 fb1 fb2 fb3 fb4 fb5 fb6
      ⊢ wp frame (wpE (defs₀ (F := F)) 𝒱₀ (thr d L) none) Set.univ
          (cc0__fifo_body L xW (Memref.isWhole_whole _) qW (Memref.isWhole_whole _) oW (Memref.isWhole_whole _)
            b0W (Memref.isWhole_whole _) b1W (Memref.isWhole_whole _) b2W (Memref.isWhole_whole _) b3W (Memref.isWhole_whole _) b4W (Memref.isWhole_whole _) b5W (Memref.isWhole_whole _) b6W (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => tilePost m (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} Gt m d) d L O W := by
  rw [cc0__fifo_body_eq_skeleton]; unfold cc0__fifo_body_skel
  delta tilePre
  delta toks17 progPieces sems18
  iintro ⟨Hmw, ⟨Hx0, Hx1, Hx2, Hx3, Hx4, Hx5, Hx6, Hx7, Hx8, Hx9, Hx10, Hx11, Hx12, Hx13, Hx14, Hx15, Hx16⟩, ⟨Hq0, Hq1, Hq2, Hq3, Hq4, Hq5, Hq6, Hq7, Hq8, Hq9, Hq10, Hq11, Hq12, Hq13, Hq14, Hq15, Hq16⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63⟩,
    Ht, Hb0, Hb1, Hb2, Hb3, Hb4, Hb5, Hb6, ⟨Hs0, Hs1, Hs2, Hs3, Hs4, Hs5, Hs6, Hs7, Hs8, Hs9, Hs10, Hs11, Hs12, Hs13, Hs14, Hs15, Hs16, Hs17⟩, HO, Haside⟩
  sl_exec
  sl_step
  delta tilePost
  delta toks17 progPieces bufs7 sems18
  sl_unfold_run_names
  isplitl [Hx0 Hx1 Hx2 Hx3 Hx4 Hx5 Hx6 Hx7 Hx8 Hx9 Hx10 Hx11 Hx12 Hx13 Hx14 Hx15 Hx16]; · ichain [Hx0, Hx1, Hx2, Hx3, Hx4, Hx5, Hx6, Hx7, Hx8, Hx9, Hx10, Hx11, Hx12, Hx13, Hx14, Hx15, Hx16]
  isplitl [Hq0 Hq1 Hq2 Hq3 Hq4 Hq5 Hq6 Hq7 Hq8 Hq9 Hq10 Hq11 Hq12 Hq13 Hq14 Hq15 Hq16]; · ichain [Hq0, Hq1, Hq2, Hq3, Hq4, Hq5, Hq6, Hq7, Hq8, Hq9, Hq10, Hq11, Hq12, Hq13, Hq14, Hq15, Hq16]
  isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hp30 Hp31 Hp32 Hp33 Hp34 Hp35 Hp36 Hp37 Hp38 Hp39 Hp40 Hp41 Hp42 Hp43 Hp44 Hp45 Hp46 Hp47 Hp48 Hp49 Hp50 Hp51 Hp52 Hp53 Hp54 Hp55 Hp56 Hp57 Hp58 Hp59 Hp60 Hp61 Hp62 Hp63]
  · isplitl [Hp0]; · iapply (Entails.of_eq (pointsTo_congr (copy_x m d (by rfl) (by rfl) rfl))) $$ Hp0
    isplitl [Hp1]; · iapply (Entails.of_eq (pointsTo_congr (copy_x m d (by rfl) (by rfl) rfl))) $$ Hp1
    isplitl [Hp2]; · iapply (Entails.of_eq (pointsTo_congr (copy_x m d (by rfl) (by rfl) rfl))) $$ Hp2
    isplitl [Hp3]; · iapply (Entails.of_eq (pointsTo_congr (copy_x m d (by rfl) (by rfl) rfl))) $$ Hp3
    isplitl [Hp4]; · iapply (Entails.of_eq (pointsTo_congr (copy_x m d (by rfl) (by rfl) rfl))) $$ Hp4
    isplitl [Hp5]; · iapply (Entails.of_eq (pointsTo_congr (copy_x m d (by rfl) (by rfl) rfl))) $$ Hp5
    isplitl [Hp6]; · iapply (Entails.of_eq (pointsTo_congr (copy_x m d (by rfl) (by rfl) rfl))) $$ Hp6
    isplitl [Hp7]; · iapply (Entails.of_eq (pointsTo_congr (copy_x m d (by rfl) (by rfl) rfl))) $$ Hp7
    isplitl [Hp8]; · iapply (Entails.of_eq (pointsTo_congr (copy_q m d (by rfl) (by rfl) rfl))) $$ Hp8
    isplitl [Hp9]; · iapply (Entails.of_eq (pointsTo_congr (copy_q m d (by rfl) (by rfl) rfl))) $$ Hp9
    isplitl [Hp10]; · iapply (Entails.of_eq (pointsTo_congr (copy_q m d (by rfl) (by rfl) rfl))) $$ Hp10
    isplitl [Hp11]; · iapply (Entails.of_eq (pointsTo_congr (copy_q m d (by rfl) (by rfl) rfl))) $$ Hp11
    isplitl [Hp12]; · iapply (Entails.of_eq (pointsTo_congr (copy_q m d (by rfl) (by rfl) rfl))) $$ Hp12
    isplitl [Hp13]; · iapply (Entails.of_eq (pointsTo_congr (copy_q m d (by rfl) (by rfl) rfl))) $$ Hp13
    isplitl [Hp14]; · iapply (Entails.of_eq (pointsTo_congr (copy_q m d (by rfl) (by rfl) rfl))) $$ Hp14
    isplitl [Hp15]; · iapply (Entails.of_eq (pointsTo_congr (copy_q m d (by rfl) (by rfl) rfl))) $$ Hp15
    isplitl [Hp16]; · iapply (Entails.of_eq (pointsTo_congr (copy_q m d (by rfl) (by rfl) rfl))) $$ Hp16
    isplitl [Hp17]; · iapply (Entails.of_eq (pointsTo_congr (copy_q m d (by rfl) (by rfl) rfl))) $$ Hp17
    isplitl [Hp18]; · iapply (Entails.of_eq (pointsTo_congr (copy_q m d (by rfl) (by rfl) rfl))) $$ Hp18
    isplitl [Hp19]; · iapply (Entails.of_eq (pointsTo_congr (copy_q m d (by rfl) (by rfl) rfl))) $$ Hp19
    isplitl [Hp20]; · iapply (Entails.of_eq (pointsTo_congr (copy_q m d (by rfl) (by rfl) rfl))) $$ Hp20
    isplitl [Hp21]; · iapply (Entails.of_eq (pointsTo_congr (copy_q m d (by rfl) (by rfl) rfl))) $$ Hp21
    isplitl [Hp22]; · iapply (Entails.of_eq (pointsTo_congr (copy_q m d (by rfl) (by rfl) rfl))) $$ Hp22
    isplitl [Hp23]; · iapply (Entails.of_eq (pointsTo_congr (copy_q m d (by rfl) (by rfl) rfl))) $$ Hp23
    isplitl [Hp24]; · iapply (Entails.of_eq (pointsTo_congr (copy_q m d (by rfl) (by rfl) rfl))) $$ Hp24
    isplitl [Hp25]; · iapply (Entails.of_eq (pointsTo_congr (copy_q m d (by rfl) (by rfl) rfl))) $$ Hp25
    isplitl [Hp26]; · iapply (Entails.of_eq (pointsTo_congr (copy_q m d (by rfl) (by rfl) rfl))) $$ Hp26
    isplitl [Hp27]; · iapply (Entails.of_eq (pointsTo_congr (copy_q m d (by rfl) (by rfl) rfl))) $$ Hp27
    isplitl [Hp28]; · iapply (Entails.of_eq (pointsTo_congr (copy_q m d (by rfl) (by rfl) rfl))) $$ Hp28
    isplitl [Hp29]; · iapply (Entails.of_eq (pointsTo_congr (copy_q m d (by rfl) (by rfl) rfl))) $$ Hp29
    isplitl [Hp30]; · iapply (Entails.of_eq (pointsTo_congr (copy_q m d (by rfl) (by rfl) rfl))) $$ Hp30
    isplitl [Hp31]; · iapply (Entails.of_eq (pointsTo_congr (copy_q m d (by rfl) (by rfl) rfl))) $$ Hp31
    isplitl [Hp32]; · iapply (Entails.of_eq (pointsTo_congr (copy_x m d (by rfl) (by rfl) rfl))) $$ Hp32
    isplitl [Hp33]; · iapply (Entails.of_eq (pointsTo_congr (copy_x m d (by rfl) (by rfl) rfl))) $$ Hp33
    isplitl [Hp34]; · iapply (Entails.of_eq (pointsTo_congr (copy_x m d (by rfl) (by rfl) rfl))) $$ Hp34
    isplitl [Hp35]; · iapply (Entails.of_eq (pointsTo_congr (copy_x m d (by rfl) (by rfl) rfl))) $$ Hp35
    isplitl [Hp36]; · iapply (Entails.of_eq (pointsTo_congr (copy_x m d (by rfl) (by rfl) rfl))) $$ Hp36
    isplitl [Hp37]; · iapply (Entails.of_eq (pointsTo_congr (copy_x m d (by rfl) (by rfl) rfl))) $$ Hp37
    isplitl [Hp38]; · iapply (Entails.of_eq (pointsTo_congr (copy_x m d (by rfl) (by rfl) rfl))) $$ Hp38
    isplitl [Hp39]; · iapply (Entails.of_eq (pointsTo_congr (copy_x m d (by rfl) (by rfl) rfl))) $$ Hp39
    isplitl [Hp40]; · iapply (Entails.of_eq (pointsTo_congr (copy_q m d (by rfl) (by rfl) rfl))) $$ Hp40
    isplitl [Hp41]; · iapply (Entails.of_eq (pointsTo_congr (copy_q m d (by rfl) (by rfl) rfl))) $$ Hp41
    isplitl [Hp42]; · iapply (Entails.of_eq (pointsTo_congr (copy_q m d (by rfl) (by rfl) rfl))) $$ Hp42
    isplitl [Hp43]; · iapply (Entails.of_eq (pointsTo_congr (copy_q m d (by rfl) (by rfl) rfl))) $$ Hp43
    isplitl [Hp44]; · iapply (Entails.of_eq (pointsTo_congr (copy_q m d (by rfl) (by rfl) rfl))) $$ Hp44
    isplitl [Hp45]; · iapply (Entails.of_eq (pointsTo_congr (copy_q m d (by rfl) (by rfl) rfl))) $$ Hp45
    isplitl [Hp46]; · iapply (Entails.of_eq (pointsTo_congr (copy_q m d (by rfl) (by rfl) rfl))) $$ Hp46
    isplitl [Hp47]; · iapply (Entails.of_eq (pointsTo_congr (copy_q m d (by rfl) (by rfl) rfl))) $$ Hp47
    isplitl [Hp48]; · iapply (Entails.of_eq (pointsTo_congr (copy_q m d (by rfl) (by rfl) rfl))) $$ Hp48
    isplitl [Hp49]; · iapply (Entails.of_eq (pointsTo_congr (copy_q m d (by rfl) (by rfl) rfl))) $$ Hp49
    isplitl [Hp50]; · iapply (Entails.of_eq (pointsTo_congr (copy_q m d (by rfl) (by rfl) rfl))) $$ Hp50
    isplitl [Hp51]; · iapply (Entails.of_eq (pointsTo_congr (copy_q m d (by rfl) (by rfl) rfl))) $$ Hp51
    isplitl [Hp52]; · iapply (Entails.of_eq (pointsTo_congr (copy_q m d (by rfl) (by rfl) rfl))) $$ Hp52
    isplitl [Hp53]; · iapply (Entails.of_eq (pointsTo_congr (copy_q m d (by rfl) (by rfl) rfl))) $$ Hp53
    isplitl [Hp54]; · iapply (Entails.of_eq (pointsTo_congr (copy_q m d (by rfl) (by rfl) rfl))) $$ Hp54
    isplitl [Hp55]; · iapply (Entails.of_eq (pointsTo_congr (copy_q m d (by rfl) (by rfl) rfl))) $$ Hp55
    isplitl [Hp56]; · iapply (Entails.of_eq (pointsTo_congr (copy_q m d (by rfl) (by rfl) rfl))) $$ Hp56
    isplitl [Hp57]; · iapply (Entails.of_eq (pointsTo_congr (copy_q m d (by rfl) (by rfl) rfl))) $$ Hp57
    isplitl [Hp58]; · iapply (Entails.of_eq (pointsTo_congr (copy_q m d (by rfl) (by rfl) rfl))) $$ Hp58
    isplitl [Hp59]; · iapply (Entails.of_eq (pointsTo_congr (copy_q m d (by rfl) (by rfl) rfl))) $$ Hp59
    isplitl [Hp60]; · iapply (Entails.of_eq (pointsTo_congr (copy_q m d (by rfl) (by rfl) rfl))) $$ Hp60
    isplitl [Hp61]; · iapply (Entails.of_eq (pointsTo_congr (copy_q m d (by rfl) (by rfl) rfl))) $$ Hp61
    isplitl [Hp62]; · iapply (Entails.of_eq (pointsTo_congr (copy_q m d (by rfl) (by rfl) rfl))) $$ Hp62
    iapply (Entails.of_eq (pointsTo_congr (copy_q m d (by rfl) (by rfl) rfl))) $$ Hp63
  isplitl [Ht]; · iapply (Entails.of_eq (pointsTo_congr (copy_tail_x m d (by rfl) (by rfl) rfl))) $$ Ht
  isplitl [Hb0 Hb1 Hb2 Hb3 Hb4 Hb5 Hb6]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    iexists _; iexact Hb6
  isplitl [Hs0 Hs1 Hs2 Hs3 Hs4 Hs5 Hs6 Hs7 Hs8 Hs9 Hs10 Hs11 Hs12 Hs13 Hs14 Hs15 Hs16 Hs17]; · ichain [Hs0, Hs1, Hs2, Hs3, Hs4, Hs5, Hs6, Hs7, Hs8, Hs9, Hs10, Hs11, Hs12, Hs13, Hs14, Hs15, Hs16, Hs17]
  isplitl [HO]
  · iexists _; isplitr
    rotate_left
    · iexact HO
    · ipureintro; repeat (first | exact fun p hp => .inl hp | refine waits_insert ?_ _)
  iexact Haside

set_option maxHeartbeats 8000000 in
/-- The run on a subcore numbered 8 or above: the last block comes from the transposed old queue. -/
theorem run_high (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L)))
    (k0_h1 : ¬ k0_cond1 L = 1#1) (k0_h2 : k0_cond2 L = 1#1) :
    tilePre m (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} m (oLoc d)) d L O W fb0 fb1 fb2 fb3 fb4 fb5 fb6
      ⊢ wp frame (wpE (defs₀ (F := F)) 𝒱₀ (thr d L) none) Set.univ
          (cc0__fifo_body L xW (Memref.isWhole_whole _) qW (Memref.isWhole_whole _) oW (Memref.isWhole_whole _)
            b0W (Memref.isWhole_whole _) b1W (Memref.isWhole_whole _) b2W (Memref.isWhole_whole _) b3W (Memref.isWhole_whole _) b4W (Memref.isWhole_whole _) b5W (Memref.isWhole_whole _) b6W (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => tilePost m (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} Gt m d) d L O W := by
  rw [cc0__fifo_body_eq_skeleton]; unfold cc0__fifo_body_skel
  delta tilePre
  delta toks17 progPieces sems18
  iintro ⟨Hmw, ⟨Hx0, Hx1, Hx2, Hx3, Hx4, Hx5, Hx6, Hx7, Hx8, Hx9, Hx10, Hx11, Hx12, Hx13, Hx14, Hx15, Hx16⟩, ⟨Hq0, Hq1, Hq2, Hq3, Hq4, Hq5, Hq6, Hq7, Hq8, Hq9, Hq10, Hq11, Hq12, Hq13, Hq14, Hq15, Hq16⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63⟩,
    Ht, Hb0, Hb1, Hb2, Hb3, Hb4, Hb5, Hb6, ⟨Hs0, Hs1, Hs2, Hs3, Hs4, Hs5, Hs6, Hs7, Hs8, Hs9, Hs10, Hs11, Hs12, Hs13, Hs14, Hs15, Hs16, Hs17⟩, HO, Haside⟩
  sl_exec
  sl_step
  delta tilePost
  delta toks17 progPieces bufs7 sems18
  sl_unfold_run_names
  isplitl [Hx0 Hx1 Hx2 Hx3 Hx4 Hx5 Hx6 Hx7 Hx8 Hx9 Hx10 Hx11 Hx12 Hx13 Hx14 Hx15 Hx16]; · ichain [Hx0, Hx1, Hx2, Hx3, Hx4, Hx5, Hx6, Hx7, Hx8, Hx9, Hx10, Hx11, Hx12, Hx13, Hx14, Hx15, Hx16]
  isplitl [Hq0 Hq1 Hq2 Hq3 Hq4 Hq5 Hq6 Hq7 Hq8 Hq9 Hq10 Hq11 Hq12 Hq13 Hq14 Hq15 Hq16]; · ichain [Hq0, Hq1, Hq2, Hq3, Hq4, Hq5, Hq6, Hq7, Hq8, Hq9, Hq10, Hq11, Hq12, Hq13, Hq14, Hq15, Hq16]
  isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hp30 Hp31 Hp32 Hp33 Hp34 Hp35 Hp36 Hp37 Hp38 Hp39 Hp40 Hp41 Hp42 Hp43 Hp44 Hp45 Hp46 Hp47 Hp48 Hp49 Hp50 Hp51 Hp52 Hp53 Hp54 Hp55 Hp56 Hp57 Hp58 Hp59 Hp60 Hp61 Hp62 Hp63]
  · isplitl [Hp0]; · iapply (Entails.of_eq (pointsTo_congr (copy_x m d (by rfl) (by rfl) rfl))) $$ Hp0
    isplitl [Hp1]; · iapply (Entails.of_eq (pointsTo_congr (copy_x m d (by rfl) (by rfl) rfl))) $$ Hp1
    isplitl [Hp2]; · iapply (Entails.of_eq (pointsTo_congr (copy_x m d (by rfl) (by rfl) rfl))) $$ Hp2
    isplitl [Hp3]; · iapply (Entails.of_eq (pointsTo_congr (copy_x m d (by rfl) (by rfl) rfl))) $$ Hp3
    isplitl [Hp4]; · iapply (Entails.of_eq (pointsTo_congr (copy_x m d (by rfl) (by rfl) rfl))) $$ Hp4
    isplitl [Hp5]; · iapply (Entails.of_eq (pointsTo_congr (copy_x m d (by rfl) (by rfl) rfl))) $$ Hp5
    isplitl [Hp6]; · iapply (Entails.of_eq (pointsTo_congr (copy_x m d (by rfl) (by rfl) rfl))) $$ Hp6
    isplitl [Hp7]; · iapply (Entails.of_eq (pointsTo_congr (copy_x m d (by rfl) (by rfl) rfl))) $$ Hp7
    isplitl [Hp8]; · iapply (Entails.of_eq (pointsTo_congr (copy_q m d (by rfl) (by rfl) rfl))) $$ Hp8
    isplitl [Hp9]; · iapply (Entails.of_eq (pointsTo_congr (copy_q m d (by rfl) (by rfl) rfl))) $$ Hp9
    isplitl [Hp10]; · iapply (Entails.of_eq (pointsTo_congr (copy_q m d (by rfl) (by rfl) rfl))) $$ Hp10
    isplitl [Hp11]; · iapply (Entails.of_eq (pointsTo_congr (copy_q m d (by rfl) (by rfl) rfl))) $$ Hp11
    isplitl [Hp12]; · iapply (Entails.of_eq (pointsTo_congr (copy_q m d (by rfl) (by rfl) rfl))) $$ Hp12
    isplitl [Hp13]; · iapply (Entails.of_eq (pointsTo_congr (copy_q m d (by rfl) (by rfl) rfl))) $$ Hp13
    isplitl [Hp14]; · iapply (Entails.of_eq (pointsTo_congr (copy_q m d (by rfl) (by rfl) rfl))) $$ Hp14
    isplitl [Hp15]; · iapply (Entails.of_eq (pointsTo_congr (copy_q m d (by rfl) (by rfl) rfl))) $$ Hp15
    isplitl [Hp16]; · iapply (Entails.of_eq (pointsTo_congr (copy_q m d (by rfl) (by rfl) rfl))) $$ Hp16
    isplitl [Hp17]; · iapply (Entails.of_eq (pointsTo_congr (copy_q m d (by rfl) (by rfl) rfl))) $$ Hp17
    isplitl [Hp18]; · iapply (Entails.of_eq (pointsTo_congr (copy_q m d (by rfl) (by rfl) rfl))) $$ Hp18
    isplitl [Hp19]; · iapply (Entails.of_eq (pointsTo_congr (copy_q m d (by rfl) (by rfl) rfl))) $$ Hp19
    isplitl [Hp20]; · iapply (Entails.of_eq (pointsTo_congr (copy_q m d (by rfl) (by rfl) rfl))) $$ Hp20
    isplitl [Hp21]; · iapply (Entails.of_eq (pointsTo_congr (copy_q m d (by rfl) (by rfl) rfl))) $$ Hp21
    isplitl [Hp22]; · iapply (Entails.of_eq (pointsTo_congr (copy_q m d (by rfl) (by rfl) rfl))) $$ Hp22
    isplitl [Hp23]; · iapply (Entails.of_eq (pointsTo_congr (copy_q m d (by rfl) (by rfl) rfl))) $$ Hp23
    isplitl [Hp24]; · iapply (Entails.of_eq (pointsTo_congr (copy_q m d (by rfl) (by rfl) rfl))) $$ Hp24
    isplitl [Hp25]; · iapply (Entails.of_eq (pointsTo_congr (copy_q m d (by rfl) (by rfl) rfl))) $$ Hp25
    isplitl [Hp26]; · iapply (Entails.of_eq (pointsTo_congr (copy_q m d (by rfl) (by rfl) rfl))) $$ Hp26
    isplitl [Hp27]; · iapply (Entails.of_eq (pointsTo_congr (copy_q m d (by rfl) (by rfl) rfl))) $$ Hp27
    isplitl [Hp28]; · iapply (Entails.of_eq (pointsTo_congr (copy_q m d (by rfl) (by rfl) rfl))) $$ Hp28
    isplitl [Hp29]; · iapply (Entails.of_eq (pointsTo_congr (copy_q m d (by rfl) (by rfl) rfl))) $$ Hp29
    isplitl [Hp30]; · iapply (Entails.of_eq (pointsTo_congr (copy_q m d (by rfl) (by rfl) rfl))) $$ Hp30
    isplitl [Hp31]; · iapply (Entails.of_eq (pointsTo_congr (copy_q m d (by rfl) (by rfl) rfl))) $$ Hp31
    isplitl [Hp32]; · iapply (Entails.of_eq (pointsTo_congr (copy_x m d (by rfl) (by rfl) rfl))) $$ Hp32
    isplitl [Hp33]; · iapply (Entails.of_eq (pointsTo_congr (copy_x m d (by rfl) (by rfl) rfl))) $$ Hp33
    isplitl [Hp34]; · iapply (Entails.of_eq (pointsTo_congr (copy_x m d (by rfl) (by rfl) rfl))) $$ Hp34
    isplitl [Hp35]; · iapply (Entails.of_eq (pointsTo_congr (copy_x m d (by rfl) (by rfl) rfl))) $$ Hp35
    isplitl [Hp36]; · iapply (Entails.of_eq (pointsTo_congr (copy_x m d (by rfl) (by rfl) rfl))) $$ Hp36
    isplitl [Hp37]; · iapply (Entails.of_eq (pointsTo_congr (copy_x m d (by rfl) (by rfl) rfl))) $$ Hp37
    isplitl [Hp38]; · iapply (Entails.of_eq (pointsTo_congr (copy_x m d (by rfl) (by rfl) rfl))) $$ Hp38
    isplitl [Hp39]; · iapply (Entails.of_eq (pointsTo_congr (copy_x m d (by rfl) (by rfl) rfl))) $$ Hp39
    isplitl [Hp40]; · iapply (Entails.of_eq (pointsTo_congr (copy_q m d (by rfl) (by rfl) rfl))) $$ Hp40
    isplitl [Hp41]; · iapply (Entails.of_eq (pointsTo_congr (copy_q m d (by rfl) (by rfl) rfl))) $$ Hp41
    isplitl [Hp42]; · iapply (Entails.of_eq (pointsTo_congr (copy_q m d (by rfl) (by rfl) rfl))) $$ Hp42
    isplitl [Hp43]; · iapply (Entails.of_eq (pointsTo_congr (copy_q m d (by rfl) (by rfl) rfl))) $$ Hp43
    isplitl [Hp44]; · iapply (Entails.of_eq (pointsTo_congr (copy_q m d (by rfl) (by rfl) rfl))) $$ Hp44
    isplitl [Hp45]; · iapply (Entails.of_eq (pointsTo_congr (copy_q m d (by rfl) (by rfl) rfl))) $$ Hp45
    isplitl [Hp46]; · iapply (Entails.of_eq (pointsTo_congr (copy_q m d (by rfl) (by rfl) rfl))) $$ Hp46
    isplitl [Hp47]; · iapply (Entails.of_eq (pointsTo_congr (copy_q m d (by rfl) (by rfl) rfl))) $$ Hp47
    isplitl [Hp48]; · iapply (Entails.of_eq (pointsTo_congr (copy_q m d (by rfl) (by rfl) rfl))) $$ Hp48
    isplitl [Hp49]; · iapply (Entails.of_eq (pointsTo_congr (copy_q m d (by rfl) (by rfl) rfl))) $$ Hp49
    isplitl [Hp50]; · iapply (Entails.of_eq (pointsTo_congr (copy_q m d (by rfl) (by rfl) rfl))) $$ Hp50
    isplitl [Hp51]; · iapply (Entails.of_eq (pointsTo_congr (copy_q m d (by rfl) (by rfl) rfl))) $$ Hp51
    isplitl [Hp52]; · iapply (Entails.of_eq (pointsTo_congr (copy_q m d (by rfl) (by rfl) rfl))) $$ Hp52
    isplitl [Hp53]; · iapply (Entails.of_eq (pointsTo_congr (copy_q m d (by rfl) (by rfl) rfl))) $$ Hp53
    isplitl [Hp54]; · iapply (Entails.of_eq (pointsTo_congr (copy_q m d (by rfl) (by rfl) rfl))) $$ Hp54
    isplitl [Hp55]; · iapply (Entails.of_eq (pointsTo_congr (copy_q m d (by rfl) (by rfl) rfl))) $$ Hp55
    isplitl [Hp56]; · iapply (Entails.of_eq (pointsTo_congr (copy_q m d (by rfl) (by rfl) rfl))) $$ Hp56
    isplitl [Hp57]; · iapply (Entails.of_eq (pointsTo_congr (copy_q m d (by rfl) (by rfl) rfl))) $$ Hp57
    isplitl [Hp58]; · iapply (Entails.of_eq (pointsTo_congr (copy_q m d (by rfl) (by rfl) rfl))) $$ Hp58
    isplitl [Hp59]; · iapply (Entails.of_eq (pointsTo_congr (copy_q m d (by rfl) (by rfl) rfl))) $$ Hp59
    isplitl [Hp60]; · iapply (Entails.of_eq (pointsTo_congr (copy_q m d (by rfl) (by rfl) rfl))) $$ Hp60
    isplitl [Hp61]; · iapply (Entails.of_eq (pointsTo_congr (copy_q m d (by rfl) (by rfl) rfl))) $$ Hp61
    isplitl [Hp62]; · iapply (Entails.of_eq (pointsTo_congr (copy_q m d (by rfl) (by rfl) rfl))) $$ Hp62
    iapply (Entails.of_eq (pointsTo_congr (copy_q m d (by rfl) (by rfl) rfl))) $$ Hp63
  isplitl [Ht]; · iapply (Entails.of_eq (pointsTo_congr (copy_tail_q m d (by rfl) (tail_q_col L k0_h2) rfl))) $$ Ht
  isplitl [Hb0 Hb1 Hb2 Hb3 Hb4 Hb5 Hb6]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    iexists _; iexact Hb6
  isplitl [Hs0 Hs1 Hs2 Hs3 Hs4 Hs5 Hs6 Hs7 Hs8 Hs9 Hs10 Hs11 Hs12 Hs13 Hs14 Hs15 Hs16 Hs17]; · ichain [Hs0, Hs1, Hs2, Hs3, Hs4, Hs5, Hs6, Hs7, Hs8, Hs9, Hs10, Hs11, Hs12, Hs13, Hs14, Hs15, Hs16, Hs17]
  isplitl [HO]
  · iexists _; isplitr
    rotate_left
    · iexact HO
    · ipureintro; repeat (first | exact fun p hp => .inl hp | refine waits_insert ?_ _)
  iexact Haside

/-- The body obligation: one vector subcore's run of the kernel body, from what the launch hands it to what it
    hands back. -/
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goRes m d (wid L) ∗ scopedBufs (thr d L) ∗ scopedSems0 (thr d L) ∗ owes (thr d L) O W)
      ⊢ wp frame (wpE (defs₀ (F := F)) 𝒱₀ (thr d L) none) Set.univ
          (cc0__fifo_body L (Memref.whole main_v0_scv) (Memref.isWhole_whole _) (Memref.whole main_v1_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => iprop(tdRes m d (wid L) ∗ scopedBufs (thr d L) ∗ scopedSems0 (thr d L) ∗ ∃ W', ⌜∀ p ∈ W', p ∈ W ∨ p.2 = none⌝ ∗ owes (thr d L) O W') := by
  rcases cond_cases L with ⟨k0_h1, k0_h2, -⟩ | ⟨k0_h1, k0_h2, -⟩
  · refine (tile_pre m hF d L O W hO (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} m (oLoc d))
      (Entails.of_eq (pts_memref_eq d (cV L) (jV L) (progTail1_eq L).symm HEq.rfl))).trans ?_
    refine exists_elim fun fb0 => exists_elim fun fb1 => exists_elim fun fb2 => exists_elim fun fb3 =>
      exists_elim fun fb4 => exists_elim fun fb5 => exists_elim fun fb6 => ?_
    exact (run_low m d L O W fb0 fb1 fb2 fb3 fb4 fb5 fb6 k0_h1 k0_h2).trans
      (wp_mono frame _ _ fun _ => tile_post m hF d L O W (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} Gt m d)
        (Entails.of_eq (pts_memref_eq d (cV L) (jV L) (progTail1_eq L) HEq.rfl)))
  · refine (tile_pre m hF d L O W hO (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} m (oLoc d))
      (Entails.of_eq (pts_memref_eq d (cV L) (jV L) (progTail2_eq L).symm HEq.rfl))).trans ?_
    refine exists_elim fun fb0 => exists_elim fun fb1 => exists_elim fun fb2 => exists_elim fun fb3 =>
      exists_elim fun fb4 => exists_elim fun fb5 => exists_elim fun fb6 => ?_
    exact (run_high m d L O W fb0 fb1 fb2 fb3 fb4 fb5 fb6 k0_h1 k0_h2).trans
      (wp_mono frame _ _ fun _ => tile_post m hF d L O W (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} Gt m d)
        (Entails.of_eq (pts_memref_eq d (cV L) (jV L) (progTail2_eq L) HEq.rfl)))

end Cert.KIProof

end
-- ==== Proof.KILaunch.lean ====
/-
  The kernel's side, the launch. The program's TensorCore transposes the two arguments, hands each of the 32
  vector subcores a read share of both transposed arrays and its own part of the result array, takes them
  back with the result array's parts filled, and transposes the result. What a SparseCore's sequencer is
  handed is exactly what its sixteen vector subcores are handed, so the split between them is the identity.
-/
import proofs.«214288_g455266533575_cont_8to1_b_1966_18_alg».proof.Proof.KISetup
import proofs.«214288_g455266533575_cont_8to1_b_1966_18_alg».proof.Proof.KIPartition
import proofs.«214288_g455266533575_cont_8to1_b_1966_18_alg».proof.Proof.KITile
import Idealize.ShloMosaic.Lib.Transfers

noncomputable section

namespace Cert.KIProof

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## What the handshakes carry -/

/-- The one call's payloads: a SparseCore's sequencer is handed, and hands back, what its sixteen vector subcores
    are: vector subcore `i` of SparseCore `c` is number `2 i + c`. Nothing of the launch's is consumed. -/
def P : (K (F := F)).Pay (nD := nD) (Val := Elt F) (Name := ℕ) (U := UU) where
  st := fun q d c => bigSep Finset.univ fun i : Fin ((K (F := F)).nSub q) => goRes m d (2 * i.val + c.val)
  dn := fun q d c => bigSep Finset.univ fun i : Fin ((K (F := F)).nSub q) => tdRes m d (2 * i.val + c.val)
  go := fun _ d c i => goRes m d (2 * i.val + c.val)
  td := fun _ d c i => tdRes m d (2 * i.val + c.val)
  x := fun _ _ => iprop(emp)

omit [FloatOps F] in
/-- Ownership of part of an array may be kept in an invariant, whatever the term naming the part. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

omit [FloatOps F] in
instance outRes_storable (d : Dev nD) (w : ℕ) (f : Buf (Elt F) (oLoc d)) : BI.Storable (upEmb : UEmb _ 𝕄) (outRes d w f) := by
  unfold outRes
  have h1 : ∀ p, BI.Storable (upEmb : UEmb _ 𝕄) (oLoc d ↦[(pieceM w p).view.set]{fullShare} f : sProp 𝕄) := fun p => pts_storable _ _ _ _
  have h2 : BI.Storable (upEmb : UEmb _ 𝕄) (oLoc d ↦[(tailM w).view.set]{fullShare} f : sProp 𝕄) := pts_storable _ _ _ _
  infer_instance
instance goRes_storable (d : Dev nD) (w : ℕ) : BI.Storable (upEmb : UEmb _ 𝕄) (goRes m d w) := by
  unfold goRes; infer_instance
instance tdRes_storable (d : Dev nD) (w : ℕ) : BI.Storable (upEmb : UEmb _ 𝕄) (tdRes m d w) := by
  unfold tdRes; infer_instance

instance P_storable : (P (F := F) m).IsStorable where
  st _ d c := by unfold P; infer_instance
  dn _ d c := by unfold P; infer_instance
  go _ d c i := by unfold P; infer_instance
  td _ d c i := by unfold P; infer_instance

/-! ## The launch theorem's obligations -/

theorem defs₀_vector (c : Fin τ.nSC) (s : Fin τ.nSub) :
    defs₀ (F := F) (.scVector c s) 0 ()
      = SparseCore.onTile hcore0 hsub0 (fun c s => cc0__fifo_body (coordsV c s)
          (Memref.whole main_v0_scv) (Memref.isWhole_whole _) (Memref.whole main_v1_scv) (Memref.isWhole_whole _) (Memref.whole main_v2_scv) (Memref.isWhole_whole _)
              (Memref.whole cc0_scratch0) (Memref.isWhole_whole _) (Memref.whole cc0_scratch1) (Memref.isWhole_whole _) (Memref.whole cc0_scratch2) (Memref.isWhole_whole _) (Memref.whole cc0_scratch3) (Memref.isWhole_whole _)
              (Memref.whole cc0_scratch4) (Memref.isWhole_whole _) (Memref.whole cc0_scratch5) (Memref.isWhole_whole _) (Memref.whole cc0_scratch6) (Memref.isWhole_whole _)
              cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
              cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Vector subcore `i` of SparseCore `c` runs the kernel's body at its grid point, where its number is `2 i + c`. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

/-- What a sequencer is handed is its vector subcores' shares, and what they hand back is what it hands back. -/
theorem vecSplit : (K (F := F)).VecSplit' (P m) 0 := by
  intro d c
  show (bigSep Finset.univ fun i : Fin ((K (F := F)).nSub 0) => goRes m d (2 * i.val + c.val)) ⊢ |={Set.univ}=> iprop(
      (bigSep Finset.univ fun i : Fin ((K (F := F)).nSub 0) => goRes m d (2 * i.val + c.val))
      ∗ ((bigSep Finset.univ fun i : Fin ((K (F := F)).nSub 0) => tdRes m d (2 * i.val + c.val))
          -∗ bigSep Finset.univ fun i : Fin ((K (F := F)).nSub 0) => tdRes m d (2 * i.val + c.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev q' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three host operations: the two arguments' transposes, the result's. -/
abbrev opX : HloOp τ sig (Elt F) :=
  StableHlo.unary main_arg0 main_v0 ((transpose S516x16384 [1, 0] · Facts₀.transposes_S16384x516_S516x16384_1_0) : (⟨S16384x516, .f32⟩ : BufTy).Contents (Elt F) → (⟨S516x16384, .f32⟩ : BufTy).Contents (Elt F))
abbrev opQ : HloOp τ sig (Elt F) :=
  StableHlo.unary main_arg1 main_v1 ((transpose S516x65536 [1, 0] · Facts₀.transposes_S65536x516_S516x65536_1_0) : (⟨S65536x516, .f32⟩ : BufTy).Contents (Elt F) → (⟨S516x65536, .f32⟩ : BufTy).Contents (Elt F))
abbrev opR : HloOp τ sig (Elt F) :=
  StableHlo.unary main_v2 main_v3 ((transpose S65536x516 [1, 0] · Facts₀.transposes_S516x65536_S65536x516_1_0) : (⟨S516x65536, .f32⟩ : BufTy).Contents (Elt F) → (⟨S65536x516, .f32⟩ : BufTy).Contents (Elt F))

/-- The TensorCore's arrays, all unscoped. -/
abbrev S6 : Finset (DevRef τ sig) := {a', b', x', q', o', r'}

omit [FloatOps F] in
theorem held_S6 (d : Dev nD) (W : Valuation τ sig (Elt F)) :
    (held (T d) S6 W : sProp 𝕄) = iprop((aLoc d ↦{fullShare} W a') ∗ (bLoc d ↦{fullShare} W b') ∗ (xLoc d ↦{fullShare} W x')
      ∗ (qLoc d ↦{fullShare} W q') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (qLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the two transposes; with the result array as the vector subcores left it. -/
def V0 (d : Dev nD) : Valuation τ sig (Elt F) := fun b => m (d, b)
abbrev V1 (d : Dev nD) : Valuation τ sig (Elt F) := (opQ (F := F)).result ((opX (F := F)).result (V0 m d))
def V2 (d : Dev nD) : Valuation τ sig (Elt F) := Function.update (V1 m d) o' (Gt m d)

theorem unscoped_held (d : Dev nD) : (unscopedBufs d (fun b => m ((SparseCore.T d).loc b)) : sProp 𝕄) = held (T d) S6 (V0 m d) := by
  rw [unscopedBufs_eq, held_S6]; rfl

theorem V1_a (d : Dev nD) : V1 m d a' = m (aLoc d) := by
  unfold V1; rw [StableHlo.unary_result_ne (h := show main_arg0 ≠ main_v1 by decide), StableHlo.unary_result_ne (h := show main_arg0 ≠ main_v0 by decide)]; rfl
theorem V1_b (d : Dev nD) : V1 m d b' = m (bLoc d) := by
  unfold V1; rw [StableHlo.unary_result_ne (h := show main_arg1 ≠ main_v1 by decide), StableHlo.unary_result_ne (h := show main_arg1 ≠ main_v0 by decide)]; rfl
theorem V1_x (d : Dev nD) : V1 m d x' = xT m d := by
  unfold V1; rw [StableHlo.unary_result_ne (h := show main_v0 ≠ main_v1 by decide), StableHlo.unary_result]; rfl
theorem V1_q (d : Dev nD) : V1 m d q' = qT m d := by
  unfold V1; rw [StableHlo.unary_result, StableHlo.unary_result_ne (h := show main_arg1 ≠ main_v0 by decide)]; rfl
theorem V1_o (d : Dev nD) : V1 m d o' = m (oLoc d) := by
  unfold V1; rw [StableHlo.unary_result_ne (h := show main_v2 ≠ main_v1 by decide), StableHlo.unary_result_ne (h := show main_v2 ≠ main_v0 by decide)]; rfl
theorem V1_r (d : Dev nD) : V1 m d r' = m (rLoc d) := by
  unfold V1; rw [StableHlo.unary_result_ne (h := show main_v3 ≠ main_v1 by decide), StableHlo.unary_result_ne (h := show main_v3 ≠ main_v0 by decide)]; rfl

theorem V2_a (d : Dev nD) : V2 m d a' = m (aLoc d) := (Function.update_of_ne (show a' ≠ o' by decide) _ _).trans (V1_a m d)
theorem V2_b (d : Dev nD) : V2 m d b' = m (bLoc d) := (Function.update_of_ne (show b' ≠ o' by decide) _ _).trans (V1_b m d)
theorem V2_x (d : Dev nD) : V2 m d x' = xT m d := (Function.update_of_ne (show x' ≠ o' by decide) _ _).trans (V1_x m d)
theorem V2_q (d : Dev nD) : V2 m d q' = qT m d := (Function.update_of_ne (show q' ≠ o' by decide) _ _).trans (V1_q m d)
theorem V2_o (d : Dev nD) : V2 m d o' = Gt m d := Function.update_self _ _ _
theorem V2_r (d : Dev nD) : V2 m d r' = m (rLoc d) := (Function.update_of_ne (show r' ≠ o' by decide) _ _).trans (V1_r m d)

/-- After the two transposes: the arguments as they were, their transposes, the other two arrays as launched. -/
theorem held_V1 (d : Dev nD) :
    (held (T d) S6 (V1 m d) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} m (oLoc d)) ∗ rLoc d ↦{fullShare} m (rLoc d)) := by
  rw [held_S6, V1_a, V1_b, V1_x, V1_q, V1_o, V1_r]

/-- After the call: the result array at what the vector subcores left. -/
theorem held_V2 (d : Dev nD) :
    (held (T d) S6 (V2 m d) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} Gt m d) ∗ rLoc d ↦{fullShare} m (rLoc d)) := by
  rw [held_S6, V2_a, V2_b, V2_x, V2_q, V2_o, V2_r]

/-- After the last transpose: the arguments as they were, the program's result at the transposed result array. -/
theorem held_V3 (d : Dev nD) :
    (held (T d) S6 ((opR (F := F)).result (V2 m d)) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} Gt m d) ∗ rLoc d ↦{fullShare} rT m d) := by
  rw [held_S6, StableHlo.unary_result_ne (h := show main_arg0 ≠ main_v3 by decide), StableHlo.unary_result_ne (h := show main_arg1 ≠ main_v3 by decide),
    StableHlo.unary_result_ne (h := show main_v0 ≠ main_v3 by decide), StableHlo.unary_result_ne (h := show main_v1 ≠ main_v3 by decide),
    StableHlo.unary_result_ne (h := show main_v2 ≠ main_v3 by decide), StableHlo.unary_result, V2_a, V2_b, V2_x, V2_q, V2_o]
  rfl

theorem hX : (opX (F := F)).bufs ⊆ S6 := show ({a', x'} : Finset (DevRef τ sig)) ⊆ S6 by decide
theorem hQ : (opQ (F := F)).bufs ⊆ S6 := show ({b', q'} : Finset (DevRef τ sig)) ⊆ S6 by decide
theorem hR : (opR (F := F)).bufs ⊆ S6 := show ({o', r'} : Finset (DevRef τ sig)) ⊆ S6 by decide

/-- What the call takes for the two SparseCores: the 32 read shares of each transposed argument and the 32 parts of
    the result array; and what it hands back: the same with the parts filled. -/
theorem st0_eq (d : Dev nD) : (bigSep Finset.univ fun c : Fin ((K (F := F)).nCore 0) => (P m).st 0 d c)
    = iprop((bigSep (Finset.range 32) fun w => xLoc d ↦{tq w} xT m d) ∗ (bigSep (Finset.range 32) fun w => qLoc d ↦{tq w} qT m d)
        ∗ bigSep (Finset.range 32) fun w => outRes d w (m (oLoc d))) := by
  rw [← bigSep_sep', ← bigSep_sep', tiles_reindex]
  rfl
theorem dn0_eq (d : Dev nD) : (bigSep Finset.univ fun c : Fin ((K (F := F)).nCore 0) => (P m).dn 0 d c)
    = iprop((bigSep (Finset.range 32) fun w => xLoc d ↦{tq w} xT m d) ∗ (bigSep (Finset.range 32) fun w => qLoc d ↦{tq w} qT m d)
        ∗ bigSep (Finset.range 32) fun w => outRes d w (Gt m d)) := by
  rw [← bigSep_sep', ← bigSep_sep', tiles_reindex]
  rfl

/-- What @main leaves the claim: the arguments at their launch contents, the result at the transposed result array. -/
abbrev FIN (d : Dev nD) : sProp 𝕄 := iprop((aLoc d ↦{fullShare} m (aLoc d)) ∗ (bLoc d ↦{fullShare} m (bLoc d)) ∗ rLoc d ↦{fullShare} rT m d)

/-- @main on device `d`'s TensorCore: the two transposes; the transposed arguments split into a remainder and 32 read
    shares, the result array into its 32 parts; the call; the shares and the parts joined again; the last transpose. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two transposes
  iapply (wp_hlo_within 𝒱 (SparseCore.T d) none Set.univ (op := opX) (S := S6) hX (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opQ) (S := S6) hQ (V := (opX (F := F)).result (V0 m d))) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ha, Hbb, Hx, Hq, Ho, Hr⟩
  -- the shares and the parts
  ihave Hx' := (src_split (xT m d)).mp $$ Hx
  icases Hx' with ⟨Hxr, Hxs⟩
  ihave Hq' := (src_split (qT m d)).mp $$ Hq
  icases Hq' with ⟨Hqr, Hqs⟩
  ihave Hos := (Entails.of_eq (out_split d (m (oLoc d)))) $$ Ho
  -- the call
  iapply ((K (F := F)).wp_run (D (F := F)) 𝒱 (EH := EH) (P := P m) κ d 0) $$ [Hst Hxs Hqs Hos Ha Hbb Hxr Hqr Hr Hb]
  isplitr; · iexact Hctx
  isplitl [Hst]; · iexact Hst
  isplitl [Hxs Hqs Hos]
  · rw [st0_eq]
    isplitl [Hxs]; · iexact Hxs
    isplitl [Hqs]; · iexact Hqs
    iexact Hos
  iintro ⟨Hst, Hdn⟩
  ihave Hdn' := (Entails.of_eq (dn0_eq m d)) $$ Hdn
  icases Hdn' with ⟨Hxs, Hqs, Hos⟩
  ihave Hx := (src_split (xT m d)).mpr $$ [Hxr Hxs]
  · isplitl [Hxr]; · iexact Hxr
    iexact Hxs
  ihave Hq := (src_split (qT m d)).mpr $$ [Hqr Hqs]
  · isplitl [Hqr]; · iexact Hqr
    iexact Hqs
  ihave Ho := (Entails.of_eq (out_split d (Gt m d)).symm) $$ Hos
  -- the last transpose
  iapply (wp_hlo_within 𝒱 (SparseCore.T d) none Set.univ (op := opR) (S := S6) hR (V := V2 m d)) $$ [Hb Ha Hbb Hx Hq Ho Hr]
  · isplitl [Hb]; · iexact Hb
    rw [held_V2]
    isplitl [Ha]; · iexact Ha
    isplitl [Hbb]; · iexact Hbb
    isplitl [Hx]; · iexact Hx
    isplitl [Hq]; · iexact Hq
    isplitl [Ho]; · iexact Ho
    iexact Hr
  iintro ⟨Hb, Hheld⟩
  ihave Hh := (Entails.of_eq (held_V3 (F := F) m d)) $$ Hheld
  icases Hh with ⟨Ha, Hbb, -, -, -, Hr⟩
  rw [wp_ret]; imodintro; imodintro
  isplitl [Hst]; · iexact Hst
  isplitl [Ha]; · iexact Ha
  isplitl [Hbb]; · iexact Hbb
  iexact Hr

def fq (d : Dev nD) (s' : Phys nD τ sig (Elt F)) : Prop :=
  s'.mem.mem (rLoc d) = rT m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hbb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hbb]
  · isplitl [HSI] <;> iassumption
  icases H with ⟨%h2, HSI, -⟩
  ihave H := (SI_pointsTo_agree (st := s') (ℓ := rLoc d) (I := Finset.univ) (q := fullShare) (f := rT m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the program's threads terminates, with the program's result at the transposed
    result array and the arguments unchanged. -/
theorem run_main [∀ e, Nonempty (Elt F e)] (ρ : Dev nD → PrngReg) :
    θ_run (Cert.KernelIdeal.defs (F := F)) (Cert.KernelIdeal.threads (F := F)) ⟨m, fun _ => 0, ρ⟩
      (fun r => ∀ c : Dev nD, r.2.mem (rLoc c) = rT m c ∧ r.2.mem (aLoc c) = m (aLoc c) ∧ r.2.mem (bLoc c) = m (bLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = rT m c ∧ r.2.mem (aLoc c) = m (aLoc c) ∧ r.2.mem (bLoc c) = m (bLoc c)) (fun _ h => h)

end Cert.KIProof

end
-- ==== Proof.KBSetup.lean ====
/- (substitutions: KernelIdeal -> Kernel, KIProof -> KBProof, .Proof.KI -> .Proof.KB; the script is
   scratch/mk_second.py of this unit). The same text over the other printed program. -/
/-
  The kernel's side, common definitions. The program transposes both arguments, lets the 32 vector subcores
  copy blocks of the transposed arrays into a 516 x 65536 result, and transposes that back. Vector subcore
  number w = 2 s + c (subcore s of SparseCore c) owns rows 8 w .. 8 w + 7 and 256 + 8 w .. 256 + 8 w + 7 of the
  result, in 32 column blocks of 2048 each, and columns 2048 w .. 2048 w + 2047 of the last four rows 512 .. 515.
  Column j of the result is column j of the transposed incoming rows when j < 16384 and column j - 16384 of the
  transposed old queue otherwise.
-/
import proofs.«214288_g455266533575_cont_8to1_b_1966_18_alg».proof.Defs
import proofs.«214288_g455266533575_cont_8to1_b_1966_18_alg».proof.Proof.Spec
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.ValueIdx
import Idealize.ShloMosaic.Lib.Tactic
import proofs.«214288_g455266533575_cont_8to1_b_1966_18_alg».proof.Proof.Gen.Kernel
import proofs.«214288_g455266533575_cont_8to1_b_1966_18_alg».proof.Proof.Gen.Kernel.Skeleton

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The incoming rows and the old queue (the arguments), their transposes, the kernel's result and its transpose
    (the program's result), as locations of device `d`. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev qLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

variable [FloatOps F]

/-- The transposed incoming rows: what the first host operation leaves in `main_v0`. -/
def xT (d : Dev nD) : Buf (Elt F) (xLoc d) :=
  transpose S516x16384 [1, 0] (m (aLoc d)) Facts₀.transposes_S16384x516_S516x16384_1_0
/-- The transposed old queue: what the second host operation leaves in `main_v1`. -/
def qT (d : Dev nD) : Buf (Elt F) (qLoc d) :=
  transpose S516x65536 [1, 0] (m (bLoc d)) Facts₀.transposes_S65536x516_S516x65536_1_0

/-- What the vector subcores leave in `main_v2`: column `j` is column `j` of the transposed incoming rows when
    `j < 16384`, and column `j - 16384` of the transposed old queue otherwise. -/
def Gt (d : Dev nD) : Buf (Elt F) (oLoc d) := fun i =>
  if h : (i 1).val < 16384 then xT m d (ix2 (i 0) ⟨(i 1).val, h⟩)
  else qT m d (ix2 (i 0) ⟨(i 1).val - 16384, by have := idx2_lt1 i; omega⟩)

/-- What the last host operation leaves in `main_v3`. -/
def rT (d : Dev nD) : Buf (Elt F) (rLoc d) :=
  transpose S65536x516 [1, 0] (Gt m d) Facts₀.transposes_S516x65536_S65536x516_1_0

/-! ## Vector subcores, their number, their share of the sources -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread of the vector subcore at grid point `L`. -/
abbrev thr (d : Dev nD) (L : grid0.Coords) : Thread nD τ := V d (cV L) (jV L)

/-- The vector subcore's number, as the kernel computes it: `2 s + c`. -/
def wid (L : grid0.Coords) : ℕ := 2 * (L 1).val + (L 0).val

/-- Vector subcore `w`'s read share of a source array: the `w`-th of 32 read tokens of the full share. -/
abbrev tq (w : ℕ) : PosShare TreeShare := Transfers.shareTokN fullShare w

/-! ## The pieces of the result, in closed form -/

local notation "oW" => (Memref.whole Cert.Kernel.main_v2_scv : Memref Cert.Kernel.sig Kind.scVector Space.hbm Cert.Kernel.S516x65536 EltTy.f32)

theorem pieceM_inb (w p : ℕ) : ∀ a, (![8 * (w % 32) + 256 * ((p / 32) % 2), 2048 * (p % 32)] : Fin 2 → ℕ) a + S8x2048.size a ≤ S516x65536.size a := by
  intro a
  have h1 : w % 32 < 32 := Nat.mod_lt _ (by decide)
  have h2 : (p / 32) % 2 < 2 := Nat.mod_lt _ (by decide)
  have h3 : p % 32 < 32 := Nat.mod_lt _ (by decide)
  match a with
  | ⟨0, _⟩ => show 8 * (w % 32) + 256 * ((p / 32) % 2) + 8 ≤ 516; omega
  | ⟨1, _⟩ => show 2048 * (p % 32) + 2048 ≤ 65536; omega

/-- Piece `p` (of 64) of vector subcore `w`: rows `8 w + 256 (p / 32)` .. + 7, columns `2048 (p % 32)` .. + 2047. -/
def pieceM (w p : ℕ) : Memref sig .scVector .hbm S8x2048 .f32 :=
  (oW).slice (Rect.unit (s := S516x65536) ![8 * (w % 32) + 256 * ((p / 32) % 2), 2048 * (p % 32)] S8x2048.size (pieceM_inb w p)) (fun _ => rfl)

theorem tailM_inb (w : ℕ) : ∀ a, (![512, 2048 * (w % 32)] : Fin 2 → ℕ) a + S4x2048.size a ≤ S516x65536.size a := by
  intro a
  have h1 : w % 32 < 32 := Nat.mod_lt _ (by decide)
  match a with
  | ⟨0, _⟩ => show 512 + 4 ≤ 516; omega
  | ⟨1, _⟩ => show 2048 * (w % 32) + 2048 ≤ 65536; omega

/-- The last piece of vector subcore `w`: rows 512 .. 515, columns `2048 w` .. + 2047. -/
def tailM (w : ℕ) : Memref sig .scVector .hbm S4x2048 .f32 :=
  (oW).slice (Rect.unit (s := S516x65536) ![512, 2048 * (w % 32)] S4x2048.size (tailM_inb w)) (fun _ => rfl)

/-! ## What a vector subcore is handed, and what it hands back -/

/-- Vector subcore `w`'s part of the result array, at contents `f`: its 64 pieces and its last piece. -/
def outRes (d : Dev nD) (w : ℕ) (f : Buf (Elt F) (oLoc d)) : sProp 𝕄 :=
  iprop((bigSep (Finset.range 64) fun p => oLoc d ↦[(pieceM w p).view.set]{fullShare} f) ∗ oLoc d ↦[(tailM w).view.set]{fullShare} f)

/-- What vector subcore `w` is handed: a read share of each transposed source, and its part of the result array
    as the launch memory has it. -/
def goRes (d : Dev nD) (w : ℕ) : sProp 𝕄 :=
  iprop((xLoc d ↦{tq w} xT m d) ∗ (qLoc d ↦{tq w} qT m d) ∗ outRes d w (m (oLoc d)))

/-- What it hands back: the same shares, and its part of the result array at `Gt`. -/
def tdRes (d : Dev nD) (w : ℕ) : sProp 𝕄 :=
  iprop((xLoc d ↦{tq w} xT m d) ∗ (qLoc d ↦{tq w} qT m d) ∗ outRes d w (Gt m d))

end Cert.KBProof

end
-- ==== Proof.KBPartition.lean ====
/- (substitutions: KernelIdeal -> Kernel, KIProof -> KBProof, .Proof.KI -> .Proof.KB; the script is
   scratch/mk_second.py of this unit). The same text over the other printed program. -/
/-
  The geometry of the result array: the 32 x 64 blocks of 8 rows x 2048 columns and the 32 blocks of the last four
  rows are pairwise disjoint and cover the 516 x 65536 index set, so the whole array at the full share is the
  separating conjunction of the 32 vector subcores' parts; the 32 vector subcores are the 16 subcores of each of
  the 2 SparseCores; and a source array splits into 32 read shares and a remainder.
-/
import proofs.«214288_g455266533575_cont_8to1_b_1966_18_alg».proof.Proof.KBSetup

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The index sets of the pieces, over explicit coordinates -/

/-- The index set of piece `p` of vector subcore `w`: rows `8 (w % 32) + 256 ((p / 32) % 2)` .. + 7, columns
    `2048 (p % 32)` .. + 2047 of the 516 x 65536 array. -/
def pset (w p : ℕ) : Finset S516x65536.Idx :=
  (Rect.unit (s := S516x65536) ![8 * (w % 32) + 256 * ((p / 32) % 2), 2048 * (p % 32)] S8x2048.size (pieceM_inb w p)).set

/-- The index set of the last piece of vector subcore `w`: rows 512 .. 515, columns `2048 (w % 32)` .. + 2047. -/
def tset (w : ℕ) : Finset S516x65536.Idx :=
  (Rect.unit (s := S516x65536) ![512, 2048 * (w % 32)] S4x2048.size (tailM_inb w)).set

/-- A slice of the whole array covers exactly its rectangle. -/
theorem pieceM_set (w p : ℕ) : (pieceM w p).view.set = pset w p := View.set_slice_whole _ _
theorem tailM_set (w : ℕ) : (tailM w).view.set = tset w := View.set_slice_whole _ _

theorem mem_pset (w p : ℕ) (i : S516x65536.Idx) :
    i ∈ pset w p ↔
      (8 * (w % 32) + 256 * ((p / 32) % 2) ≤ (i 0).val ∧ (i 0).val < 8 * (w % 32) + 256 * ((p / 32) % 2) + 8) ∧
      (2048 * (p % 32) ≤ (i 1).val ∧ (i 1).val < 2048 * (p % 32) + 2048) := by
  unfold pset
  rw [Rect.mem_set_unit]
  exact Fin.forall_fin_two

theorem mem_tset (w : ℕ) (i : S516x65536.Idx) :
    i ∈ tset w ↔
      (512 ≤ (i 0).val ∧ (i 0).val < 512 + 4) ∧
      (2048 * (w % 32) ≤ (i 1).val ∧ (i 1).val < 2048 * (w % 32) + 2048) := by
  unfold tset
  rw [Rect.mem_set_unit]
  exact Fin.forall_fin_two

/-- All the indices of vector subcore `w`: its 64 pieces and its last piece. -/
def kset (w : ℕ) : Finset S516x65536.Idx := (Finset.range 64).biUnion (pset w) ∪ tset w

theorem mem_kset (w : ℕ) (i : S516x65536.Idx) :
    i ∈ kset w ↔ (∃ p, p < 64 ∧ i ∈ pset w p) ∨ i ∈ tset w := by
  unfold kset
  rw [Finset.mem_union, Finset.mem_biUnion]
  simp only [Finset.mem_range]

/-! ## The pieces are pairwise disjoint -/

/-- Two different pieces of one vector subcore differ in their row block (`p / 32`) or their column block (`p % 32`). -/
theorem pset_disjoint (w p p' : ℕ) (hp : p < 64) (hp' : p' < 64) (h : p ≠ p') : Disjoint (pset w p) (pset w p') := by
  rw [Finset.disjoint_left]
  intro i h1 h2
  rw [mem_pset] at h1 h2
  omega

/-- The pieces lie in rows below 512, the last pieces in rows 512 and above. -/
theorem pset_tset_disjoint (w p w' : ℕ) : Disjoint (pset w p) (tset w') := by
  rw [Finset.disjoint_left]
  intro i h1 h2
  rw [mem_pset] at h1
  rw [mem_tset] at h2
  omega

/-- Pieces of different vector subcores lie in different rows: row `r` of a piece of `w` has `(r / 8) % 32 = w`. -/
theorem pset_disjoint_tiles (w w' p p' : ℕ) (hw : w < 32) (hw' : w' < 32) (h : w ≠ w') : Disjoint (pset w p) (pset w' p') := by
  rw [Finset.disjoint_left]
  intro i h1 h2
  rw [mem_pset] at h1 h2
  omega

/-- Last pieces of different vector subcores lie in different column blocks. -/
theorem tset_disjoint (w w' : ℕ) (hw : w < 32) (hw' : w' < 32) (h : w ≠ w') : Disjoint (tset w) (tset w') := by
  rw [Finset.disjoint_left]
  intro i h1 h2
  rw [mem_tset] at h1 h2
  omega

theorem kset_disjoint (w w' : ℕ) (hw : w < 32) (hw' : w' < 32) (h : w ≠ w') : Disjoint (kset w) (kset w') := by
  rw [Finset.disjoint_left]
  intro i h1 h2
  rw [mem_kset] at h1 h2
  rcases h1 with ⟨p, _, h1⟩ | h1 <;> rcases h2 with ⟨p', _, h2⟩ | h2
  · exact Finset.disjoint_left.mp (pset_disjoint_tiles w w' p p' hw hw' h) h1 h2
  · exact Finset.disjoint_left.mp (pset_tset_disjoint w p w') h1 h2
  · exact Finset.disjoint_left.mp (pset_tset_disjoint w' p' w) h2 h1
  · exact Finset.disjoint_left.mp (tset_disjoint w w' hw hw' h) h1 h2

/-! ## The pieces cover the array -/

/-- Index `(r, c)` with `r < 512` lies in piece `32 (r / 256) + c / 2048` of vector subcore `(r / 8) % 32`; with `r ≥ 512` it
    lies in the last piece of vector subcore `c / 2048`. -/
theorem kset_cover : (Finset.range 32).biUnion kset = Finset.univ := by
  rw [Finset.eq_univ_iff_forall]
  intro i
  rw [Finset.mem_biUnion]
  have h0 : (i 0).val < 516 := idx2_lt0 i
  have h1 : (i 1).val < 65536 := idx2_lt1 i
  by_cases hr : (i 0).val < 512
  · refine ⟨((i 0).val / 8) % 32, Finset.mem_range.mpr (Nat.mod_lt _ (by decide)), ?_⟩
    rw [mem_kset]
    refine Or.inl ⟨32 * ((i 0).val / 256) + (i 1).val / 2048, by omega, ?_⟩
    rw [mem_pset]
    omega
  · refine ⟨(i 1).val / 2048, Finset.mem_range.mpr (by omega), ?_⟩
    rw [mem_kset]
    refine Or.inr ?_
    rw [mem_tset]
    omega

/-! ## The result array as the 32 vector subcores' parts -/

/-- A vector subcore's indices, held at the full share, are its 64 pieces and its last piece. -/
theorem kset_split (d : Dev nD) (w : ℕ) (f : Buf (Elt F) (oLoc d)) :
    (oLoc d ↦[kset w]{fullShare} f : sProp 𝕄) = outRes d w f := by
  have hd : Disjoint ((Finset.range 64).biUnion (pset w)) (tset w) :=
    (Finset.disjoint_biUnion_left _ _ _).mpr fun p _ => pset_tset_disjoint w p w
  have hu : (oLoc d ↦[(Finset.range 64).biUnion (pset w) ∪ tset w]{fullShare} f : sProp 𝕄)
      ⊣⊢ iprop((oLoc d ↦[(Finset.range 64).biUnion (pset w)]{fullShare} f) ∗ oLoc d ↦[tset w]{fullShare} f) :=
    pointsTo_union hd
  unfold outRes kset
  rw [BI.equiv_iff.mp ⟨hu.1, hu.2⟩,
    pointsTo_biUnion (Finset.range 64) (ℓ := oLoc d) (pset w)
      (fun p hp p' hp' h => pset_disjoint w p p' (Finset.mem_range.mp hp) (Finset.mem_range.mp hp') h)]
  simp only [pieceM_set, tailM_set]

/-- The whole result array, held at the full share, is the separating conjunction of the 32 vector subcores' parts. -/
theorem out_split (d : Dev nD) (f : Buf (Elt F) (oLoc d)) :
    (oLoc d ↦{fullShare} f : sProp 𝕄) = bigSep (Finset.range 32) (fun w => outRes d w f) := by
  rw [← kset_cover,
    pointsTo_biUnion (Finset.range 32) (ℓ := oLoc d) kset
      (fun w hw w' hw' h => kset_disjoint w w' (Finset.mem_range.mp hw) (Finset.mem_range.mp hw') h)]
  exact bigSep_congr fun w _ => kset_split d w f

/-! ## The 32 vector subcores as 2 SparseCores of 16 -/

/-- The map `(c, i) ↦ 2 i + c` from `Fin 2 × Fin 16` into the numbers. -/
def tileEmb : Fin 2 × Fin 16 ↪ ℕ :=
  ⟨fun x => 2 * x.2.val + x.1.val, fun x y h => by
    have hx1 := x.1.isLt; have hy1 := y.1.isLt
    have e : 2 * x.2.val + x.1.val = 2 * y.2.val + y.1.val := h
    exact Prod.ext (Fin.ext (by omega)) (Fin.ext (by omega))⟩

/-- Its image is the numbers below 32. -/
theorem tileEmb_univ : (Finset.univ : Finset (Fin 2 × Fin 16)).map tileEmb = Finset.range 32 := by
  ext n
  rw [Finset.mem_map, Finset.mem_range]
  constructor
  · rintro ⟨x, _, rfl⟩
    have hx1 := x.1.isLt; have hx2 := x.2.isLt
    show 2 * x.2.val + x.1.val < 32
    omega
  · intro hn
    exact ⟨(⟨n % 2, Nat.mod_lt _ (by decide)⟩, ⟨n / 2, by omega⟩), Finset.mem_univ _, by show 2 * (n / 2) + n % 2 = n; omega⟩

theorem tiles_reindex (Φ : ℕ → sProp 𝕄) :
    bigSep (Finset.range 32) Φ
      = bigSep (Finset.univ : Finset (Fin 2)) (fun c => bigSep (Finset.univ : Finset (Fin 16)) (fun i => Φ (2 * i.val + c.val))) := by
  rw [← tileEmb_univ, bigSep_map, bigSep_univ_prod]
  rfl

/-! ## A source array's 32 read shares -/

theorem src_split {ℓ : Loc nD τ sig} (f : Buf (Elt F) ℓ) :
    (ℓ ↦{fullShare} f : sProp 𝕄) ⊣⊢ iprop((ℓ ↦{Transfers.shareDrop fullShare 32} f) ∗ bigSep (Finset.range 32) (fun w => ℓ ↦{tq w} f)) :=
  Transfers.pointsTo_toks_range fullShare 32

end Cert.KBProof

end
-- ==== Proof.KBPiecesTable.lean ====
/- (the script is scratch/tables.py of this unit; it reads proof/Proof/Gen/Kernel/Skeleton.lean).
   For each of the 64 copies out of a staging buffer, in program order, the slice of the result array it
   writes, spelt as the printed program spells it. Data only: no proof is made here. -/
import proofs.«214288_g455266533575_cont_8to1_b_1966_18_alg».proof.Proof.KBSetup

noncomputable section

namespace Cert.KBProof

open Cert.Kernel Cert.Kernel.Gen
open Idealize.ShloMosaic

/-- The slice of the result array the program's `p`-th copy out of a staging buffer writes. -/
def progOut (L : grid0.Coords) : ℕ → Memref sig .scVector .hbm S8x2048 .f32
  | 0 => (Memref.whole main_v2_scv).slice (Rect.unit (s := S516x65536) (k0_off4 L 0#32) S8x2048.size (Facts₀.k0_off4_inb L 0)) (fun _ => rfl)
  | 1 => (Memref.whole main_v2_scv).slice (Rect.unit (s := S516x65536) (k0_off6 L 0#32) S8x2048.size (Facts₀.k0_off6_inb L 0)) (fun _ => rfl)
  | 2 => (Memref.whole main_v2_scv).slice (Rect.unit (s := S516x65536) (k0_off8 L 0#32) S8x2048.size (Facts₀.k0_off8_inb L 0)) (fun _ => rfl)
  | 3 => (Memref.whole main_v2_scv).slice (Rect.unit (s := S516x65536) (k0_off10 L 0#32) S8x2048.size (Facts₀.k0_off10_inb L 0)) (fun _ => rfl)
  | 4 => (Memref.whole main_v2_scv).slice (Rect.unit (s := S516x65536) (k0_off12 L 0#32) S8x2048.size (Facts₀.k0_off12_inb L 0)) (fun _ => rfl)
  | 5 => (Memref.whole main_v2_scv).slice (Rect.unit (s := S516x65536) (k0_off14 L 0#32) S8x2048.size (Facts₀.k0_off14_inb L 0)) (fun _ => rfl)
  | 6 => (Memref.whole main_v2_scv).slice (Rect.unit (s := S516x65536) (k0_off15 L 0#32) S8x2048.size (Facts₀.k0_off15_inb L 0)) (fun _ => rfl)
  | 7 => (Memref.whole main_v2_scv).slice (Rect.unit (s := S516x65536) (k0_off16 L 0#32) S8x2048.size (Facts₀.k0_off16_inb L 0)) (fun _ => rfl)
  | 8 => (Memref.whole main_v2_scv).slice (Rect.unit (s := S516x65536) (k0_off17 L 0#32) S8x2048.size (Facts₀.k0_off17_inb L 0)) (fun _ => rfl)
  | 9 => (Memref.whole main_v2_scv).slice (Rect.unit (s := S516x65536) (k0_off18 L 0#32) S8x2048.size (Facts₀.k0_off18_inb L 0)) (fun _ => rfl)
  | 10 => (Memref.whole main_v2_scv).slice (Rect.unit (s := S516x65536) (k0_off19 L 0#32) S8x2048.size (Facts₀.k0_off19_inb L 0)) (fun _ => rfl)
  | 11 => (Memref.whole main_v2_scv).slice (Rect.unit (s := S516x65536) (k0_off20 L 0#32) S8x2048.size (Facts₀.k0_off20_inb L 0)) (fun _ => rfl)
  | 12 => (Memref.whole main_v2_scv).slice (Rect.unit (s := S516x65536) (k0_off21 L 0#32) S8x2048.size (Facts₀.k0_off21_inb L 0)) (fun _ => rfl)
  | 13 => (Memref.whole main_v2_scv).slice (Rect.unit (s := S516x65536) (k0_off22 L 0#32) S8x2048.size (Facts₀.k0_off22_inb L 0)) (fun _ => rfl)
  | 14 => (Memref.whole main_v2_scv).slice (Rect.unit (s := S516x65536) (k0_off23 L 0#32) S8x2048.size (Facts₀.k0_off23_inb L 0)) (fun _ => rfl)
  | 15 => (Memref.whole main_v2_scv).slice (Rect.unit (s := S516x65536) (k0_off24 L 0#32) S8x2048.size (Facts₀.k0_off24_inb L 0)) (fun _ => rfl)
  | 16 => (Memref.whole main_v2_scv).slice (Rect.unit (s := S516x65536) (k0_off25 L 0#32) S8x2048.size (Facts₀.k0_off25_inb L 0)) (fun _ => rfl)
  | 17 => (Memref.whole main_v2_scv).slice (Rect.unit (s := S516x65536) (k0_off26 L 0#32) S8x2048.size (Facts₀.k0_off26_inb L 0)) (fun _ => rfl)
  | 18 => (Memref.whole main_v2_scv).slice (Rect.unit (s := S516x65536) (k0_off27 L 0#32) S8x2048.size (Facts₀.k0_off27_inb L 0)) (fun _ => rfl)
  | 19 => (Memref.whole main_v2_scv).slice (Rect.unit (s := S516x65536) (k0_off28 L 0#32) S8x2048.size (Facts₀.k0_off28_inb L 0)) (fun _ => rfl)
  | 20 => (Memref.whole main_v2_scv).slice (Rect.unit (s := S516x65536) (k0_off29 L 0#32) S8x2048.size (Facts₀.k0_off29_inb L 0)) (fun _ => rfl)
  | 21 => (Memref.whole main_v2_scv).slice (Rect.unit (s := S516x65536) (k0_off30 L 0#32) S8x2048.size (Facts₀.k0_off30_inb L 0)) (fun _ => rfl)
  | 22 => (Memref.whole main_v2_scv).slice (Rect.unit (s := S516x65536) (k0_off31 L 0#32) S8x2048.size (Facts₀.k0_off31_inb L 0)) (fun _ => rfl)
  | 23 => (Memref.whole main_v2_scv).slice (Rect.unit (s := S516x65536) (k0_off32 L 0#32) S8x2048.size (Facts₀.k0_off32_inb L 0)) (fun _ => rfl)
  | 24 => (Memref.whole main_v2_scv).slice (Rect.unit (s := S516x65536) (k0_off33 L 0#32) S8x2048.size (Facts₀.k0_off33_inb L 0)) (fun _ => rfl)
  | 25 => (Memref.whole main_v2_scv).slice (Rect.unit (s := S516x65536) (k0_off34 L 0#32) S8x2048.size (Facts₀.k0_off34_inb L 0)) (fun _ => rfl)
  | 26 => (Memref.whole main_v2_scv).slice (Rect.unit (s := S516x65536) (k0_off35 L 0#32) S8x2048.size (Facts₀.k0_off35_inb L 0)) (fun _ => rfl)
  | 27 => (Memref.whole main_v2_scv).slice (Rect.unit (s := S516x65536) (k0_off36 L 0#32) S8x2048.size (Facts₀.k0_off36_inb L 0)) (fun _ => rfl)
  | 28 => (Memref.whole main_v2_scv).slice (Rect.unit (s := S516x65536) (k0_off37 L 0#32) S8x2048.size (Facts₀.k0_off37_inb L 0)) (fun _ => rfl)
  | 29 => (Memref.whole main_v2_scv).slice (Rect.unit (s := S516x65536) (k0_off38 L 0#32) S8x2048.size (Facts₀.k0_off38_inb L 0)) (fun _ => rfl)
  | 30 => (Memref.whole main_v2_scv).slice (Rect.unit (s := S516x65536) (k0_off39 L 0#32) S8x2048.size (Facts₀.k0_off39_inb L 0)) (fun _ => rfl)
  | 31 => (Memref.whole main_v2_scv).slice (Rect.unit (s := S516x65536) (k0_off40 L 0#32) S8x2048.size (Facts₀.k0_off40_inb L 0)) (fun _ => rfl)
  | 32 => (Memref.whole main_v2_scv).slice (Rect.unit (s := S516x65536) (k0_off4 L 256#32) S8x2048.size (Facts₀.k0_off4_inb L 1)) (fun _ => rfl)
  | 33 => (Memref.whole main_v2_scv).slice (Rect.unit (s := S516x65536) (k0_off6 L 256#32) S8x2048.size (Facts₀.k0_off6_inb L 1)) (fun _ => rfl)
  | 34 => (Memref.whole main_v2_scv).slice (Rect.unit (s := S516x65536) (k0_off8 L 256#32) S8x2048.size (Facts₀.k0_off8_inb L 1)) (fun _ => rfl)
  | 35 => (Memref.whole main_v2_scv).slice (Rect.unit (s := S516x65536) (k0_off10 L 256#32) S8x2048.size (Facts₀.k0_off10_inb L 1)) (fun _ => rfl)
  | 36 => (Memref.whole main_v2_scv).slice (Rect.unit (s := S516x65536) (k0_off12 L 256#32) S8x2048.size (Facts₀.k0_off12_inb L 1)) (fun _ => rfl)
  | 37 => (Memref.whole main_v2_scv).slice (Rect.unit (s := S516x65536) (k0_off14 L 256#32) S8x2048.size (Facts₀.k0_off14_inb L 1)) (fun _ => rfl)
  | 38 => (Memref.whole main_v2_scv).slice (Rect.unit (s := S516x65536) (k0_off15 L 256#32) S8x2048.size (Facts₀.k0_off15_inb L 1)) (fun _ => rfl)
  | 39 => (Memref.whole main_v2_scv).slice (Rect.unit (s := S516x65536) (k0_off16 L 256#32) S8x2048.size (Facts₀.k0_off16_inb L 1)) (fun _ => rfl)
  | 40 => (Memref.whole main_v2_scv).slice (Rect.unit (s := S516x65536) (k0_off17 L 256#32) S8x2048.size (Facts₀.k0_off17_inb L 1)) (fun _ => rfl)
  | 41 => (Memref.whole main_v2_scv).slice (Rect.unit (s := S516x65536) (k0_off18 L 256#32) S8x2048.size (Facts₀.k0_off18_inb L 1)) (fun _ => rfl)
  | 42 => (Memref.whole main_v2_scv).slice (Rect.unit (s := S516x65536) (k0_off19 L 256#32) S8x2048.size (Facts₀.k0_off19_inb L 1)) (fun _ => rfl)
  | 43 => (Memref.whole main_v2_scv).slice (Rect.unit (s := S516x65536) (k0_off20 L 256#32) S8x2048.size (Facts₀.k0_off20_inb L 1)) (fun _ => rfl)
  | 44 => (Memref.whole main_v2_scv).slice (Rect.unit (s := S516x65536) (k0_off21 L 256#32) S8x2048.size (Facts₀.k0_off21_inb L 1)) (fun _ => rfl)
  | 45 => (Memref.whole main_v2_scv).slice (Rect.unit (s := S516x65536) (k0_off22 L 256#32) S8x2048.size (Facts₀.k0_off22_inb L 1)) (fun _ => rfl)
  | 46 => (Memref.whole main_v2_scv).slice (Rect.unit (s := S516x65536) (k0_off23 L 256#32) S8x2048.size (Facts₀.k0_off23_inb L 1)) (fun _ => rfl)
  | 47 => (Memref.whole main_v2_scv).slice (Rect.unit (s := S516x65536) (k0_off24 L 256#32) S8x2048.size (Facts₀.k0_off24_inb L 1)) (fun _ => rfl)
  | 48 => (Memref.whole main_v2_scv).slice (Rect.unit (s := S516x65536) (k0_off25 L 256#32) S8x2048.size (Facts₀.k0_off25_inb L 1)) (fun _ => rfl)
  | 49 => (Memref.whole main_v2_scv).slice (Rect.unit (s := S516x65536) (k0_off26 L 256#32) S8x2048.size (Facts₀.k0_off26_inb L 1)) (fun _ => rfl)
  | 50 => (Memref.whole main_v2_scv).slice (Rect.unit (s := S516x65536) (k0_off27 L 256#32) S8x2048.size (Facts₀.k0_off27_inb L 1)) (fun _ => rfl)
  | 51 => (Memref.whole main_v2_scv).slice (Rect.unit (s := S516x65536) (k0_off28 L 256#32) S8x2048.size (Facts₀.k0_off28_inb L 1)) (fun _ => rfl)
  | 52 => (Memref.whole main_v2_scv).slice (Rect.unit (s := S516x65536) (k0_off29 L 256#32) S8x2048.size (Facts₀.k0_off29_inb L 1)) (fun _ => rfl)
  | 53 => (Memref.whole main_v2_scv).slice (Rect.unit (s := S516x65536) (k0_off30 L 256#32) S8x2048.size (Facts₀.k0_off30_inb L 1)) (fun _ => rfl)
  | 54 => (Memref.whole main_v2_scv).slice (Rect.unit (s := S516x65536) (k0_off31 L 256#32) S8x2048.size (Facts₀.k0_off31_inb L 1)) (fun _ => rfl)
  | 55 => (Memref.whole main_v2_scv).slice (Rect.unit (s := S516x65536) (k0_off32 L 256#32) S8x2048.size (Facts₀.k0_off32_inb L 1)) (fun _ => rfl)
  | 56 => (Memref.whole main_v2_scv).slice (Rect.unit (s := S516x65536) (k0_off33 L 256#32) S8x2048.size (Facts₀.k0_off33_inb L 1)) (fun _ => rfl)
  | 57 => (Memref.whole main_v2_scv).slice (Rect.unit (s := S516x65536) (k0_off34 L 256#32) S8x2048.size (Facts₀.k0_off34_inb L 1)) (fun _ => rfl)
  | 58 => (Memref.whole main_v2_scv).slice (Rect.unit (s := S516x65536) (k0_off35 L 256#32) S8x2048.size (Facts₀.k0_off35_inb L 1)) (fun _ => rfl)
  | 59 => (Memref.whole main_v2_scv).slice (Rect.unit (s := S516x65536) (k0_off36 L 256#32) S8x2048.size (Facts₀.k0_off36_inb L 1)) (fun _ => rfl)
  | 60 => (Memref.whole main_v2_scv).slice (Rect.unit (s := S516x65536) (k0_off37 L 256#32) S8x2048.size (Facts₀.k0_off37_inb L 1)) (fun _ => rfl)
  | 61 => (Memref.whole main_v2_scv).slice (Rect.unit (s := S516x65536) (k0_off38 L 256#32) S8x2048.size (Facts₀.k0_off38_inb L 1)) (fun _ => rfl)
  | 62 => (Memref.whole main_v2_scv).slice (Rect.unit (s := S516x65536) (k0_off39 L 256#32) S8x2048.size (Facts₀.k0_off39_inb L 1)) (fun _ => rfl)
  | 63 => (Memref.whole main_v2_scv).slice (Rect.unit (s := S516x65536) (k0_off40 L 256#32) S8x2048.size (Facts₀.k0_off40_inb L 1)) (fun _ => rfl)
  | _ => pieceM (wid L) 0

end Cert.KBProof

end
-- ==== Proof.KBPieces.lean ====
/- (substitutions: KernelIdeal -> Kernel, KIProof -> KBProof, .Proof.KI -> .Proof.KB; the script is
   scratch/mk_second.py of this unit). The same text over the other printed program. -/
/-
  The pieces of the result array as the program spells them, against their closed forms. Vector subcore
  w = 2 s + c writes 64 blocks of 8 rows by 2048 columns (rows 8 w + 256 r .. + 7 for r = 0, 1, columns
  2048 q .. + 2047 for q = 0 .. 31) and one block of the last four rows 512 .. 515 at columns 2048 w .. + 2047.
  Two slices of one array by unit rectangles of the same sizes are equal as soon as their offsets are equal, so
  each identity below is an identity of two offset vectors: the program's word arithmetic on the grid coordinates
  on one side, the closed form in w on the other.
-/
import proofs.«214288_g455266533575_cont_8to1_b_1966_18_alg».proof.Proof.KBPiecesTable
import Mathlib.Tactic.IntervalCases

set_option synthInstance.maxSize 4096
set_option Elab.async false

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Equal offsets, equal slices -/

/-- Two slices of one array by unit rectangles of the same sizes are equal when their offsets are equal, whatever
    the in-bounds evidence of each. -/
theorem slice_off_congr {κ : Kind} {sp : Space} {s : Shape} {e : EltTy} (mr : Memref sig κ sp s e)
    {off off' size : Fin s.rank → ℕ} (h : off = off')
    (p : ∀ a, off a + size a ≤ s.size a) (p' : ∀ a, off' a + size a ≤ s.size a) :
    (mr.slice (Rect.unit off size p) (fun _ => rfl) : Memref sig κ sp ⟨s.rank, size⟩ e)
      = mr.slice (Rect.unit off' size p') (fun _ => rfl) := by
  subst h; rfl

/-- Two vectors of two naturals are equal when their entries are. -/
theorem vec2_congr {a b c d : ℕ} (h₁ : a = c) (h₂ : b = d) : (![a, b] : Fin 2 → ℕ) = ![c, d] := by
  subst h₁ h₂; rfl

/-! ## The vector subcore's number -/

theorem wid_lt (L : grid0.Coords) : wid L < 32 := by
  have h0 : (L 0).val < 2 := (L 0).isLt
  have h1 : (L 1).val < 16 := (L 1).isLt
  unfold wid; omega

/-- Exactly one of the two guards of the last piece holds: the first below subcore number 8, the second from 8 on. -/
theorem cond_cases (L : grid0.Coords) :
    (k0_cond1 L = 1#1 ∧ ¬ k0_cond2 L = 1#1 ∧ wid L < 8) ∨ (¬ k0_cond1 L = 1#1 ∧ k0_cond2 L = 1#1 ∧ 8 ≤ wid L) := by
  revert L; decide +kernel

/-! ## The last piece's offsets -/

theorem off42_inb : ∀ L : grid0.Coords, ∀ a, (k0_off42 L) a + S4x2048.size a ≤ S516x65536.size a := by decide +kernel
theorem off44_inb : ∀ L : grid0.Coords, ∀ a, (k0_off44 L) a + S4x2048.size a ≤ S516x65536.size a := by decide +kernel

theorem off41_form (L : grid0.Coords) (h : k0_cond1 L = 1#1) : k0_off41 L = ![512, 2048 * wid L] := by
  revert L; decide +kernel
theorem off42_form (L : grid0.Coords) : k0_off42 L = ![512, 2048 * wid L] := by
  revert L; decide +kernel
theorem off43_form (L : grid0.Coords) (h : k0_cond2 L = 1#1) : k0_off43 L = ![512, 2048 * wid L - 16384] := by
  revert L; decide +kernel
theorem off44_form (L : grid0.Coords) : k0_off44 L = ![512, 2048 * wid L] := by
  revert L; decide +kernel

/-- The last piece as the first guarded branch spells it. -/
def progTail1 (L : grid0.Coords) : Memref sig .scVector .hbm S4x2048 .f32 :=
  (Memref.whole main_v2_scv).slice (Rect.unit (s := S516x65536) (k0_off42 L) S4x2048.size (off42_inb L)) (fun _ => rfl)
/-- The last piece as the second guarded branch spells it. -/
def progTail2 (L : grid0.Coords) : Memref sig .scVector .hbm S4x2048 .f32 :=
  (Memref.whole main_v2_scv).slice (Rect.unit (s := S516x65536) (k0_off44 L) S4x2048.size (off44_inb L)) (fun _ => rfl)

theorem progTail1_eq (L : grid0.Coords) : progTail1 L = tailM (wid L) := by
  have hw := wid_lt L
  unfold progTail1 tailM
  exact slice_off_congr _ ((off42_form L).trans (vec2_congr rfl (by rw [Nat.mod_eq_of_lt hw]))) _ _

theorem progTail2_eq (L : grid0.Coords) : progTail2 L = tailM (wid L) := by
  have hw := wid_lt L
  unfold progTail2 tailM
  exact slice_off_congr _ ((off44_form L).trans (vec2_congr rfl (by rw [Nat.mod_eq_of_lt hw]))) _ _

/-! ## The 64 pieces -/

theorem progOut_eq (L : grid0.Coords) (p : ℕ) (hp : p < 64) : progOut L p = pieceM (wid L) p := by
  have h0 : (L 0).val < 2 := (L 0).isLt
  have h1 : (L 1).val < 16 := (L 1).isLt
  have hw : wid L = 2 * (L 1).val + (L 0).val := rfl
  interval_cases p <;>
    exact slice_off_congr _ (ClosedOff.eq.trans (vec2_congr (by omega) (by norm_num))) _ _

end Cert.KBProof

end
-- ==== Proof.KBTilePieces.lean ====
/- (the script is scratch/kbpieces.py of this unit; it reads proof/Proof/KBPiecesTable.lean).
   The 64 pieces of the result array one vector subcore writes, in program order: for each, the points-to of
   the slice's own elements, the slice spelt as the printed program spells it. Data only: no proof is made here. -/
import proofs.«214288_g455266533575_cont_8to1_b_1966_18_alg».proof.Proof.KBPiecesTable

noncomputable section

namespace Cert.KBProof

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The 64 pieces of the result array the vector subcore at grid point `L` writes, each its own elements at the
    contents `f`, in program order. -/
def progPieces (d : Dev nD) (L : grid0.Coords) (f : Buf (Elt F) (oLoc d)) : sProp 𝕄 :=
  iprop((((Memref.whole main_v2_scv).slice (Rect.unit (s := S516x65536) (k0_off4 L 0#32) S8x2048.size (Facts₀.k0_off4_inb L 0)) (fun _ => rfl)).view.loc (thr d L) ↦[((Memref.whole main_v2_scv).slice (Rect.unit (s := S516x65536) (k0_off4 L 0#32) S8x2048.size (Facts₀.k0_off4_inb L 0)) (fun _ => rfl)).view.set]{fullShare} f)
    ∗ (((Memref.whole main_v2_scv).slice (Rect.unit (s := S516x65536) (k0_off6 L 0#32) S8x2048.size (Facts₀.k0_off6_inb L 0)) (fun _ => rfl)).view.loc (thr d L) ↦[((Memref.whole main_v2_scv).slice (Rect.unit (s := S516x65536) (k0_off6 L 0#32) S8x2048.size (Facts₀.k0_off6_inb L 0)) (fun _ => rfl)).view.set]{fullShare} f)
    ∗ (((Memref.whole main_v2_scv).slice (Rect.unit (s := S516x65536) (k0_off8 L 0#32) S8x2048.size (Facts₀.k0_off8_inb L 0)) (fun _ => rfl)).view.loc (thr d L) ↦[((Memref.whole main_v2_scv).slice (Rect.unit (s := S516x65536) (k0_off8 L 0#32) S8x2048.size (Facts₀.k0_off8_inb L 0)) (fun _ => rfl)).view.set]{fullShare} f)
    ∗ (((Memref.whole main_v2_scv).slice (Rect.unit (s := S516x65536) (k0_off10 L 0#32) S8x2048.size (Facts₀.k0_off10_inb L 0)) (fun _ => rfl)).view.loc (thr d L) ↦[((Memref.whole main_v2_scv).slice (Rect.unit (s := S516x65536) (k0_off10 L 0#32) S8x2048.size (Facts₀.k0_off10_inb L 0)) (fun _ => rfl)).view.set]{fullShare} f)
    ∗ (((Memref.whole main_v2_scv).slice (Rect.unit (s := S516x65536) (k0_off12 L 0#32) S8x2048.size (Facts₀.k0_off12_inb L 0)) (fun _ => rfl)).view.loc (thr d L) ↦[((Memref.whole main_v2_scv).slice (Rect.unit (s := S516x65536) (k0_off12 L 0#32) S8x2048.size (Facts₀.k0_off12_inb L 0)) (fun _ => rfl)).view.set]{fullShare} f)
    ∗ (((Memref.whole main_v2_scv).slice (Rect.unit (s := S516x65536) (k0_off14 L 0#32) S8x2048.size (Facts₀.k0_off14_inb L 0)) (fun _ => rfl)).view.loc (thr d L) ↦[((Memref.whole main_v2_scv).slice (Rect.unit (s := S516x65536) (k0_off14 L 0#32) S8x2048.size (Facts₀.k0_off14_inb L 0)) (fun _ => rfl)).view.set]{fullShare} f)
    ∗ (((Memref.whole main_v2_scv).slice (Rect.unit (s := S516x65536) (k0_off15 L 0#32) S8x2048.size (Facts₀.k0_off15_inb L 0)) (fun _ => rfl)).view.loc (thr d L) ↦[((Memref.whole main_v2_scv).slice (Rect.unit (s := S516x65536) (k0_off15 L 0#32) S8x2048.size (Facts₀.k0_off15_inb L 0)) (fun _ => rfl)).view.set]{fullShare} f)
    ∗ (((Memref.whole main_v2_scv).slice (Rect.unit (s := S516x65536) (k0_off16 L 0#32) S8x2048.size (Facts₀.k0_off16_inb L 0)) (fun _ => rfl)).view.loc (thr d L) ↦[((Memref.whole main_v2_scv).slice (Rect.unit (s := S516x65536) (k0_off16 L 0#32) S8x2048.size (Facts₀.k0_off16_inb L 0)) (fun _ => rfl)).view.set]{fullShare} f)
    ∗ (((Memref.whole main_v2_scv).slice (Rect.unit (s := S516x65536) (k0_off17 L 0#32) S8x2048.size (Facts₀.k0_off17_inb L 0)) (fun _ => rfl)).view.loc (thr d L) ↦[((Memref.whole main_v2_scv).slice (Rect.unit (s := S516x65536) (k0_off17 L 0#32) S8x2048.size (Facts₀.k0_off17_inb L 0)) (fun _ => rfl)).view.set]{fullShare} f)
    ∗ (((Memref.whole main_v2_scv).slice (Rect.unit (s := S516x65536) (k0_off18 L 0#32) S8x2048.size (Facts₀.k0_off18_inb L 0)) (fun _ => rfl)).view.loc (thr d L) ↦[((Memref.whole main_v2_scv).slice (Rect.unit (s := S516x65536) (k0_off18 L 0#32) S8x2048.size (Facts₀.k0_off18_inb L 0)) (fun _ => rfl)).view.set]{fullShare} f)
    ∗ (((Memref.whole main_v2_scv).slice (Rect.unit (s := S516x65536) (k0_off19 L 0#32) S8x2048.size (Facts₀.k0_off19_inb L 0)) (fun _ => rfl)).view.loc (thr d L) ↦[((Memref.whole main_v2_scv).slice (Rect.unit (s := S516x65536) (k0_off19 L 0#32) S8x2048.size (Facts₀.k0_off19_inb L 0)) (fun _ => rfl)).view.set]{fullShare} f)
    ∗ (((Memref.whole main_v2_scv).slice (Rect.unit (s := S516x65536) (k0_off20 L 0#32) S8x2048.size (Facts₀.k0_off20_inb L 0)) (fun _ => rfl)).view.loc (thr d L) ↦[((Memref.whole main_v2_scv).slice (Rect.unit (s := S516x65536) (k0_off20 L 0#32) S8x2048.size (Facts₀.k0_off20_inb L 0)) (fun _ => rfl)).view.set]{fullShare} f)
    ∗ (((Memref.whole main_v2_scv).slice (Rect.unit (s := S516x65536) (k0_off21 L 0#32) S8x2048.size (Facts₀.k0_off21_inb L 0)) (fun _ => rfl)).view.loc (thr d L) ↦[((Memref.whole main_v2_scv).slice (Rect.unit (s := S516x65536) (k0_off21 L 0#32) S8x2048.size (Facts₀.k0_off21_inb L 0)) (fun _ => rfl)).view.set]{fullShare} f)
    ∗ (((Memref.whole main_v2_scv).slice (Rect.unit (s := S516x65536) (k0_off22 L 0#32) S8x2048.size (Facts₀.k0_off22_inb L 0)) (fun _ => rfl)).view.loc (thr d L) ↦[((Memref.whole main_v2_scv).slice (Rect.unit (s := S516x65536) (k0_off22 L 0#32) S8x2048.size (Facts₀.k0_off22_inb L 0)) (fun _ => rfl)).view.set]{fullShare} f)
    ∗ (((Memref.whole main_v2_scv).slice (Rect.unit (s := S516x65536) (k0_off23 L 0#32) S8x2048.size (Facts₀.k0_off23_inb L 0)) (fun _ => rfl)).view.loc (thr d L) ↦[((Memref.whole main_v2_scv).slice (Rect.unit (s := S516x65536) (k0_off23 L 0#32) S8x2048.size (Facts₀.k0_off23_inb L 0)) (fun _ => rfl)).view.set]{fullShare} f)
    ∗ (((Memref.whole main_v2_scv).slice (Rect.unit (s := S516x65536) (k0_off24 L 0#32) S8x2048.size (Facts₀.k0_off24_inb L 0)) (fun _ => rfl)).view.loc (thr d L) ↦[((Memref.whole main_v2_scv).slice (Rect.unit (s := S516x65536) (k0_off24 L 0#32) S8x2048.size (Facts₀.k0_off24_inb L 0)) (fun _ => rfl)).view.set]{fullShare} f)
    ∗ (((Memref.whole main_v2_scv).slice (Rect.unit (s := S516x65536) (k0_off25 L 0#32) S8x2048.size (Facts₀.k0_off25_inb L 0)) (fun _ => rfl)).view.loc (thr d L) ↦[((Memref.whole main_v2_scv).slice (Rect.unit (s := S516x65536) (k0_off25 L 0#32) S8x2048.size (Facts₀.k0_off25_inb L 0)) (fun _ => rfl)).view.set]{fullShare} f)
    ∗ (((Memref.whole main_v2_scv).slice (Rect.unit (s := S516x65536) (k0_off26 L 0#32) S8x2048.size (Facts₀.k0_off26_inb L 0)) (fun _ => rfl)).view.loc (thr d L) ↦[((Memref.whole main_v2_scv).slice (Rect.unit (s := S516x65536) (k0_off26 L 0#32) S8x2048.size (Facts₀.k0_off26_inb L 0)) (fun _ => rfl)).view.set]{fullShare} f)
    ∗ (((Memref.whole main_v2_scv).slice (Rect.unit (s := S516x65536) (k0_off27 L 0#32) S8x2048.size (Facts₀.k0_off27_inb L 0)) (fun _ => rfl)).view.loc (thr d L) ↦[((Memref.whole main_v2_scv).slice (Rect.unit (s := S516x65536) (k0_off27 L 0#32) S8x2048.size (Facts₀.k0_off27_inb L 0)) (fun _ => rfl)).view.set]{fullShare} f)
    ∗ (((Memref.whole main_v2_scv).slice (Rect.unit (s := S516x65536) (k0_off28 L 0#32) S8x2048.size (Facts₀.k0_off28_inb L 0)) (fun _ => rfl)).view.loc (thr d L) ↦[((Memref.whole main_v2_scv).slice (Rect.unit (s := S516x65536) (k0_off28 L 0#32) S8x2048.size (Facts₀.k0_off28_inb L 0)) (fun _ => rfl)).view.set]{fullShare} f)
    ∗ (((Memref.whole main_v2_scv).slice (Rect.unit (s := S516x65536) (k0_off29 L 0#32) S8x2048.size (Facts₀.k0_off29_inb L 0)) (fun _ => rfl)).view.loc (thr d L) ↦[((Memref.whole main_v2_scv).slice (Rect.unit (s := S516x65536) (k0_off29 L 0#32) S8x2048.size (Facts₀.k0_off29_inb L 0)) (fun _ => rfl)).view.set]{fullShare} f)
    ∗ (((Memref.whole main_v2_scv).slice (Rect.unit (s := S516x65536) (k0_off30 L 0#32) S8x2048.size (Facts₀.k0_off30_inb L 0)) (fun _ => rfl)).view.loc (thr d L) ↦[((Memref.whole main_v2_scv).slice (Rect.unit (s := S516x65536) (k0_off30 L 0#32) S8x2048.size (Facts₀.k0_off30_inb L 0)) (fun _ => rfl)).view.set]{fullShare} f)
    ∗ (((Memref.whole main_v2_scv).slice (Rect.unit (s := S516x65536) (k0_off31 L 0#32) S8x2048.size (Facts₀.k0_off31_inb L 0)) (fun _ => rfl)).view.loc (thr d L) ↦[((Memref.whole main_v2_scv).slice (Rect.unit (s := S516x65536) (k0_off31 L 0#32) S8x2048.size (Facts₀.k0_off31_inb L 0)) (fun _ => rfl)).view.set]{fullShare} f)
    ∗ (((Memref.whole main_v2_scv).slice (Rect.unit (s := S516x65536) (k0_off32 L 0#32) S8x2048.size (Facts₀.k0_off32_inb L 0)) (fun _ => rfl)).view.loc (thr d L) ↦[((Memref.whole main_v2_scv).slice (Rect.unit (s := S516x65536) (k0_off32 L 0#32) S8x2048.size (Facts₀.k0_off32_inb L 0)) (fun _ => rfl)).view.set]{fullShare} f)
    ∗ (((Memref.whole main_v2_scv).slice (Rect.unit (s := S516x65536) (k0_off33 L 0#32) S8x2048.size (Facts₀.k0_off33_inb L 0)) (fun _ => rfl)).view.loc (thr d L) ↦[((Memref.whole main_v2_scv).slice (Rect.unit (s := S516x65536) (k0_off33 L 0#32) S8x2048.size (Facts₀.k0_off33_inb L 0)) (fun _ => rfl)).view.set]{fullShare} f)
    ∗ (((Memref.whole main_v2_scv).slice (Rect.unit (s := S516x65536) (k0_off34 L 0#32) S8x2048.size (Facts₀.k0_off34_inb L 0)) (fun _ => rfl)).view.loc (thr d L) ↦[((Memref.whole main_v2_scv).slice (Rect.unit (s := S516x65536) (k0_off34 L 0#32) S8x2048.size (Facts₀.k0_off34_inb L 0)) (fun _ => rfl)).view.set]{fullShare} f)
    ∗ (((Memref.whole main_v2_scv).slice (Rect.unit (s := S516x65536) (k0_off35 L 0#32) S8x2048.size (Facts₀.k0_off35_inb L 0)) (fun _ => rfl)).view.loc (thr d L) ↦[((Memref.whole main_v2_scv).slice (Rect.unit (s := S516x65536) (k0_off35 L 0#32) S8x2048.size (Facts₀.k0_off35_inb L 0)) (fun _ => rfl)).view.set]{fullShare} f)
    ∗ (((Memref.whole main_v2_scv).slice (Rect.unit (s := S516x65536) (k0_off36 L 0#32) S8x2048.size (Facts₀.k0_off36_inb L 0)) (fun _ => rfl)).view.loc (thr d L) ↦[((Memref.whole main_v2_scv).slice (Rect.unit (s := S516x65536) (k0_off36 L 0#32) S8x2048.size (Facts₀.k0_off36_inb L 0)) (fun _ => rfl)).view.set]{fullShare} f)
    ∗ (((Memref.whole main_v2_scv).slice (Rect.unit (s := S516x65536) (k0_off37 L 0#32) S8x2048.size (Facts₀.k0_off37_inb L 0)) (fun _ => rfl)).view.loc (thr d L) ↦[((Memref.whole main_v2_scv).slice (Rect.unit (s := S516x65536) (k0_off37 L 0#32) S8x2048.size (Facts₀.k0_off37_inb L 0)) (fun _ => rfl)).view.set]{fullShare} f)
    ∗ (((Memref.whole main_v2_scv).slice (Rect.unit (s := S516x65536) (k0_off38 L 0#32) S8x2048.size (Facts₀.k0_off38_inb L 0)) (fun _ => rfl)).view.loc (thr d L) ↦[((Memref.whole main_v2_scv).slice (Rect.unit (s := S516x65536) (k0_off38 L 0#32) S8x2048.size (Facts₀.k0_off38_inb L 0)) (fun _ => rfl)).view.set]{fullShare} f)
    ∗ (((Memref.whole main_v2_scv).slice (Rect.unit (s := S516x65536) (k0_off39 L 0#32) S8x2048.size (Facts₀.k0_off39_inb L 0)) (fun _ => rfl)).view.loc (thr d L) ↦[((Memref.whole main_v2_scv).slice (Rect.unit (s := S516x65536) (k0_off39 L 0#32) S8x2048.size (Facts₀.k0_off39_inb L 0)) (fun _ => rfl)).view.set]{fullShare} f)
    ∗ (((Memref.whole main_v2_scv).slice (Rect.unit (s := S516x65536) (k0_off40 L 0#32) S8x2048.size (Facts₀.k0_off40_inb L 0)) (fun _ => rfl)).view.loc (thr d L) ↦[((Memref.whole main_v2_scv).slice (Rect.unit (s := S516x65536) (k0_off40 L 0#32) S8x2048.size (Facts₀.k0_off40_inb L 0)) (fun _ => rfl)).view.set]{fullShare} f)
    ∗ (((Memref.whole main_v2_scv).slice (Rect.unit (s := S516x65536) (k0_off4 L 256#32) S8x2048.size (Facts₀.k0_off4_inb L 1)) (fun _ => rfl)).view.loc (thr d L) ↦[((Memref.whole main_v2_scv).slice (Rect.unit (s := S516x65536) (k0_off4 L 256#32) S8x2048.size (Facts₀.k0_off4_inb L 1)) (fun _ => rfl)).view.set]{fullShare} f)
    ∗ (((Memref.whole main_v2_scv).slice (Rect.unit (s := S516x65536) (k0_off6 L 256#32) S8x2048.size (Facts₀.k0_off6_inb L 1)) (fun _ => rfl)).view.loc (thr d L) ↦[((Memref.whole main_v2_scv).slice (Rect.unit (s := S516x65536) (k0_off6 L 256#32) S8x2048.size (Facts₀.k0_off6_inb L 1)) (fun _ => rfl)).view.set]{fullShare} f)
    ∗ (((Memref.whole main_v2_scv).slice (Rect.unit (s := S516x65536) (k0_off8 L 256#32) S8x2048.size (Facts₀.k0_off8_inb L 1)) (fun _ => rfl)).view.loc (thr d L) ↦[((Memref.whole main_v2_scv).slice (Rect.unit (s := S516x65536) (k0_off8 L 256#32) S8x2048.size (Facts₀.k0_off8_inb L 1)) (fun _ => rfl)).view.set]{fullShare} f)
    ∗ (((Memref.whole main_v2_scv).slice (Rect.unit (s := S516x65536) (k0_off10 L 256#32) S8x2048.size (Facts₀.k0_off10_inb L 1)) (fun _ => rfl)).view.loc (thr d L) ↦[((Memref.whole main_v2_scv).slice (Rect.unit (s := S516x65536) (k0_off10 L 256#32) S8x2048.size (Facts₀.k0_off10_inb L 1)) (fun _ => rfl)).view.set]{fullShare} f)
    ∗ (((Memref.whole main_v2_scv).slice (Rect.unit (s := S516x65536) (k0_off12 L 256#32) S8x2048.size (Facts₀.k0_off12_inb L 1)) (fun _ => rfl)).view.loc (thr d L) ↦[((Memref.whole main_v2_scv).slice (Rect.unit (s := S516x65536) (k0_off12 L 256#32) S8x2048.size (Facts₀.k0_off12_inb L 1)) (fun _ => rfl)).view.set]{fullShare} f)
    ∗ (((Memref.whole main_v2_scv).slice (Rect.unit (s := S516x65536) (k0_off14 L 256#32) S8x2048.size (Facts₀.k0_off14_inb L 1)) (fun _ => rfl)).view.loc (thr d L) ↦[((Memref.whole main_v2_scv).slice (Rect.unit (s := S516x65536) (k0_off14 L 256#32) S8x2048.size (Facts₀.k0_off14_inb L 1)) (fun _ => rfl)).view.set]{fullShare} f)
    ∗ (((Memref.whole main_v2_scv).slice (Rect.unit (s := S516x65536) (k0_off15 L 256#32) S8x2048.size (Facts₀.k0_off15_inb L 1)) (fun _ => rfl)).view.loc (thr d L) ↦[((Memref.whole main_v2_scv).slice (Rect.unit (s := S516x65536) (k0_off15 L 256#32) S8x2048.size (Facts₀.k0_off15_inb L 1)) (fun _ => rfl)).view.set]{fullShare} f)
    ∗ (((Memref.whole main_v2_scv).slice (Rect.unit (s := S516x65536) (k0_off16 L 256#32) S8x2048.size (Facts₀.k0_off16_inb L 1)) (fun _ => rfl)).view.loc (thr d L) ↦[((Memref.whole main_v2_scv).slice (Rect.unit (s := S516x65536) (k0_off16 L 256#32) S8x2048.size (Facts₀.k0_off16_inb L 1)) (fun _ => rfl)).view.set]{fullShare} f)
    ∗ (((Memref.whole main_v2_scv).slice (Rect.unit (s := S516x65536) (k0_off17 L 256#32) S8x2048.size (Facts₀.k0_off17_inb L 1)) (fun _ => rfl)).view.loc (thr d L) ↦[((Memref.whole main_v2_scv).slice (Rect.unit (s := S516x65536) (k0_off17 L 256#32) S8x2048.size (Facts₀.k0_off17_inb L 1)) (fun _ => rfl)).view.set]{fullShare} f)
    ∗ (((Memref.whole main_v2_scv).slice (Rect.unit (s := S516x65536) (k0_off18 L 256#32) S8x2048.size (Facts₀.k0_off18_inb L 1)) (fun _ => rfl)).view.loc (thr d L) ↦[((Memref.whole main_v2_scv).slice (Rect.unit (s := S516x65536) (k0_off18 L 256#32) S8x2048.size (Facts₀.k0_off18_inb L 1)) (fun _ => rfl)).view.set]{fullShare} f)
    ∗ (((Memref.whole main_v2_scv).slice (Rect.unit (s := S516x65536) (k0_off19 L 256#32) S8x2048.size (Facts₀.k0_off19_inb L 1)) (fun _ => rfl)).view.loc (thr d L) ↦[((Memref.whole main_v2_scv).slice (Rect.unit (s := S516x65536) (k0_off19 L 256#32) S8x2048.size (Facts₀.k0_off19_inb L 1)) (fun _ => rfl)).view.set]{fullShare} f)
    ∗ (((Memref.whole main_v2_scv).slice (Rect.unit (s := S516x65536) (k0_off20 L 256#32) S8x2048.size (Facts₀.k0_off20_inb L 1)) (fun _ => rfl)).view.loc (thr d L) ↦[((Memref.whole main_v2_scv).slice (Rect.unit (s := S516x65536) (k0_off20 L 256#32) S8x2048.size (Facts₀.k0_off20_inb L 1)) (fun _ => rfl)).view.set]{fullShare} f)
    ∗ (((Memref.whole main_v2_scv).slice (Rect.unit (s := S516x65536) (k0_off21 L 256#32) S8x2048.size (Facts₀.k0_off21_inb L 1)) (fun _ => rfl)).view.loc (thr d L) ↦[((Memref.whole main_v2_scv).slice (Rect.unit (s := S516x65536) (k0_off21 L 256#32) S8x2048.size (Facts₀.k0_off21_inb L 1)) (fun _ => rfl)).view.set]{fullShare} f)
    ∗ (((Memref.whole main_v2_scv).slice (Rect.unit (s := S516x65536) (k0_off22 L 256#32) S8x2048.size (Facts₀.k0_off22_inb L 1)) (fun _ => rfl)).view.loc (thr d L) ↦[((Memref.whole main_v2_scv).slice (Rect.unit (s := S516x65536) (k0_off22 L 256#32) S8x2048.size (Facts₀.k0_off22_inb L 1)) (fun _ => rfl)).view.set]{fullShare} f)
    ∗ (((Memref.whole main_v2_scv).slice (Rect.unit (s := S516x65536) (k0_off23 L 256#32) S8x2048.size (Facts₀.k0_off23_inb L 1)) (fun _ => rfl)).view.loc (thr d L) ↦[((Memref.whole main_v2_scv).slice (Rect.unit (s := S516x65536) (k0_off23 L 256#32) S8x2048.size (Facts₀.k0_off23_inb L 1)) (fun _ => rfl)).view.set]{fullShare} f)
    ∗ (((Memref.whole main_v2_scv).slice (Rect.unit (s := S516x65536) (k0_off24 L 256#32) S8x2048.size (Facts₀.k0_off24_inb L 1)) (fun _ => rfl)).view.loc (thr d L) ↦[((Memref.whole main_v2_scv).slice (Rect.unit (s := S516x65536) (k0_off24 L 256#32) S8x2048.size (Facts₀.k0_off24_inb L 1)) (fun _ => rfl)).view.set]{fullShare} f)
    ∗ (((Memref.whole main_v2_scv).slice (Rect.unit (s := S516x65536) (k0_off25 L 256#32) S8x2048.size (Facts₀.k0_off25_inb L 1)) (fun _ => rfl)).view.loc (thr d L) ↦[((Memref.whole main_v2_scv).slice (Rect.unit (s := S516x65536) (k0_off25 L 256#32) S8x2048.size (Facts₀.k0_off25_inb L 1)) (fun _ => rfl)).view.set]{fullShare} f)
    ∗ (((Memref.whole main_v2_scv).slice (Rect.unit (s := S516x65536) (k0_off26 L 256#32) S8x2048.size (Facts₀.k0_off26_inb L 1)) (fun _ => rfl)).view.loc (thr d L) ↦[((Memref.whole main_v2_scv).slice (Rect.unit (s := S516x65536) (k0_off26 L 256#32) S8x2048.size (Facts₀.k0_off26_inb L 1)) (fun _ => rfl)).view.set]{fullShare} f)
    ∗ (((Memref.whole main_v2_scv).slice (Rect.unit (s := S516x65536) (k0_off27 L 256#32) S8x2048.size (Facts₀.k0_off27_inb L 1)) (fun _ => rfl)).view.loc (thr d L) ↦[((Memref.whole main_v2_scv).slice (Rect.unit (s := S516x65536) (k0_off27 L 256#32) S8x2048.size (Facts₀.k0_off27_inb L 1)) (fun _ => rfl)).view.set]{fullShare} f)
    ∗ (((Memref.whole main_v2_scv).slice (Rect.unit (s := S516x65536) (k0_off28 L 256#32) S8x2048.size (Facts₀.k0_off28_inb L 1)) (fun _ => rfl)).view.loc (thr d L) ↦[((Memref.whole main_v2_scv).slice (Rect.unit (s := S516x65536) (k0_off28 L 256#32) S8x2048.size (Facts₀.k0_off28_inb L 1)) (fun _ => rfl)).view.set]{fullShare} f)
    ∗ (((Memref.whole main_v2_scv).slice (Rect.unit (s := S516x65536) (k0_off29 L 256#32) S8x2048.size (Facts₀.k0_off29_inb L 1)) (fun _ => rfl)).view.loc (thr d L) ↦[((Memref.whole main_v2_scv).slice (Rect.unit (s := S516x65536) (k0_off29 L 256#32) S8x2048.size (Facts₀.k0_off29_inb L 1)) (fun _ => rfl)).view.set]{fullShare} f)
    ∗ (((Memref.whole main_v2_scv).slice (Rect.unit (s := S516x65536) (k0_off30 L 256#32) S8x2048.size (Facts₀.k0_off30_inb L 1)) (fun _ => rfl)).view.loc (thr d L) ↦[((Memref.whole main_v2_scv).slice (Rect.unit (s := S516x65536) (k0_off30 L 256#32) S8x2048.size (Facts₀.k0_off30_inb L 1)) (fun _ => rfl)).view.set]{fullShare} f)
    ∗ (((Memref.whole main_v2_scv).slice (Rect.unit (s := S516x65536) (k0_off31 L 256#32) S8x2048.size (Facts₀.k0_off31_inb L 1)) (fun _ => rfl)).view.loc (thr d L) ↦[((Memref.whole main_v2_scv).slice (Rect.unit (s := S516x65536) (k0_off31 L 256#32) S8x2048.size (Facts₀.k0_off31_inb L 1)) (fun _ => rfl)).view.set]{fullShare} f)
    ∗ (((Memref.whole main_v2_scv).slice (Rect.unit (s := S516x65536) (k0_off32 L 256#32) S8x2048.size (Facts₀.k0_off32_inb L 1)) (fun _ => rfl)).view.loc (thr d L) ↦[((Memref.whole main_v2_scv).slice (Rect.unit (s := S516x65536) (k0_off32 L 256#32) S8x2048.size (Facts₀.k0_off32_inb L 1)) (fun _ => rfl)).view.set]{fullShare} f)
    ∗ (((Memref.whole main_v2_scv).slice (Rect.unit (s := S516x65536) (k0_off33 L 256#32) S8x2048.size (Facts₀.k0_off33_inb L 1)) (fun _ => rfl)).view.loc (thr d L) ↦[((Memref.whole main_v2_scv).slice (Rect.unit (s := S516x65536) (k0_off33 L 256#32) S8x2048.size (Facts₀.k0_off33_inb L 1)) (fun _ => rfl)).view.set]{fullShare} f)
    ∗ (((Memref.whole main_v2_scv).slice (Rect.unit (s := S516x65536) (k0_off34 L 256#32) S8x2048.size (Facts₀.k0_off34_inb L 1)) (fun _ => rfl)).view.loc (thr d L) ↦[((Memref.whole main_v2_scv).slice (Rect.unit (s := S516x65536) (k0_off34 L 256#32) S8x2048.size (Facts₀.k0_off34_inb L 1)) (fun _ => rfl)).view.set]{fullShare} f)
    ∗ (((Memref.whole main_v2_scv).slice (Rect.unit (s := S516x65536) (k0_off35 L 256#32) S8x2048.size (Facts₀.k0_off35_inb L 1)) (fun _ => rfl)).view.loc (thr d L) ↦[((Memref.whole main_v2_scv).slice (Rect.unit (s := S516x65536) (k0_off35 L 256#32) S8x2048.size (Facts₀.k0_off35_inb L 1)) (fun _ => rfl)).view.set]{fullShare} f)
    ∗ (((Memref.whole main_v2_scv).slice (Rect.unit (s := S516x65536) (k0_off36 L 256#32) S8x2048.size (Facts₀.k0_off36_inb L 1)) (fun _ => rfl)).view.loc (thr d L) ↦[((Memref.whole main_v2_scv).slice (Rect.unit (s := S516x65536) (k0_off36 L 256#32) S8x2048.size (Facts₀.k0_off36_inb L 1)) (fun _ => rfl)).view.set]{fullShare} f)
    ∗ (((Memref.whole main_v2_scv).slice (Rect.unit (s := S516x65536) (k0_off37 L 256#32) S8x2048.size (Facts₀.k0_off37_inb L 1)) (fun _ => rfl)).view.loc (thr d L) ↦[((Memref.whole main_v2_scv).slice (Rect.unit (s := S516x65536) (k0_off37 L 256#32) S8x2048.size (Facts₀.k0_off37_inb L 1)) (fun _ => rfl)).view.set]{fullShare} f)
    ∗ (((Memref.whole main_v2_scv).slice (Rect.unit (s := S516x65536) (k0_off38 L 256#32) S8x2048.size (Facts₀.k0_off38_inb L 1)) (fun _ => rfl)).view.loc (thr d L) ↦[((Memref.whole main_v2_scv).slice (Rect.unit (s := S516x65536) (k0_off38 L 256#32) S8x2048.size (Facts₀.k0_off38_inb L 1)) (fun _ => rfl)).view.set]{fullShare} f)
    ∗ (((Memref.whole main_v2_scv).slice (Rect.unit (s := S516x65536) (k0_off39 L 256#32) S8x2048.size (Facts₀.k0_off39_inb L 1)) (fun _ => rfl)).view.loc (thr d L) ↦[((Memref.whole main_v2_scv).slice (Rect.unit (s := S516x65536) (k0_off39 L 256#32) S8x2048.size (Facts₀.k0_off39_inb L 1)) (fun _ => rfl)).view.set]{fullShare} f)
    ∗ (((Memref.whole main_v2_scv).slice (Rect.unit (s := S516x65536) (k0_off40 L 256#32) S8x2048.size (Facts₀.k0_off40_inb L 1)) (fun _ => rfl)).view.loc (thr d L) ↦[((Memref.whole main_v2_scv).slice (Rect.unit (s := S516x65536) (k0_off40 L 256#32) S8x2048.size (Facts₀.k0_off40_inb L 1)) (fun _ => rfl)).view.set]{fullShare} f))

end Cert.KBProof

end
-- ==== Proof.KBTileRes.lean ====
/- (substitutions: KernelIdeal -> Kernel, KIProof -> KBProof, .Proof.KI -> .Proof.KB; the script is
   scratch/mk_second.py of this unit). The same text over the other printed program. -/
/-
  One vector subcore's resources in the two forms the body obligation passes between. The launch hands the
  subcore a read share of each transposed source, its part of the result array (64 pieces of 8 x 2048 and a
  last piece of 4 x 2048), its scoped buffers and its scoped semaphores. The run of the body reads them as
  seventeen read tokens of each source (one per DMA semaphore a copy out of the source may complete on), the
  pieces as the program spells their slices, the seven staging buffers whole, and the eighteen DMA semaphores'
  counters at zero. This module states both forms and passes from one to the other and back.
-/
import proofs.«214288_g455266533575_cont_8to1_b_1966_18_alg».proof.Proof.KBPieces
import proofs.«214288_g455266533575_cont_8to1_b_1966_18_alg».proof.Proof.KBTilePieces
import Idealize.ShloMosaic.Lib.Transfers

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S516x16384 EltTy.f32)
local notation "qW" => (Memref.whole Cert.Kernel.main_v1_scv : Memref Cert.Kernel.sig Kind.scVector Space.hbm Cert.Kernel.S516x65536 EltTy.f32)
local notation "oW" => (Memref.whole Cert.Kernel.main_v2_scv : Memref Cert.Kernel.sig Kind.scVector Space.hbm Cert.Kernel.S516x65536 EltTy.f32)
local notation "b0W" => (Memref.whole Cert.Kernel.cc0_scratch0 : Memref Cert.Kernel.sig Kind.scVector Space.vmem Cert.Kernel.S8x2048 EltTy.f32)
local notation "b1W" => (Memref.whole Cert.Kernel.cc0_scratch1 : Memref Cert.Kernel.sig Kind.scVector Space.vmem Cert.Kernel.S8x2048 EltTy.f32)
local notation "b2W" => (Memref.whole Cert.Kernel.cc0_scratch2 : Memref Cert.Kernel.sig Kind.scVector Space.vmem Cert.Kernel.S8x2048 EltTy.f32)
local notation "b3W" => (Memref.whole Cert.Kernel.cc0_scratch3 : Memref Cert.Kernel.sig Kind.scVector Space.vmem Cert.Kernel.S8x2048 EltTy.f32)
local notation "b4W" => (Memref.whole Cert.Kernel.cc0_scratch4 : Memref Cert.Kernel.sig Kind.scVector Space.vmem Cert.Kernel.S8x2048 EltTy.f32)
local notation "b5W" => (Memref.whole Cert.Kernel.cc0_scratch5 : Memref Cert.Kernel.sig Kind.scVector Space.vmem Cert.Kernel.S8x2048 EltTy.f32)
local notation "b6W" => (Memref.whole Cert.Kernel.cc0_scratch6 : Memref Cert.Kernel.sig Kind.scVector Space.vmem Cert.Kernel.S8x2048 EltTy.f32)

/-! ## A listed part of a `bigSep` -/

/-- Out of a `bigSep` over a finite set, a duplicate-free list of its members: the list's chain, and the rest. -/
theorem bigSep_take_list {M : Type} [URA M] {I : Type} [DecidableEq I] (s : Finset I) (l : List I) (hl : l.Nodup)
    (hs : ∀ i ∈ l, i ∈ s) (Φ : I → sProp M) :
    bigSep s Φ = iprop(bigSepL l Φ ∗ bigSep (s \ l.toFinset) Φ) := by
  rw [SparseCore.bigSep_sdiff_split' (s := s) (t := l.toFinset) (fun i hi => hs i (List.mem_toFinset.mp hi)),
    bigSep_eq_bigSepL l hl]

/-! ## Read tokens of a source -/

/-- Seventeen read tokens of the share `q` of the array at `ℓ`, numbered as the DMA semaphores are. -/
def toks17 (ℓ : Loc nD τ sig) (q : PosShare TreeShare) (f : Buf (Elt F) ℓ) : sProp 𝕄 :=
  iprop((ℓ ↦{Transfers.shareTokN q 0} f)
    ∗ (ℓ ↦{Transfers.shareTokN q 1} f)
    ∗ (ℓ ↦{Transfers.shareTokN q 2} f)
    ∗ (ℓ ↦{Transfers.shareTokN q 3} f)
    ∗ (ℓ ↦{Transfers.shareTokN q 4} f)
    ∗ (ℓ ↦{Transfers.shareTokN q 5} f)
    ∗ (ℓ ↦{Transfers.shareTokN q 6} f)
    ∗ (ℓ ↦{Transfers.shareTokN q 7} f)
    ∗ (ℓ ↦{Transfers.shareTokN q 8} f)
    ∗ (ℓ ↦{Transfers.shareTokN q 9} f)
    ∗ (ℓ ↦{Transfers.shareTokN q 10} f)
    ∗ (ℓ ↦{Transfers.shareTokN q 11} f)
    ∗ (ℓ ↦{Transfers.shareTokN q 12} f)
    ∗ (ℓ ↦{Transfers.shareTokN q 13} f)
    ∗ (ℓ ↦{Transfers.shareTokN q 14} f)
    ∗ (ℓ ↦{Transfers.shareTokN q 15} f)
    ∗ (ℓ ↦{Transfers.shareTokN q 16} f))

/-- A share of an array is seventeen read tokens of it and what remains. -/
theorem toks17_split (ℓ : Loc nD τ sig) (q : PosShare TreeShare) (f : Buf (Elt F) ℓ) :
    (ℓ ↦{q} f : sProp 𝕄) ⊣⊢ iprop((ℓ ↦{Transfers.shareDrop q 17} f) ∗ toks17 ℓ q f) := by
  have e : BI.bigSep (Finset.range 17) (fun i => (ℓ ↦{Transfers.shareTokN q i} f : sProp 𝕄)) = toks17 ℓ q f :=
    (bigSep_eq_bigSepL_of_eq (M := 𝕄) [0, 1, 2, 3, 4, 5, 6, 7, 8, 9, 10, 11, 12, 13, 14, 15, 16] (by decide) (by decide) _).trans rfl
  have h : (ℓ ↦{q} f : sProp 𝕄)
      ⊣⊢ iprop((ℓ ↦{Transfers.shareDrop q 17} f) ∗ BI.bigSep (Finset.range 17) (fun i => ℓ ↦{Transfers.shareTokN q i} f)) :=
    Transfers.pointsTo_toks_range q 17
  rw [e] at h
  exact h

/-! ## The staging buffers and the DMA semaphores among the subcore's own -/

/-- The processor of the vector subcore at grid point `L`. -/
abbrev pV (L : grid0.Coords) : Proc τ := .scVector (cV L) (jV L)

/-- The seven staging buffers. -/
def stagingRefs : List (Ref sig .scVector) :=
  [cc0_scratch0, cc0_scratch1, cc0_scratch2, cc0_scratch3, cc0_scratch4, cc0_scratch5, cc0_scratch6]

/-- The eighteen DMA semaphores: seven for the copies in, seven for the copies out, four of the last piece's. -/
def dmaSems : List (DmaSem sig) :=
  [cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scoped0.sem, cc0_scoped1.sem, cc0_scoped2.sem, cc0_scoped3.sem]

/-- The subcore's own buffers other than the staging buffers, each whole at some contents. -/
def bufsRest (d : Dev nD) (L : grid0.Coords) : sProp 𝕄 :=
  bigSep (ownRefs (pV L) \ (stagingRefs.map (Proc.devRef (pV L))).toFinset)
    fun b => iprop(∃ f, ((d, b) : Loc nD τ sig) ↦{fullShare} f)

/-- The subcore's own scoped semaphore cells other than the eighteen, each at zero. -/
def semsRest (d : Dev nD) (L : grid0.Coords) : sProp 𝕄 :=
  bigSep (ownCells (thr d L) \ (dmaSems.map fun k => ((thr d L, SemLoc.dma k) : GSem nD τ sig)).toFinset)
    fun g => semVal g 0

/-- The seven staging buffers, each whole at some contents. -/
def bufs7 (d : Dev nD) (L : grid0.Coords) : sProp 𝕄 :=
  iprop((∃ f, (b0W).view.loc (thr d L) ↦{fullShare} f)
    ∗ (∃ f, (b1W).view.loc (thr d L) ↦{fullShare} f)
    ∗ (∃ f, (b2W).view.loc (thr d L) ↦{fullShare} f)
    ∗ (∃ f, (b3W).view.loc (thr d L) ↦{fullShare} f)
    ∗ (∃ f, (b4W).view.loc (thr d L) ↦{fullShare} f)
    ∗ (∃ f, (b5W).view.loc (thr d L) ↦{fullShare} f)
    ∗ (∃ f, (b6W).view.loc (thr d L) ↦{fullShare} f))

/-- The eighteen DMA semaphores' counters at zero. -/
def sems18 (d : Dev nD) (L : grid0.Coords) : sProp 𝕄 :=
  iprop(semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scratch13.sem) 0
    ∗ semVal (thr d L, SemLoc.dma cc0_scratch14.sem) 0
    ∗ semVal (thr d L, SemLoc.dma cc0_scratch15.sem) 0
    ∗ semVal (thr d L, SemLoc.dma cc0_scratch16.sem) 0
    ∗ semVal (thr d L, SemLoc.dma cc0_scratch17.sem) 0
    ∗ semVal (thr d L, SemLoc.dma cc0_scratch18.sem) 0
    ∗ semVal (thr d L, SemLoc.dma cc0_scratch19.sem) 0
    ∗ semVal (thr d L, SemLoc.dma cc0_scratch20.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0)

theorem ownBufs_V (d : Dev nD) (L : grid0.Coords) :
    (ownBufs (thr d L) : sProp 𝕄) = iprop(bufs7 d L ∗ bufsRest d L) := by
  unfold SparseCore.Cfg.ownBufs bufsRest bufs7
  refine (bigSep_take_list _ (stagingRefs.map (Proc.devRef (pV L)))
    ((by decide : stagingRefs.Nodup).map (Proc.devRef_injective _)) ?_ _).trans rfl
  intro b hb
  simp only [stagingRefs, List.map_cons, List.map_nil, List.mem_cons, List.not_mem_nil, or_false] at hb
  rcases hb with rfl | rfl | rfl | rfl | rfl | rfl | rfl <;> exact SparseCore.Cfg.mem_ownRefs_of_owner rfl

theorem ownSems0_V (d : Dev nD) (L : grid0.Coords) :
    (ownSems0 (thr d L) : sProp 𝕄) = iprop(sems18 d L ∗ semsRest d L) := by
  unfold SparseCore.Cfg.ownSems0 semsRest sems18
  refine (bigSep_take_list _ (dmaSems.map fun k => ((thr d L, SemLoc.dma k) : GSem nD τ sig))
    ((by decide : dmaSems.Nodup).map fun a b e => SemLoc.dma.inj (Prod.mk.inj e).2) ?_ _).trans rfl
  have hsc : ∀ k : DmaSem sig, (SemLoc.dma k : SemLoc sig).isScoped .scVector = true := by decide
  intro g hg
  obtain ⟨k, -, rfl⟩ := List.mem_map.mp hg
  exact mem_ownCells.mpr ⟨rfl, hsc k⟩

/-! ## The result array's pieces as the program spells them -/

/-- Equal memrefs have the same points-to of their own elements (the contents at either one's location). -/
theorem pts_memref_eq (d : Dev nD) (c : Fin τ.nSC) (i : Fin τ.nSub) {s : Shape} {P Q : Memref sig .scVector .hbm s .f32} (h : P = Q)
    {f : Buf (Elt F) (P.view.loc (V d c i))} {g : Buf (Elt F) (Q.view.loc (V d c i))} (hf : HEq f g) :
    (P.view.loc (V d c i) ↦[P.view.set]{fullShare} f : sProp 𝕄) = (Q.view.loc (V d c i) ↦[Q.view.set]{fullShare} g) := by
  subst h; cases hf; rfl

theorem sep_eq_step {A A' B B' : sProp 𝕄} (hA : A = A') (hB : B = B') : iprop(A ∗ B) = iprop(A' ∗ B') := by
  rw [hA, hB]

set_option maxHeartbeats 2000000 in
/-- The subcore's 64 pieces in closed form are the pieces the program names, in program order. -/
theorem pieces_spell (d : Dev nD) (L : grid0.Coords) (f : Buf (Elt F) (oLoc d)) :
    (bigSep (Finset.range 64) fun p => (oLoc d ↦[(pieceM (wid L) p).view.set]{fullShare} f : sProp 𝕄)) = progPieces d L f := by
  rw [bigSep_eq_bigSepL_of_eq (M := 𝕄) [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]
  unfold progPieces
  refine sep_eq_step (pts_memref_eq d (cV L) (jV L) (progOut_eq L 0 (by decide)) HEq.rfl).symm ?_
  refine sep_eq_step (pts_memref_eq d (cV L) (jV L) (progOut_eq L 1 (by decide)) HEq.rfl).symm ?_
  refine sep_eq_step (pts_memref_eq d (cV L) (jV L) (progOut_eq L 2 (by decide)) HEq.rfl).symm ?_
  refine sep_eq_step (pts_memref_eq d (cV L) (jV L) (progOut_eq L 3 (by decide)) HEq.rfl).symm ?_
  refine sep_eq_step (pts_memref_eq d (cV L) (jV L) (progOut_eq L 4 (by decide)) HEq.rfl).symm ?_
  refine sep_eq_step (pts_memref_eq d (cV L) (jV L) (progOut_eq L 5 (by decide)) HEq.rfl).symm ?_
  refine sep_eq_step (pts_memref_eq d (cV L) (jV L) (progOut_eq L 6 (by decide)) HEq.rfl).symm ?_
  refine sep_eq_step (pts_memref_eq d (cV L) (jV L) (progOut_eq L 7 (by decide)) HEq.rfl).symm ?_
  refine sep_eq_step (pts_memref_eq d (cV L) (jV L) (progOut_eq L 8 (by decide)) HEq.rfl).symm ?_
  refine sep_eq_step (pts_memref_eq d (cV L) (jV L) (progOut_eq L 9 (by decide)) HEq.rfl).symm ?_
  refine sep_eq_step (pts_memref_eq d (cV L) (jV L) (progOut_eq L 10 (by decide)) HEq.rfl).symm ?_
  refine sep_eq_step (pts_memref_eq d (cV L) (jV L) (progOut_eq L 11 (by decide)) HEq.rfl).symm ?_
  refine sep_eq_step (pts_memref_eq d (cV L) (jV L) (progOut_eq L 12 (by decide)) HEq.rfl).symm ?_
  refine sep_eq_step (pts_memref_eq d (cV L) (jV L) (progOut_eq L 13 (by decide)) HEq.rfl).symm ?_
  refine sep_eq_step (pts_memref_eq d (cV L) (jV L) (progOut_eq L 14 (by decide)) HEq.rfl).symm ?_
  refine sep_eq_step (pts_memref_eq d (cV L) (jV L) (progOut_eq L 15 (by decide)) HEq.rfl).symm ?_
  refine sep_eq_step (pts_memref_eq d (cV L) (jV L) (progOut_eq L 16 (by decide)) HEq.rfl).symm ?_
  refine sep_eq_step (pts_memref_eq d (cV L) (jV L) (progOut_eq L 17 (by decide)) HEq.rfl).symm ?_
  refine sep_eq_step (pts_memref_eq d (cV L) (jV L) (progOut_eq L 18 (by decide)) HEq.rfl).symm ?_
  refine sep_eq_step (pts_memref_eq d (cV L) (jV L) (progOut_eq L 19 (by decide)) HEq.rfl).symm ?_
  refine sep_eq_step (pts_memref_eq d (cV L) (jV L) (progOut_eq L 20 (by decide)) HEq.rfl).symm ?_
  refine sep_eq_step (pts_memref_eq d (cV L) (jV L) (progOut_eq L 21 (by decide)) HEq.rfl).symm ?_
  refine sep_eq_step (pts_memref_eq d (cV L) (jV L) (progOut_eq L 22 (by decide)) HEq.rfl).symm ?_
  refine sep_eq_step (pts_memref_eq d (cV L) (jV L) (progOut_eq L 23 (by decide)) HEq.rfl).symm ?_
  refine sep_eq_step (pts_memref_eq d (cV L) (jV L) (progOut_eq L 24 (by decide)) HEq.rfl).symm ?_
  refine sep_eq_step (pts_memref_eq d (cV L) (jV L) (progOut_eq L 25 (by decide)) HEq.rfl).symm ?_
  refine sep_eq_step (pts_memref_eq d (cV L) (jV L) (progOut_eq L 26 (by decide)) HEq.rfl).symm ?_
  refine sep_eq_step (pts_memref_eq d (cV L) (jV L) (progOut_eq L 27 (by decide)) HEq.rfl).symm ?_
  refine sep_eq_step (pts_memref_eq d (cV L) (jV L) (progOut_eq L 28 (by decide)) HEq.rfl).symm ?_
  refine sep_eq_step (pts_memref_eq d (cV L) (jV L) (progOut_eq L 29 (by decide)) HEq.rfl).symm ?_
  refine sep_eq_step (pts_memref_eq d (cV L) (jV L) (progOut_eq L 30 (by decide)) HEq.rfl).symm ?_
  refine sep_eq_step (pts_memref_eq d (cV L) (jV L) (progOut_eq L 31 (by decide)) HEq.rfl).symm ?_
  refine sep_eq_step (pts_memref_eq d (cV L) (jV L) (progOut_eq L 32 (by decide)) HEq.rfl).symm ?_
  refine sep_eq_step (pts_memref_eq d (cV L) (jV L) (progOut_eq L 33 (by decide)) HEq.rfl).symm ?_
  refine sep_eq_step (pts_memref_eq d (cV L) (jV L) (progOut_eq L 34 (by decide)) HEq.rfl).symm ?_
  refine sep_eq_step (pts_memref_eq d (cV L) (jV L) (progOut_eq L 35 (by decide)) HEq.rfl).symm ?_
  refine sep_eq_step (pts_memref_eq d (cV L) (jV L) (progOut_eq L 36 (by decide)) HEq.rfl).symm ?_
  refine sep_eq_step (pts_memref_eq d (cV L) (jV L) (progOut_eq L 37 (by decide)) HEq.rfl).symm ?_
  refine sep_eq_step (pts_memref_eq d (cV L) (jV L) (progOut_eq L 38 (by decide)) HEq.rfl).symm ?_
  refine sep_eq_step (pts_memref_eq d (cV L) (jV L) (progOut_eq L 39 (by decide)) HEq.rfl).symm ?_
  refine sep_eq_step (pts_memref_eq d (cV L) (jV L) (progOut_eq L 40 (by decide)) HEq.rfl).symm ?_
  refine sep_eq_step (pts_memref_eq d (cV L) (jV L) (progOut_eq L 41 (by decide)) HEq.rfl).symm ?_
  refine sep_eq_step (pts_memref_eq d (cV L) (jV L) (progOut_eq L 42 (by decide)) HEq.rfl).symm ?_
  refine sep_eq_step (pts_memref_eq d (cV L) (jV L) (progOut_eq L 43 (by decide)) HEq.rfl).symm ?_
  refine sep_eq_step (pts_memref_eq d (cV L) (jV L) (progOut_eq L 44 (by decide)) HEq.rfl).symm ?_
  refine sep_eq_step (pts_memref_eq d (cV L) (jV L) (progOut_eq L 45 (by decide)) HEq.rfl).symm ?_
  refine sep_eq_step (pts_memref_eq d (cV L) (jV L) (progOut_eq L 46 (by decide)) HEq.rfl).symm ?_
  refine sep_eq_step (pts_memref_eq d (cV L) (jV L) (progOut_eq L 47 (by decide)) HEq.rfl).symm ?_
  refine sep_eq_step (pts_memref_eq d (cV L) (jV L) (progOut_eq L 48 (by decide)) HEq.rfl).symm ?_
  refine sep_eq_step (pts_memref_eq d (cV L) (jV L) (progOut_eq L 49 (by decide)) HEq.rfl).symm ?_
  refine sep_eq_step (pts_memref_eq d (cV L) (jV L) (progOut_eq L 50 (by decide)) HEq.rfl).symm ?_
  refine sep_eq_step (pts_memref_eq d (cV L) (jV L) (progOut_eq L 51 (by decide)) HEq.rfl).symm ?_
  refine sep_eq_step (pts_memref_eq d (cV L) (jV L) (progOut_eq L 52 (by decide)) HEq.rfl).symm ?_
  refine sep_eq_step (pts_memref_eq d (cV L) (jV L) (progOut_eq L 53 (by decide)) HEq.rfl).symm ?_
  refine sep_eq_step (pts_memref_eq d (cV L) (jV L) (progOut_eq L 54 (by decide)) HEq.rfl).symm ?_
  refine sep_eq_step (pts_memref_eq d (cV L) (jV L) (progOut_eq L 55 (by decide)) HEq.rfl).symm ?_
  refine sep_eq_step (pts_memref_eq d (cV L) (jV L) (progOut_eq L 56 (by decide)) HEq.rfl).symm ?_
  refine sep_eq_step (pts_memref_eq d (cV L) (jV L) (progOut_eq L 57 (by decide)) HEq.rfl).symm ?_
  refine sep_eq_step (pts_memref_eq d (cV L) (jV L) (progOut_eq L 58 (by decide)) HEq.rfl).symm ?_
  refine sep_eq_step (pts_memref_eq d (cV L) (jV L) (progOut_eq L 59 (by decide)) HEq.rfl).symm ?_
  refine sep_eq_step (pts_memref_eq d (cV L) (jV L) (progOut_eq L 60 (by decide)) HEq.rfl).symm ?_
  refine sep_eq_step (pts_memref_eq d (cV L) (jV L) (progOut_eq L 61 (by decide)) HEq.rfl).symm ?_
  refine sep_eq_step (pts_memref_eq d (cV L) (jV L) (progOut_eq L 62 (by decide)) HEq.rfl).symm ?_
  exact (pts_memref_eq d (cV L) (jV L) (progOut_eq L 63 (by decide)) HEq.rfl).symm

/-! ## What the run of the body starts from and ends at -/

variable (m : (ℓ : Loc nD τ sig) → Buf (Elt F) ℓ)
variable [FloatOps F]

/-- What stays aside during the run: what remains of each source's share once the tokens are taken, and the
    subcore's other buffers and semaphore cells. -/
def tileAside (d : Dev nD) (L : grid0.Coords) : sProp 𝕄 :=
  iprop((xLoc d ↦{Transfers.shareDrop (tq (wid L)) 17} xT m d) ∗ (qLoc d ↦{Transfers.shareDrop (tq (wid L)) 17} qT m d)
    ∗ bufsRest d L ∗ semsRest d L)

/-- What the run of the body starts from. `lastP` is the last piece (rows 512 .. 515) at the launch contents, through
    the slice the branch taken names it by. -/
def tilePre (lastP : sProp 𝕄) (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L))) : sProp 𝕄 :=
  iprop(Transfers.MayWaits (thr d L) (none : HIx 1) O
    ∗ toks17 ((xW).view.loc (thr d L)) (tq (wid L)) (xT m d)
    ∗ toks17 ((qW).view.loc (thr d L)) (tq (wid L)) (qT m d)
    ∗ progPieces d L (m (oLoc d))
    ∗ lastP
    ∗ ((b0W).view.loc (thr d L) ↦{fullShare} fb0)
    ∗ ((b1W).view.loc (thr d L) ↦{fullShare} fb1)
    ∗ ((b2W).view.loc (thr d L) ↦{fullShare} fb2)
    ∗ ((b3W).view.loc (thr d L) ↦{fullShare} fb3)
    ∗ ((b4W).view.loc (thr d L) ↦{fullShare} fb4)
    ∗ ((b5W).view.loc (thr d L) ↦{fullShare} fb5)
    ∗ ((b6W).view.loc (thr d L) ↦{fullShare} fb6)
    ∗ sems18 d L
    ∗ owes (thr d L) O W
    ∗ tileAside m d L)

/-- What the run of the body ends at: the tokens back, every piece at the target contents, the staging buffers at
    some contents, the counters back at zero, waits at index `none` recorded. -/
def tilePost (lastP : sProp 𝕄) (d : Dev nD) (L : grid0.Coords) (O : CellTallies nD τ sig (HIx 1)) (W : Waits sig (HIx 1)) : sProp 𝕄 :=
  iprop(toks17 ((xW).view.loc (thr d L)) (tq (wid L)) (xT m d)
    ∗ toks17 ((qW).view.loc (thr d L)) (tq (wid L)) (qT m d)
    ∗ progPieces d L (Gt m d)
    ∗ lastP
    ∗ bufs7 d L
    ∗ sems18 d L
    ∗ (∃ W', ⌜∀ p ∈ W', p ∈ W ∨ p.2 = none⌝ ∗ owes (thr d L) O W')
    ∗ tileAside m d L)

/-- From what the launch hands the subcore to what the run starts from. -/
theorem tile_pre (hF : (K (F := F)).Facts) (d : Dev nD) (L : grid0.Coords) (O : CellTallies nD τ sig (HIx 1)) (W : Waits sig (HIx 1))
    (hO : ∀ g, O g none = 0) (lastP : sProp 𝕄)
    (hlast : (oLoc d ↦[(tailM (wid L)).view.set]{fullShare} m (oLoc d) : sProp 𝕄) ⊢ lastP) :
    iprop(levAts (K (F := F)).L (K (F := F)).lev ∗ emp ∗ goRes m d (wid L) ∗ scopedBufs (thr d L) ∗ scopedSems0 (thr d L) ∗ owes (thr d L) O W)
      ⊢ ∃ fb0 fb1 fb2 fb3 fb4 fb5 fb6, tilePre m lastP d L O W fb0 fb1 fb2 fb3 fb4 fb5 fb6 := by
  rw [(K (F := F)).scopedBufs_V hF d (cV L) (jV L), SparseCore.Cfg.scopedSems0_V (Val := Elt F) d (cV L) (jV L), ownSems0_V, ownBufs_V]
  unfold goRes outRes tilePre tileAside bufs7
  rw [pieces_spell]
  iintro ⟨#Hlv, -, ⟨Hx, Hq, Hps, Ht⟩, ⟨⟨⟨%fb0, Hb0⟩, ⟨%fb1, Hb1⟩, ⟨%fb2, Hb2⟩, ⟨%fb3, Hb3⟩, ⟨%fb4, Hb4⟩, ⟨%fb5, Hb5⟩, ⟨%fb6, Hb6⟩⟩, Hbr⟩, ⟨Hs, Hsr⟩, HO⟩
  ihave Hmw := ((K (F := F)).mayWaits_none (thr := thr d L) hO) $$ Hlv
  ihave Hx' := (toks17_split _ _ _).1 $$ Hx
  icases Hx' with ⟨Hxd, Hxt⟩
  ihave Hq' := (toks17_split _ _ _).1 $$ Hq
  icases Hq' with ⟨Hqd, Hqt⟩
  ihave Ht' := hlast $$ Ht
  iexists fb0, fb1, fb2, fb3, fb4, fb5, fb6
  isplitl [Hmw]; · iexact Hmw
  isplitl [Hxt]; · iexact Hxt
  isplitl [Hqt]; · iexact Hqt
  isplitl [Hps]; · iexact Hps
  isplitl [Ht']; · iexact Ht'
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hs]; · iexact Hs
  isplitl [HO]; · iexact HO
  isplitl [Hxd]; · iexact Hxd
  isplitl [Hqd]; · iexact Hqd
  isplitl [Hbr]; · iexact Hbr
  iexact Hsr

/-- From what the run ends at to what the subcore hands back. -/
theorem tile_post (hF : (K (F := F)).Facts) (d : Dev nD) (L : grid0.Coords) (O : CellTallies nD τ sig (HIx 1)) (W : Waits sig (HIx 1))
    (lastP : sProp 𝕄) (hlast : lastP ⊢ (oLoc d ↦[(tailM (wid L)).view.set]{fullShare} Gt m d : sProp 𝕄)) :
    tilePost m lastP d L O W
      ⊢ iprop(tdRes m d (wid L) ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tdRes outRes tilePost tileAside
  rw [pieces_spell]
  iintro ⟨Hxt, Hqt, Hps, Ht, Hb, Hs, HW, Hxd, Hqd, Hbr, Hsr⟩
  ihave Hx := (toks17_split _ _ _).2 $$ [Hxd Hxt]
  · isplitl [Hxd]; · iexact Hxd
    iexact Hxt
  ihave Hq := (toks17_split _ _ _).2 $$ [Hqd Hqt]
  · isplitl [Hqd]; · iexact Hqd
    iexact Hqt
  ihave Ht' := hlast $$ Ht
  isplitl [Hx Hq Hps Ht']
  · isplitl [Hx]; · iexact Hx
    isplitl [Hq]; · iexact Hq
    isplitl [Hps]; · iexact Hps
    iexact Ht'
  isplitl [Hb Hbr]
  · isplitl [Hb]; · iexact Hb
    iexact Hbr
  isplitl [Hs Hsr]
  · isplitl [Hs]; · iexact Hs
    iexact Hsr
  iexact HW

/-- One more wait at index `none` keeps the recorded waits within the launch's or at `none`. -/
theorem waits_insert {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

end Cert.KBProof

end
-- ==== Proof.KBValue.lean ====
/- (substitutions: KernelIdeal -> Kernel, KIProof -> KBProof, .Proof.KI -> .Proof.KB; the script is
   scratch/mk_second.py of this unit). The same text over the other printed program. -/
/-
  The kernel's side, the values. Two facts, neither of which runs a program.

  1. The program's result is the specification: the transpose of the array whose column j is column j of the
     transposed incoming rows (j < 16384) or column j - 16384 of the transposed old queue is the incoming rows
     above the old queue's first 49152 rows.

  2. What one copy job leaves in its block of the 516 x 65536 array is the target array there. A job reads a
     block of a transposed source into a staging buffer and writes the buffer to a block of the same rows of the
     result, at the same columns (from the incoming rows) or 16384 columns to the right (from the old queue). An
     element of the destination block is the block's offsets plus a coordinate inside the block; the write puts
     there what the staging buffer holds at that coordinate, which is what the source holds at its block's offsets
     plus the same coordinate, whatever the buffer held before.
-/
import proofs.«214288_g455266533575_cont_8to1_b_1966_18_alg».proof.Proof.KBSetup
import Idealize.ShloMosaic.Lib.ValueLayout
import Idealize.ShloMosaic.Lib.Writes

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S516x16384 EltTy.f32)
local notation "qW" => (Memref.whole Cert.Kernel.main_v1_scv : Memref Cert.Kernel.sig Kind.scVector Space.hbm Cert.Kernel.S516x65536 EltTy.f32)
local notation "oW" => (Memref.whole Cert.Kernel.main_v2_scv : Memref Cert.Kernel.sig Kind.scVector Space.hbm Cert.Kernel.S516x65536 EltTy.f32)

variable (m : (ℓ : Loc nD τ sig) → Buf (Elt F) ℓ)

variable [FloatOps F]

/-! ## The program's result is the specification -/

/-- The transposed incoming rows at (c, r) are the incoming rows at (r, c). -/
theorem xT_apply (d : Dev nD) (c : Fin 516) (r : Fin 16384) : xT m d (ix2 c r) = m (aLoc d) (ix2 r c) :=
  transpose_ix2_apply (m (aLoc d)) Facts₀.transposes_S16384x516_S516x16384_1_0 c r

/-- The transposed old queue at (c, r) is the old queue at (r, c). -/
theorem qT_apply (d : Dev nD) (c : Fin 516) (r : Fin 65536) : qT m d (ix2 c r) = m (bLoc d) (ix2 r c) :=
  transpose_ix2_apply (m (bLoc d)) Facts₀.transposes_S65536x516_S516x65536_1_0 c r

/-- The target array at (c, r), r below 16384: the transposed incoming rows there. -/
theorem Gt_lt (d : Dev nD) (c : Fin 516) (r : Fin 65536) (h : r.val < 16384) :
    Gt m d (ix2 c r) = xT m d (ix2 c ⟨r.val, h⟩) := dif_pos h

/-- The target array at (c, r), r from 16384 on: the transposed old queue 16384 columns to the left. -/
theorem Gt_ge (d : Dev nD) (c : Fin 516) (r : Fin 65536) (h : ¬ r.val < 16384) :
    Gt m d (ix2 c r) = qT m d (ix2 c ⟨r.val - 16384, by omega⟩) := dif_neg h

theorem rT_eq (d : Dev nD) : rT m d = Cert.Spec.G (m (aLoc d)) (m (bLoc d)) := by
  funext i
  obtain ⟨r, c, rfl⟩ : ∃ (r : Fin 65536) (c : Fin 516), i = ix2 r c := ⟨i 0, i 1, eq_ix2 i⟩
  have hT : rT m d (ix2 r c) = Gt m d (ix2 c r) :=
    transpose_ix2_apply (Gt m d) Facts₀.transposes_S516x65536_S65536x516_1_0 r c
  rw [hT]
  by_cases h : r.val < 16384
  · rw [Gt_lt m d c r h, xT_apply, Cert.Spec.G_lt _ _ (ix2 r c) h]
  · rw [Gt_ge m d c r h, qT_apply, Cert.Spec.G_ge _ _ (ix2 r c) h]

/-! ## What a copy job leaves in its destination block -/

/-- Read through a view after one write through its whole shape: the payload. -/
theorem read_writes_whole {sg : RefSig} {κ : Kind} {sp : Space} {s : Shape} {e : EltTy} {Val : EltTy → Type}
    (v : View sg κ sp s e) (f : v.ty.Contents Val) (w : (Rect.whole s).shape.Idx → Val e) (y : (Rect.whole s).shape.Idx) :
    v.read Val (v.writes Val f [⟨Rect.whole s, w⟩]) y = w y := by
  have h := View.read_writes_cons_emb v f (Rect.whole s) w [] y
  rwa [Rect.emb_whole_apply] at h

/-- Two contents a view reads alike agree on the view's elements. -/
theorem eq_on_set_of_read_eq {sg : RefSig} {κ : Kind} {sp : Space} {s : Shape} {e : EltTy} {Val : EltTy → Type}
    (v : View sg κ sp s e) (f g : v.ty.Contents Val) (h : ∀ y, v.read Val f y = v.read Val g y) :
    ∀ i ∈ v.set, f i = g i := by
  intro i hi
  obtain ⟨y, -, rfl⟩ := Finset.mem_map.mp hi
  have := h y
  rw [View.read_apply, View.read_apply] at this
  exact (cast_bijective _).injective this

/-- A block of the transposed incoming rows and the block of the target array at the same rows and columns read
    alike: element y of either is the array's at the block's offsets plus y, and the columns stay below 16384. -/
theorem block_x (d : Dev nD) (sz : Fin 2 → ℕ) {offS offD : Fin 2 → ℕ}
    {hS : ∀ a, offS a + sz a ≤ S516x16384.size a} {hD : ∀ a, offD a + sz a ≤ S516x65536.size a}
    (hrow : offS 0 = offD 0) (hcol : offS 1 = offD 1) (y : (Rect.unit (s := S516x65536) offD sz hD).shape.Idx) :
    View.read (Elt F) ((xW).slice (Rect.unit (s := S516x16384) offS sz hS) (fun _ => rfl)).view (xT m d) y
      = View.read (Elt F) ((oW).slice (Rect.unit (s := S516x65536) offD sz hD) (fun _ => rfl)).view (Gt m d) y := by
  rw [View.read_apply, View.read_apply]
  have hy1 : (y 1).val < sz 1 := (y 1).isLt
  have hS1 : offS 1 + sz 1 ≤ 16384 := hS 1
  have hlt : offD 1 + 1 * (y 1).val < 16384 := by omega
  have hG : Gt m d (((oW).slice (Rect.unit (s := S516x65536) offD sz hD) (fun _ => rfl)).view.emb y)
      = xT m d (((xW).slice (Rect.unit (s := S516x16384) offS sz hS) (fun _ => rfl)).view.emb y) := by
    refine (dif_pos hlt).trans (congrArg (xT m d) (funext (Fin.forall_fin_two.2 ⟨Fin.ext ?_, Fin.ext ?_⟩)))
    · show offD 0 + 1 * (y 0).val = offS 0 + 1 * (y 0).val
      omega
    · show offD 1 + 1 * (y 1).val = offS 1 + 1 * (y 1).val
      omega
  rw [hG]

/-- A block of the transposed old queue and the block of the target array at the same rows, 16384 columns to the
    right, read alike: the target's columns are from 16384 on, and 16384 less is the source's column. -/
theorem block_q (d : Dev nD) (sz : Fin 2 → ℕ) {offS offD : Fin 2 → ℕ}
    {hS : ∀ a, offS a + sz a ≤ S516x65536.size a} {hD : ∀ a, offD a + sz a ≤ S516x65536.size a}
    (hrow : offS 0 = offD 0) (hcol : offD 1 = offS 1 + 16384) (y : (Rect.unit (s := S516x65536) offD sz hD).shape.Idx) :
    View.read (Elt F) ((qW).slice (Rect.unit (s := S516x65536) offS sz hS) (fun _ => rfl)).view (qT m d) y
      = View.read (Elt F) ((oW).slice (Rect.unit (s := S516x65536) offD sz hD) (fun _ => rfl)).view (Gt m d) y := by
  rw [View.read_apply, View.read_apply]
  have hge : ¬ offD 1 + 1 * (y 1).val < 16384 := by omega
  have hG : Gt m d (((oW).slice (Rect.unit (s := S516x65536) offD sz hD) (fun _ => rfl)).view.emb y)
      = qT m d (((qW).slice (Rect.unit (s := S516x65536) offS sz hS) (fun _ => rfl)).view.emb y) := by
    refine (dif_neg hge).trans (congrArg (qT m d) (funext (Fin.forall_fin_two.2 ⟨Fin.ext ?_, Fin.ext ?_⟩)))
    · show offD 0 + 1 * (y 0).val = offS 0 + 1 * (y 0).val
      omega
    · show offD 1 + 1 * (y 1).val - 16384 = offS 1 + 1 * (y 1).val
      omega
  rw [hG]

/-- A full block from the transposed incoming rows: source block at `offS`, destination block at `offD`, the same
    rows and the same columns. (The source block lies inside the 16384 columns, so the destination's columns are
    below 16384.) -/
theorem copy_x (d : Dev nD) {offS offD : Fin 2 → ℕ}
    {hS : ∀ a, offS a + S8x2048.size a ≤ S516x16384.size a} {hD : ∀ a, offD a + S8x2048.size a ≤ S516x65536.size a}
    (hrow : offS 0 = offD 0) (hcol : offS 1 = offD 1)
    {B : Memref sig .scVector .vmem S8x2048 .f32} {prev : B.view.ty.Contents (Elt F)}
    {fx : Buf (Elt F) (xLoc d)} (hfx : fx = xT m d) {fo : Buf (Elt F) (oLoc d)} :
    ∀ i ∈ ((oW).slice (Rect.unit (s := S516x65536) offD S8x2048.size hD) (fun _ => rfl)).view.set,
      (((oW).slice (Rect.unit (s := S516x65536) offD S8x2048.size hD) (fun _ => rfl)).view.writes (Elt F) fo
        [⟨Rect.whole _, ReadAs.same.apply (View.read (Elt F) B.view (View.write (Elt F) B.view prev
          (ReadAs.same.apply (View.read (Elt F) ((xW).slice (Rect.unit (s := S516x16384) offS S8x2048.size hS) (fun _ => rfl)).view fx))
          Finset.univ))⟩]) i = Gt m d i := by
  subst hfx
  refine eq_on_set_of_read_eq _ _ _ fun y => ?_
  rw [read_writes_whole]
  show View.read (Elt F) B.view (View.write (Elt F) B.view prev
      (View.read (Elt F) ((xW).slice (Rect.unit (s := S516x16384) offS S8x2048.size hS) (fun _ => rfl)).view (xT m d)) Finset.univ) y = _
  rw [View.read_write_univ]
  exact block_x m d S8x2048.size hrow hcol y

/-- A full block from the transposed old queue: the same rows, the destination 16384 columns to the right. -/
theorem copy_q (d : Dev nD) {offS offD : Fin 2 → ℕ}
    {hS : ∀ a, offS a + S8x2048.size a ≤ S516x65536.size a} {hD : ∀ a, offD a + S8x2048.size a ≤ S516x65536.size a}
    (hrow : offS 0 = offD 0) (hcol : offD 1 = offS 1 + 16384)
    {B : Memref sig .scVector .vmem S8x2048 .f32} {prev : B.view.ty.Contents (Elt F)}
    {fq : Buf (Elt F) (qLoc d)} (hfq : fq = qT m d) {fo : Buf (Elt F) (oLoc d)} :
    ∀ i ∈ ((oW).slice (Rect.unit (s := S516x65536) offD S8x2048.size hD) (fun _ => rfl)).view.set,
      (((oW).slice (Rect.unit (s := S516x65536) offD S8x2048.size hD) (fun _ => rfl)).view.writes (Elt F) fo
        [⟨Rect.whole _, ReadAs.same.apply (View.read (Elt F) B.view (View.write (Elt F) B.view prev
          (ReadAs.same.apply (View.read (Elt F) ((qW).slice (Rect.unit (s := S516x65536) offS S8x2048.size hS) (fun _ => rfl)).view fq))
          Finset.univ))⟩]) i = Gt m d i := by
  subst hfq
  refine eq_on_set_of_read_eq _ _ _ fun y => ?_
  rw [read_writes_whole]
  show View.read (Elt F) B.view (View.write (Elt F) B.view prev
      (View.read (Elt F) ((qW).slice (Rect.unit (s := S516x65536) offS S8x2048.size hS) (fun _ => rfl)).view (qT m d)) Finset.univ) y = _
  rw [View.read_write_univ]
  exact block_q m d S8x2048.size hrow hcol y

/-- The last four rows from the transposed incoming rows, staged through the first four rows of a buffer: the
    buffer's four rows were written and are read back through the same rectangle. -/
theorem copy_tail_x (d : Dev nD) {offS offD : Fin 2 → ℕ}
    {hS : ∀ a, offS a + S4x2048.size a ≤ S516x16384.size a} {hD : ∀ a, offD a + S4x2048.size a ≤ S516x65536.size a}
    (hrow : offS 0 = offD 0) (hcol : offS 1 = offD 1)
    {B : Memref sig .scVector .vmem S8x2048 .f32} {prev : B.view.ty.Contents (Elt F)}
    {hB : ∀ a, (![0, 0] : Fin 2 → ℕ) a + S4x2048.size a ≤ S8x2048.size a}
    {pf : ∀ a, (Rect.unit (s := S8x2048) ![0, 0] S4x2048.size hB).stride a = 1}
    {fx : Buf (Elt F) (xLoc d)} (hfx : fx = xT m d) {fo : Buf (Elt F) (oLoc d)} :
    ∀ i ∈ ((oW).slice (Rect.unit (s := S516x65536) offD S4x2048.size hD) (fun _ => rfl)).view.set,
      (((oW).slice (Rect.unit (s := S516x65536) offD S4x2048.size hD) (fun _ => rfl)).view.writes (Elt F) fo
        [⟨Rect.whole _, ReadAs.same.apply (View.read (Elt F) (B.slice (Rect.unit (s := S8x2048) ![0, 0] S4x2048.size hB) pf).view
          (B.view.writes (Elt F) prev [⟨Rect.unit (s := S8x2048) ![0, 0] S4x2048.size hB,
            ReadAs.same.apply (View.read (Elt F) ((xW).slice (Rect.unit (s := S516x16384) offS S4x2048.size hS) (fun _ => rfl)).view fx)⟩]))⟩]) i
        = Gt m d i := by
  subst hfx
  refine eq_on_set_of_read_eq _ _ _ fun y => ?_
  rw [read_writes_whole]
  show View.read (Elt F) (B.view.slice (Rect.unit (s := S8x2048) ![0, 0] S4x2048.size hB))
      (View.write (Elt F) (B.view.slice (Rect.unit (s := S8x2048) ![0, 0] S4x2048.size hB)) prev
        (View.read (Elt F) ((xW).slice (Rect.unit (s := S516x16384) offS S4x2048.size hS) (fun _ => rfl)).view (xT m d)) Finset.univ) y = _
  rw [View.read_write_univ]
  exact block_x m d S4x2048.size hrow hcol y

/-- On the vector subcores that take the last four rows from the old queue (number 8 and up) the source column, a
    word difference, is the destination column less 16384: checked at each of the 32 grid points. -/
theorem tail_q_col : ∀ L : grid0.Coords, k0_cond2 L = 1#1 → k0_off44 L 1 = k0_off43 L 1 + 16384 := by decide +kernel

/-- The last four rows from the transposed old queue: the destination 16384 columns to the right. -/
theorem copy_tail_q (d : Dev nD) {offS offD : Fin 2 → ℕ}
    {hS : ∀ a, offS a + S4x2048.size a ≤ S516x65536.size a} {hD : ∀ a, offD a + S4x2048.size a ≤ S516x65536.size a}
    (hrow : offS 0 = offD 0) (hcol : offD 1 = offS 1 + 16384)
    {B : Memref sig .scVector .vmem S8x2048 .f32} {prev : B.view.ty.Contents (Elt F)}
    {hB : ∀ a, (![0, 0] : Fin 2 → ℕ) a + S4x2048.size a ≤ S8x2048.size a}
    {pf : ∀ a, (Rect.unit (s := S8x2048) ![0, 0] S4x2048.size hB).stride a = 1}
    {fq : Buf (Elt F) (qLoc d)} (hfq : fq = qT m d) {fo : Buf (Elt F) (oLoc d)} :
    ∀ i ∈ ((oW).slice (Rect.unit (s := S516x65536) offD S4x2048.size hD) (fun _ => rfl)).view.set,
      (((oW).slice (Rect.unit (s := S516x65536) offD S4x2048.size hD) (fun _ => rfl)).view.writes (Elt F) fo
        [⟨Rect.whole _, ReadAs.same.apply (View.read (Elt F) (B.slice (Rect.unit (s := S8x2048) ![0, 0] S4x2048.size hB) pf).view
          (B.view.writes (Elt F) prev [⟨Rect.unit (s := S8x2048) ![0, 0] S4x2048.size hB,
            ReadAs.same.apply (View.read (Elt F) ((qW).slice (Rect.unit (s := S516x65536) offS S4x2048.size hS) (fun _ => rfl)).view fq)⟩]))⟩]) i
        = Gt m d i := by
  subst hfq
  refine eq_on_set_of_read_eq _ _ _ fun y => ?_
  rw [read_writes_whole]
  show View.read (Elt F) (B.view.slice (Rect.unit (s := S8x2048) ![0, 0] S4x2048.size hB))
      (View.write (Elt F) (B.view.slice (Rect.unit (s := S8x2048) ![0, 0] S4x2048.size hB)) prev
        (View.read (Elt F) ((qW).slice (Rect.unit (s := S516x65536) offS S4x2048.size hS) (fun _ => rfl)).view (qT m d)) Finset.univ) y = _
  rw [View.read_write_univ]
  exact block_q m d S4x2048.size hrow hcol y

end Cert.KBProof

end
-- ==== Proof.KBTile.lean ====
/- (substitutions: KernelIdeal -> Kernel, KIProof -> KBProof, .Proof.KI -> .Proof.KB; the script is
   scratch/mk_second.py of this unit). The same text over the other printed program. -/
/-
  One vector subcore's run of the kernel body. The subcore copies 64 blocks of 8 x 2048 from the two transposed
  sources into its rows of the result array through seven staging buffers, three copies in ahead of the copies
  out, and then, under a guard on its number, one block of 4 x 2048 into the last four rows. Every copy is a
  transfer and its wait: a copy in lends one read token of its source and the staging buffer whole, a copy out
  lends the staging buffer and its piece of the result array, and each wait brings back what was lent. What a
  copy out leaves in its piece is the target contents there, because what the staging buffer held when the copy
  out was issued is the block of the source that the copy in before it had fetched. At the end the tokens, the
  buffers and the counters are as they were, and every wait recorded is at index `none`.
-/
import proofs.«214288_g455266533575_cont_8to1_b_1966_18_alg».proof.Proof.KBTileRes
import proofs.«214288_g455266533575_cont_8to1_b_1966_18_alg».proof.Proof.KBValue
import Idealize.ShloMosaic.Lib.Tactic

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S516x16384 EltTy.f32)
local notation "qW" => (Memref.whole Cert.Kernel.main_v1_scv : Memref Cert.Kernel.sig Kind.scVector Space.hbm Cert.Kernel.S516x65536 EltTy.f32)
local notation "oW" => (Memref.whole Cert.Kernel.main_v2_scv : Memref Cert.Kernel.sig Kind.scVector Space.hbm Cert.Kernel.S516x65536 EltTy.f32)
local notation "b0W" => (Memref.whole Cert.Kernel.cc0_scratch0 : Memref Cert.Kernel.sig Kind.scVector Space.vmem Cert.Kernel.S8x2048 EltTy.f32)
local notation "b1W" => (Memref.whole Cert.Kernel.cc0_scratch1 : Memref Cert.Kernel.sig Kind.scVector Space.vmem Cert.Kernel.S8x2048 EltTy.f32)
local notation "b2W" => (Memref.whole Cert.Kernel.cc0_scratch2 : Memref Cert.Kernel.sig Kind.scVector Space.vmem Cert.Kernel.S8x2048 EltTy.f32)
local notation "b3W" => (Memref.whole Cert.Kernel.cc0_scratch3 : Memref Cert.Kernel.sig Kind.scVector Space.vmem Cert.Kernel.S8x2048 EltTy.f32)
local notation "b4W" => (Memref.whole Cert.Kernel.cc0_scratch4 : Memref Cert.Kernel.sig Kind.scVector Space.vmem Cert.Kernel.S8x2048 EltTy.f32)
local notation "b5W" => (Memref.whole Cert.Kernel.cc0_scratch5 : Memref Cert.Kernel.sig Kind.scVector Space.vmem Cert.Kernel.S8x2048 EltTy.f32)
local notation "b6W" => (Memref.whole Cert.Kernel.cc0_scratch6 : Memref Cert.Kernel.sig Kind.scVector Space.vmem Cert.Kernel.S8x2048 EltTy.f32)

variable (m : (ℓ : Loc nD τ sig) → Buf (Elt F) ℓ)
variable [FloatOps F]

/-- Close a goal that is a chain `P₁ ∗ … ∗ Pₙ` from hypotheses stating its members, in order. -/
syntax "ichain " "[" ident,+ "]" : tactic
macro_rules
  | `(tactic| ichain [$h]) => `(tactic| iexact $h)
  | `(tactic| ichain [$h, $hs,*]) => `(tactic| (isplitl [$h]; (· iexact $h); ichain [$hs,*]))

set_option maxHeartbeats 8000000 in
/-- The run on a subcore numbered below 8: the last block comes from the transposed incoming rows. -/
theorem run_low (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L)))
    (k0_h1 : k0_cond1 L = 1#1) (k0_h2 : ¬ k0_cond2 L = 1#1) :
    tilePre m (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} m (oLoc d)) d L O W fb0 fb1 fb2 fb3 fb4 fb5 fb6
      ⊢ wp frame (wpE (defs₀ (F := F)) 𝒱₀ (thr d L) none) Set.univ
          (cc0__fifo_body L xW (Memref.isWhole_whole _) qW (Memref.isWhole_whole _) oW (Memref.isWhole_whole _)
            b0W (Memref.isWhole_whole _) b1W (Memref.isWhole_whole _) b2W (Memref.isWhole_whole _) b3W (Memref.isWhole_whole _) b4W (Memref.isWhole_whole _) b5W (Memref.isWhole_whole _) b6W (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => tilePost m (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} Gt m d) d L O W := by
  rw [cc0__fifo_body_eq_skeleton]; unfold cc0__fifo_body_skel
  delta tilePre
  delta toks17 progPieces sems18
  iintro ⟨Hmw, ⟨Hx0, Hx1, Hx2, Hx3, Hx4, Hx5, Hx6, Hx7, Hx8, Hx9, Hx10, Hx11, Hx12, Hx13, Hx14, Hx15, Hx16⟩, ⟨Hq0, Hq1, Hq2, Hq3, Hq4, Hq5, Hq6, Hq7, Hq8, Hq9, Hq10, Hq11, Hq12, Hq13, Hq14, Hq15, Hq16⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63⟩,
    Ht, Hb0, Hb1, Hb2, Hb3, Hb4, Hb5, Hb6, ⟨Hs0, Hs1, Hs2, Hs3, Hs4, Hs5, Hs6, Hs7, Hs8, Hs9, Hs10, Hs11, Hs12, Hs13, Hs14, Hs15, Hs16, Hs17⟩, HO, Haside⟩
  sl_exec
  sl_step
  delta tilePost
  delta toks17 progPieces bufs7 sems18
  sl_unfold_run_names
  isplitl [Hx0 Hx1 Hx2 Hx3 Hx4 Hx5 Hx6 Hx7 Hx8 Hx9 Hx10 Hx11 Hx12 Hx13 Hx14 Hx15 Hx16]; · ichain [Hx0, Hx1, Hx2, Hx3, Hx4, Hx5, Hx6, Hx7, Hx8, Hx9, Hx10, Hx11, Hx12, Hx13, Hx14, Hx15, Hx16]
  isplitl [Hq0 Hq1 Hq2 Hq3 Hq4 Hq5 Hq6 Hq7 Hq8 Hq9 Hq10 Hq11 Hq12 Hq13 Hq14 Hq15 Hq16]; · ichain [Hq0, Hq1, Hq2, Hq3, Hq4, Hq5, Hq6, Hq7, Hq8, Hq9, Hq10, Hq11, Hq12, Hq13, Hq14, Hq15, Hq16]
  isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hp30 Hp31 Hp32 Hp33 Hp34 Hp35 Hp36 Hp37 Hp38 Hp39 Hp40 Hp41 Hp42 Hp43 Hp44 Hp45 Hp46 Hp47 Hp48 Hp49 Hp50 Hp51 Hp52 Hp53 Hp54 Hp55 Hp56 Hp57 Hp58 Hp59 Hp60 Hp61 Hp62 Hp63]
  · isplitl [Hp0]; · iapply (Entails.of_eq (pointsTo_congr (copy_x m d (by rfl) (by rfl) rfl))) $$ Hp0
    isplitl [Hp1]; · iapply (Entails.of_eq (pointsTo_congr (copy_x m d (by rfl) (by rfl) rfl))) $$ Hp1
    isplitl [Hp2]; · iapply (Entails.of_eq (pointsTo_congr (copy_x m d (by rfl) (by rfl) rfl))) $$ Hp2
    isplitl [Hp3]; · iapply (Entails.of_eq (pointsTo_congr (copy_x m d (by rfl) (by rfl) rfl))) $$ Hp3
    isplitl [Hp4]; · iapply (Entails.of_eq (pointsTo_congr (copy_x m d (by rfl) (by rfl) rfl))) $$ Hp4
    isplitl [Hp5]; · iapply (Entails.of_eq (pointsTo_congr (copy_x m d (by rfl) (by rfl) rfl))) $$ Hp5
    isplitl [Hp6]; · iapply (Entails.of_eq (pointsTo_congr (copy_x m d (by rfl) (by rfl) rfl))) $$ Hp6
    isplitl [Hp7]; · iapply (Entails.of_eq (pointsTo_congr (copy_x m d (by rfl) (by rfl) rfl))) $$ Hp7
    isplitl [Hp8]; · iapply (Entails.of_eq (pointsTo_congr (copy_q m d (by rfl) (by rfl) rfl))) $$ Hp8
    isplitl [Hp9]; · iapply (Entails.of_eq (pointsTo_congr (copy_q m d (by rfl) (by rfl) rfl))) $$ Hp9
    isplitl [Hp10]; · iapply (Entails.of_eq (pointsTo_congr (copy_q m d (by rfl) (by rfl) rfl))) $$ Hp10
    isplitl [Hp11]; · iapply (Entails.of_eq (pointsTo_congr (copy_q m d (by rfl) (by rfl) rfl))) $$ Hp11
    isplitl [Hp12]; · iapply (Entails.of_eq (pointsTo_congr (copy_q m d (by rfl) (by rfl) rfl))) $$ Hp12
    isplitl [Hp13]; · iapply (Entails.of_eq (pointsTo_congr (copy_q m d (by rfl) (by rfl) rfl))) $$ Hp13
    isplitl [Hp14]; · iapply (Entails.of_eq (pointsTo_congr (copy_q m d (by rfl) (by rfl) rfl))) $$ Hp14
    isplitl [Hp15]; · iapply (Entails.of_eq (pointsTo_congr (copy_q m d (by rfl) (by rfl) rfl))) $$ Hp15
    isplitl [Hp16]; · iapply (Entails.of_eq (pointsTo_congr (copy_q m d (by rfl) (by rfl) rfl))) $$ Hp16
    isplitl [Hp17]; · iapply (Entails.of_eq (pointsTo_congr (copy_q m d (by rfl) (by rfl) rfl))) $$ Hp17
    isplitl [Hp18]; · iapply (Entails.of_eq (pointsTo_congr (copy_q m d (by rfl) (by rfl) rfl))) $$ Hp18
    isplitl [Hp19]; · iapply (Entails.of_eq (pointsTo_congr (copy_q m d (by rfl) (by rfl) rfl))) $$ Hp19
    isplitl [Hp20]; · iapply (Entails.of_eq (pointsTo_congr (copy_q m d (by rfl) (by rfl) rfl))) $$ Hp20
    isplitl [Hp21]; · iapply (Entails.of_eq (pointsTo_congr (copy_q m d (by rfl) (by rfl) rfl))) $$ Hp21
    isplitl [Hp22]; · iapply (Entails.of_eq (pointsTo_congr (copy_q m d (by rfl) (by rfl) rfl))) $$ Hp22
    isplitl [Hp23]; · iapply (Entails.of_eq (pointsTo_congr (copy_q m d (by rfl) (by rfl) rfl))) $$ Hp23
    isplitl [Hp24]; · iapply (Entails.of_eq (pointsTo_congr (copy_q m d (by rfl) (by rfl) rfl))) $$ Hp24
    isplitl [Hp25]; · iapply (Entails.of_eq (pointsTo_congr (copy_q m d (by rfl) (by rfl) rfl))) $$ Hp25
    isplitl [Hp26]; · iapply (Entails.of_eq (pointsTo_congr (copy_q m d (by rfl) (by rfl) rfl))) $$ Hp26
    isplitl [Hp27]; · iapply (Entails.of_eq (pointsTo_congr (copy_q m d (by rfl) (by rfl) rfl))) $$ Hp27
    isplitl [Hp28]; · iapply (Entails.of_eq (pointsTo_congr (copy_q m d (by rfl) (by rfl) rfl))) $$ Hp28
    isplitl [Hp29]; · iapply (Entails.of_eq (pointsTo_congr (copy_q m d (by rfl) (by rfl) rfl))) $$ Hp29
    isplitl [Hp30]; · iapply (Entails.of_eq (pointsTo_congr (copy_q m d (by rfl) (by rfl) rfl))) $$ Hp30
    isplitl [Hp31]; · iapply (Entails.of_eq (pointsTo_congr (copy_q m d (by rfl) (by rfl) rfl))) $$ Hp31
    isplitl [Hp32]; · iapply (Entails.of_eq (pointsTo_congr (copy_x m d (by rfl) (by rfl) rfl))) $$ Hp32
    isplitl [Hp33]; · iapply (Entails.of_eq (pointsTo_congr (copy_x m d (by rfl) (by rfl) rfl))) $$ Hp33
    isplitl [Hp34]; · iapply (Entails.of_eq (pointsTo_congr (copy_x m d (by rfl) (by rfl) rfl))) $$ Hp34
    isplitl [Hp35]; · iapply (Entails.of_eq (pointsTo_congr (copy_x m d (by rfl) (by rfl) rfl))) $$ Hp35
    isplitl [Hp36]; · iapply (Entails.of_eq (pointsTo_congr (copy_x m d (by rfl) (by rfl) rfl))) $$ Hp36
    isplitl [Hp37]; · iapply (Entails.of_eq (pointsTo_congr (copy_x m d (by rfl) (by rfl) rfl))) $$ Hp37
    isplitl [Hp38]; · iapply (Entails.of_eq (pointsTo_congr (copy_x m d (by rfl) (by rfl) rfl))) $$ Hp38
    isplitl [Hp39]; · iapply (Entails.of_eq (pointsTo_congr (copy_x m d (by rfl) (by rfl) rfl))) $$ Hp39
    isplitl [Hp40]; · iapply (Entails.of_eq (pointsTo_congr (copy_q m d (by rfl) (by rfl) rfl))) $$ Hp40
    isplitl [Hp41]; · iapply (Entails.of_eq (pointsTo_congr (copy_q m d (by rfl) (by rfl) rfl))) $$ Hp41
    isplitl [Hp42]; · iapply (Entails.of_eq (pointsTo_congr (copy_q m d (by rfl) (by rfl) rfl))) $$ Hp42
    isplitl [Hp43]; · iapply (Entails.of_eq (pointsTo_congr (copy_q m d (by rfl) (by rfl) rfl))) $$ Hp43
    isplitl [Hp44]; · iapply (Entails.of_eq (pointsTo_congr (copy_q m d (by rfl) (by rfl) rfl))) $$ Hp44
    isplitl [Hp45]; · iapply (Entails.of_eq (pointsTo_congr (copy_q m d (by rfl) (by rfl) rfl))) $$ Hp45
    isplitl [Hp46]; · iapply (Entails.of_eq (pointsTo_congr (copy_q m d (by rfl) (by rfl) rfl))) $$ Hp46
    isplitl [Hp47]; · iapply (Entails.of_eq (pointsTo_congr (copy_q m d (by rfl) (by rfl) rfl))) $$ Hp47
    isplitl [Hp48]; · iapply (Entails.of_eq (pointsTo_congr (copy_q m d (by rfl) (by rfl) rfl))) $$ Hp48
    isplitl [Hp49]; · iapply (Entails.of_eq (pointsTo_congr (copy_q m d (by rfl) (by rfl) rfl))) $$ Hp49
    isplitl [Hp50]; · iapply (Entails.of_eq (pointsTo_congr (copy_q m d (by rfl) (by rfl) rfl))) $$ Hp50
    isplitl [Hp51]; · iapply (Entails.of_eq (pointsTo_congr (copy_q m d (by rfl) (by rfl) rfl))) $$ Hp51
    isplitl [Hp52]; · iapply (Entails.of_eq (pointsTo_congr (copy_q m d (by rfl) (by rfl) rfl))) $$ Hp52
    isplitl [Hp53]; · iapply (Entails.of_eq (pointsTo_congr (copy_q m d (by rfl) (by rfl) rfl))) $$ Hp53
    isplitl [Hp54]; · iapply (Entails.of_eq (pointsTo_congr (copy_q m d (by rfl) (by rfl) rfl))) $$ Hp54
    isplitl [Hp55]; · iapply (Entails.of_eq (pointsTo_congr (copy_q m d (by rfl) (by rfl) rfl))) $$ Hp55
    isplitl [Hp56]; · iapply (Entails.of_eq (pointsTo_congr (copy_q m d (by rfl) (by rfl) rfl))) $$ Hp56
    isplitl [Hp57]; · iapply (Entails.of_eq (pointsTo_congr (copy_q m d (by rfl) (by rfl) rfl))) $$ Hp57
    isplitl [Hp58]; · iapply (Entails.of_eq (pointsTo_congr (copy_q m d (by rfl) (by rfl) rfl))) $$ Hp58
    isplitl [Hp59]; · iapply (Entails.of_eq (pointsTo_congr (copy_q m d (by rfl) (by rfl) rfl))) $$ Hp59
    isplitl [Hp60]; · iapply (Entails.of_eq (pointsTo_congr (copy_q m d (by rfl) (by rfl) rfl))) $$ Hp60
    isplitl [Hp61]; · iapply (Entails.of_eq (pointsTo_congr (copy_q m d (by rfl) (by rfl) rfl))) $$ Hp61
    isplitl [Hp62]; · iapply (Entails.of_eq (pointsTo_congr (copy_q m d (by rfl) (by rfl) rfl))) $$ Hp62
    iapply (Entails.of_eq (pointsTo_congr (copy_q m d (by rfl) (by rfl) rfl))) $$ Hp63
  isplitl [Ht]; · iapply (Entails.of_eq (pointsTo_congr (copy_tail_x m d (by rfl) (by rfl) rfl))) $$ Ht
  isplitl [Hb0 Hb1 Hb2 Hb3 Hb4 Hb5 Hb6]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    iexists _; iexact Hb6
  isplitl [Hs0 Hs1 Hs2 Hs3 Hs4 Hs5 Hs6 Hs7 Hs8 Hs9 Hs10 Hs11 Hs12 Hs13 Hs14 Hs15 Hs16 Hs17]; · ichain [Hs0, Hs1, Hs2, Hs3, Hs4, Hs5, Hs6, Hs7, Hs8, Hs9, Hs10, Hs11, Hs12, Hs13, Hs14, Hs15, Hs16, Hs17]
  isplitl [HO]
  · iexists _; isplitr
    rotate_left
    · iexact HO
    · ipureintro; repeat (first | exact fun p hp => .inl hp | refine waits_insert ?_ _)
  iexact Haside

set_option maxHeartbeats 8000000 in
/-- The run on a subcore numbered 8 or above: the last block comes from the transposed old queue. -/
theorem run_high (d : Dev nD) (L : grid0.Coords) (O : CellTallies nD τ sig (HIx 1)) (W : Waits sig (HIx 1))
    (fb0 : Buf (Elt F) ((b0W).view.loc (thr d L))) (fb1 : Buf (Elt F) ((b1W).view.loc (thr d L))) (fb2 : Buf (Elt F) ((b2W).view.loc (thr d L))) (fb3 : Buf (Elt F) ((b3W).view.loc (thr d L))) (fb4 : Buf (Elt F) ((b4W).view.loc (thr d L))) (fb5 : Buf (Elt F) ((b5W).view.loc (thr d L))) (fb6 : Buf (Elt F) ((b6W).view.loc (thr d L)))
    (k0_h1 : ¬ k0_cond1 L = 1#1) (k0_h2 : k0_cond2 L = 1#1) :
    tilePre m (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} m (oLoc d)) d L O W fb0 fb1 fb2 fb3 fb4 fb5 fb6
      ⊢ wp frame (wpE (defs₀ (F := F)) 𝒱₀ (thr d L) none) Set.univ
          (cc0__fifo_body L xW (Memref.isWhole_whole _) qW (Memref.isWhole_whole _) oW (Memref.isWhole_whole _)
            b0W (Memref.isWhole_whole _) b1W (Memref.isWhole_whole _) b2W (Memref.isWhole_whole _) b3W (Memref.isWhole_whole _) b4W (Memref.isWhole_whole _) b5W (Memref.isWhole_whole _) b6W (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => tilePost m (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} Gt m d) d L O W := by
  rw [cc0__fifo_body_eq_skeleton]; unfold cc0__fifo_body_skel
  delta tilePre
  delta toks17 progPieces sems18
  iintro ⟨Hmw, ⟨Hx0, Hx1, Hx2, Hx3, Hx4, Hx5, Hx6, Hx7, Hx8, Hx9, Hx10, Hx11, Hx12, Hx13, Hx14, Hx15, Hx16⟩, ⟨Hq0, Hq1, Hq2, Hq3, Hq4, Hq5, Hq6, Hq7, Hq8, Hq9, Hq10, Hq11, Hq12, Hq13, Hq14, Hq15, Hq16⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63⟩,
    Ht, Hb0, Hb1, Hb2, Hb3, Hb4, Hb5, Hb6, ⟨Hs0, Hs1, Hs2, Hs3, Hs4, Hs5, Hs6, Hs7, Hs8, Hs9, Hs10, Hs11, Hs12, Hs13, Hs14, Hs15, Hs16, Hs17⟩, HO, Haside⟩
  sl_exec
  sl_step
  delta tilePost
  delta toks17 progPieces bufs7 sems18
  sl_unfold_run_names
  isplitl [Hx0 Hx1 Hx2 Hx3 Hx4 Hx5 Hx6 Hx7 Hx8 Hx9 Hx10 Hx11 Hx12 Hx13 Hx14 Hx15 Hx16]; · ichain [Hx0, Hx1, Hx2, Hx3, Hx4, Hx5, Hx6, Hx7, Hx8, Hx9, Hx10, Hx11, Hx12, Hx13, Hx14, Hx15, Hx16]
  isplitl [Hq0 Hq1 Hq2 Hq3 Hq4 Hq5 Hq6 Hq7 Hq8 Hq9 Hq10 Hq11 Hq12 Hq13 Hq14 Hq15 Hq16]; · ichain [Hq0, Hq1, Hq2, Hq3, Hq4, Hq5, Hq6, Hq7, Hq8, Hq9, Hq10, Hq11, Hq12, Hq13, Hq14, Hq15, Hq16]
  isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hp30 Hp31 Hp32 Hp33 Hp34 Hp35 Hp36 Hp37 Hp38 Hp39 Hp40 Hp41 Hp42 Hp43 Hp44 Hp45 Hp46 Hp47 Hp48 Hp49 Hp50 Hp51 Hp52 Hp53 Hp54 Hp55 Hp56 Hp57 Hp58 Hp59 Hp60 Hp61 Hp62 Hp63]
  · isplitl [Hp0]; · iapply (Entails.of_eq (pointsTo_congr (copy_x m d (by rfl) (by rfl) rfl))) $$ Hp0
    isplitl [Hp1]; · iapply (Entails.of_eq (pointsTo_congr (copy_x m d (by rfl) (by rfl) rfl))) $$ Hp1
    isplitl [Hp2]; · iapply (Entails.of_eq (pointsTo_congr (copy_x m d (by rfl) (by rfl) rfl))) $$ Hp2
    isplitl [Hp3]; · iapply (Entails.of_eq (pointsTo_congr (copy_x m d (by rfl) (by rfl) rfl))) $$ Hp3
    isplitl [Hp4]; · iapply (Entails.of_eq (pointsTo_congr (copy_x m d (by rfl) (by rfl) rfl))) $$ Hp4
    isplitl [Hp5]; · iapply (Entails.of_eq (pointsTo_congr (copy_x m d (by rfl) (by rfl) rfl))) $$ Hp5
    isplitl [Hp6]; · iapply (Entails.of_eq (pointsTo_congr (copy_x m d (by rfl) (by rfl) rfl))) $$ Hp6
    isplitl [Hp7]; · iapply (Entails.of_eq (pointsTo_congr (copy_x m d (by rfl) (by rfl) rfl))) $$ Hp7
    isplitl [Hp8]; · iapply (Entails.of_eq (pointsTo_congr (copy_q m d (by rfl) (by rfl) rfl))) $$ Hp8
    isplitl [Hp9]; · iapply (Entails.of_eq (pointsTo_congr (copy_q m d (by rfl) (by rfl) rfl))) $$ Hp9
    isplitl [Hp10]; · iapply (Entails.of_eq (pointsTo_congr (copy_q m d (by rfl) (by rfl) rfl))) $$ Hp10
    isplitl [Hp11]; · iapply (Entails.of_eq (pointsTo_congr (copy_q m d (by rfl) (by rfl) rfl))) $$ Hp11
    isplitl [Hp12]; · iapply (Entails.of_eq (pointsTo_congr (copy_q m d (by rfl) (by rfl) rfl))) $$ Hp12
    isplitl [Hp13]; · iapply (Entails.of_eq (pointsTo_congr (copy_q m d (by rfl) (by rfl) rfl))) $$ Hp13
    isplitl [Hp14]; · iapply (Entails.of_eq (pointsTo_congr (copy_q m d (by rfl) (by rfl) rfl))) $$ Hp14
    isplitl [Hp15]; · iapply (Entails.of_eq (pointsTo_congr (copy_q m d (by rfl) (by rfl) rfl))) $$ Hp15
    isplitl [Hp16]; · iapply (Entails.of_eq (pointsTo_congr (copy_q m d (by rfl) (by rfl) rfl))) $$ Hp16
    isplitl [Hp17]; · iapply (Entails.of_eq (pointsTo_congr (copy_q m d (by rfl) (by rfl) rfl))) $$ Hp17
    isplitl [Hp18]; · iapply (Entails.of_eq (pointsTo_congr (copy_q m d (by rfl) (by rfl) rfl))) $$ Hp18
    isplitl [Hp19]; · iapply (Entails.of_eq (pointsTo_congr (copy_q m d (by rfl) (by rfl) rfl))) $$ Hp19
    isplitl [Hp20]; · iapply (Entails.of_eq (pointsTo_congr (copy_q m d (by rfl) (by rfl) rfl))) $$ Hp20
    isplitl [Hp21]; · iapply (Entails.of_eq (pointsTo_congr (copy_q m d (by rfl) (by rfl) rfl))) $$ Hp21
    isplitl [Hp22]; · iapply (Entails.of_eq (pointsTo_congr (copy_q m d (by rfl) (by rfl) rfl))) $$ Hp22
    isplitl [Hp23]; · iapply (Entails.of_eq (pointsTo_congr (copy_q m d (by rfl) (by rfl) rfl))) $$ Hp23
    isplitl [Hp24]; · iapply (Entails.of_eq (pointsTo_congr (copy_q m d (by rfl) (by rfl) rfl))) $$ Hp24
    isplitl [Hp25]; · iapply (Entails.of_eq (pointsTo_congr (copy_q m d (by rfl) (by rfl) rfl))) $$ Hp25
    isplitl [Hp26]; · iapply (Entails.of_eq (pointsTo_congr (copy_q m d (by rfl) (by rfl) rfl))) $$ Hp26
    isplitl [Hp27]; · iapply (Entails.of_eq (pointsTo_congr (copy_q m d (by rfl) (by rfl) rfl))) $$ Hp27
    isplitl [Hp28]; · iapply (Entails.of_eq (pointsTo_congr (copy_q m d (by rfl) (by rfl) rfl))) $$ Hp28
    isplitl [Hp29]; · iapply (Entails.of_eq (pointsTo_congr (copy_q m d (by rfl) (by rfl) rfl))) $$ Hp29
    isplitl [Hp30]; · iapply (Entails.of_eq (pointsTo_congr (copy_q m d (by rfl) (by rfl) rfl))) $$ Hp30
    isplitl [Hp31]; · iapply (Entails.of_eq (pointsTo_congr (copy_q m d (by rfl) (by rfl) rfl))) $$ Hp31
    isplitl [Hp32]; · iapply (Entails.of_eq (pointsTo_congr (copy_x m d (by rfl) (by rfl) rfl))) $$ Hp32
    isplitl [Hp33]; · iapply (Entails.of_eq (pointsTo_congr (copy_x m d (by rfl) (by rfl) rfl))) $$ Hp33
    isplitl [Hp34]; · iapply (Entails.of_eq (pointsTo_congr (copy_x m d (by rfl) (by rfl) rfl))) $$ Hp34
    isplitl [Hp35]; · iapply (Entails.of_eq (pointsTo_congr (copy_x m d (by rfl) (by rfl) rfl))) $$ Hp35
    isplitl [Hp36]; · iapply (Entails.of_eq (pointsTo_congr (copy_x m d (by rfl) (by rfl) rfl))) $$ Hp36
    isplitl [Hp37]; · iapply (Entails.of_eq (pointsTo_congr (copy_x m d (by rfl) (by rfl) rfl))) $$ Hp37
    isplitl [Hp38]; · iapply (Entails.of_eq (pointsTo_congr (copy_x m d (by rfl) (by rfl) rfl))) $$ Hp38
    isplitl [Hp39]; · iapply (Entails.of_eq (pointsTo_congr (copy_x m d (by rfl) (by rfl) rfl))) $$ Hp39
    isplitl [Hp40]; · iapply (Entails.of_eq (pointsTo_congr (copy_q m d (by rfl) (by rfl) rfl))) $$ Hp40
    isplitl [Hp41]; · iapply (Entails.of_eq (pointsTo_congr (copy_q m d (by rfl) (by rfl) rfl))) $$ Hp41
    isplitl [Hp42]; · iapply (Entails.of_eq (pointsTo_congr (copy_q m d (by rfl) (by rfl) rfl))) $$ Hp42
    isplitl [Hp43]; · iapply (Entails.of_eq (pointsTo_congr (copy_q m d (by rfl) (by rfl) rfl))) $$ Hp43
    isplitl [Hp44]; · iapply (Entails.of_eq (pointsTo_congr (copy_q m d (by rfl) (by rfl) rfl))) $$ Hp44
    isplitl [Hp45]; · iapply (Entails.of_eq (pointsTo_congr (copy_q m d (by rfl) (by rfl) rfl))) $$ Hp45
    isplitl [Hp46]; · iapply (Entails.of_eq (pointsTo_congr (copy_q m d (by rfl) (by rfl) rfl))) $$ Hp46
    isplitl [Hp47]; · iapply (Entails.of_eq (pointsTo_congr (copy_q m d (by rfl) (by rfl) rfl))) $$ Hp47
    isplitl [Hp48]; · iapply (Entails.of_eq (pointsTo_congr (copy_q m d (by rfl) (by rfl) rfl))) $$ Hp48
    isplitl [Hp49]; · iapply (Entails.of_eq (pointsTo_congr (copy_q m d (by rfl) (by rfl) rfl))) $$ Hp49
    isplitl [Hp50]; · iapply (Entails.of_eq (pointsTo_congr (copy_q m d (by rfl) (by rfl) rfl))) $$ Hp50
    isplitl [Hp51]; · iapply (Entails.of_eq (pointsTo_congr (copy_q m d (by rfl) (by rfl) rfl))) $$ Hp51
    isplitl [Hp52]; · iapply (Entails.of_eq (pointsTo_congr (copy_q m d (by rfl) (by rfl) rfl))) $$ Hp52
    isplitl [Hp53]; · iapply (Entails.of_eq (pointsTo_congr (copy_q m d (by rfl) (by rfl) rfl))) $$ Hp53
    isplitl [Hp54]; · iapply (Entails.of_eq (pointsTo_congr (copy_q m d (by rfl) (by rfl) rfl))) $$ Hp54
    isplitl [Hp55]; · iapply (Entails.of_eq (pointsTo_congr (copy_q m d (by rfl) (by rfl) rfl))) $$ Hp55
    isplitl [Hp56]; · iapply (Entails.of_eq (pointsTo_congr (copy_q m d (by rfl) (by rfl) rfl))) $$ Hp56
    isplitl [Hp57]; · iapply (Entails.of_eq (pointsTo_congr (copy_q m d (by rfl) (by rfl) rfl))) $$ Hp57
    isplitl [Hp58]; · iapply (Entails.of_eq (pointsTo_congr (copy_q m d (by rfl) (by rfl) rfl))) $$ Hp58
    isplitl [Hp59]; · iapply (Entails.of_eq (pointsTo_congr (copy_q m d (by rfl) (by rfl) rfl))) $$ Hp59
    isplitl [Hp60]; · iapply (Entails.of_eq (pointsTo_congr (copy_q m d (by rfl) (by rfl) rfl))) $$ Hp60
    isplitl [Hp61]; · iapply (Entails.of_eq (pointsTo_congr (copy_q m d (by rfl) (by rfl) rfl))) $$ Hp61
    isplitl [Hp62]; · iapply (Entails.of_eq (pointsTo_congr (copy_q m d (by rfl) (by rfl) rfl))) $$ Hp62
    iapply (Entails.of_eq (pointsTo_congr (copy_q m d (by rfl) (by rfl) rfl))) $$ Hp63
  isplitl [Ht]; · iapply (Entails.of_eq (pointsTo_congr (copy_tail_q m d (by rfl) (tail_q_col L k0_h2) rfl))) $$ Ht
  isplitl [Hb0 Hb1 Hb2 Hb3 Hb4 Hb5 Hb6]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    iexists _; iexact Hb6
  isplitl [Hs0 Hs1 Hs2 Hs3 Hs4 Hs5 Hs6 Hs7 Hs8 Hs9 Hs10 Hs11 Hs12 Hs13 Hs14 Hs15 Hs16 Hs17]; · ichain [Hs0, Hs1, Hs2, Hs3, Hs4, Hs5, Hs6, Hs7, Hs8, Hs9, Hs10, Hs11, Hs12, Hs13, Hs14, Hs15, Hs16, Hs17]
  isplitl [HO]
  · iexists _; isplitr
    rotate_left
    · iexact HO
    · ipureintro; repeat (first | exact fun p hp => .inl hp | refine waits_insert ?_ _)
  iexact Haside

/-- The body obligation: one vector subcore's run of the kernel body, from what the launch hands it to what it
    hands back. -/
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goRes m d (wid L) ∗ scopedBufs (thr d L) ∗ scopedSems0 (thr d L) ∗ owes (thr d L) O W)
      ⊢ wp frame (wpE (defs₀ (F := F)) 𝒱₀ (thr d L) none) Set.univ
          (cc0__fifo_body L (Memref.whole main_v0_scv) (Memref.isWhole_whole _) (Memref.whole main_v1_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
            cc0_scoped0 cc0_scoped1 cc0_scoped2 cc0_scoped3)
          fun _ => iprop(tdRes m d (wid L) ∗ scopedBufs (thr d L) ∗ scopedSems0 (thr d L) ∗ ∃ W', ⌜∀ p ∈ W', p ∈ W ∨ p.2 = none⌝ ∗ owes (thr d L) O W') := by
  rcases cond_cases L with ⟨k0_h1, k0_h2, -⟩ | ⟨k0_h1, k0_h2, -⟩
  · refine (tile_pre m hF d L O W hO (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} m (oLoc d))
      (Entails.of_eq (pts_memref_eq d (cV L) (jV L) (progTail1_eq L).symm HEq.rfl))).trans ?_
    refine exists_elim fun fb0 => exists_elim fun fb1 => exists_elim fun fb2 => exists_elim fun fb3 =>
      exists_elim fun fb4 => exists_elim fun fb5 => exists_elim fun fb6 => ?_
    exact (run_low m d L O W fb0 fb1 fb2 fb3 fb4 fb5 fb6 k0_h1 k0_h2).trans
      (wp_mono frame _ _ fun _ => tile_post m hF d L O W (((oW).slice (Rect.unit (s := S516x65536) (k0_off42 L) S4x2048.size (off42_inb L)) (fun _ => rfl)).view.loc (thr d L) ↦[((oW).slice (Rect.unit (s := S516x65536) (k0_off42 L) S4x2048.size (off42_inb L)) (fun _ => rfl)).view.set]{fullShare} Gt m d)
        (Entails.of_eq (pts_memref_eq d (cV L) (jV L) (progTail1_eq L) HEq.rfl)))
  · refine (tile_pre m hF d L O W hO (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} m (oLoc d))
      (Entails.of_eq (pts_memref_eq d (cV L) (jV L) (progTail2_eq L).symm HEq.rfl))).trans ?_
    refine exists_elim fun fb0 => exists_elim fun fb1 => exists_elim fun fb2 => exists_elim fun fb3 =>
      exists_elim fun fb4 => exists_elim fun fb5 => exists_elim fun fb6 => ?_
    exact (run_high m d L O W fb0 fb1 fb2 fb3 fb4 fb5 fb6 k0_h1 k0_h2).trans
      (wp_mono frame _ _ fun _ => tile_post m hF d L O W (((oW).slice (Rect.unit (s := S516x65536) (k0_off44 L) S4x2048.size (off44_inb L)) (fun _ => rfl)).view.loc (thr d L) ↦[((oW).slice (Rect.unit (s := S516x65536) (k0_off44 L) S4x2048.size (off44_inb L)) (fun _ => rfl)).view.set]{fullShare} Gt m d)
        (Entails.of_eq (pts_memref_eq d (cV L) (jV L) (progTail2_eq L) HEq.rfl)))

end Cert.KBProof

end
-- ==== Proof.KBLaunch.lean ====
/- (substitutions: KernelIdeal -> Kernel, KIProof -> KBProof, .Proof.KI -> .Proof.KB; the script is
   scratch/mk_second.py of this unit). The same text over the other printed program. -/
/-
  The kernel's side, the launch. The program's TensorCore transposes the two arguments, hands each of the 32
  vector subcores a read share of both transposed arrays and its own part of the result array, takes them
  back with the result array's parts filled, and transposes the result. What a SparseCore's sequencer is
  handed is exactly what its sixteen vector subcores are handed, so the split between them is the identity.
-/
import proofs.«214288_g455266533575_cont_8to1_b_1966_18_alg».proof.Proof.KBSetup
import proofs.«214288_g455266533575_cont_8to1_b_1966_18_alg».proof.Proof.KBPartition
import proofs.«214288_g455266533575_cont_8to1_b_1966_18_alg».proof.Proof.KBTile
import Idealize.ShloMosaic.Lib.Transfers

noncomputable section

namespace Cert.KBProof

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## What the handshakes carry -/

/-- The one call's payloads: a SparseCore's sequencer is handed, and hands back, what its sixteen vector subcores
    are: vector subcore `i` of SparseCore `c` is number `2 i + c`. Nothing of the launch's is consumed. -/
def P : (K (F := F)).Pay (nD := nD) (Val := Elt F) (Name := ℕ) (U := UU) where
  st := fun q d c => bigSep Finset.univ fun i : Fin ((K (F := F)).nSub q) => goRes m d (2 * i.val + c.val)
  dn := fun q d c => bigSep Finset.univ fun i : Fin ((K (F := F)).nSub q) => tdRes m d (2 * i.val + c.val)
  go := fun _ d c i => goRes m d (2 * i.val + c.val)
  td := fun _ d c i => tdRes m d (2 * i.val + c.val)
  x := fun _ _ => iprop(emp)

omit [FloatOps F] in
/-- Ownership of part of an array may be kept in an invariant, whatever the term naming the part. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

omit [FloatOps F] in
instance outRes_storable (d : Dev nD) (w : ℕ) (f : Buf (Elt F) (oLoc d)) : BI.Storable (upEmb : UEmb _ 𝕄) (outRes d w f) := by
  unfold outRes
  have h1 : ∀ p, BI.Storable (upEmb : UEmb _ 𝕄) (oLoc d ↦[(pieceM w p).view.set]{fullShare} f : sProp 𝕄) := fun p => pts_storable _ _ _ _
  have h2 : BI.Storable (upEmb : UEmb _ 𝕄) (oLoc d ↦[(tailM w).view.set]{fullShare} f : sProp 𝕄) := pts_storable _ _ _ _
  infer_instance
instance goRes_storable (d : Dev nD) (w : ℕ) : BI.Storable (upEmb : UEmb _ 𝕄) (goRes m d w) := by
  unfold goRes; infer_instance
instance tdRes_storable (d : Dev nD) (w : ℕ) : BI.Storable (upEmb : UEmb _ 𝕄) (tdRes m d w) := by
  unfold tdRes; infer_instance

instance P_storable : (P (F := F) m).IsStorable where
  st _ d c := by unfold P; infer_instance
  dn _ d c := by unfold P; infer_instance
  go _ d c i := by unfold P; infer_instance
  td _ d c i := by unfold P; infer_instance

/-! ## The launch theorem's obligations -/

theorem defs₀_vector (c : Fin τ.nSC) (s : Fin τ.nSub) :
    defs₀ (F := F) (.scVector c s) 0 ()
      = SparseCore.onTile hcore0 hsub0 (fun c s => cc0__fifo_body (coordsV c s)
          (Memref.whole main_v0_scv) (Memref.isWhole_whole _) (Memref.whole main_v1_scv) (Memref.isWhole_whole _) (Memref.whole main_v2_scv) (Memref.isWhole_whole _)
              (Memref.whole cc0_scratch0) (Memref.isWhole_whole _) (Memref.whole cc0_scratch1) (Memref.isWhole_whole _) (Memref.whole cc0_scratch2) (Memref.isWhole_whole _) (Memref.whole cc0_scratch3) (Memref.isWhole_whole _)
              (Memref.whole cc0_scratch4) (Memref.isWhole_whole _) (Memref.whole cc0_scratch5) (Memref.isWhole_whole _) (Memref.whole cc0_scratch6) (Memref.isWhole_whole _)
              cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20
              cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Vector subcore `i` of SparseCore `c` runs the kernel's body at its grid point, where its number is `2 i + c`. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

/-- What a sequencer is handed is its vector subcores' shares, and what they hand back is what it hands back. -/
theorem vecSplit : (K (F := F)).VecSplit' (P m) 0 := by
  intro d c
  show (bigSep Finset.univ fun i : Fin ((K (F := F)).nSub 0) => goRes m d (2 * i.val + c.val)) ⊢ |={Set.univ}=> iprop(
      (bigSep Finset.univ fun i : Fin ((K (F := F)).nSub 0) => goRes m d (2 * i.val + c.val))
      ∗ ((bigSep Finset.univ fun i : Fin ((K (F := F)).nSub 0) => tdRes m d (2 * i.val + c.val))
          -∗ bigSep Finset.univ fun i : Fin ((K (F := F)).nSub 0) => tdRes m d (2 * i.val + c.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev q' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three host operations: the two arguments' transposes, the result's. -/
abbrev opX : HloOp τ sig (Elt F) :=
  StableHlo.unary main_arg0 main_v0 ((transpose S516x16384 [1, 0] · Facts₀.transposes_S16384x516_S516x16384_1_0) : (⟨S16384x516, .f32⟩ : BufTy).Contents (Elt F) → (⟨S516x16384, .f32⟩ : BufTy).Contents (Elt F))
abbrev opQ : HloOp τ sig (Elt F) :=
  StableHlo.unary main_arg1 main_v1 ((transpose S516x65536 [1, 0] · Facts₀.transposes_S65536x516_S516x65536_1_0) : (⟨S65536x516, .f32⟩ : BufTy).Contents (Elt F) → (⟨S516x65536, .f32⟩ : BufTy).Contents (Elt F))
abbrev opR : HloOp τ sig (Elt F) :=
  StableHlo.unary main_v2 main_v3 ((transpose S65536x516 [1, 0] · Facts₀.transposes_S516x65536_S65536x516_1_0) : (⟨S516x65536, .f32⟩ : BufTy).Contents (Elt F) → (⟨S65536x516, .f32⟩ : BufTy).Contents (Elt F))

/-- The TensorCore's arrays, all unscoped. -/
abbrev S6 : Finset (DevRef τ sig) := {a', b', x', q', o', r'}

omit [FloatOps F] in
theorem held_S6 (d : Dev nD) (W : Valuation τ sig (Elt F)) :
    (held (T d) S6 W : sProp 𝕄) = iprop((aLoc d ↦{fullShare} W a') ∗ (bLoc d ↦{fullShare} W b') ∗ (xLoc d ↦{fullShare} W x')
      ∗ (qLoc d ↦{fullShare} W q') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (qLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the two transposes; with the result array as the vector subcores left it. -/
def V0 (d : Dev nD) : Valuation τ sig (Elt F) := fun b => m (d, b)
abbrev V1 (d : Dev nD) : Valuation τ sig (Elt F) := (opQ (F := F)).result ((opX (F := F)).result (V0 m d))
def V2 (d : Dev nD) : Valuation τ sig (Elt F) := Function.update (V1 m d) o' (Gt m d)

theorem unscoped_held (d : Dev nD) : (unscopedBufs d (fun b => m ((SparseCore.T d).loc b)) : sProp 𝕄) = held (T d) S6 (V0 m d) := by
  rw [unscopedBufs_eq, held_S6]; rfl

theorem V1_a (d : Dev nD) : V1 m d a' = m (aLoc d) := by
  unfold V1; rw [StableHlo.unary_result_ne (h := show main_arg0 ≠ main_v1 by decide), StableHlo.unary_result_ne (h := show main_arg0 ≠ main_v0 by decide)]; rfl
theorem V1_b (d : Dev nD) : V1 m d b' = m (bLoc d) := by
  unfold V1; rw [StableHlo.unary_result_ne (h := show main_arg1 ≠ main_v1 by decide), StableHlo.unary_result_ne (h := show main_arg1 ≠ main_v0 by decide)]; rfl
theorem V1_x (d : Dev nD) : V1 m d x' = xT m d := by
  unfold V1; rw [StableHlo.unary_result_ne (h := show main_v0 ≠ main_v1 by decide), StableHlo.unary_result]; rfl
theorem V1_q (d : Dev nD) : V1 m d q' = qT m d := by
  unfold V1; rw [StableHlo.unary_result, StableHlo.unary_result_ne (h := show main_arg1 ≠ main_v0 by decide)]; rfl
theorem V1_o (d : Dev nD) : V1 m d o' = m (oLoc d) := by
  unfold V1; rw [StableHlo.unary_result_ne (h := show main_v2 ≠ main_v1 by decide), StableHlo.unary_result_ne (h := show main_v2 ≠ main_v0 by decide)]; rfl
theorem V1_r (d : Dev nD) : V1 m d r' = m (rLoc d) := by
  unfold V1; rw [StableHlo.unary_result_ne (h := show main_v3 ≠ main_v1 by decide), StableHlo.unary_result_ne (h := show main_v3 ≠ main_v0 by decide)]; rfl

theorem V2_a (d : Dev nD) : V2 m d a' = m (aLoc d) := (Function.update_of_ne (show a' ≠ o' by decide) _ _).trans (V1_a m d)
theorem V2_b (d : Dev nD) : V2 m d b' = m (bLoc d) := (Function.update_of_ne (show b' ≠ o' by decide) _ _).trans (V1_b m d)
theorem V2_x (d : Dev nD) : V2 m d x' = xT m d := (Function.update_of_ne (show x' ≠ o' by decide) _ _).trans (V1_x m d)
theorem V2_q (d : Dev nD) : V2 m d q' = qT m d := (Function.update_of_ne (show q' ≠ o' by decide) _ _).trans (V1_q m d)
theorem V2_o (d : Dev nD) : V2 m d o' = Gt m d := Function.update_self _ _ _
theorem V2_r (d : Dev nD) : V2 m d r' = m (rLoc d) := (Function.update_of_ne (show r' ≠ o' by decide) _ _).trans (V1_r m d)

/-- After the two transposes: the arguments as they were, their transposes, the other two arrays as launched. -/
theorem held_V1 (d : Dev nD) :
    (held (T d) S6 (V1 m d) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} m (oLoc d)) ∗ rLoc d ↦{fullShare} m (rLoc d)) := by
  rw [held_S6, V1_a, V1_b, V1_x, V1_q, V1_o, V1_r]

/-- After the call: the result array at what the vector subcores left. -/
theorem held_V2 (d : Dev nD) :
    (held (T d) S6 (V2 m d) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} Gt m d) ∗ rLoc d ↦{fullShare} m (rLoc d)) := by
  rw [held_S6, V2_a, V2_b, V2_x, V2_q, V2_o, V2_r]

/-- After the last transpose: the arguments as they were, the program's result at the transposed result array. -/
theorem held_V3 (d : Dev nD) :
    (held (T d) S6 ((opR (F := F)).result (V2 m d)) : sProp 𝕄) = iprop((aLoc d ↦{fullShare} m (aLoc d)) ∗ (bLoc d ↦{fullShare} m (bLoc d)) ∗ (xLoc d ↦{fullShare} xT m d)
      ∗ (qLoc d ↦{fullShare} qT m d) ∗ (oLoc d ↦{fullShare} Gt m d) ∗ rLoc d ↦{fullShare} rT m d) := by
  rw [held_S6, StableHlo.unary_result_ne (h := show main_arg0 ≠ main_v3 by decide), StableHlo.unary_result_ne (h := show main_arg1 ≠ main_v3 by decide),
    StableHlo.unary_result_ne (h := show main_v0 ≠ main_v3 by decide), StableHlo.unary_result_ne (h := show main_v1 ≠ main_v3 by decide),
    StableHlo.unary_result_ne (h := show main_v2 ≠ main_v3 by decide), StableHlo.unary_result, V2_a, V2_b, V2_x, V2_q, V2_o]
  rfl

theorem hX : (opX (F := F)).bufs ⊆ S6 := show ({a', x'} : Finset (DevRef τ sig)) ⊆ S6 by decide
theorem hQ : (opQ (F := F)).bufs ⊆ S6 := show ({b', q'} : Finset (DevRef τ sig)) ⊆ S6 by decide
theorem hR : (opR (F := F)).bufs ⊆ S6 := show ({o', r'} : Finset (DevRef τ sig)) ⊆ S6 by decide

/-- What the call takes for the two SparseCores: the 32 read shares of each transposed argument and the 32 parts of
    the result array; and what it hands back: the same with the parts filled. -/
theorem st0_eq (d : Dev nD) : (bigSep Finset.univ fun c : Fin ((K (F := F)).nCore 0) => (P m).st 0 d c)
    = iprop((bigSep (Finset.range 32) fun w => xLoc d ↦{tq w} xT m d) ∗ (bigSep (Finset.range 32) fun w => qLoc d ↦{tq w} qT m d)
        ∗ bigSep (Finset.range 32) fun w => outRes d w (m (oLoc d))) := by
  rw [← bigSep_sep', ← bigSep_sep', tiles_reindex]
  rfl
theorem dn0_eq (d : Dev nD) : (bigSep Finset.univ fun c : Fin ((K (F := F)).nCore 0) => (P m).dn 0 d c)
    = iprop((bigSep (Finset.range 32) fun w => xLoc d ↦{tq w} xT m d) ∗ (bigSep (Finset.range 32) fun w => qLoc d ↦{tq w} qT m d)
        ∗ bigSep (Finset.range 32) fun w => outRes d w (Gt m d)) := by
  rw [← bigSep_sep', ← bigSep_sep', tiles_reindex]
  rfl

/-- What @main leaves the claim: the arguments at their launch contents, the result at the transposed result array. -/
abbrev FIN (d : Dev nD) : sProp 𝕄 := iprop((aLoc d ↦{fullShare} m (aLoc d)) ∗ (bLoc d ↦{fullShare} m (bLoc d)) ∗ rLoc d ↦{fullShare} rT m d)

/-- @main on device `d`'s TensorCore: the two transposes; the transposed arguments split into a remainder and 32 read
    shares, the result array into its 32 parts; the call; the shares and the parts joined again; the last transpose. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two transposes
  iapply (wp_hlo_within 𝒱 (SparseCore.T d) none Set.univ (op := opX) (S := S6) hX (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opQ) (S := S6) hQ (V := (opX (F := F)).result (V0 m d))) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ha, Hbb, Hx, Hq, Ho, Hr⟩
  -- the shares and the parts
  ihave Hx' := (src_split (xT m d)).mp $$ Hx
  icases Hx' with ⟨Hxr, Hxs⟩
  ihave Hq' := (src_split (qT m d)).mp $$ Hq
  icases Hq' with ⟨Hqr, Hqs⟩
  ihave Hos := (Entails.of_eq (out_split d (m (oLoc d)))) $$ Ho
  -- the call
  iapply ((K (F := F)).wp_run (D (F := F)) 𝒱 (EH := EH) (P := P m) κ d 0) $$ [Hst Hxs Hqs Hos Ha Hbb Hxr Hqr Hr Hb]
  isplitr; · iexact Hctx
  isplitl [Hst]; · iexact Hst
  isplitl [Hxs Hqs Hos]
  · rw [st0_eq]
    isplitl [Hxs]; · iexact Hxs
    isplitl [Hqs]; · iexact Hqs
    iexact Hos
  iintro ⟨Hst, Hdn⟩
  ihave Hdn' := (Entails.of_eq (dn0_eq m d)) $$ Hdn
  icases Hdn' with ⟨Hxs, Hqs, Hos⟩
  ihave Hx := (src_split (xT m d)).mpr $$ [Hxr Hxs]
  · isplitl [Hxr]; · iexact Hxr
    iexact Hxs
  ihave Hq := (src_split (qT m d)).mpr $$ [Hqr Hqs]
  · isplitl [Hqr]; · iexact Hqr
    iexact Hqs
  ihave Ho := (Entails.of_eq (out_split d (Gt m d)).symm) $$ Hos
  -- the last transpose
  iapply (wp_hlo_within 𝒱 (SparseCore.T d) none Set.univ (op := opR) (S := S6) hR (V := V2 m d)) $$ [Hb Ha Hbb Hx Hq Ho Hr]
  · isplitl [Hb]; · iexact Hb
    rw [held_V2]
    isplitl [Ha]; · iexact Ha
    isplitl [Hbb]; · iexact Hbb
    isplitl [Hx]; · iexact Hx
    isplitl [Hq]; · iexact Hq
    isplitl [Ho]; · iexact Ho
    iexact Hr
  iintro ⟨Hb, Hheld⟩
  ihave Hh := (Entails.of_eq (held_V3 (F := F) m d)) $$ Hheld
  icases Hh with ⟨Ha, Hbb, -, -, -, Hr⟩
  rw [wp_ret]; imodintro; imodintro
  isplitl [Hst]; · iexact Hst
  isplitl [Ha]; · iexact Ha
  isplitl [Hbb]; · iexact Hbb
  iexact Hr

def fq (d : Dev nD) (s' : Phys nD τ sig (Elt F)) : Prop :=
  s'.mem.mem (rLoc d) = rT m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hbb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hbb]
  · isplitl [HSI] <;> iassumption
  icases H with ⟨%h2, HSI, -⟩
  ihave H := (SI_pointsTo_agree (st := s') (ℓ := rLoc d) (I := Finset.univ) (q := fullShare) (f := rT m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the program's threads terminates, with the program's result at the transposed
    result array and the arguments unchanged. -/
theorem run_main [∀ e, Nonempty (Elt F e)] (ρ : Dev nD → PrngReg) :
    θ_run (Cert.Kernel.defs (F := F)) (Cert.Kernel.threads (F := F)) ⟨m, fun _ => 0, ρ⟩
      (fun r => ∀ c : Dev nD, r.2.mem (rLoc c) = rT m c ∧ r.2.mem (aLoc c) = m (aLoc c) ∧ r.2.mem (bLoc c) = m (bLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = rT m c ∧ r.2.mem (aLoc c) = m (aLoc c) ∧ r.2.mem (bLoc c) = m (bLoc c)) (fun _ h => h)

end Cert.KBProof

end
-- ==== Proof.lean ====
/- The proof of `Cert.Claim`: the kernel moves blocks of the two transposed arguments into the transposed result,
   so the program's result is the incoming rows above the old queue's first 49152 rows, whatever the inputs; under
   the precondition every incoming row is valid, the reference's stable sort by validity is the identity, and the
   reference computes the same array. The two kernel programs' runs (one text, over either printed program, generic
   in the float instance) give their frames and, at the ideal instance, the result; the reference's run gives its
   frame and its result; the idealization rewrote nothing. -/
import proofs.«214288_g455266533575_cont_8to1_b_1966_18_alg».proof.Defs
import proofs.«214288_g455266533575_cont_8to1_b_1966_18_alg».proof.Proof.Spec
import proofs.«214288_g455266533575_cont_8to1_b_1966_18_alg».proof.Proof.RefValue
import proofs.«214288_g455266533575_cont_8to1_b_1966_18_alg».proof.Proof.KIValue
import proofs.«214288_g455266533575_cont_8to1_b_1966_18_alg».proof.Proof.KILaunch
import proofs.«214288_g455266533575_cont_8to1_b_1966_18_alg».proof.Proof.KBLaunch
import proofs.«214288_g455266533575_cont_8to1_b_1966_18_alg».proof.Proof.Gen.Kernel
import proofs.«214288_g455266533575_cont_8to1_b_1966_18_alg».proof.Proof.Gen.Kernel.Skeleton
import proofs.«214288_g455266533575_cont_8to1_b_1966_18_alg».proof.Proof.Gen.KernelIdeal
import proofs.«214288_g455266533575_cont_8to1_b_1966_18_alg».proof.Proof.Gen.KernelIdeal.Skeleton
import proofs.«214288_g455266533575_cont_8to1_b_1966_18_alg».proof.Proof.Gen.ReferenceIdeal
import proofs.«214288_g455266533575_cont_8to1_b_1966_18_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments unchanged: its run with the result dropped. -/
theorem frame_Kernel : Cert.frame_Kernel := fun m ρ _ =>
  (θ_run (Cert.Kernel.defs (F := Bits)) _ _).mono (fun _ h c => (h c).2) (Cert.KBProof.run_main (F := Bits) m ρ)

/-- The same of the idealized kernel program. -/
theorem frame_KernelIdeal : Cert.frame_KernelIdeal := fun m ρ _ =>
  (θ_run (Cert.KernelIdeal.defs (F := Ideal)) _ _).mono (fun _ h c => (h c).2) (Cert.KIProof.run_main (F := Ideal) m ρ)

/-- The reference runs and leaves its arguments unchanged. -/
theorem frame_ReferenceIdeal : Cert.frame_ReferenceIdeal := fun m ρ hpre =>
  (θ_run (Cert.ReferenceIdeal.defs (F := Ideal)) _ _).mono (fun _ h c => (h c).2) (Cert.RefValue.run_G m ρ hpre)

/-- Both programs end at the specification's array of their (agreeing) arguments. -/
theorem algebraic : Cert.algebraic_KernelIdeal_ReferenceIdeal := by
  intro m ρ m' ρ' hpre hagree
  refine ⟨fun c => Cert.Spec.G (m (Cert.KIProof.aLoc c)) (m (Cert.KIProof.bLoc c)), ?_, ?_⟩
  · exact (θ_run (Cert.KernelIdeal.defs (F := Ideal)) _ _).mono
      (fun _ h c => ⟨(h c).1.trans (Cert.KIProof.rT_eq m c), (h c).2⟩) (Cert.KIProof.run_main (F := Ideal) m ρ)
  · have hpre' : Cert.Pre_ReferenceIdeal m' := fun c => by
      have := hpre c
      rw [← (hagree c).1, ← (hagree c).2] at this
      exact this
    refine (θ_run (Cert.ReferenceIdeal.defs (F := Ideal)) _ _).mono (fun _ h c => ⟨?_, (h c).2⟩) (Cert.RefValue.run_G m' ρ' hpre')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
